-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096 : Shape := ⟨2, ![4, 4096]⟩
abbrev S32000x2048 : Shape := ⟨2, ![32000, 2048]⟩
abbrev S2048x1024 : Shape := ⟨2, ![2048, 1024]⟩
abbrev S_ : Shape := ⟨0, ![]⟩

class Facts : Prop where
  bcast_S_S32000x2048 : S_.BroadcastsInDim S32000x2048 (![] : Fin 0 → Fin S32000x2048.rank)
  reducesTo_S32000x2048_S_d0_1 : S32000x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S4x4096 32) (main_arg1 : FVec F S32000x2048 .f32) (main_arg2 : FVec F S2048x1024 .f32) : IVec S_ 1 :=
  let main_v0 : FVec F S32000x2048 .f32 := Host.absf main_arg1
  let main_cst : FVec F S_ .f32 := constant S_ .f32 0x7F800000#32
  let main_v1 : FVec F S32000x2048 .f32 := broadcastInDim S32000x2048 ![] bcast_S_S32000x2048 main_cst
  let main_v2 : IVec S32000x2048 1 := cmpf .olt main_v0 main_v1
  let main_c : IVec S_ 1 := constantI S_ 1 1#1
  let main_v3 : IVec S_ 1 := (fun x v => Host.reduce IntOp.andi x v reducesTo_S32000x2048_S_d0_1 h_S_) main_v2 main_c
  let main_v4 : FVec F S2048x1024 .f32 := Host.absf main_arg2
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_c_2 : IVec S_ 32 := constantI S_ 32 0#32
  let main_v9 : IVec S4x4096 32 := broadcastInDim S4x4096 ![] bcast_S_S4x4096 main_c_2
  let main_v10 : IVec S4x4096 1 := cmpi .sge main_arg0 main_v9
  let main_c_3 : IVec S_ 1 := constantI S_ 1 1#1
  let main_v11 : IVec S_ 1 := (fun x v => Host.reduce IntOp.andi x v reducesTo_S4x4096_S_d0_1 h_S_) main_v10 main_c_3
  let main_v12 : IVec S_ 1 := andi main_v8 main_v11
  let main_c_4 : IVec S_ 32 := constantI S_ 32 32000#32
  let main_v13 : IVec S4x4096 32 := broadcastInDim S4x4096 ![] bcast_S_S4x4096 main_c_4
  let main_v14 : IVec S4x4096 1 := cmpi .slt main_arg0 main_v13
  let main_c_5 : IVec S_ 1 := constantI S_ 1 1#1
  let main_v15 : IVec S_ 1 := (fun x v => Host.reduce IntOp.andi x v reducesTo_S4x4096_S_d0_1 h_S_) main_v14 main_c_5
  fn_part1 (F := F) main_v12 main_v15
-- ==== Kernel.lean ====
abbrev S4x4096 : Shape := ⟨2, ![4, 4096]⟩
abbrev S32000x2048 : Shape := ⟨2, ![32000, 2048]⟩
abbrev S2048x1024 : Shape := ⟨2, ![2048, 1024]⟩
abbrev S16384 : Shape := ⟨1, ![16384]⟩
abbrev S16384x1 : Shape := ⟨2, ![16384, 1]⟩
abbrev S16384x1024 : Shape := ⟨2, ![16384, 1024]⟩
abbrev S256x1 : Shape := ⟨2, ![256, 1]⟩
abbrev S256x1024 : Shape := ⟨2, ![256, 1024]⟩
abbrev S256x2048 : Shape := ⟨2, ![256, 2048]⟩
abbrev S256 : Shape := ⟨1, ![256]⟩
abbrev S1 : Shape := ⟨1, ![1]⟩
abbrev S_ : Shape := ⟨0, ![]⟩
abbrev S1x2048 : Shape := ⟨2, ![1, 2048]⟩
abbrev S2048 : Shape := ⟨1, ![2048]⟩
abbrev S4x4096x1024 : Shape := ⟨3, ![4, 4096, 1024]⟩

abbrev nBuf : Space → Nat
  | .hbm => 6
  | .vmem => 6
  | .smem => 1
  | _ => 0

abbrev bufTy : (tb : Table) → Fin (tcTables nBuf tb) → BufTy
  | .hbm, ⟨0, _⟩ => ⟨S4x4096, .i32⟩
  | .hbm, ⟨1, _⟩ => ⟨S32000x2048, .f32⟩
  | .hbm, ⟨2, _⟩ => ⟨S2048x1024, .f32⟩
  | .hbm, ⟨3, _⟩ => ⟨S16384x1, .i32⟩
  | .hbm, ⟨4, _⟩ => ⟨S16384x1024, .f32⟩
  | .hbm, ⟨5, _⟩ => ⟨S4x4096x1024, .f32⟩
  | .local _ .vmem, ⟨0, _⟩ => ⟨S2048x1024, .f32⟩
  | .local _ .vmem, ⟨1, _⟩ => ⟨S256x1, .i32⟩
  | .local _ .vmem, ⟨2, _⟩ => ⟨S256x1, .i32⟩
  | .local _ .vmem, ⟨3, _⟩ => ⟨S256x1024, .f32⟩
  | .local _ .vmem, ⟨4, _⟩ => ⟨S256x1024, .f32⟩
  | .local _ .vmem, ⟨5, _⟩ => ⟨S256x2048, .f32⟩
  | .local _ .smem, ⟨0, _⟩ => ⟨S16384, .i32⟩
  | _, _ => ⟨S4x4096, .i32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 261 → Bool
  | ⟨i, _⟩ => dmaSemScopedAt i

abbrev sig : RefSig :=
  ofTc nBuf bufTy 0 261 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c256_i32 : BitVec 32 := 256#32
  let v0 : BitVec 32 := Scalar.muli arg0 c256_i32
  let c0_i32 : BitVec 32 := 0#32
  let v1 : BitVec 32 := Scalar.addi v0 c0_i32
  let v2 : Index := Scalar.indexCast v1
  ![v2.toNat]
def k0_off2 (v3 : BitVec 32) : Fin 2 → Nat :=
  let c0_i32_3 : BitVec 32 := 0#32
  ![v3.toNat, 0]

def k0_chk1 (v3 : BitVec 32) : Prop :=
  (∀ a, (k0_off2 v3) a + S1x2048.size a ≤ S32000x2048.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x2048.size a ≤ S32000x2048.size a := fun v3 k0_hw1 => k0_hw1

def k0_off3 (i : grid0.Coords) : Fin 1 → Nat :=
  let arg0 : BitVec 32 := BitVec.ofNat 32 (i 0).val
  let c256_i32 : BitVec 32 := 256#32
  let v0 : BitVec 32 := Scalar.muli arg0 c256_i32
  let c1_i32 : BitVec 32 := 1#32
  let v10 : BitVec 32 := Scalar.addi v0 c1_i32
  let v11 : Index := Scalar.indexCast v10
  ![v11.toNat]
def k0_off4 (v12 : BitVec 32) : Fin 2 → Nat :=
  let c0_i32_7 : BitVec 32 := 0#32
  ![v12.toNat, 0]

def k0_chk2 (v12 : BitVec 32) : Prop :=
  (∀ a, (k0_off4 v12) a + S1x2048.size a ≤ S32000x2048.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x2048.size a ≤ S32000x2048.size a := fun v12 k0_hw2 => k0_hw2

def k0_off5 (i : grid0.Coords) : Fin 1 → Nat :=
  let arg0 : BitVec 32 := BitVec.ofNat 32 (i 0).val
  let c256_i32 : BitVec 32 := 256#32
  let v0 : BitVec 32 := Scalar.muli arg0 c256_i32
  let c2_i32 : BitVec 32 := 2#32
  let v19 : BitVec 32 := Scalar.addi v0 c2_i32
  let v20 : Index := Scalar.indexCast v19
  ![v20.toNat]
def k0_off6 (v21 : BitVec 32) : Fin 2 → Nat :=
  let c0_i32_11 : BitVec 32 := 0#32
  ![v21.toNat, 0]

def k0_chk3 (v21 : BitVec 32) : Prop :=
  (∀ a, (k0_off6 v21) a + S1x2048.size a ≤ S32000x2048.size a)
instance k0_chk3.dec : ∀ (v21 : BitVec 32), Decidable (k0_chk3 v21) := fun v21 => decidable_of_iff' _ (Iff.of_eq (k0_chk3.eq_1 v21))
theorem k0_off6_inb : ∀ (v21 : BitVec 32) (k0_hw3 : k0_chk3 v21), ∀ a, (k0_off6 v21) a + S1x2048.size a ≤ S32000x2048.size a := fun v21 k0_hw3 => k0_hw3

def k0_off7 (i : grid0.Coords) : Fin 1 → Nat :=
  let arg0 : BitVec 32 := BitVec.ofNat 32 (i 0).val
  let c256_i32 : BitVec 32 := 256#32
  let v0 : BitVec 32 := Scalar.muli arg0 c256_i32
  let c3_i32 : BitVec 32 := 3#32
  let v28 : BitVec 32 := Scalar.addi v0 c3_i32
  let v29 : Index := Scalar.indexCast v28
  ![v29.toNat]
def k0_off8 (v30 : BitVec 32) : Fin 2 → Nat :=
  let c0_i32_15 : BitVec 32 := 0#32
  ![v30.toNat, 0]

def k0_chk4 (v30 : BitVec 32) : Prop :=
  (∀ a, (k0_off8 v30) a + S1x2048.size a ≤ S32000x2048.size a)
instance k0_chk4.dec : ∀ (v30 : BitVec 32), Decidable (k0_chk4 v30) := fun v30 => decidable_of_iff' _ (Iff.of_eq (k0_chk4.eq_1 v30))
theorem k0_off8_inb : ∀ (v30 : BitVec 32) (k0_hw4 : k0_chk4 v30), ∀ a, (k0_off8 v30) a + S1x2048.size a ≤ S32000x2048.size a := fun v30 k0_hw4 => k0_hw4

def k0_off9 (i : grid0.Coords) : Fin 1 → Nat :=
  let arg0 : BitVec 32 := BitVec.ofNat 32 (i 0).val
  let c256_i32 : BitVec 32 := 256#32
  let v0 : BitVec 32 := Scalar.muli arg0 c256_i32
  let c4_i32 : BitVec 32 := 4#32
  let v37 : BitVec 32 := Scalar.addi v0 c4_i32
  let v38 : Index := Scalar.indexCast v37
  ![v38.toNat]
def k0_off10 (v39 : BitVec 32) : Fin 2 → Nat :=
  let c0_i32_19 : BitVec 32 := 0#32
  ![v39.toNat, 0]

def k0_chk5 (v39 : BitVec 32) : Prop :=
  (∀ a, (k0_off10 v39) a + S1x2048.size a ≤ S32000x2048.size a)
instance k0_chk5.dec : ∀ (v39 : BitVec 32), Decidable (k0_chk5 v39) := fun v39 => decidable_of_iff' _ (Iff.of_eq (k0_chk5.eq_1 v39))
theorem k0_off10_inb : ∀ (v39 : BitVec 32) (k0_hw5 : k0_chk5 v39), ∀ a, (k0_off10 v39) a + S1x2048.size a ≤ S32000x2048.size a := fun v39 k0_hw5 => k0_hw5

def k0_off11 (i : grid0.Coords) : Fin 1 → Nat :=
  let arg0 : BitVec 32 := BitVec.ofNat 32 (i 0).val
  let c256_i32 : BitVec 32 := 256#32
  let v0 : BitVec 32 := Scalar.muli arg0 c256_i32
  let c5_i32 : BitVec 32 := 5#32
  let v46 : BitVec 32 := Scalar.addi v0 c5_i32
  let v47 : Index := Scalar.indexCast v46
  ![v47.toNat]
def k0_off12 (v48 : BitVec 32) : Fin 2 → Nat :=
  let c0_i32_23 : BitVec 32 := 0#32
  ![v48.toNat, 0]

def k0_chk6 (v48 : BitVec 32) : Prop :=
  (∀ a, (k0_off12 v48) a + S1x2048.size a ≤ S32000x2048.size a)
instance k0_chk6.dec : ∀ (v48 : BitVec 32), Decidable (k0_chk6 v48) := fun v48 => decidable_of_iff' _ (Iff.of_eq (k0_chk6.eq_1 v48))
theorem k0_off12_inb : ∀ (v48 : BitVec 32) (k0_hw6 : k0_chk6 v48), ∀ a, (k0_off12 v48) a + S1x2048.size a ≤ S32000x2048.size a := fun v48 k0_hw6 => k0_hw6

def k0_off13 (i : grid0.Coords) : Fin 1 → Nat :=
  let arg0 : BitVec 32 := BitVec.ofNat 32 (i 0).val
  let c256_i32 : BitVec 32 := 256#32
  let v0 : BitVec 32 := Scalar.muli arg0 c256_i32
  let c6_i32 : BitVec 32 := 6#32
  let v55 : BitVec 32 := Scalar.addi v0 c6_i32
  let v56 : Index := Scalar.indexCast v55
  ![v56.toNat]
def k0_off14 (v57 : BitVec 32) : Fin 2 → Nat :=
  let c0_i32_27 : BitVec 32 := 0#32
  ![v57.toNat, 0]

def k0_chk7 (v57 : BitVec 32) : Prop :=
  (∀ a, (k0_off14 v57) a + S1x2048.size a ≤ S32000x2048.size a)
instance k0_chk7.dec : ∀ (v57 : BitVec 32), Decidable (k0_chk7 v57) := fun v57 => decidable_of_iff' _ (Iff.of_eq (k0_chk7.eq_1 v57))
theorem k0_off14_inb : ∀ (v57 : BitVec 32) (k0_hw7 : k0_chk7 v57), ∀ a, (k0_off14 v57) a + S1x2048.size a ≤ S32000x2048.size a := fun v57 k0_hw7 => k0_hw7

def k0_off15 (i : grid0.Coords) : Fin 1 → Nat :=
  let arg0 : BitVec 32 := BitVec.ofNat 32 (i 0).val
  let c256_i32 : BitVec 32 := 256#32
  let v0 : BitVec 32 := Scalar.muli arg0 c256_i32
  let c7_i32 : BitVec 32 := 7#32
  let v64 : BitVec 32 := Scalar.addi v0 c7_i32
  let v65 : Index := Scalar.indexCast v64
  ![v65.toNat]
def k0_off16 (v66 : BitVec 32) : Fin 2 → Nat :=
  let c0_i32_31 : BitVec 32 := 0#32
  ![v66.toNat, 0]

def k0_chk8 (v66 : BitVec 32) : Prop :=
  (∀ a, (k0_off16 v66) a + S1x2048.size a ≤ S32000x2048.size a)
instance k0_chk8.dec : ∀ (v66 : BitVec 32), Decidable (k0_chk8 v66) := fun v66 => decidable_of_iff' _ (Iff.of_eq (k0_chk8.eq_1 v66))
theorem k0_off16_inb : ∀ (v66 : BitVec 32) (k0_hw8 : k0_chk8 v66), ∀ a, (k0_off16 v66) a + S1x2048.size a ≤ S32000x2048.size a := fun v66 k0_hw8 => k0_hw8

def k0_off17 (i : grid0.Coords) : Fin 1 → Nat :=
  let arg0 : BitVec 32 := BitVec.ofNat 32 (i 0).val
  let c256_i32 : BitVec 32 := 256#32
  let v0 : BitVec 32 := Scalar.muli arg0 c256_i32
  let c8_i32 : BitVec 32 := 8#32
  let v73 : BitVec 32 := Scalar.addi v0 c8_i32
  let v74 : Index := Scalar.indexCast v73
  ![v74.toNat]
def k0_off18 (v75 : BitVec 32) : Fin 2 → Nat :=
  let c0_i32_35 : BitVec 32 := 0#32
  ![v75.toNat, 0]

def k0_chk9 (v75 : BitVec 32) : Prop :=
  (∀ a, (k0_off18 v75) a + S1x2048.size a ≤ S32000x2048.size a)
instance k0_chk9.dec : ∀ (v75 : BitVec 32), Decidable (k0_chk9 v75) := fun v75 => decidable_of_iff' _ (Iff.of_eq (k0_chk9.eq_1 v75))
theorem k0_off18_inb : ∀ (v75 : BitVec 32) (k0_hw9 : k0_chk9 v75), ∀ a, (k0_off18 v75) a + S1x2048.size a ≤ S32000x2048.size a := fun v75 k0_hw9 => k0_hw9

def k0_off19 (i : grid0.Coords) : Fin 1 → Nat :=
  let arg0 : BitVec 32 := BitVec.ofNat 32 (i 0).val
  let c256_i32 : BitVec 32 := 256#32
  let v0 : BitVec 32 := Scalar.muli arg0 c256_i32
  let c9_i32 : BitVec 32 := 9#32
  let v82 : BitVec 32 := Scalar.addi v0 c9_i32
  let v83 : Index := Scalar.indexCast v82
  ![v83.toNat]
def k0_off20 (v84 : BitVec 32) : Fin 2 → Nat :=
  let c0_i32_39 : BitVec 32 := 0#32
  ![v84.toNat, 0]

def k0_chk10 (v84 : BitVec 32) : Prop :=
  (∀ a, (k0_off20 v84) a + S1x2048.size a ≤ S32000x2048.size a)
instance k0_chk10.dec : ∀ (v84 : BitVec 32), Decidable (k0_chk10 v84) := fun v84 => decidable_of_iff' _ (Iff.of_eq (k0_chk10.eq_1 v84))
theorem k0_off20_inb : ∀ (v84 : BitVec 32) (k0_hw10 : k0_chk10 v84), ∀ a, (k0_off20 v84) a + S1x2048.size a ≤ S32000x2048.size a := fun v84 k0_hw10 => k0_hw10

def k0_off21 (i : grid0.Coords) : Fin 1 → Nat :=
  let arg0 : BitVec 32 := BitVec.ofNat 32 (i 0).val
  let c256_i32 : BitVec 32 := 256#32
  let v0 : BitVec 32 := Scalar.muli arg0 c256_i32
  let c10_i32 : BitVec 32 := 10#32
  let v91 : BitVec 32 := Scalar.addi v0 c10_i32
  let v92 : Index := Scalar.indexCast v91
  ![v92.toNat]
def k0_off22 (v93 : BitVec 32) : Fin 2 → Nat :=
  let c0_i32_43 : BitVec 32 := 0#32
  ![v93.toNat, 0]

def k0_chk11 (v93 : BitVec 32) : Prop :=
  (∀ a, (k0_off22 v93) a + S1x2048.size a ≤ S32000x2048.size a)
instance k0_chk11.dec : ∀ (v93 : BitVec 32), Decidable (k0_chk11 v93) := fun v93 => decidable_of_iff' _ (Iff.of_eq (k0_chk11.eq_1 v93))
theorem k0_off22_inb : ∀ (v93 : BitVec 32) (k0_hw11 : k0_chk11 v93), ∀ a, (k0_off22 v93) a + S1x2048.size a ≤ S32000x2048.size a := fun v93 k0_hw11 => k0_hw11

def k0_off23 (i : grid0.Coords) : Fin 1 → Nat :=
  let arg0 : BitVec 32 := BitVec.ofNat 32 (i 0).val
  let c256_i32 : BitVec 32 := 256#32
  let v0 : BitVec 32 := Scalar.muli arg0 c256_i32
  let c11_i32 : BitVec 32 := 11#32
  let v100 : BitVec 32 := Scalar.addi v0 c11_i32
  let v101 : Index := Scalar.indexCast v100
  ![v101.toNat]
def k0_off24 (v102 : BitVec 32) : Fin 2 → Nat :=
  let c0_i32_47 : BitVec 32 := 0#32
  ![v102.toNat, 0]

def k0_chk12 (v102 : BitVec 32) : Prop :=
  (∀ a, (k0_off24 v102) a + S1x2048.size a ≤ S32000x2048.size a)
instance k0_chk12.dec : ∀ (v102 : BitVec 32), Decidable (k0_chk12 v102) := fun v102 => decidable_of_iff' _ (Iff.of_eq (k0_chk12.eq_1 v102))
theorem k0_off24_inb : ∀ (v102 : BitVec 32) (k0_hw12 : k0_chk12 v102), ∀ a, (k0_off24 v102) a + S1x2048.size a ≤ S32000x2048.size a := fun v102 k0_hw12 => k0_hw12

def k0_off25 (i : grid0.Coords) : Fin 1 → Nat :=
  let arg0 : BitVec 32 := BitVec.ofNat 32 (i 0).val
  let c256_i32 : BitVec 32 := 256#32
  let v0 : BitVec 32 := Scalar.muli arg0 c256_i32
  let c12_i32 : BitVec 32 := 12#32
  let v109 : BitVec 32 := Scalar.addi v0 c12_i32
  let v110 : Index := Scalar.indexCast v109
  ![v110.toNat]
def k0_off26 (v111 : BitVec 32) : Fin 2 → Nat :=
  let c0_i32_51 : BitVec 32 := 0#32
  ![v111.toNat, 0]

def k0_chk13 (v111 : BitVec 32) : Prop :=
  (∀ a, (k0_off26 v111) a + S1x2048.size a ≤ S32000x2048.size a)
instance k0_chk13.dec : ∀ (v111 : BitVec 32), Decidable (k0_chk13 v111) := fun v111 => decidable_of_iff' _ (Iff.of_eq (k0_chk13.eq_1 v111))
theorem k0_off26_inb : ∀ (v111 : BitVec 32) (k0_hw13 : k0_chk13 v111), ∀ a, (k0_off26 v111) a + S1x2048.size a ≤ S32000x2048.size a := fun v111 k0_hw13 => k0_hw13

def k0_off27 (i : grid0.Coords) : Fin 1 → Nat :=
  let arg0 : BitVec 32 := BitVec.ofNat 32 (i 0).val
  let c256_i32 : BitVec 32 := 256#32
  let v0 : BitVec 32 := Scalar.muli arg0 c256_i32
  let c13_i32 : BitVec 32 := 13#32
  let v118 : BitVec 32 := Scalar.addi v0 c13_i32
  let v119 : Index := Scalar.indexCast v118
  ![v119.toNat]
def k0_off28 (v120 : BitVec 32) : Fin 2 → Nat :=
  let c0_i32_55 : BitVec 32 := 0#32
  ![v120.toNat, 0]

def k0_chk14 (v120 : BitVec 32) : Prop :=
  (∀ a, (k0_off28 v120) a + S1x2048.size a ≤ S32000x2048.size a)
instance k0_chk14.dec : ∀ (v120 : BitVec 32), Decidable (k0_chk14 v120) := fun v120 => decidable_of_iff' _ (Iff.of_eq (k0_chk14.eq_1 v120))
theorem k0_off28_inb : ∀ (v120 : BitVec 32) (k0_hw14 : k0_chk14 v120), ∀ a, (k0_off28 v120) a + S1x2048.size a ≤ S32000x2048.size a := fun v120 k0_hw14 => k0_hw14

def k0_off29 (i : grid0.Coords) : Fin 1 → Nat :=
  let arg0 : BitVec 32 := BitVec.ofNat 32 (i 0).val
  let c256_i32 : BitVec 32 := 256#32
  let v0 : BitVec 32 := Scalar.muli arg0 c256_i32
  let c14_i32 : BitVec 32 := 14#32
  let v127 : BitVec 32 := Scalar.addi v0 c14_i32
  let v128 : Index := Scalar.indexCast v127
  ![v128.toNat]
def k0_off30 (v129 : BitVec 32) : Fin 2 → Nat :=
  let c0_i32_59 : BitVec 32 := 0#32
  ![v129.toNat, 0]

def k0_chk15 (v129 : BitVec 32) : Prop :=
  (∀ a, (k0_off30 v129) a + S1x2048.size a ≤ S32000x2048.size a)
instance k0_chk15.dec : ∀ (v129 : BitVec 32), Decidable (k0_chk15 v129) := fun v129 => decidable_of_iff' _ (Iff.of_eq (k0_chk15.eq_1 v129))
theorem k0_off30_inb : ∀ (v129 : BitVec 32) (k0_hw15 : k0_chk15 v129), ∀ a, (k0_off30 v129) a + S1x2048.size a ≤ S32000x2048.size a := fun v129 k0_hw15 => k0_hw15

def k0_off31 (i : grid0.Coords) : Fin 1 → Nat :=
  let arg0 : BitVec 32 := BitVec.ofNat 32 (i 0).val
  let c256_i32 : BitVec 32 := 256#32
  let v0 : BitVec 32 := Scalar.muli arg0 c256_i32
  let c15_i32 : BitVec 32 := 15#32
  let v136 : BitVec 32 := Scalar.addi v0 c15_i32
  let v137 : Index := Scalar.indexCast v136
  ![v137.toNat]
def k0_off32 (v138 : BitVec 32) : Fin 2 → Nat :=
  let c0_i32_63 : BitVec 32 := 0#32
  ![v138.toNat, 0]

def k0_chk16 (v138 : BitVec 32) : Prop :=
  (∀ a, (k0_off32 v138) a + S1x2048.size a ≤ S32000x2048.size a)
instance k0_chk16.dec : ∀ (v138 : BitVec 32), Decidable (k0_chk16 v138) := fun v138 => decidable_of_iff' _ (Iff.of_eq (k0_chk16.eq_1 v138))
theorem k0_off32_inb : ∀ (v138 : BitVec 32) (k0_hw16 : k0_chk16 v138), ∀ a, (k0_off32 v138) a + S1x2048.size a ≤ S32000x2048.size a := fun v138 k0_hw16 => k0_hw16

def k0_off33 (i : grid0.Coords) : Fin 1 → Nat :=
  let arg0 : BitVec 32 := BitVec.ofNat 32 (i 0).val
  let c256_i32 : BitVec 32 := 256#32
  let v0 : BitVec 32 := Scalar.muli arg0 c256_i32
  let c16_i32 : BitVec 32 := 16#32
  let v145 : BitVec 32 := Scalar.addi v0 c16_i32
  let v146 : Index := Scalar.indexCast v145
  ![v146.toNat]
def k0_off34 (v147 : BitVec 32) : Fin 2 → Nat :=
  let c0_i32_67 : BitVec 32 := 0#32
  ![v147.toNat, 0]

def k0_chk17 (v147 : BitVec 32) : Prop :=
  (∀ a, (k0_off34 v147) a + S1x2048.size a ≤ S32000x2048.size a)
instance k0_chk17.dec : ∀ (v147 : BitVec 32), Decidable (k0_chk17 v147) := fun v147 => decidable_of_iff' _ (Iff.of_eq (k0_chk17.eq_1 v147))
theorem k0_off34_inb : ∀ (v147 : BitVec 32) (k0_hw17 : k0_chk17 v147), ∀ a, (k0_off34 v147) a + S1x2048.size a ≤ S32000x2048.size a := fun v147 k0_hw17 => k0_hw17

def k0_off35 (i : grid0.Coords) : Fin 1 → Nat :=
  let arg0 : BitVec 32 := BitVec.ofNat 32 (i 0).val
  let c256_i32 : BitVec 32 := 256#32
  let v0 : BitVec 32 := Scalar.muli arg0 c256_i32
  let c17_i32 : BitVec 32 := 17#32
  let v154 : BitVec 32 := Scalar.addi v0 c17_i32
  let v155 : Index := Scalar.indexCast v154
  ![v155.toNat]
def k0_off36 (v156 : BitVec 32) : Fin 2 → Nat :=
  let c0_i32_71 : BitVec 32 := 0#32
  ![v156.toNat, 0]

def k0_chk18 (v156 : BitVec 32) : Prop :=
  (∀ a, (k0_off36 v156) a + S1x2048.size a ≤ S32000x2048.size a)
instance k0_chk18.dec : ∀ (v156 : BitVec 32), Decidable (k0_chk18 v156) := fun v156 => decidable_of_iff' _ (Iff.of_eq (k0_chk18.eq_1 v156))
theorem k0_off36_inb : ∀ (v156 : BitVec 32) (k0_hw18 : k0_chk18 v156), ∀ a, (k0_off36 v156) a + S1x2048.size a ≤ S32000x2048.size a := fun v156 k0_hw18 => k0_hw18

def k0_off37 (i : grid0.Coords) : Fin 1 → Nat :=
  let arg0 : BitVec 32 := BitVec.ofNat 32 (i 0).val
  let c256_i32 : BitVec 32 := 256#32
  let v0 : BitVec 32 := Scalar.muli arg0 c256_i32
  let c18_i32 : BitVec 32 := 18#32
  let v163 : BitVec 32 := Scalar.addi v0 c18_i32
  let v164 : Index := Scalar.indexCast v163
  ![v164.toNat]
def k0_off38 (v165 : BitVec 32) : Fin 2 → Nat :=
  let c0_i32_75 : BitVec 32 := 0#32
  ![v165.toNat, 0]

def k0_chk19 (v165 : BitVec 32) : Prop :=
  (∀ a, (k0_off38 v165) a + S1x2048.size a ≤ S32000x2048.size a)
instance k0_chk19.dec : ∀ (v165 : BitVec 32), Decidable (k0_chk19 v165) := fun v165 => decidable_of_iff' _ (Iff.of_eq (k0_chk19.eq_1 v165))
theorem k0_off38_inb : ∀ (v165 : BitVec 32) (k0_hw19 : k0_chk19 v165), ∀ a, (k0_off38 v165) a + S1x2048.size a ≤ S32000x2048.size a := fun v165 k0_hw19 => k0_hw19

def k0_off39 (i : grid0.Coords) : Fin 1 → Nat :=
  let arg0 : BitVec 32 := BitVec.ofNat 32 (i 0).val
  let c256_i32 : BitVec 32 := 256#32
  let v0 : BitVec 32 := Scalar.muli arg0 c256_i32
  let c19_i32 : BitVec 32 := 19#32
  let v172 : BitVec 32 := Scalar.addi v0 c19_i32
  let v173 : Index := Scalar.indexCast v172
  ![v173.toNat]
def k0_off40 (v174 : BitVec 32) : Fin 2 → Nat :=
  let c0_i32_79 : BitVec 32 := 0#32
  ![v174.toNat, 0]

def k0_chk20 (v174 : BitVec 32) : Prop :=
  (∀ a, (k0_off40 v174) a + S1x2048.size a ≤ S32000x2048.size a)
instance k0_chk20.dec : ∀ (v174 : BitVec 32), Decidable (k0_chk20 v174) := fun v174 => decidable_of_iff' _ (Iff.of_eq (k0_chk20.eq_1 v174))
theorem k0_off40_inb : ∀ (v174 : BitVec 32) (k0_hw20 : k0_chk20 v174), ∀ a, (k0_off40 v174) a + S1x2048.size a ≤ S32000x2048.size a := fun v174 k0_hw20 => k0_hw20

def k0_off41 (i : grid0.Coords) : Fin 1 → Nat :=
  let arg0 : BitVec 32 := BitVec.ofNat 32 (i 0).val
  let c256_i32 : BitVec 32 := 256#32
  let v0 : BitVec 32 := Scalar.muli arg0 c256_i32
  let c20_i32 : BitVec 32 := 20#32
  let v181 : BitVec 32 := Scalar.addi v0 c20_i32
  let v182 : Index := Scalar.indexCast v181
  ![v182.toNat]
def k0_off42 (v183 : BitVec 32) : Fin 2 → Nat :=
  let c0_i32_83 : BitVec 32 := 0#32
  ![v183.toNat, 0]

def k0_chk21 (v183 : BitVec 32) : Prop :=
  (∀ a, (k0_off42 v183) a + S1x2048.size a ≤ S32000x2048.size a)
instance k0_chk21.dec : ∀ (v183 : BitVec 32), Decidable (k0_chk21 v183) := fun v183 => decidable_of_iff' _ (Iff.of_eq (k0_chk21.eq_1 v183))
theorem k0_off42_inb : ∀ (v183 : BitVec 32) (k0_hw21 : k0_chk21 v183), ∀ a, (k0_off42 v183) a + S1x2048.size a ≤ S32000x2048.size a := fun v183 k0_hw21 => k0_hw21

def k0_off43 (i : grid0.Coords) : Fin 1 → Nat :=
  let arg0 : BitVec 32 := BitVec.ofNat 32 (i 0).val
  let c256_i32 : BitVec 32 := 256#32
  let v0 : BitVec 32 := Scalar.muli arg0 c256_i32
  let c21_i32 : BitVec 32 := 21#32
  let v190 : BitVec 32 := Scalar.addi v0 c21_i32
  let v191 : Index := Scalar.indexCast v190
  ![v191.toNat]
def k0_off44 (v192 : BitVec 32) : Fin 2 → Nat :=
  let c0_i32_87 : BitVec 32 := 0#32
  ![v192.toNat, 0]

def k0_chk22 (v192 : BitVec 32) : Prop :=
  (∀ a, (k0_off44 v192) a + S1x2048.size a ≤ S32000x2048.size a)
instance k0_chk22.dec : ∀ (v192 : BitVec 32), Decidable (k0_chk22 v192) := fun v192 => decidable_of_iff' _ (Iff.of_eq (k0_chk22.eq_1 v192))
theorem k0_off44_inb : ∀ (v192 : BitVec 32) (k0_hw22 : k0_chk22 v192), ∀ a, (k0_off44 v192) a + S1x2048.size a ≤ S32000x2048.size a := fun v192 k0_hw22 => k0_hw22

def k0_off45 (i : grid0.Coords) : Fin 1 → Nat :=
  let arg0 : BitVec 32 := BitVec.ofNat 32 (i 0).val
  let c256_i32 : BitVec 32 := 256#32
  let v0 : BitVec 32 := Scalar.muli arg0 c256_i32
  let c22_i32 : BitVec 32 := 22#32
  let v199 : BitVec 32 := Scalar.addi v0 c22_i32
  let v200 : Index := Scalar.indexCast v199
  ![v200.toNat]
def k0_off46 (v201 : BitVec 32) : Fin 2 → Nat :=
  let c0_i32_91 : BitVec 32 := 0#32
  ![v201.toNat, 0]

def k0_chk23 (v201 : BitVec 32) : Prop :=
  (∀ a, (k0_off46 v201) a + S1x2048.size a ≤ S32000x2048.size a)
instance k0_chk23.dec : ∀ (v201 : BitVec 32), Decidable (k0_chk23 v201) := fun v201 => decidable_of_iff' _ (Iff.of_eq (k0_chk23.eq_1 v201))
theorem k0_off46_inb : ∀ (v201 : BitVec 32) (k0_hw23 : k0_chk23 v201), ∀ a, (k0_off46 v201) a + S1x2048.size a ≤ S32000x2048.size a := fun v201 k0_hw23 => k0_hw23

def k0_off47 (i : grid0.Coords) : Fin 1 → Nat :=
  let arg0 : BitVec 32 := BitVec.ofNat 32 (i 0).val
  let c256_i32 : BitVec 32 := 256#32
  let v0 : BitVec 32 := Scalar.muli arg0 c256_i32
  let c23_i32 : BitVec 32 := 23#32
  let v208 : BitVec 32 := Scalar.addi v0 c23_i32
  let v209 : Index := Scalar.indexCast v208
  ![v209.toNat]
def k0_off48 (v210 : BitVec 32) : Fin 2 → Nat :=
  let c0_i32_95 : BitVec 32 := 0#32
  ![v210.toNat, 0]

def k0_chk24 (v210 : BitVec 32) : Prop :=
  (∀ a, (k0_off48 v210) a + S1x2048.size a ≤ S32000x2048.size a)
instance k0_chk24.dec : ∀ (v210 : BitVec 32), Decidable (k0_chk24 v210) := fun v210 => decidable_of_iff' _ (Iff.of_eq (k0_chk24.eq_1 v210))
theorem k0_off48_inb : ∀ (v210 : BitVec 32) (k0_hw24 : k0_chk24 v210), ∀ a, (k0_off48 v210) a + S1x2048.size a ≤ S32000x2048.size a := fun v210 k0_hw24 => k0_hw24

def k0_off49 (i : grid0.Coords) : Fin 1 → Nat :=
  let arg0 : BitVec 32 := BitVec.ofNat 32 (i 0).val
  let c256_i32 : BitVec 32 := 256#32
  let v0 : BitVec 32 := Scalar.muli arg0 c256_i32
  let c24_i32 : BitVec 32 := 24#32
  let v217 : BitVec 32 := Scalar.addi v0 c24_i32
  let v218 : Index := Scalar.indexCast v217
  ![v218.toNat]
def k0_off50 (v219 : BitVec 32) : Fin 2 → Nat :=
  let c0_i32_99 : BitVec 32 := 0#32
  ![v219.toNat, 0]

def k0_chk25 (v219 : BitVec 32) : Prop :=
  (∀ a, (k0_off50 v219) a + S1x2048.size a ≤ S32000x2048.size a)
instance k0_chk25.dec : ∀ (v219 : BitVec 32), Decidable (k0_chk25 v219) := fun v219 => decidable_of_iff' _ (Iff.of_eq (k0_chk25.eq_1 v219))
theorem k0_off50_inb : ∀ (v219 : BitVec 32) (k0_hw25 : k0_chk25 v219), ∀ a, (k0_off50 v219) a + S1x2048.size a ≤ S32000x2048.size a := fun v219 k0_hw25 => k0_hw25

def k0_off51 (i : grid0.Coords) : Fin 1 → Nat :=
  let arg0 : BitVec 32 := BitVec.ofNat 32 (i 0).val
  let c256_i32 : BitVec 32 := 256#32
  let v0 : BitVec 32 := Scalar.muli arg0 c256_i32
  let c25_i32 : BitVec 32 := 25#32
  let v226 : BitVec 32 := Scalar.addi v0 c25_i32
  let v227 : Index := Scalar.indexCast v226
  ![v227.toNat]
def k0_off52 (v228 : BitVec 32) : Fin 2 → Nat :=
  let c0_i32_103 : BitVec 32 := 0#32
  ![v228.toNat, 0]

def k0_chk26 (v228 : BitVec 32) : Prop :=
  (∀ a, (k0_off52 v228) a + S1x2048.size a ≤ S32000x2048.size a)
instance k0_chk26.dec : ∀ (v228 : BitVec 32), Decidable (k0_chk26 v228) := fun v228 => decidable_of_iff' _ (Iff.of_eq (k0_chk26.eq_1 v228))
theorem k0_off52_inb : ∀ (v228 : BitVec 32) (k0_hw26 : k0_chk26 v228), ∀ a, (k0_off52 v228) a + S1x2048.size a ≤ S32000x2048.size a := fun v228 k0_hw26 => k0_hw26

def k0_off53 (i : grid0.Coords) : Fin 1 → Nat :=
  let arg0 : BitVec 32 := BitVec.ofNat 32 (i 0).val
  let c256_i32 : BitVec 32 := 256#32
  let v0 : BitVec 32 := Scalar.muli arg0 c256_i32
  let c26_i32 : BitVec 32 := 26#32
  let v235 : BitVec 32 := Scalar.addi v0 c26_i32
  let v236 : Index := Scalar.indexCast v235
  ![v236.toNat]
def k0_off54 (v237 : BitVec 32) : Fin 2 → Nat :=
  let c0_i32_107 : BitVec 32 := 0#32
  ![v237.toNat, 0]

def k0_chk27 (v237 : BitVec 32) : Prop :=
  (∀ a, (k0_off54 v237) a + S1x2048.size a ≤ S32000x2048.size a)
instance k0_chk27.dec : ∀ (v237 : BitVec 32), Decidable (k0_chk27 v237) := fun v237 => decidable_of_iff' _ (Iff.of_eq (k0_chk27.eq_1 v237))
theorem k0_off54_inb : ∀ (v237 : BitVec 32) (k0_hw27 : k0_chk27 v237), ∀ a, (k0_off54 v237) a + S1x2048.size a ≤ S32000x2048.size a := fun v237 k0_hw27 => k0_hw27

def k0_off55 (i : grid0.Coords) : Fin 1 → Nat :=
  let arg0 : BitVec 32 := BitVec.ofNat 32 (i 0).val
  let c256_i32 : BitVec 32 := 256#32
  let v0 : BitVec 32 := Scalar.muli arg0 c256_i32
  let c27_i32 : BitVec 32 := 27#32
  let v244 : BitVec 32 := Scalar.addi v0 c27_i32
  let v245 : Index := Scalar.indexCast v244
  ![v245.toNat]
def k0_off56 (v246 : BitVec 32) : Fin 2 → Nat :=
  let c0_i32_111 : BitVec 32 := 0#32
  ![v246.toNat, 0]

def k0_chk28 (v246 : BitVec 32) : Prop :=
  (∀ a, (k0_off56 v246) a + S1x2048.size a ≤ S32000x2048.size a)
instance k0_chk28.dec : ∀ (v246 : BitVec 32), Decidable (k0_chk28 v246) := fun v246 => decidable_of_iff' _ (Iff.of_eq (k0_chk28.eq_1 v246))
theorem k0_off56_inb : ∀ (v246 : BitVec 32) (k0_hw28 : k0_chk28 v246), ∀ a, (k0_off56 v246) a + S1x2048.size a ≤ S32000x2048.size a := fun v246 k0_hw28 => k0_hw28

def k0_off57 (i : grid0.Coords) : Fin 1 → Nat :=
  let arg0 : BitVec 32 := BitVec.ofNat 32 (i 0).val
  let c256_i32 : BitVec 32 := 256#32
  let v0 : BitVec 32 := Scalar.muli arg0 c256_i32
  let c28_i32 : BitVec 32 := 28#32
  let v253 : BitVec 32 := Scalar.addi v0 c28_i32
  let v254 : Index := Scalar.indexCast v253
  ![v254.toNat]
def k0_off58 (v255 : BitVec 32) : Fin 2 → Nat :=
  let c0_i32_115 : BitVec 32 := 0#32
  ![v255.toNat, 0]

def k0_chk29 (v255 : BitVec 32) : Prop :=
  (∀ a, (k0_off58 v255) a + S1x2048.size a ≤ S32000x2048.size a)
instance k0_chk29.dec : ∀ (v255 : BitVec 32), Decidable (k0_chk29 v255) := fun v255 => decidable_of_iff' _ (Iff.of_eq (k0_chk29.eq_1 v255))
theorem k0_off58_inb : ∀ (v255 : BitVec 32) (k0_hw29 : k0_chk29 v255), ∀ a, (k0_off58 v255) a + S1x2048.size a ≤ S32000x2048.size a := fun v255 k0_hw29 => k0_hw29

def k0_off59 (i : grid0.Coords) : Fin 1 → Nat :=
  let arg0 : BitVec 32 := BitVec.ofNat 32 (i 0).val
  let c256_i32 : BitVec 32 := 256#32
  let v0 : BitVec 32 := Scalar.muli arg0 c256_i32
  let c29_i32 : BitVec 32 := 29#32
  let v262 : BitVec 32 := Scalar.addi v0 c29_i32
  let v263 : Index := Scalar.indexCast v262
  ![v263.toNat]
def k0_off60 (v264 : BitVec 32) : Fin 2 → Nat :=
  let c0_i32_119 : BitVec 32 := 0#32
  ![v264.toNat, 0]

def k0_chk30 (v264 : BitVec 32) : Prop :=
  (∀ a, (k0_off60 v264) a + S1x2048.size a ≤ S32000x2048.size a)
instance k0_chk30.dec : ∀ (v264 : BitVec 32), Decidable (k0_chk30 v264) := fun v264 => decidable_of_iff' _ (Iff.of_eq (k0_chk30.eq_1 v264))
theorem k0_off60_inb : ∀ (v264 : BitVec 32) (k0_hw30 : k0_chk30 v264), ∀ a, (k0_off60 v264) a + S1x2048.size a ≤ S32000x2048.size a := fun v264 k0_hw30 => k0_hw30

def k0_off61 (i : grid0.Coords) : Fin 1 → Nat :=
  let arg0 : BitVec 32 := BitVec.ofNat 32 (i 0).val
  let c256_i32 : BitVec 32 := 256#32
  let v0 : BitVec 32 := Scalar.muli arg0 c256_i32
  let c30_i32 : BitVec 32 := 30#32
  let v271 : BitVec 32 := Scalar.addi v0 c30_i32
  let v272 : Index := Scalar.indexCast v271
  ![v272.toNat]
def k0_off62 (v273 : BitVec 32) : Fin 2 → Nat :=
  let c0_i32_123 : BitVec 32 := 0#32
  ![v273.toNat, 0]

def k0_chk31 (v273 : BitVec 32) : Prop :=
  (∀ a, (k0_off62 v273) a + S1x2048.size a ≤ S32000x2048.size a)
instance k0_chk31.dec : ∀ (v273 : BitVec 32), Decidable (k0_chk31 v273) := fun v273 => decidable_of_iff' _ (Iff.of_eq (k0_chk31.eq_1 v273))
theorem k0_off62_inb : ∀ (v273 : BitVec 32) (k0_hw31 : k0_chk31 v273), ∀ a, (k0_off62 v273) a + S1x2048.size a ≤ S32000x2048.size a := fun v273 k0_hw31 => k0_hw31

def k0_off63 (i : grid0.Coords) : Fin 1 → Nat :=
  let arg0 : BitVec 32 := BitVec.ofNat 32 (i 0).val
  let c256_i32 : BitVec 32 := 256#32
  let v0 : BitVec 32 := Scalar.muli arg0 c256_i32
  let c31_i32 : BitVec 32 := 31#32
  let v280 : BitVec 32 := Scalar.addi v0 c31_i32
  let v281 : Index := Scalar.indexCast v280
  ![v281.toNat]
def k0_off64 (v282 : BitVec 32) : Fin 2 → Nat :=
  let c0_i32_127 : BitVec 32 := 0#32
  ![v282.toNat, 0]

def k0_chk32 (v282 : BitVec 32) : Prop :=
  (∀ a, (k0_off64 v282) a + S1x2048.size a ≤ S32000x2048.size a)
instance k0_chk32.dec : ∀ (v282 : BitVec 32), Decidable (k0_chk32 v282) := fun v282 => decidable_of_iff' _ (Iff.of_eq (k0_chk32.eq_1 v282))
theorem k0_off64_inb : ∀ (v282 : BitVec 32) (k0_hw32 : k0_chk32 v282), ∀ a, (k0_off64 v282) a + S1x2048.size a ≤ S32000x2048.size a := fun v282 k0_hw32 => k0_hw32

def k0_off65 (i : grid0.Coords) : Fin 1 → Nat :=
  let arg0 : BitVec 32 := BitVec.ofNat 32 (i 0).val
  let c256_i32 : BitVec 32 := 256#32
  let v0 : BitVec 32 := Scalar.muli arg0 c256_i32
  let c32_i32 : BitVec 32 := 32#32
  let v289 : BitVec 32 := Scalar.addi v0 c32_i32
  let v290 : Index := Scalar.indexCast v289
  ![v290.toNat]
def k0_off66 (v291 : BitVec 32) : Fin 2 → Nat :=
  let c0_i32_131 : BitVec 32 := 0#32
  ![v291.toNat, 0]

def k0_chk33 (v291 : BitVec 32) : Prop :=
  (∀ a, (k0_off66 v291) a + S1x2048.size a ≤ S32000x2048.size a)
instance k0_chk33.dec : ∀ (v291 : BitVec 32), Decidable (k0_chk33 v291) := fun v291 => decidable_of_iff' _ (Iff.of_eq (k0_chk33.eq_1 v291))
theorem k0_off66_inb : ∀ (v291 : BitVec 32) (k0_hw33 : k0_chk33 v291), ∀ a, (k0_off66 v291) a + S1x2048.size a ≤ S32000x2048.size a := fun v291 k0_hw33 => k0_hw33

def k0_off67 (i : grid0.Coords) : Fin 1 → Nat :=
  let arg0 : BitVec 32 := BitVec.ofNat 32 (i 0).val
  let c256_i32 : BitVec 32 := 256#32
  let v0 : BitVec 32 := Scalar.muli arg0 c256_i32
  let c33_i32 : BitVec 32 := 33#32
  let v298 : BitVec 32 := Scalar.addi v0 c33_i32
  let v299 : Index := Scalar.indexCast v298
  ![v299.toNat]
def k0_off68 (v300 : BitVec 32) : Fin 2 → Nat :=
  let c0_i32_135 : BitVec 32 := 0#32
  ![v300.toNat, 0]

def k0_chk34 (v300 : BitVec 32) : Prop :=
  (∀ a, (k0_off68 v300) a + S1x2048.size a ≤ S32000x2048.size a)
instance k0_chk34.dec : ∀ (v300 : BitVec 32), Decidable (k0_chk34 v300) := fun v300 => decidable_of_iff' _ (Iff.of_eq (k0_chk34.eq_1 v300))
theorem k0_off68_inb : ∀ (v300 : BitVec 32) (k0_hw34 : k0_chk34 v300), ∀ a, (k0_off68 v300) a + S1x2048.size a ≤ S32000x2048.size a := fun v300 k0_hw34 => k0_hw34

def k0_off69 (i : grid0.Coords) : Fin 1 → Nat :=
  let arg0 : BitVec 32 := BitVec.ofNat 32 (i 0).val
  let c256_i32 : BitVec 32 := 256#32
  let v0 : BitVec 32 := Scalar.muli arg0 c256_i32
  let c34_i32 : BitVec 32 := 34#32
  let v307 : BitVec 32 := Scalar.addi v0 c34_i32
  let v308 : Index := Scalar.indexCast v307
  ![v308.toNat]
def k0_off70 (v309 : BitVec 32) : Fin 2 → Nat :=
  let c0_i32_139 : BitVec 32 := 0#32
  ![v309.toNat, 0]

def k0_chk35 (v309 : BitVec 32) : Prop :=
  (∀ a, (k0_off70 v309) a + S1x2048.size a ≤ S32000x2048.size a)
instance k0_chk35.dec : ∀ (v309 : BitVec 32), Decidable (k0_chk35 v309) := fun v309 => decidable_of_iff' _ (Iff.of_eq (k0_chk35.eq_1 v309))
theorem k0_off70_inb : ∀ (v309 : BitVec 32) (k0_hw35 : k0_chk35 v309), ∀ a, (k0_off70 v309) a + S1x2048.size a ≤ S32000x2048.size a := fun v309 k0_hw35 => k0_hw35

def k0_off71 (i : grid0.Coords) : Fin 1 → Nat :=
  let arg0 : BitVec 32 := BitVec.ofNat 32 (i 0).val
  let c256_i32 : BitVec 32 := 256#32
  let v0 : BitVec 32 := Scalar.muli arg0 c256_i32
  let c35_i32 : BitVec 32 := 35#32
  let v316 : BitVec 32 := Scalar.addi v0 c35_i32
  let v317 : Index := Scalar.indexCast v316
  ![v317.toNat]
def k0_off72 (v318 : BitVec 32) : Fin 2 → Nat :=
  let c0_i32_143 : BitVec 32 := 0#32
  ![v318.toNat, 0]

def k0_chk36 (v318 : BitVec 32) : Prop :=
  (∀ a, (k0_off72 v318) a + S1x2048.size a ≤ S32000x2048.size a)
instance k0_chk36.dec : ∀ (v318 : BitVec 32), Decidable (k0_chk36 v318) := fun v318 => decidable_of_iff' _ (Iff.of_eq (k0_chk36.eq_1 v318))
theorem k0_off72_inb : ∀ (v318 : BitVec 32) (k0_hw36 : k0_chk36 v318), ∀ a, (k0_off72 v318) a + S1x2048.size a ≤ S32000x2048.size a := fun v318 k0_hw36 => k0_hw36

def k0_off73 (i : grid0.Coords) : Fin 1 → Nat :=
  let arg0 : BitVec 32 := BitVec.ofNat 32 (i 0).val
  let c256_i32 : BitVec 32 := 256#32
  let v0 : BitVec 32 := Scalar.muli arg0 c256_i32
  let c36_i32 : BitVec 32 := 36#32
  let v325 : BitVec 32 := Scalar.addi v0 c36_i32
  let v326 : Index := Scalar.indexCast v325
  ![v326.toNat]
def k0_off74 (v327 : BitVec 32) : Fin 2 → Nat :=
  let c0_i32_147 : BitVec 32 := 0#32
  ![v327.toNat, 0]

def k0_chk37 (v327 : BitVec 32) : Prop :=
  (∀ a, (k0_off74 v327) a + S1x2048.size a ≤ S32000x2048.size a)
instance k0_chk37.dec : ∀ (v327 : BitVec 32), Decidable (k0_chk37 v327) := fun v327 => decidable_of_iff' _ (Iff.of_eq (k0_chk37.eq_1 v327))
theorem k0_off74_inb : ∀ (v327 : BitVec 32) (k0_hw37 : k0_chk37 v327), ∀ a, (k0_off74 v327) a + S1x2048.size a ≤ S32000x2048.size a := fun v327 k0_hw37 => k0_hw37

def k0_off75 (i : grid0.Coords) : Fin 1 → Nat :=
  let arg0 : BitVec 32 := BitVec.ofNat 32 (i 0).val
  let c256_i32 : BitVec 32 := 256#32
  let v0 : BitVec 32 := Scalar.muli arg0 c256_i32
  let c37_i32 : BitVec 32 := 37#32
  let v334 : BitVec 32 := Scalar.addi v0 c37_i32
  let v335 : Index := Scalar.indexCast v334
  ![v335.toNat]
def k0_off76 (v336 : BitVec 32) : Fin 2 → Nat :=
  let c0_i32_151 : BitVec 32 := 0#32
  ![v336.toNat, 0]

def k0_chk38 (v336 : BitVec 32) : Prop :=
  (∀ a, (k0_off76 v336) a + S1x2048.size a ≤ S32000x2048.size a)
instance k0_chk38.dec : ∀ (v336 : BitVec 32), Decidable (k0_chk38 v336) := fun v336 => decidable_of_iff' _ (Iff.of_eq (k0_chk38.eq_1 v336))
theorem k0_off76_inb : ∀ (v336 : BitVec 32) (k0_hw38 : k0_chk38 v336), ∀ a, (k0_off76 v336) a + S1x2048.size a ≤ S32000x2048.size a := fun v336 k0_hw38 => k0_hw38

def k0_off77 (i : grid0.Coords) : Fin 1 → Nat :=
  let arg0 : BitVec 32 := BitVec.ofNat 32 (i 0).val
  let c256_i32 : BitVec 32 := 256#32
  let v0 : BitVec 32 := Scalar.muli arg0 c256_i32
  let c38_i32 : BitVec 32 := 38#32
  let v343 : BitVec 32 := Scalar.addi v0 c38_i32
  let v344 : Index := Scalar.indexCast v343
  ![v344.toNat]
def k0_off78 (v345 : BitVec 32) : Fin 2 → Nat :=
  let c0_i32_155 : BitVec 32 := 0#32
  ![v345.toNat, 0]

def k0_chk39 (v345 : BitVec 32) : Prop :=
  (∀ a, (k0_off78 v345) a + S1x2048.size a ≤ S32000x2048.size a)
instance k0_chk39.dec : ∀ (v345 : BitVec 32), Decidable (k0_chk39 v345) := fun v345 => decidable_of_iff' _ (Iff.of_eq (k0_chk39.eq_1 v345))
theorem k0_off78_inb : ∀ (v345 : BitVec 32) (k0_hw39 : k0_chk39 v345), ∀ a, (k0_off78 v345) a + S1x2048.size a ≤ S32000x2048.size a := fun v345 k0_hw39 => k0_hw39

def k0_off79 (i : grid0.Coords) : Fin 1 → Nat :=
  let arg0 : BitVec 32 := BitVec.ofNat 32 (i 0).val
  let c256_i32 : BitVec 32 := 256#32
  let v0 : BitVec 32 := Scalar.muli arg0 c256_i32
  let c39_i32 : BitVec 32 := 39#32
  let v352 : BitVec 32 := Scalar.addi v0 c39_i32
  let v353 : Index := Scalar.indexCast v352
  ![v353.toNat]
def k0_off80 (v354 : BitVec 32) : Fin 2 → Nat :=
  let c0_i32_159 : BitVec 32 := 0#32
  ![v354.toNat, 0]

def k0_chk40 (v354 : BitVec 32) : Prop :=
  (∀ a, (k0_off80 v354) a + S1x2048.size a ≤ S32000x2048.size a)
instance k0_chk40.dec : ∀ (v354 : BitVec 32), Decidable (k0_chk40 v354) := fun v354 => decidable_of_iff' _ (Iff.of_eq (k0_chk40.eq_1 v354))
theorem k0_off80_inb : ∀ (v354 : BitVec 32) (k0_hw40 : k0_chk40 v354), ∀ a, (k0_off80 v354) a + S1x2048.size a ≤ S32000x2048.size a := fun v354 k0_hw40 => k0_hw40

def k0_off81 (i : grid0.Coords) : Fin 1 → Nat :=
  let arg0 : BitVec 32 := BitVec.ofNat 32 (i 0).val
  let c256_i32 : BitVec 32 := 256#32
  let v0 : BitVec 32 := Scalar.muli arg0 c256_i32
  let c40_i32 : BitVec 32 := 40#32
  let v361 : BitVec 32 := Scalar.addi v0 c40_i32
  let v362 : Index := Scalar.indexCast v361
  ![v362.toNat]
def k0_off82 (v363 : BitVec 32) : Fin 2 → Nat :=
  let c0_i32_163 : BitVec 32 := 0#32
  ![v363.toNat, 0]

def k0_chk41 (v363 : BitVec 32) : Prop :=
  (∀ a, (k0_off82 v363) a + S1x2048.size a ≤ S32000x2048.size a)
instance k0_chk41.dec : ∀ (v363 : BitVec 32), Decidable (k0_chk41 v363) := fun v363 => decidable_of_iff' _ (Iff.of_eq (k0_chk41.eq_1 v363))
theorem k0_off82_inb : ∀ (v363 : BitVec 32) (k0_hw41 : k0_chk41 v363), ∀ a, (k0_off82 v363) a + S1x2048.size a ≤ S32000x2048.size a := fun v363 k0_hw41 => k0_hw41

def k0_off83 (i : grid0.Coords) : Fin 1 → Nat :=
  let arg0 : BitVec 32 := BitVec.ofNat 32 (i 0).val
  let c256_i32 : BitVec 32 := 256#32
  let v0 : BitVec 32 := Scalar.muli arg0 c256_i32
  let c41_i32 : BitVec 32 := 41#32
  let v370 : BitVec 32 := Scalar.addi v0 c41_i32
  let v371 : Index := Scalar.indexCast v370
  ![v371.toNat]
def k0_off84 (v372 : BitVec 32) : Fin 2 → Nat :=
  let c0_i32_167 : BitVec 32 := 0#32
  ![v372.toNat, 0]

def k0_chk42 (v372 : BitVec 32) : Prop :=
  (∀ a, (k0_off84 v372) a + S1x2048.size a ≤ S32000x2048.size a)
instance k0_chk42.dec : ∀ (v372 : BitVec 32), Decidable (k0_chk42 v372) := fun v372 => decidable_of_iff' _ (Iff.of_eq (k0_chk42.eq_1 v372))
theorem k0_off84_inb : ∀ (v372 : BitVec 32) (k0_hw42 : k0_chk42 v372), ∀ a, (k0_off84 v372) a + S1x2048.size a ≤ S32000x2048.size a := fun v372 k0_hw42 => k0_hw42

def k0_off85 (i : grid0.Coords) : Fin 1 → Nat :=
  let arg0 : BitVec 32 := BitVec.ofNat 32 (i 0).val
  let c256_i32 : BitVec 32 := 256#32
  let v0 : BitVec 32 := Scalar.muli arg0 c256_i32
  let c42_i32 : BitVec 32 := 42#32
  let v379 : BitVec 32 := Scalar.addi v0 c42_i32
  let v380 : Index := Scalar.indexCast v379
  ![v380.toNat]
def k0_off86 (v381 : BitVec 32) : Fin 2 → Nat :=
  let c0_i32_171 : BitVec 32 := 0#32
  ![v381.toNat, 0]

def k0_chk43 (v381 : BitVec 32) : Prop :=
  (∀ a, (k0_off86 v381) a + S1x2048.size a ≤ S32000x2048.size a)
instance k0_chk43.dec : ∀ (v381 : BitVec 32), Decidable (k0_chk43 v381) := fun v381 => decidable_of_iff' _ (Iff.of_eq (k0_chk43.eq_1 v381))
theorem k0_off86_inb : ∀ (v381 : BitVec 32) (k0_hw43 : k0_chk43 v381), ∀ a, (k0_off86 v381) a + S1x2048.size a ≤ S32000x2048.size a := fun v381 k0_hw43 => k0_hw43

def k0_off87 (i : grid0.Coords) : Fin 1 → Nat :=
  let arg0 : BitVec 32 := BitVec.ofNat 32 (i 0).val
  let c256_i32 : BitVec 32 := 256#32
  let v0 : BitVec 32 := Scalar.muli arg0 c256_i32
  let c43_i32 : BitVec 32 := 43#32
  let v388 : BitVec 32 := Scalar.addi v0 c43_i32
  let v389 : Index := Scalar.indexCast v388
  ![v389.toNat]
def k0_off88 (v390 : BitVec 32) : Fin 2 → Nat :=
  let c0_i32_175 : BitVec 32 := 0#32
  ![v390.toNat, 0]

def k0_chk44 (v390 : BitVec 32) : Prop :=
  (∀ a, (k0_off88 v390) a + S1x2048.size a ≤ S32000x2048.size a)
instance k0_chk44.dec : ∀ (v390 : BitVec 32), Decidable (k0_chk44 v390) := fun v390 => decidable_of_iff' _ (Iff.of_eq (k0_chk44.eq_1 v390))
theorem k0_off88_inb : ∀ (v390 : BitVec 32) (k0_hw44 : k0_chk44 v390), ∀ a, (k0_off88 v390) a + S1x2048.size a ≤ S32000x2048.size a := fun v390 k0_hw44 => k0_hw44

def k0_off89 (i : grid0.Coords) : Fin 1 → Nat :=
  let arg0 : BitVec 32 := BitVec.ofNat 32 (i 0).val
  let c256_i32 : BitVec 32 := 256#32
  let v0 : BitVec 32 := Scalar.muli arg0 c256_i32
  let c44_i32 : BitVec 32 := 44#32
  let v397 : BitVec 32 := Scalar.addi v0 c44_i32
  let v398 : Index := Scalar.indexCast v397
  ![v398.toNat]
def k0_off90 (v399 : BitVec 32) : Fin 2 → Nat :=
  let c0_i32_179 : BitVec 32 := 0#32
  ![v399.toNat, 0]

def k0_chk45 (v399 : BitVec 32) : Prop :=
  (∀ a, (k0_off90 v399) a + S1x2048.size a ≤ S32000x2048.size a)
instance k0_chk45.dec : ∀ (v399 : BitVec 32), Decidable (k0_chk45 v399) := fun v399 => decidable_of_iff' _ (Iff.of_eq (k0_chk45.eq_1 v399))
theorem k0_off90_inb : ∀ (v399 : BitVec 32) (k0_hw45 : k0_chk45 v399), ∀ a, (k0_off90 v399) a + S1x2048.size a ≤ S32000x2048.size a := fun v399 k0_hw45 => k0_hw45

def k0_off91 (i : grid0.Coords) : Fin 1 → Nat :=
  let arg0 : BitVec 32 := BitVec.ofNat 32 (i 0).val
  let c256_i32 : BitVec 32 := 256#32
  let v0 : BitVec 32 := Scalar.muli arg0 c256_i32
  let c45_i32 : BitVec 32 := 45#32
  let v406 : BitVec 32 := Scalar.addi v0 c45_i32
  let v407 : Index := Scalar.indexCast v406
  ![v407.toNat]
def k0_off92 (v408 : BitVec 32) : Fin 2 → Nat :=
  let c0_i32_183 : BitVec 32 := 0#32
  ![v408.toNat, 0]

def k0_chk46 (v408 : BitVec 32) : Prop :=
  (∀ a, (k0_off92 v408) a + S1x2048.size a ≤ S32000x2048.size a)
instance k0_chk46.dec : ∀ (v408 : BitVec 32), Decidable (k0_chk46 v408) := fun v408 => decidable_of_iff' _ (Iff.of_eq (k0_chk46.eq_1 v408))
theorem k0_off92_inb : ∀ (v408 : BitVec 32) (k0_hw46 : k0_chk46 v408), ∀ a, (k0_off92 v408) a + S1x2048.size a ≤ S32000x2048.size a := fun v408 k0_hw46 => k0_hw46

def k0_off93 (i : grid0.Coords) : Fin 1 → Nat :=
  let arg0 : BitVec 32 := BitVec.ofNat 32 (i 0).val
  let c256_i32 : BitVec 32 := 256#32
  let v0 : BitVec 32 := Scalar.muli arg0 c256_i32
  let c46_i32 : BitVec 32 := 46#32
  let v415 : BitVec 32 := Scalar.addi v0 c46_i32
  let v416 : Index := Scalar.indexCast v415
  ![v416.toNat]
def k0_off94 (v417 : BitVec 32) : Fin 2 → Nat :=
  let c0_i32_187 : BitVec 32 := 0#32
  ![v417.toNat, 0]

def k0_chk47 (v417 : BitVec 32) : Prop :=
  (∀ a, (k0_off94 v417) a + S1x2048.size a ≤ S32000x2048.size a)
instance k0_chk47.dec : ∀ (v417 : BitVec 32), Decidable (k0_chk47 v417) := fun v417 => decidable_of_iff' _ (Iff.of_eq (k0_chk47.eq_1 v417))
theorem k0_off94_inb : ∀ (v417 : BitVec 32) (k0_hw47 : k0_chk47 v417), ∀ a, (k0_off94 v417) a + S1x2048.size a ≤ S32000x2048.size a := fun v417 k0_hw47 => k0_hw47

def k0_off95 (i : grid0.Coords) : Fin 1 → Nat :=
  let arg0 : BitVec 32 := BitVec.ofNat 32 (i 0).val
  let c256_i32 : BitVec 32 := 256#32
  let v0 : BitVec 32 := Scalar.muli arg0 c256_i32
  let c47_i32 : BitVec 32 := 47#32
  let v424 : BitVec 32 := Scalar.addi v0 c47_i32
  let v425 : Index := Scalar.indexCast v424
  ![v425.toNat]
def k0_off96 (v426 : BitVec 32) : Fin 2 → Nat :=
  let c0_i32_191 : BitVec 32 := 0#32
  ![v426.toNat, 0]

def k0_chk48 (v426 : BitVec 32) : Prop :=
  (∀ a, (k0_off96 v426) a + S1x2048.size a ≤ S32000x2048.size a)
instance k0_chk48.dec : ∀ (v426 : BitVec 32), Decidable (k0_chk48 v426) := fun v426 => decidable_of_iff' _ (Iff.of_eq (k0_chk48.eq_1 v426))
theorem k0_off96_inb : ∀ (v426 : BitVec 32) (k0_hw48 : k0_chk48 v426), ∀ a, (k0_off96 v426) a + S1x2048.size a ≤ S32000x2048.size a := fun v426 k0_hw48 => k0_hw48

def k0_off97 (i : grid0.Coords) : Fin 1 → Nat :=
  let arg0 : BitVec 32 := BitVec.ofNat 32 (i 0).val
  let c256_i32 : BitVec 32 := 256#32
  let v0 : BitVec 32 := Scalar.muli arg0 c256_i32
  let c48_i32 : BitVec 32 := 48#32
  let v433 : BitVec 32 := Scalar.addi v0 c48_i32
  let v434 : Index := Scalar.indexCast v433
  ![v434.toNat]
def k0_off98 (v435 : BitVec 32) : Fin 2 → Nat :=
  let c0_i32_195 : BitVec 32 := 0#32
  ![v435.toNat, 0]

def k0_chk49 (v435 : BitVec 32) : Prop :=
  (∀ a, (k0_off98 v435) a + S1x2048.size a ≤ S32000x2048.size a)
instance k0_chk49.dec : ∀ (v435 : BitVec 32), Decidable (k0_chk49 v435) := fun v435 => decidable_of_iff' _ (Iff.of_eq (k0_chk49.eq_1 v435))
theorem k0_off98_inb : ∀ (v435 : BitVec 32) (k0_hw49 : k0_chk49 v435), ∀ a, (k0_off98 v435) a + S1x2048.size a ≤ S32000x2048.size a := fun v435 k0_hw49 => k0_hw49

def k0_off99 (i : grid0.Coords) : Fin 1 → Nat :=
  let arg0 : BitVec 32 := BitVec.ofNat 32 (i 0).val
  let c256_i32 : BitVec 32 := 256#32
  let v0 : BitVec 32 := Scalar.muli arg0 c256_i32
  let c49_i32 : BitVec 32 := 49#32
  let v442 : BitVec 32 := Scalar.addi v0 c49_i32
  let v443 : Index := Scalar.indexCast v442
  ![v443.toNat]
def k0_off100 (v444 : BitVec 32) : Fin 2 → Nat :=
  let c0_i32_199 : BitVec 32 := 0#32
  ![v444.toNat, 0]

def k0_chk50 (v444 : BitVec 32) : Prop :=
  (∀ a, (k0_off100 v444) a + S1x2048.size a ≤ S32000x2048.size a)
instance k0_chk50.dec : ∀ (v444 : BitVec 32), Decidable (k0_chk50 v444) := fun v444 => decidable_of_iff' _ (Iff.of_eq (k0_chk50.eq_1 v444))
theorem k0_off100_inb : ∀ (v444 : BitVec 32) (k0_hw50 : k0_chk50 v444), ∀ a, (k0_off100 v444) a + S1x2048.size a ≤ S32000x2048.size a := fun v444 k0_hw50 => k0_hw50

def k0_off101 (i : grid0.Coords) : Fin 1 → Nat :=
  let arg0 : BitVec 32 := BitVec.ofNat 32 (i 0).val
  let c256_i32 : BitVec 32 := 256#32
  let v0 : BitVec 32 := Scalar.muli arg0 c256_i32
  let c50_i32 : BitVec 32 := 50#32
  let v451 : BitVec 32 := Scalar.addi v0 c50_i32
  let v452 : Index := Scalar.indexCast v451
  ![v452.toNat]
def k0_off102 (v453 : BitVec 32) : Fin 2 → Nat :=
  let c0_i32_203 : BitVec 32 := 0#32
  ![v453.toNat, 0]

def k0_chk51 (v453 : BitVec 32) : Prop :=
  (∀ a, (k0_off102 v453) a + S1x2048.size a ≤ S32000x2048.size a)
instance k0_chk51.dec : ∀ (v453 : BitVec 32), Decidable (k0_chk51 v453) := fun v453 => decidable_of_iff' _ (Iff.of_eq (k0_chk51.eq_1 v453))
theorem k0_off102_inb : ∀ (v453 : BitVec 32) (k0_hw51 : k0_chk51 v453), ∀ a, (k0_off102 v453) a + S1x2048.size a ≤ S32000x2048.size a := fun v453 k0_hw51 => k0_hw51

def k0_off103 (i : grid0.Coords) : Fin 1 → Nat :=
  let arg0 : BitVec 32 := BitVec.ofNat 32 (i 0).val
  let c256_i32 : BitVec 32 := 256#32
  let v0 : BitVec 32 := Scalar.muli arg0 c256_i32
  let c51_i32 : BitVec 32 := 51#32
  let v460 : BitVec 32 := Scalar.addi v0 c51_i32
  let v461 : Index := Scalar.indexCast v460
  ![v461.toNat]
def k0_off104 (v462 : BitVec 32) : Fin 2 → Nat :=
  let c0_i32_207 : BitVec 32 := 0#32
  ![v462.toNat, 0]

def k0_chk52 (v462 : BitVec 32) : Prop :=
  (∀ a, (k0_off104 v462) a + S1x2048.size a ≤ S32000x2048.size a)
instance k0_chk52.dec : ∀ (v462 : BitVec 32), Decidable (k0_chk52 v462) := fun v462 => decidable_of_iff' _ (Iff.of_eq (k0_chk52.eq_1 v462))
theorem k0_off104_inb : ∀ (v462 : BitVec 32) (k0_hw52 : k0_chk52 v462), ∀ a, (k0_off104 v462) a + S1x2048.size a ≤ S32000x2048.size a := fun v462 k0_hw52 => k0_hw52

def k0_off105 (i : grid0.Coords) : Fin 1 → Nat :=
  let arg0 : BitVec 32 := BitVec.ofNat 32 (i 0).val
  let c256_i32 : BitVec 32 := 256#32
  let v0 : BitVec 32 := Scalar.muli arg0 c256_i32
  let c52_i32 : BitVec 32 := 52#32
  let v469 : BitVec 32 := Scalar.addi v0 c52_i32
  let v470 : Index := Scalar.indexCast v469
  ![v470.toNat]
def k0_off106 (v471 : BitVec 32) : Fin 2 → Nat :=
  let c0_i32_211 : BitVec 32 := 0#32
  ![v471.toNat, 0]

def k0_chk53 (v471 : BitVec 32) : Prop :=
  (∀ a, (k0_off106 v471) a + S1x2048.size a ≤ S32000x2048.size a)
instance k0_chk53.dec : ∀ (v471 : BitVec 32), Decidable (k0_chk53 v471) := fun v471 => decidable_of_iff' _ (Iff.of_eq (k0_chk53.eq_1 v471))
theorem k0_off106_inb : ∀ (v471 : BitVec 32) (k0_hw53 : k0_chk53 v471), ∀ a, (k0_off106 v471) a + S1x2048.size a ≤ S32000x2048.size a := fun v471 k0_hw53 => k0_hw53

def k0_off107 (i : grid0.Coords) : Fin 1 → Nat :=
  let arg0 : BitVec 32 := BitVec.ofNat 32 (i 0).val
  let c256_i32 : BitVec 32 := 256#32
  let v0 : BitVec 32 := Scalar.muli arg0 c256_i32
  let c53_i32 : BitVec 32 := 53#32
  let v478 : BitVec 32 := Scalar.addi v0 c53_i32
  let v479 : Index := Scalar.indexCast v478
  ![v479.toNat]
def k0_off108 (v480 : BitVec 32) : Fin 2 → Nat :=
  let c0_i32_215 : BitVec 32 := 0#32
  ![v480.toNat, 0]

def k0_chk54 (v480 : BitVec 32) : Prop :=
  (∀ a, (k0_off108 v480) a + S1x2048.size a ≤ S32000x2048.size a)
instance k0_chk54.dec : ∀ (v480 : BitVec 32), Decidable (k0_chk54 v480) := fun v480 => decidable_of_iff' _ (Iff.of_eq (k0_chk54.eq_1 v480))
theorem k0_off108_inb : ∀ (v480 : BitVec 32) (k0_hw54 : k0_chk54 v480), ∀ a, (k0_off108 v480) a + S1x2048.size a ≤ S32000x2048.size a := fun v480 k0_hw54 => k0_hw54

def k0_off109 (i : grid0.Coords) : Fin 1 → Nat :=
  let arg0 : BitVec 32 := BitVec.ofNat 32 (i 0).val
  let c256_i32 : BitVec 32 := 256#32
  let v0 : BitVec 32 := Scalar.muli arg0 c256_i32
  let c54_i32 : BitVec 32 := 54#32
  let v487 : BitVec 32 := Scalar.addi v0 c54_i32
  let v488 : Index := Scalar.indexCast v487
  ![v488.toNat]
def k0_off110 (v489 : BitVec 32) : Fin 2 → Nat :=
  let c0_i32_219 : BitVec 32 := 0#32
  ![v489.toNat, 0]

def k0_chk55 (v489 : BitVec 32) : Prop :=
  (∀ a, (k0_off110 v489) a + S1x2048.size a ≤ S32000x2048.size a)
instance k0_chk55.dec : ∀ (v489 : BitVec 32), Decidable (k0_chk55 v489) := fun v489 => decidable_of_iff' _ (Iff.of_eq (k0_chk55.eq_1 v489))
theorem k0_off110_inb : ∀ (v489 : BitVec 32) (k0_hw55 : k0_chk55 v489), ∀ a, (k0_off110 v489) a + S1x2048.size a ≤ S32000x2048.size a := fun v489 k0_hw55 => k0_hw55

def k0_off111 (i : grid0.Coords) : Fin 1 → Nat :=
  let arg0 : BitVec 32 := BitVec.ofNat 32 (i 0).val
  let c256_i32 : BitVec 32 := 256#32
  let v0 : BitVec 32 := Scalar.muli arg0 c256_i32
  let c55_i32 : BitVec 32 := 55#32
  let v496 : BitVec 32 := Scalar.addi v0 c55_i32
  let v497 : Index := Scalar.indexCast v496
  ![v497.toNat]
def k0_off112 (v498 : BitVec 32) : Fin 2 → Nat :=
  let c0_i32_223 : BitVec 32 := 0#32
  ![v498.toNat, 0]

def k0_chk56 (v498 : BitVec 32) : Prop :=
  (∀ a, (k0_off112 v498) a + S1x2048.size a ≤ S32000x2048.size a)
instance k0_chk56.dec : ∀ (v498 : BitVec 32), Decidable (k0_chk56 v498) := fun v498 => decidable_of_iff' _ (Iff.of_eq (k0_chk56.eq_1 v498))
theorem k0_off112_inb : ∀ (v498 : BitVec 32) (k0_hw56 : k0_chk56 v498), ∀ a, (k0_off112 v498) a + S1x2048.size a ≤ S32000x2048.size a := fun v498 k0_hw56 => k0_hw56

def k0_off113 (i : grid0.Coords) : Fin 1 → Nat :=
  let arg0 : BitVec 32 := BitVec.ofNat 32 (i 0).val
  let c256_i32 : BitVec 32 := 256#32
  let v0 : BitVec 32 := Scalar.muli arg0 c256_i32
  let c56_i32 : BitVec 32 := 56#32
  let v505 : BitVec 32 := Scalar.addi v0 c56_i32
  let v506 : Index := Scalar.indexCast v505
  ![v506.toNat]
def k0_off114 (v507 : BitVec 32) : Fin 2 → Nat :=
  let c0_i32_227 : BitVec 32 := 0#32
  ![v507.toNat, 0]

def k0_chk57 (v507 : BitVec 32) : Prop :=
  (∀ a, (k0_off114 v507) a + S1x2048.size a ≤ S32000x2048.size a)
instance k0_chk57.dec : ∀ (v507 : BitVec 32), Decidable (k0_chk57 v507) := fun v507 => decidable_of_iff' _ (Iff.of_eq (k0_chk57.eq_1 v507))
theorem k0_off114_inb : ∀ (v507 : BitVec 32) (k0_hw57 : k0_chk57 v507), ∀ a, (k0_off114 v507) a + S1x2048.size a ≤ S32000x2048.size a := fun v507 k0_hw57 => k0_hw57

def k0_off115 (i : grid0.Coords) : Fin 1 → Nat :=
  let arg0 : BitVec 32 := BitVec.ofNat 32 (i 0).val
  let c256_i32 : BitVec 32 := 256#32
  let v0 : BitVec 32 := Scalar.muli arg0 c256_i32
  let c57_i32 : BitVec 32 := 57#32
  let v514 : BitVec 32 := Scalar.addi v0 c57_i32
  let v515 : Index := Scalar.indexCast v514
  ![v515.toNat]
def k0_off116 (v516 : BitVec 32) : Fin 2 → Nat :=
  let c0_i32_231 : BitVec 32 := 0#32
  ![v516.toNat, 0]

def k0_chk58 (v516 : BitVec 32) : Prop :=
  (∀ a, (k0_off116 v516) a + S1x2048.size a ≤ S32000x2048.size a)
instance k0_chk58.dec : ∀ (v516 : BitVec 32), Decidable (k0_chk58 v516) := fun v516 => decidable_of_iff' _ (Iff.of_eq (k0_chk58.eq_1 v516))
theorem k0_off116_inb : ∀ (v516 : BitVec 32) (k0_hw58 : k0_chk58 v516), ∀ a, (k0_off116 v516) a + S1x2048.size a ≤ S32000x2048.size a := fun v516 k0_hw58 => k0_hw58

def k0_off117 (i : grid0.Coords) : Fin 1 → Nat :=
  let arg0 : BitVec 32 := BitVec.ofNat 32 (i 0).val
  let c256_i32 : BitVec 32 := 256#32
  let v0 : BitVec 32 := Scalar.muli arg0 c256_i32
  let c58_i32 : BitVec 32 := 58#32
  let v523 : BitVec 32 := Scalar.addi v0 c58_i32
  let v524 : Index := Scalar.indexCast v523
  ![v524.toNat]
def k0_off118 (v525 : BitVec 32) : Fin 2 → Nat :=
  let c0_i32_235 : BitVec 32 := 0#32
  ![v525.toNat, 0]

def k0_chk59 (v525 : BitVec 32) : Prop :=
  (∀ a, (k0_off118 v525) a + S1x2048.size a ≤ S32000x2048.size a)
instance k0_chk59.dec : ∀ (v525 : BitVec 32), Decidable (k0_chk59 v525) := fun v525 => decidable_of_iff' _ (Iff.of_eq (k0_chk59.eq_1 v525))
theorem k0_off118_inb : ∀ (v525 : BitVec 32) (k0_hw59 : k0_chk59 v525), ∀ a, (k0_off118 v525) a + S1x2048.size a ≤ S32000x2048.size a := fun v525 k0_hw59 => k0_hw59

def k0_off119 (i : grid0.Coords) : Fin 1 → Nat :=
  let arg0 : BitVec 32 := BitVec.ofNat 32 (i 0).val
  let c256_i32 : BitVec 32 := 256#32
  let v0 : BitVec 32 := Scalar.muli arg0 c256_i32
  let c59_i32 : BitVec 32 := 59#32
  let v532 : BitVec 32 := Scalar.addi v0 c59_i32
  let v533 : Index := Scalar.indexCast v532
  ![v533.toNat]
def k0_off120 (v534 : BitVec 32) : Fin 2 → Nat :=
  let c0_i32_239 : BitVec 32 := 0#32
  ![v534.toNat, 0]

def k0_chk60 (v534 : BitVec 32) : Prop :=
  (∀ a, (k0_off120 v534) a + S1x2048.size a ≤ S32000x2048.size a)
instance k0_chk60.dec : ∀ (v534 : BitVec 32), Decidable (k0_chk60 v534) := fun v534 => decidable_of_iff' _ (Iff.of_eq (k0_chk60.eq_1 v534))
theorem k0_off120_inb : ∀ (v534 : BitVec 32) (k0_hw60 : k0_chk60 v534), ∀ a, (k0_off120 v534) a + S1x2048.size a ≤ S32000x2048.size a := fun v534 k0_hw60 => k0_hw60

def k0_off121 (i : grid0.Coords) : Fin 1 → Nat :=
  let arg0 : BitVec 32 := BitVec.ofNat 32 (i 0).val
  let c256_i32 : BitVec 32 := 256#32
  let v0 : BitVec 32 := Scalar.muli arg0 c256_i32
  let c60_i32 : BitVec 32 := 60#32
  let v541 : BitVec 32 := Scalar.addi v0 c60_i32
  let v542 : Index := Scalar.indexCast v541
  ![v542.toNat]
def k0_off122 (v543 : BitVec 32) : Fin 2 → Nat :=
  let c0_i32_243 : BitVec 32 := 0#32
  ![v543.toNat, 0]

def k0_chk61 (v543 : BitVec 32) : Prop :=
  (∀ a, (k0_off122 v543) a + S1x2048.size a ≤ S32000x2048.size a)
instance k0_chk61.dec : ∀ (v543 : BitVec 32), Decidable (k0_chk61 v543) := fun v543 => decidable_of_iff' _ (Iff.of_eq (k0_chk61.eq_1 v543))
theorem k0_off122_inb : ∀ (v543 : BitVec 32) (k0_hw61 : k0_chk61 v543), ∀ a, (k0_off122 v543) a + S1x2048.size a ≤ S32000x2048.size a := fun v543 k0_hw61 => k0_hw61

def k0_off123 (i : grid0.Coords) : Fin 1 → Nat :=
  let arg0 : BitVec 32 := BitVec.ofNat 32 (i 0).val
  let c256_i32 : BitVec 32 := 256#32
  let v0 : BitVec 32 := Scalar.muli arg0 c256_i32
  let c61_i32 : BitVec 32 := 61#32
  let v550 : BitVec 32 := Scalar.addi v0 c61_i32
  let v551 : Index := Scalar.indexCast v550
  ![v551.toNat]
def k0_off124 (v552 : BitVec 32) : Fin 2 → Nat :=
  let c0_i32_247 : BitVec 32 := 0#32
  ![v552.toNat, 0]

def k0_chk62 (v552 : BitVec 32) : Prop :=
  (∀ a, (k0_off124 v552) a + S1x2048.size a ≤ S32000x2048.size a)
instance k0_chk62.dec : ∀ (v552 : BitVec 32), Decidable (k0_chk62 v552) := fun v552 => decidable_of_iff' _ (Iff.of_eq (k0_chk62.eq_1 v552))
theorem k0_off124_inb : ∀ (v552 : BitVec 32) (k0_hw62 : k0_chk62 v552), ∀ a, (k0_off124 v552) a + S1x2048.size a ≤ S32000x2048.size a := fun v552 k0_hw62 => k0_hw62

def k0_off125 (i : grid0.Coords) : Fin 1 → Nat :=
  let arg0 : BitVec 32 := BitVec.ofNat 32 (i 0).val
  let c256_i32 : BitVec 32 := 256#32
  let v0 : BitVec 32 := Scalar.muli arg0 c256_i32
  let c62_i32 : BitVec 32 := 62#32
  let v559 : BitVec 32 := Scalar.addi v0 c62_i32
  let v560 : Index := Scalar.indexCast v559
  ![v560.toNat]
def k0_off126 (v561 : BitVec 32) : Fin 2 → Nat :=
  let c0_i32_251 : BitVec 32 := 0#32
  ![v561.toNat, 0]

def k0_chk63 (v561 : BitVec 32) : Prop :=
  (∀ a, (k0_off126 v561) a + S1x2048.size a ≤ S32000x2048.size a)
instance k0_chk63.dec : ∀ (v561 : BitVec 32), Decidable (k0_chk63 v561) := fun v561 => decidable_of_iff' _ (Iff.of_eq (k0_chk63.eq_1 v561))
theorem k0_off126_inb : ∀ (v561 : BitVec 32) (k0_hw63 : k0_chk63 v561), ∀ a, (k0_off126 v561) a + S1x2048.size a ≤ S32000x2048.size a := fun v561 k0_hw63 => k0_hw63

def k0_off127 (i : grid0.Coords) : Fin 1 → Nat :=
  let arg0 : BitVec 32 := BitVec.ofNat 32 (i 0).val
  let c256_i32 : BitVec 32 := 256#32
  let v0 : BitVec 32 := Scalar.muli arg0 c256_i32
  let c63_i32 : BitVec 32 := 63#32
  let v568 : BitVec 32 := Scalar.addi v0 c63_i32
  let v569 : Index := Scalar.indexCast v568
  ![v569.toNat]
def k0_off128 (v570 : BitVec 32) : Fin 2 → Nat :=
  let c0_i32_255 : BitVec 32 := 0#32
  ![v570.toNat, 0]

def k0_chk64 (v570 : BitVec 32) : Prop :=
  (∀ a, (k0_off128 v570) a + S1x2048.size a ≤ S32000x2048.size a)
instance k0_chk64.dec : ∀ (v570 : BitVec 32), Decidable (k0_chk64 v570) := fun v570 => decidable_of_iff' _ (Iff.of_eq (k0_chk64.eq_1 v570))
theorem k0_off128_inb : ∀ (v570 : BitVec 32) (k0_hw64 : k0_chk64 v570), ∀ a, (k0_off128 v570) a + S1x2048.size a ≤ S32000x2048.size a := fun v570 k0_hw64 => k0_hw64

def k0_off129 (i : grid0.Coords) : Fin 1 → Nat :=
  let arg0 : BitVec 32 := BitVec.ofNat 32 (i 0).val
  let c256_i32 : BitVec 32 := 256#32
  let v0 : BitVec 32 := Scalar.muli arg0 c256_i32
  let c64_i32 : BitVec 32 := 64#32
  let v577 : BitVec 32 := Scalar.addi v0 c64_i32
  let v578 : Index := Scalar.indexCast v577
  ![v578.toNat]
def k0_off130 (v579 : BitVec 32) : Fin 2 → Nat :=
  let c0_i32_259 : BitVec 32 := 0#32
  ![v579.toNat, 0]

def k0_chk65 (v579 : BitVec 32) : Prop :=
  (∀ a, (k0_off130 v579) a + S1x2048.size a ≤ S32000x2048.size a)
instance k0_chk65.dec : ∀ (v579 : BitVec 32), Decidable (k0_chk65 v579) := fun v579 => decidable_of_iff' _ (Iff.of_eq (k0_chk65.eq_1 v579))
theorem k0_off130_inb : ∀ (v579 : BitVec 32) (k0_hw65 : k0_chk65 v579), ∀ a, (k0_off130 v579) a + S1x2048.size a ≤ S32000x2048.size a := fun v579 k0_hw65 => k0_hw65

def k0_off131 (i : grid0.Coords) : Fin 1 → Nat :=
  let arg0 : BitVec 32 := BitVec.ofNat 32 (i 0).val
  let c256_i32 : BitVec 32 := 256#32
  let v0 : BitVec 32 := Scalar.muli arg0 c256_i32
  let c65_i32 : BitVec 32 := 65#32
  let v586 : BitVec 32 := Scalar.addi v0 c65_i32
  let v587 : Index := Scalar.indexCast v586
  ![v587.toNat]
def k0_off132 (v588 : BitVec 32) : Fin 2 → Nat :=
  let c0_i32_263 : BitVec 32 := 0#32
  ![v588.toNat, 0]

def k0_chk66 (v588 : BitVec 32) : Prop :=
  (∀ a, (k0_off132 v588) a + S1x2048.size a ≤ S32000x2048.size a)
instance k0_chk66.dec : ∀ (v588 : BitVec 32), Decidable (k0_chk66 v588) := fun v588 => decidable_of_iff' _ (Iff.of_eq (k0_chk66.eq_1 v588))
theorem k0_off132_inb : ∀ (v588 : BitVec 32) (k0_hw66 : k0_chk66 v588), ∀ a, (k0_off132 v588) a + S1x2048.size a ≤ S32000x2048.size a := fun v588 k0_hw66 => k0_hw66

def k0_off133 (i : grid0.Coords) : Fin 1 → Nat :=
  let arg0 : BitVec 32 := BitVec.ofNat 32 (i 0).val
  let c256_i32 : BitVec 32 := 256#32
  let v0 : BitVec 32 := Scalar.muli arg0 c256_i32
  let c66_i32 : BitVec 32 := 66#32
  let v595 : BitVec 32 := Scalar.addi v0 c66_i32
  let v596 : Index := Scalar.indexCast v595
  ![v596.toNat]
def k0_off134 (v597 : BitVec 32) : Fin 2 → Nat :=
  let c0_i32_267 : BitVec 32 := 0#32
  ![v597.toNat, 0]

def k0_chk67 (v597 : BitVec 32) : Prop :=
  (∀ a, (k0_off134 v597) a + S1x2048.size a ≤ S32000x2048.size a)
instance k0_chk67.dec : ∀ (v597 : BitVec 32), Decidable (k0_chk67 v597) := fun v597 => decidable_of_iff' _ (Iff.of_eq (k0_chk67.eq_1 v597))
theorem k0_off134_inb : ∀ (v597 : BitVec 32) (k0_hw67 : k0_chk67 v597), ∀ a, (k0_off134 v597) a + S1x2048.size a ≤ S32000x2048.size a := fun v597 k0_hw67 => k0_hw67

def k0_off135 (i : grid0.Coords) : Fin 1 → Nat :=
  let arg0 : BitVec 32 := BitVec.ofNat 32 (i 0).val
  let c256_i32 : BitVec 32 := 256#32
  let v0 : BitVec 32 := Scalar.muli arg0 c256_i32
  let c67_i32 : BitVec 32 := 67#32
  let v604 : BitVec 32 := Scalar.addi v0 c67_i32
  let v605 : Index := Scalar.indexCast v604
  ![v605.toNat]
def k0_off136 (v606 : BitVec 32) : Fin 2 → Nat :=
  let c0_i32_271 : BitVec 32 := 0#32
  ![v606.toNat, 0]

def k0_chk68 (v606 : BitVec 32) : Prop :=
  (∀ a, (k0_off136 v606) a + S1x2048.size a ≤ S32000x2048.size a)
instance k0_chk68.dec : ∀ (v606 : BitVec 32), Decidable (k0_chk68 v606) := fun v606 => decidable_of_iff' _ (Iff.of_eq (k0_chk68.eq_1 v606))
theorem k0_off136_inb : ∀ (v606 : BitVec 32) (k0_hw68 : k0_chk68 v606), ∀ a, (k0_off136 v606) a + S1x2048.size a ≤ S32000x2048.size a := fun v606 k0_hw68 => k0_hw68

def k0_off137 (i : grid0.Coords) : Fin 1 → Nat :=
  let arg0 : BitVec 32 := BitVec.ofNat 32 (i 0).val
  let c256_i32 : BitVec 32 := 256#32
  let v0 : BitVec 32 := Scalar.muli arg0 c256_i32
  let c68_i32 : BitVec 32 := 68#32
  let v613 : BitVec 32 := Scalar.addi v0 c68_i32
  let v614 : Index := Scalar.indexCast v613
  ![v614.toNat]
def k0_off138 (v615 : BitVec 32) : Fin 2 → Nat :=
  let c0_i32_275 : BitVec 32 := 0#32
  ![v615.toNat, 0]

def k0_chk69 (v615 : BitVec 32) : Prop :=
  (∀ a, (k0_off138 v615) a + S1x2048.size a ≤ S32000x2048.size a)
instance k0_chk69.dec : ∀ (v615 : BitVec 32), Decidable (k0_chk69 v615) := fun v615 => decidable_of_iff' _ (Iff.of_eq (k0_chk69.eq_1 v615))
theorem k0_off138_inb : ∀ (v615 : BitVec 32) (k0_hw69 : k0_chk69 v615), ∀ a, (k0_off138 v615) a + S1x2048.size a ≤ S32000x2048.size a := fun v615 k0_hw69 => k0_hw69

def k0_off139 (i : grid0.Coords) : Fin 1 → Nat :=
  let arg0 : BitVec 32 := BitVec.ofNat 32 (i 0).val
  let c256_i32 : BitVec 32 := 256#32
  let v0 : BitVec 32 := Scalar.muli arg0 c256_i32
  let c69_i32 : BitVec 32 := 69#32
  let v622 : BitVec 32 := Scalar.addi v0 c69_i32
  let v623 : Index := Scalar.indexCast v622
  ![v623.toNat]
def k0_off140 (v624 : BitVec 32) : Fin 2 → Nat :=
  let c0_i32_279 : BitVec 32 := 0#32
  ![v624.toNat, 0]

def k0_chk70 (v624 : BitVec 32) : Prop :=
  (∀ a, (k0_off140 v624) a + S1x2048.size a ≤ S32000x2048.size a)
instance k0_chk70.dec : ∀ (v624 : BitVec 32), Decidable (k0_chk70 v624) := fun v624 => decidable_of_iff' _ (Iff.of_eq (k0_chk70.eq_1 v624))
theorem k0_off140_inb : ∀ (v624 : BitVec 32) (k0_hw70 : k0_chk70 v624), ∀ a, (k0_off140 v624) a + S1x2048.size a ≤ S32000x2048.size a := fun v624 k0_hw70 => k0_hw70

def k0_off141 (i : grid0.Coords) : Fin 1 → Nat :=
  let arg0 : BitVec 32 := BitVec.ofNat 32 (i 0).val
  let c256_i32 : BitVec 32 := 256#32
  let v0 : BitVec 32 := Scalar.muli arg0 c256_i32
  let c70_i32 : BitVec 32 := 70#32
  let v631 : BitVec 32 := Scalar.addi v0 c70_i32
  let v632 : Index := Scalar.indexCast v631
  ![v632.toNat]
def k0_off142 (v633 : BitVec 32) : Fin 2 → Nat :=
  let c0_i32_283 : BitVec 32 := 0#32
  ![v633.toNat, 0]

def k0_chk71 (v633 : BitVec 32) : Prop :=
  (∀ a, (k0_off142 v633) a + S1x2048.size a ≤ S32000x2048.size a)
instance k0_chk71.dec : ∀ (v633 : BitVec 32), Decidable (k0_chk71 v633) := fun v633 => decidable_of_iff' _ (Iff.of_eq (k0_chk71.eq_1 v633))
theorem k0_off142_inb : ∀ (v633 : BitVec 32) (k0_hw71 : k0_chk71 v633), ∀ a, (k0_off142 v633) a + S1x2048.size a ≤ S32000x2048.size a := fun v633 k0_hw71 => k0_hw71

def k0_off143 (i : grid0.Coords) : Fin 1 → Nat :=
  let arg0 : BitVec 32 := BitVec.ofNat 32 (i 0).val
  let c256_i32 : BitVec 32 := 256#32
  let v0 : BitVec 32 := Scalar.muli arg0 c256_i32
  let c71_i32 : BitVec 32 := 71#32
  let v640 : BitVec 32 := Scalar.addi v0 c71_i32
  let v641 : Index := Scalar.indexCast v640
  ![v641.toNat]
def k0_off144 (v642 : BitVec 32) : Fin 2 → Nat :=
  let c0_i32_287 : BitVec 32 := 0#32
  ![v642.toNat, 0]

def k0_chk72 (v642 : BitVec 32) : Prop :=
  (∀ a, (k0_off144 v642) a + S1x2048.size a ≤ S32000x2048.size a)
instance k0_chk72.dec : ∀ (v642 : BitVec 32), Decidable (k0_chk72 v642) := fun v642 => decidable_of_iff' _ (Iff.of_eq (k0_chk72.eq_1 v642))
theorem k0_off144_inb : ∀ (v642 : BitVec 32) (k0_hw72 : k0_chk72 v642), ∀ a, (k0_off144 v642) a + S1x2048.size a ≤ S32000x2048.size a := fun v642 k0_hw72 => k0_hw72

def k0_off145 (i : grid0.Coords) : Fin 1 → Nat :=
  let arg0 : BitVec 32 := BitVec.ofNat 32 (i 0).val
  let c256_i32 : BitVec 32 := 256#32
  let v0 : BitVec 32 := Scalar.muli arg0 c256_i32
  let c72_i32 : BitVec 32 := 72#32
  let v649 : BitVec 32 := Scalar.addi v0 c72_i32
  let v650 : Index := Scalar.indexCast v649
  ![v650.toNat]
def k0_off146 (v651 : BitVec 32) : Fin 2 → Nat :=
  let c0_i32_291 : BitVec 32 := 0#32
  ![v651.toNat, 0]

def k0_chk73 (v651 : BitVec 32) : Prop :=
  (∀ a, (k0_off146 v651) a + S1x2048.size a ≤ S32000x2048.size a)
instance k0_chk73.dec : ∀ (v651 : BitVec 32), Decidable (k0_chk73 v651) := fun v651 => decidable_of_iff' _ (Iff.of_eq (k0_chk73.eq_1 v651))
theorem k0_off146_inb : ∀ (v651 : BitVec 32) (k0_hw73 : k0_chk73 v651), ∀ a, (k0_off146 v651) a + S1x2048.size a ≤ S32000x2048.size a := fun v651 k0_hw73 => k0_hw73

def k0_off147 (i : grid0.Coords) : Fin 1 → Nat :=
  let arg0 : BitVec 32 := BitVec.ofNat 32 (i 0).val
  let c256_i32 : BitVec 32 := 256#32
  let v0 : BitVec 32 := Scalar.muli arg0 c256_i32
  let c73_i32 : BitVec 32 := 73#32
  let v658 : BitVec 32 := Scalar.addi v0 c73_i32
  let v659 : Index := Scalar.indexCast v658
  ![v659.toNat]
def k0_off148 (v660 : BitVec 32) : Fin 2 → Nat :=
  let c0_i32_295 : BitVec 32 := 0#32
  ![v660.toNat, 0]

def k0_chk74 (v660 : BitVec 32) : Prop :=
  (∀ a, (k0_off148 v660) a + S1x2048.size a ≤ S32000x2048.size a)
instance k0_chk74.dec : ∀ (v660 : BitVec 32), Decidable (k0_chk74 v660) := fun v660 => decidable_of_iff' _ (Iff.of_eq (k0_chk74.eq_1 v660))
theorem k0_off148_inb : ∀ (v660 : BitVec 32) (k0_hw74 : k0_chk74 v660), ∀ a, (k0_off148 v660) a + S1x2048.size a ≤ S32000x2048.size a := fun v660 k0_hw74 => k0_hw74

def k0_off149 (i : grid0.Coords) : Fin 1 → Nat :=
  let arg0 : BitVec 32 := BitVec.ofNat 32 (i 0).val
  let c256_i32 : BitVec 32 := 256#32
  let v0 : BitVec 32 := Scalar.muli arg0 c256_i32
  let c74_i32 : BitVec 32 := 74#32
  let v667 : BitVec 32 := Scalar.addi v0 c74_i32
  let v668 : Index := Scalar.indexCast v667
  ![v668.toNat]
def k0_off150 (v669 : BitVec 32) : Fin 2 → Nat :=
  let c0_i32_299 : BitVec 32 := 0#32
  ![v669.toNat, 0]

def k0_chk75 (v669 : BitVec 32) : Prop :=
  (∀ a, (k0_off150 v669) a + S1x2048.size a ≤ S32000x2048.size a)
instance k0_chk75.dec : ∀ (v669 : BitVec 32), Decidable (k0_chk75 v669) := fun v669 => decidable_of_iff' _ (Iff.of_eq (k0_chk75.eq_1 v669))
theorem k0_off150_inb : ∀ (v669 : BitVec 32) (k0_hw75 : k0_chk75 v669), ∀ a, (k0_off150 v669) a + S1x2048.size a ≤ S32000x2048.size a := fun v669 k0_hw75 => k0_hw75

def k0_off151 (i : grid0.Coords) : Fin 1 → Nat :=
  let arg0 : BitVec 32 := BitVec.ofNat 32 (i 0).val
  let c256_i32 : BitVec 32 := 256#32
  let v0 : BitVec 32 := Scalar.muli arg0 c256_i32
  let c75_i32 : BitVec 32 := 75#32
  let v676 : BitVec 32 := Scalar.addi v0 c75_i32
  let v677 : Index := Scalar.indexCast v676
  ![v677.toNat]
def k0_off152 (v678 : BitVec 32) : Fin 2 → Nat :=
  let c0_i32_303 : BitVec 32 := 0#32
  ![v678.toNat, 0]

def k0_chk76 (v678 : BitVec 32) : Prop :=
  (∀ a, (k0_off152 v678) a + S1x2048.size a ≤ S32000x2048.size a)
instance k0_chk76.dec : ∀ (v678 : BitVec 32), Decidable (k0_chk76 v678) := fun v678 => decidable_of_iff' _ (Iff.of_eq (k0_chk76.eq_1 v678))
theorem k0_off152_inb : ∀ (v678 : BitVec 32) (k0_hw76 : k0_chk76 v678), ∀ a, (k0_off152 v678) a + S1x2048.size a ≤ S32000x2048.size a := fun v678 k0_hw76 => k0_hw76

def k0_off153 (i : grid0.Coords) : Fin 1 → Nat :=
  let arg0 : BitVec 32 := BitVec.ofNat 32 (i 0).val
  let c256_i32 : BitVec 32 := 256#32
  let v0 : BitVec 32 := Scalar.muli arg0 c256_i32
  let c76_i32 : BitVec 32 := 76#32
  let v685 : BitVec 32 := Scalar.addi v0 c76_i32
  let v686 : Index := Scalar.indexCast v685
  ![v686.toNat]
def k0_off154 (v687 : BitVec 32) : Fin 2 → Nat :=
  let c0_i32_307 : BitVec 32 := 0#32
  ![v687.toNat, 0]

def k0_chk77 (v687 : BitVec 32) : Prop :=
  (∀ a, (k0_off154 v687) a + S1x2048.size a ≤ S32000x2048.size a)
instance k0_chk77.dec : ∀ (v687 : BitVec 32), Decidable (k0_chk77 v687) := fun v687 => decidable_of_iff' _ (Iff.of_eq (k0_chk77.eq_1 v687))
theorem k0_off154_inb : ∀ (v687 : BitVec 32) (k0_hw77 : k0_chk77 v687), ∀ a, (k0_off154 v687) a + S1x2048.size a ≤ S32000x2048.size a := fun v687 k0_hw77 => k0_hw77

def k0_off155 (i : grid0.Coords) : Fin 1 → Nat :=
  let arg0 : BitVec 32 := BitVec.ofNat 32 (i 0).val
  let c256_i32 : BitVec 32 := 256#32
  let v0 : BitVec 32 := Scalar.muli arg0 c256_i32
  let c77_i32 : BitVec 32 := 77#32
  let v694 : BitVec 32 := Scalar.addi v0 c77_i32
  let v695 : Index := Scalar.indexCast v694
  ![v695.toNat]
def k0_off156 (v696 : BitVec 32) : Fin 2 → Nat :=
  let c0_i32_311 : BitVec 32 := 0#32
  ![v696.toNat, 0]

def k0_chk78 (v696 : BitVec 32) : Prop :=
  (∀ a, (k0_off156 v696) a + S1x2048.size a ≤ S32000x2048.size a)
instance k0_chk78.dec : ∀ (v696 : BitVec 32), Decidable (k0_chk78 v696) := fun v696 => decidable_of_iff' _ (Iff.of_eq (k0_chk78.eq_1 v696))
theorem k0_off156_inb : ∀ (v696 : BitVec 32) (k0_hw78 : k0_chk78 v696), ∀ a, (k0_off156 v696) a + S1x2048.size a ≤ S32000x2048.size a := fun v696 k0_hw78 => k0_hw78

def k0_off157 (i : grid0.Coords) : Fin 1 → Nat :=
  let arg0 : BitVec 32 := BitVec.ofNat 32 (i 0).val
  let c256_i32 : BitVec 32 := 256#32
  let v0 : BitVec 32 := Scalar.muli arg0 c256_i32
  let c78_i32 : BitVec 32 := 78#32
  let v703 : BitVec 32 := Scalar.addi v0 c78_i32
  let v704 : Index := Scalar.indexCast v703
  ![v704.toNat]
def k0_off158 (v705 : BitVec 32) : Fin 2 → Nat :=
  let c0_i32_315 : BitVec 32 := 0#32
  ![v705.toNat, 0]

def k0_chk79 (v705 : BitVec 32) : Prop :=
  (∀ a, (k0_off158 v705) a + S1x2048.size a ≤ S32000x2048.size a)
instance k0_chk79.dec : ∀ (v705 : BitVec 32), Decidable (k0_chk79 v705) := fun v705 => decidable_of_iff' _ (Iff.of_eq (k0_chk79.eq_1 v705))
theorem k0_off158_inb : ∀ (v705 : BitVec 32) (k0_hw79 : k0_chk79 v705), ∀ a, (k0_off158 v705) a + S1x2048.size a ≤ S32000x2048.size a := fun v705 k0_hw79 => k0_hw79

def k0_off159 (i : grid0.Coords) : Fin 1 → Nat :=
  let arg0 : BitVec 32 := BitVec.ofNat 32 (i 0).val
  let c256_i32 : BitVec 32 := 256#32
  let v0 : BitVec 32 := Scalar.muli arg0 c256_i32
  let c79_i32 : BitVec 32 := 79#32
  let v712 : BitVec 32 := Scalar.addi v0 c79_i32
  let v713 : Index := Scalar.indexCast v712
  ![v713.toNat]
def k0_off160 (v714 : BitVec 32) : Fin 2 → Nat :=
  let c0_i32_319 : BitVec 32 := 0#32
  ![v714.toNat, 0]

def k0_chk80 (v714 : BitVec 32) : Prop :=
  (∀ a, (k0_off160 v714) a + S1x2048.size a ≤ S32000x2048.size a)
instance k0_chk80.dec : ∀ (v714 : BitVec 32), Decidable (k0_chk80 v714) := fun v714 => decidable_of_iff' _ (Iff.of_eq (k0_chk80.eq_1 v714))
theorem k0_off160_inb : ∀ (v714 : BitVec 32) (k0_hw80 : k0_chk80 v714), ∀ a, (k0_off160 v714) a + S1x2048.size a ≤ S32000x2048.size a := fun v714 k0_hw80 => k0_hw80

def k0_off161 (i : grid0.Coords) : Fin 1 → Nat :=
  let arg0 : BitVec 32 := BitVec.ofNat 32 (i 0).val
  let c256_i32 : BitVec 32 := 256#32
  let v0 : BitVec 32 := Scalar.muli arg0 c256_i32
  let c80_i32 : BitVec 32 := 80#32
  let v721 : BitVec 32 := Scalar.addi v0 c80_i32
  let v722 : Index := Scalar.indexCast v721
  ![v722.toNat]
def k0_off162 (v723 : BitVec 32) : Fin 2 → Nat :=
  let c0_i32_323 : BitVec 32 := 0#32
  ![v723.toNat, 0]

def k0_chk81 (v723 : BitVec 32) : Prop :=
  (∀ a, (k0_off162 v723) a + S1x2048.size a ≤ S32000x2048.size a)
instance k0_chk81.dec : ∀ (v723 : BitVec 32), Decidable (k0_chk81 v723) := fun v723 => decidable_of_iff' _ (Iff.of_eq (k0_chk81.eq_1 v723))
theorem k0_off162_inb : ∀ (v723 : BitVec 32) (k0_hw81 : k0_chk81 v723), ∀ a, (k0_off162 v723) a + S1x2048.size a ≤ S32000x2048.size a := fun v723 k0_hw81 => k0_hw81

def k0_off163 (i : grid0.Coords) : Fin 1 → Nat :=
  let arg0 : BitVec 32 := BitVec.ofNat 32 (i 0).val
  let c256_i32 : BitVec 32 := 256#32
  let v0 : BitVec 32 := Scalar.muli arg0 c256_i32
  let c81_i32 : BitVec 32 := 81#32
  let v730 : BitVec 32 := Scalar.addi v0 c81_i32
  let v731 : Index := Scalar.indexCast v730
  ![v731.toNat]
def k0_off164 (v732 : BitVec 32) : Fin 2 → Nat :=
  let c0_i32_327 : BitVec 32 := 0#32
  ![v732.toNat, 0]

def k0_chk82 (v732 : BitVec 32) : Prop :=
  (∀ a, (k0_off164 v732) a + S1x2048.size a ≤ S32000x2048.size a)
instance k0_chk82.dec : ∀ (v732 : BitVec 32), Decidable (k0_chk82 v732) := fun v732 => decidable_of_iff' _ (Iff.of_eq (k0_chk82.eq_1 v732))
theorem k0_off164_inb : ∀ (v732 : BitVec 32) (k0_hw82 : k0_chk82 v732), ∀ a, (k0_off164 v732) a + S1x2048.size a ≤ S32000x2048.size a := fun v732 k0_hw82 => k0_hw82

def k0_off165 (i : grid0.Coords) : Fin 1 → Nat :=
  let arg0 : BitVec 32 := BitVec.ofNat 32 (i 0).val
  let c256_i32 : BitVec 32 := 256#32
  let v0 : BitVec 32 := Scalar.muli arg0 c256_i32
  let c82_i32 : BitVec 32 := 82#32
  let v739 : BitVec 32 := Scalar.addi v0 c82_i32
  let v740 : Index := Scalar.indexCast v739
  ![v740.toNat]
def k0_off166 (v741 : BitVec 32) : Fin 2 → Nat :=
  let c0_i32_331 : BitVec 32 := 0#32
  ![v741.toNat, 0]

def k0_chk83 (v741 : BitVec 32) : Prop :=
  (∀ a, (k0_off166 v741) a + S1x2048.size a ≤ S32000x2048.size a)
instance k0_chk83.dec : ∀ (v741 : BitVec 32), Decidable (k0_chk83 v741) := fun v741 => decidable_of_iff' _ (Iff.of_eq (k0_chk83.eq_1 v741))
theorem k0_off166_inb : ∀ (v741 : BitVec 32) (k0_hw83 : k0_chk83 v741), ∀ a, (k0_off166 v741) a + S1x2048.size a ≤ S32000x2048.size a := fun v741 k0_hw83 => k0_hw83

def k0_off167 (i : grid0.Coords) : Fin 1 → Nat :=
  let arg0 : BitVec 32 := BitVec.ofNat 32 (i 0).val
  let c256_i32 : BitVec 32 := 256#32
  let v0 : BitVec 32 := Scalar.muli arg0 c256_i32
  let c83_i32 : BitVec 32 := 83#32
  let v748 : BitVec 32 := Scalar.addi v0 c83_i32
  let v749 : Index := Scalar.indexCast v748
  ![v749.toNat]
def k0_off168 (v750 : BitVec 32) : Fin 2 → Nat :=
  let c0_i32_335 : BitVec 32 := 0#32
  ![v750.toNat, 0]

def k0_chk84 (v750 : BitVec 32) : Prop :=
  (∀ a, (k0_off168 v750) a + S1x2048.size a ≤ S32000x2048.size a)
instance k0_chk84.dec : ∀ (v750 : BitVec 32), Decidable (k0_chk84 v750) := fun v750 => decidable_of_iff' _ (Iff.of_eq (k0_chk84.eq_1 v750))
theorem k0_off168_inb : ∀ (v750 : BitVec 32) (k0_hw84 : k0_chk84 v750), ∀ a, (k0_off168 v750) a + S1x2048.size a ≤ S32000x2048.size a := fun v750 k0_hw84 => k0_hw84

def k0_off169 (i : grid0.Coords) : Fin 1 → Nat :=
  let arg0 : BitVec 32 := BitVec.ofNat 32 (i 0).val
  let c256_i32 : BitVec 32 := 256#32
  let v0 : BitVec 32 := Scalar.muli arg0 c256_i32
  let c84_i32 : BitVec 32 := 84#32
  let v757 : BitVec 32 := Scalar.addi v0 c84_i32
  let v758 : Index := Scalar.indexCast v757
  ![v758.toNat]
def k0_off170 (v759 : BitVec 32) : Fin 2 → Nat :=
  let c0_i32_339 : BitVec 32 := 0#32
  ![v759.toNat, 0]

def k0_chk85 (v759 : BitVec 32) : Prop :=
  (∀ a, (k0_off170 v759) a + S1x2048.size a ≤ S32000x2048.size a)
instance k0_chk85.dec : ∀ (v759 : BitVec 32), Decidable (k0_chk85 v759) := fun v759 => decidable_of_iff' _ (Iff.of_eq (k0_chk85.eq_1 v759))
theorem k0_off170_inb : ∀ (v759 : BitVec 32) (k0_hw85 : k0_chk85 v759), ∀ a, (k0_off170 v759) a + S1x2048.size a ≤ S32000x2048.size a := fun v759 k0_hw85 => k0_hw85

def k0_off171 (i : grid0.Coords) : Fin 1 → Nat :=
  let arg0 : BitVec 32 := BitVec.ofNat 32 (i 0).val
  let c256_i32 : BitVec 32 := 256#32
  let v0 : BitVec 32 := Scalar.muli arg0 c256_i32
  let c85_i32 : BitVec 32 := 85#32
  let v766 : BitVec 32 := Scalar.addi v0 c85_i32
  let v767 : Index := Scalar.indexCast v766
  ![v767.toNat]
def k0_off172 (v768 : BitVec 32) : Fin 2 → Nat :=
  let c0_i32_343 : BitVec 32 := 0#32
  ![v768.toNat, 0]

def k0_chk86 (v768 : BitVec 32) : Prop :=
  (∀ a, (k0_off172 v768) a + S1x2048.size a ≤ S32000x2048.size a)
instance k0_chk86.dec : ∀ (v768 : BitVec 32), Decidable (k0_chk86 v768) := fun v768 => decidable_of_iff' _ (Iff.of_eq (k0_chk86.eq_1 v768))
theorem k0_off172_inb : ∀ (v768 : BitVec 32) (k0_hw86 : k0_chk86 v768), ∀ a, (k0_off172 v768) a + S1x2048.size a ≤ S32000x2048.size a := fun v768 k0_hw86 => k0_hw86

def k0_off173 (i : grid0.Coords) : Fin 1 → Nat :=
  let arg0 : BitVec 32 := BitVec.ofNat 32 (i 0).val
  let c256_i32 : BitVec 32 := 256#32
  let v0 : BitVec 32 := Scalar.muli arg0 c256_i32
  let c86_i32 : BitVec 32 := 86#32
  let v775 : BitVec 32 := Scalar.addi v0 c86_i32
  let v776 : Index := Scalar.indexCast v775
  ![v776.toNat]
def k0_off174 (v777 : BitVec 32) : Fin 2 → Nat :=
  let c0_i32_347 : BitVec 32 := 0#32
  ![v777.toNat, 0]

def k0_chk87 (v777 : BitVec 32) : Prop :=
  (∀ a, (k0_off174 v777) a + S1x2048.size a ≤ S32000x2048.size a)
instance k0_chk87.dec : ∀ (v777 : BitVec 32), Decidable (k0_chk87 v777) := fun v777 => decidable_of_iff' _ (Iff.of_eq (k0_chk87.eq_1 v777))
theorem k0_off174_inb : ∀ (v777 : BitVec 32) (k0_hw87 : k0_chk87 v777), ∀ a, (k0_off174 v777) a + S1x2048.size a ≤ S32000x2048.size a := fun v777 k0_hw87 => k0_hw87

def k0_off175 (i : grid0.Coords) : Fin 1 → Nat :=
  let arg0 : BitVec 32 := BitVec.ofNat 32 (i 0).val
  let c256_i32 : BitVec 32 := 256#32
  let v0 : BitVec 32 := Scalar.muli arg0 c256_i32
  let c87_i32 : BitVec 32 := 87#32
  let v784 : BitVec 32 := Scalar.addi v0 c87_i32
  let v785 : Index := Scalar.indexCast v784
  ![v785.toNat]
def k0_off176 (v786 : BitVec 32) : Fin 2 → Nat :=
  let c0_i32_351 : BitVec 32 := 0#32
  ![v786.toNat, 0]

def k0_chk88 (v786 : BitVec 32) : Prop :=
  (∀ a, (k0_off176 v786) a + S1x2048.size a ≤ S32000x2048.size a)
instance k0_chk88.dec : ∀ (v786 : BitVec 32), Decidable (k0_chk88 v786) := fun v786 => decidable_of_iff' _ (Iff.of_eq (k0_chk88.eq_1 v786))
theorem k0_off176_inb : ∀ (v786 : BitVec 32) (k0_hw88 : k0_chk88 v786), ∀ a, (k0_off176 v786) a + S1x2048.size a ≤ S32000x2048.size a := fun v786 k0_hw88 => k0_hw88

def k0_off177 (i : grid0.Coords) : Fin 1 → Nat :=
  let arg0 : BitVec 32 := BitVec.ofNat 32 (i 0).val
  let c256_i32 : BitVec 32 := 256#32
  let v0 : BitVec 32 := Scalar.muli arg0 c256_i32
  let c88_i32 : BitVec 32 := 88#32
  let v793 : BitVec 32 := Scalar.addi v0 c88_i32
  let v794 : Index := Scalar.indexCast v793
  ![v794.toNat]
def k0_off178 (v795 : BitVec 32) : Fin 2 → Nat :=
  let c0_i32_355 : BitVec 32 := 0#32
  ![v795.toNat, 0]

def k0_chk89 (v795 : BitVec 32) : Prop :=
  (∀ a, (k0_off178 v795) a + S1x2048.size a ≤ S32000x2048.size a)
instance k0_chk89.dec : ∀ (v795 : BitVec 32), Decidable (k0_chk89 v795) := fun v795 => decidable_of_iff' _ (Iff.of_eq (k0_chk89.eq_1 v795))
theorem k0_off178_inb : ∀ (v795 : BitVec 32) (k0_hw89 : k0_chk89 v795), ∀ a, (k0_off178 v795) a + S1x2048.size a ≤ S32000x2048.size a := fun v795 k0_hw89 => k0_hw89

def k0_off179 (i : grid0.Coords) : Fin 1 → Nat :=
  let arg0 : BitVec 32 := BitVec.ofNat 32 (i 0).val
  let c256_i32 : BitVec 32 := 256#32
  let v0 : BitVec 32 := Scalar.muli arg0 c256_i32
  let c89_i32 : BitVec 32 := 89#32
  let v802 : BitVec 32 := Scalar.addi v0 c89_i32
  let v803 : Index := Scalar.indexCast v802
  ![v803.toNat]
def k0_off180 (v804 : BitVec 32) : Fin 2 → Nat :=
  let c0_i32_359 : BitVec 32 := 0#32
  ![v804.toNat, 0]

def k0_chk90 (v804 : BitVec 32) : Prop :=
  (∀ a, (k0_off180 v804) a + S1x2048.size a ≤ S32000x2048.size a)
instance k0_chk90.dec : ∀ (v804 : BitVec 32), Decidable (k0_chk90 v804) := fun v804 => decidable_of_iff' _ (Iff.of_eq (k0_chk90.eq_1 v804))
theorem k0_off180_inb : ∀ (v804 : BitVec 32) (k0_hw90 : k0_chk90 v804), ∀ a, (k0_off180 v804) a + S1x2048.size a ≤ S32000x2048.size a := fun v804 k0_hw90 => k0_hw90

def k0_off181 (i : grid0.Coords) : Fin 1 → Nat :=
  let arg0 : BitVec 32 := BitVec.ofNat 32 (i 0).val
  let c256_i32 : BitVec 32 := 256#32
  let v0 : BitVec 32 := Scalar.muli arg0 c256_i32
  let c90_i32 : BitVec 32 := 90#32
  let v811 : BitVec 32 := Scalar.addi v0 c90_i32
  let v812 : Index := Scalar.indexCast v811
  ![v812.toNat]
def k0_off182 (v813 : BitVec 32) : Fin 2 → Nat :=
  let c0_i32_363 : BitVec 32 := 0#32
  ![v813.toNat, 0]

def k0_chk91 (v813 : BitVec 32) : Prop :=
  (∀ a, (k0_off182 v813) a + S1x2048.size a ≤ S32000x2048.size a)
instance k0_chk91.dec : ∀ (v813 : BitVec 32), Decidable (k0_chk91 v813) := fun v813 => decidable_of_iff' _ (Iff.of_eq (k0_chk91.eq_1 v813))
theorem k0_off182_inb : ∀ (v813 : BitVec 32) (k0_hw91 : k0_chk91 v813), ∀ a, (k0_off182 v813) a + S1x2048.size a ≤ S32000x2048.size a := fun v813 k0_hw91 => k0_hw91

def k0_off183 (i : grid0.Coords) : Fin 1 → Nat :=
  let arg0 : BitVec 32 := BitVec.ofNat 32 (i 0).val
  let c256_i32 : BitVec 32 := 256#32
  let v0 : BitVec 32 := Scalar.muli arg0 c256_i32
  let c91_i32 : BitVec 32 := 91#32
  let v820 : BitVec 32 := Scalar.addi v0 c91_i32
  let v821 : Index := Scalar.indexCast v820
  ![v821.toNat]
def k0_off184 (v822 : BitVec 32) : Fin 2 → Nat :=
  let c0_i32_367 : BitVec 32 := 0#32
  ![v822.toNat, 0]

def k0_chk92 (v822 : BitVec 32) : Prop :=
  (∀ a, (k0_off184 v822) a + S1x2048.size a ≤ S32000x2048.size a)
instance k0_chk92.dec : ∀ (v822 : BitVec 32), Decidable (k0_chk92 v822) := fun v822 => decidable_of_iff' _ (Iff.of_eq (k0_chk92.eq_1 v822))
theorem k0_off184_inb : ∀ (v822 : BitVec 32) (k0_hw92 : k0_chk92 v822), ∀ a, (k0_off184 v822) a + S1x2048.size a ≤ S32000x2048.size a := fun v822 k0_hw92 => k0_hw92

def k0_off185 (i : grid0.Coords) : Fin 1 → Nat :=
  let arg0 : BitVec 32 := BitVec.ofNat 32 (i 0).val
  let c256_i32 : BitVec 32 := 256#32
  let v0 : BitVec 32 := Scalar.muli arg0 c256_i32
  let c92_i32 : BitVec 32 := 92#32
  let v829 : BitVec 32 := Scalar.addi v0 c92_i32
  let v830 : Index := Scalar.indexCast v829
  ![v830.toNat]
def k0_off186 (v831 : BitVec 32) : Fin 2 → Nat :=
  let c0_i32_371 : BitVec 32 := 0#32
  ![v831.toNat, 0]

def k0_chk93 (v831 : BitVec 32) : Prop :=
  (∀ a, (k0_off186 v831) a + S1x2048.size a ≤ S32000x2048.size a)
instance k0_chk93.dec : ∀ (v831 : BitVec 32), Decidable (k0_chk93 v831) := fun v831 => decidable_of_iff' _ (Iff.of_eq (k0_chk93.eq_1 v831))
theorem k0_off186_inb : ∀ (v831 : BitVec 32) (k0_hw93 : k0_chk93 v831), ∀ a, (k0_off186 v831) a + S1x2048.size a ≤ S32000x2048.size a := fun v831 k0_hw93 => k0_hw93

def k0_off187 (i : grid0.Coords) : Fin 1 → Nat :=
  let arg0 : BitVec 32 := BitVec.ofNat 32 (i 0).val
  let c256_i32 : BitVec 32 := 256#32
  let v0 : BitVec 32 := Scalar.muli arg0 c256_i32
  let c93_i32 : BitVec 32 := 93#32
  let v838 : BitVec 32 := Scalar.addi v0 c93_i32
  let v839 : Index := Scalar.indexCast v838
  ![v839.toNat]
def k0_off188 (v840 : BitVec 32) : Fin 2 → Nat :=
  let c0_i32_375 : BitVec 32 := 0#32
  ![v840.toNat, 0]

def k0_chk94 (v840 : BitVec 32) : Prop :=
  (∀ a, (k0_off188 v840) a + S1x2048.size a ≤ S32000x2048.size a)
instance k0_chk94.dec : ∀ (v840 : BitVec 32), Decidable (k0_chk94 v840) := fun v840 => decidable_of_iff' _ (Iff.of_eq (k0_chk94.eq_1 v840))
theorem k0_off188_inb : ∀ (v840 : BitVec 32) (k0_hw94 : k0_chk94 v840), ∀ a, (k0_off188 v840) a + S1x2048.size a ≤ S32000x2048.size a := fun v840 k0_hw94 => k0_hw94

def k0_off189 (i : grid0.Coords) : Fin 1 → Nat :=
  let arg0 : BitVec 32 := BitVec.ofNat 32 (i 0).val
  let c256_i32 : BitVec 32 := 256#32
  let v0 : BitVec 32 := Scalar.muli arg0 c256_i32
  let c94_i32 : BitVec 32 := 94#32
  let v847 : BitVec 32 := Scalar.addi v0 c94_i32
  let v848 : Index := Scalar.indexCast v847
  ![v848.toNat]
def k0_off190 (v849 : BitVec 32) : Fin 2 → Nat :=
  let c0_i32_379 : BitVec 32 := 0#32
  ![v849.toNat, 0]

def k0_chk95 (v849 : BitVec 32) : Prop :=
  (∀ a, (k0_off190 v849) a + S1x2048.size a ≤ S32000x2048.size a)
instance k0_chk95.dec : ∀ (v849 : BitVec 32), Decidable (k0_chk95 v849) := fun v849 => decidable_of_iff' _ (Iff.of_eq (k0_chk95.eq_1 v849))
theorem k0_off190_inb : ∀ (v849 : BitVec 32) (k0_hw95 : k0_chk95 v849), ∀ a, (k0_off190 v849) a + S1x2048.size a ≤ S32000x2048.size a := fun v849 k0_hw95 => k0_hw95

def k0_off191 (i : grid0.Coords) : Fin 1 → Nat :=
  let arg0 : BitVec 32 := BitVec.ofNat 32 (i 0).val
  let c256_i32 : BitVec 32 := 256#32
  let v0 : BitVec 32 := Scalar.muli arg0 c256_i32
  let c95_i32 : BitVec 32 := 95#32
  let v856 : BitVec 32 := Scalar.addi v0 c95_i32
  let v857 : Index := Scalar.indexCast v856
  ![v857.toNat]
def k0_off192 (v858 : BitVec 32) : Fin 2 → Nat :=
  let c0_i32_383 : BitVec 32 := 0#32
  ![v858.toNat, 0]

def k0_chk96 (v858 : BitVec 32) : Prop :=
  (∀ a, (k0_off192 v858) a + S1x2048.size a ≤ S32000x2048.size a)
instance k0_chk96.dec : ∀ (v858 : BitVec 32), Decidable (k0_chk96 v858) := fun v858 => decidable_of_iff' _ (Iff.of_eq (k0_chk96.eq_1 v858))
theorem k0_off192_inb : ∀ (v858 : BitVec 32) (k0_hw96 : k0_chk96 v858), ∀ a, (k0_off192 v858) a + S1x2048.size a ≤ S32000x2048.size a := fun v858 k0_hw96 => k0_hw96

def k0_off193 (i : grid0.Coords) : Fin 1 → Nat :=
  let arg0 : BitVec 32 := BitVec.ofNat 32 (i 0).val
  let c256_i32 : BitVec 32 := 256#32
  let v0 : BitVec 32 := Scalar.muli arg0 c256_i32
  let c96_i32 : BitVec 32 := 96#32
  let v865 : BitVec 32 := Scalar.addi v0 c96_i32
  let v866 : Index := Scalar.indexCast v865
  ![v866.toNat]
def k0_off194 (v867 : BitVec 32) : Fin 2 → Nat :=
  let c0_i32_387 : BitVec 32 := 0#32
  ![v867.toNat, 0]

def k0_chk97 (v867 : BitVec 32) : Prop :=
  (∀ a, (k0_off194 v867) a + S1x2048.size a ≤ S32000x2048.size a)
instance k0_chk97.dec : ∀ (v867 : BitVec 32), Decidable (k0_chk97 v867) := fun v867 => decidable_of_iff' _ (Iff.of_eq (k0_chk97.eq_1 v867))
theorem k0_off194_inb : ∀ (v867 : BitVec 32) (k0_hw97 : k0_chk97 v867), ∀ a, (k0_off194 v867) a + S1x2048.size a ≤ S32000x2048.size a := fun v867 k0_hw97 => k0_hw97

def k0_off195 (i : grid0.Coords) : Fin 1 → Nat :=
  let arg0 : BitVec 32 := BitVec.ofNat 32 (i 0).val
  let c256_i32 : BitVec 32 := 256#32
  let v0 : BitVec 32 := Scalar.muli arg0 c256_i32
  let c97_i32 : BitVec 32 := 97#32
  let v874 : BitVec 32 := Scalar.addi v0 c97_i32
  let v875 : Index := Scalar.indexCast v874
  ![v875.toNat]
def k0_off196 (v876 : BitVec 32) : Fin 2 → Nat :=
  let c0_i32_391 : BitVec 32 := 0#32
  ![v876.toNat, 0]

def k0_chk98 (v876 : BitVec 32) : Prop :=
  (∀ a, (k0_off196 v876) a + S1x2048.size a ≤ S32000x2048.size a)
instance k0_chk98.dec : ∀ (v876 : BitVec 32), Decidable (k0_chk98 v876) := fun v876 => decidable_of_iff' _ (Iff.of_eq (k0_chk98.eq_1 v876))
theorem k0_off196_inb : ∀ (v876 : BitVec 32) (k0_hw98 : k0_chk98 v876), ∀ a, (k0_off196 v876) a + S1x2048.size a ≤ S32000x2048.size a := fun v876 k0_hw98 => k0_hw98

def k0_off197 (i : grid0.Coords) : Fin 1 → Nat :=
  let arg0 : BitVec 32 := BitVec.ofNat 32 (i 0).val
  let c256_i32 : BitVec 32 := 256#32
  let v0 : BitVec 32 := Scalar.muli arg0 c256_i32
  let c98_i32 : BitVec 32 := 98#32
  let v883 : BitVec 32 := Scalar.addi v0 c98_i32
  let v884 : Index := Scalar.indexCast v883
  ![v884.toNat]
def k0_off198 (v885 : BitVec 32) : Fin 2 → Nat :=
  let c0_i32_395 : BitVec 32 := 0#32
  ![v885.toNat, 0]

def k0_chk99 (v885 : BitVec 32) : Prop :=
  (∀ a, (k0_off198 v885) a + S1x2048.size a ≤ S32000x2048.size a)
instance k0_chk99.dec : ∀ (v885 : BitVec 32), Decidable (k0_chk99 v885) := fun v885 => decidable_of_iff' _ (Iff.of_eq (k0_chk99.eq_1 v885))
theorem k0_off198_inb : ∀ (v885 : BitVec 32) (k0_hw99 : k0_chk99 v885), ∀ a, (k0_off198 v885) a + S1x2048.size a ≤ S32000x2048.size a := fun v885 k0_hw99 => k0_hw99

def k0_off199 (i : grid0.Coords) : Fin 1 → Nat :=
  let arg0 : BitVec 32 := BitVec.ofNat 32 (i 0).val
  let c256_i32 : BitVec 32 := 256#32
  let v0 : BitVec 32 := Scalar.muli arg0 c256_i32
  let c99_i32 : BitVec 32 := 99#32
  let v892 : BitVec 32 := Scalar.addi v0 c99_i32
  let v893 : Index := Scalar.indexCast v892
  ![v893.toNat]
def k0_off200 (v894 : BitVec 32) : Fin 2 → Nat :=
  let c0_i32_399 : BitVec 32 := 0#32
  ![v894.toNat, 0]

def k0_chk100 (v894 : BitVec 32) : Prop :=
  (∀ a, (k0_off200 v894) a + S1x2048.size a ≤ S32000x2048.size a)
instance k0_chk100.dec : ∀ (v894 : BitVec 32), Decidable (k0_chk100 v894) := fun v894 => decidable_of_iff' _ (Iff.of_eq (k0_chk100.eq_1 v894))
theorem k0_off200_inb : ∀ (v894 : BitVec 32) (k0_hw100 : k0_chk100 v894), ∀ a, (k0_off200 v894) a + S1x2048.size a ≤ S32000x2048.size a := fun v894 k0_hw100 => k0_hw100

def k0_off201 (i : grid0.Coords) : Fin 1 → Nat :=
  let arg0 : BitVec 32 := BitVec.ofNat 32 (i 0).val
  let c256_i32 : BitVec 32 := 256#32
  let v0 : BitVec 32 := Scalar.muli arg0 c256_i32
  let c100_i32 : BitVec 32 := 100#32
  let v901 : BitVec 32 := Scalar.addi v0 c100_i32
  let v902 : Index := Scalar.indexCast v901
  ![v902.toNat]
def k0_off202 (v903 : BitVec 32) : Fin 2 → Nat :=
  let c0_i32_403 : BitVec 32 := 0#32
  ![v903.toNat, 0]

def k0_chk101 (v903 : BitVec 32) : Prop :=
  (∀ a, (k0_off202 v903) a + S1x2048.size a ≤ S32000x2048.size a)
instance k0_chk101.dec : ∀ (v903 : BitVec 32), Decidable (k0_chk101 v903) := fun v903 => decidable_of_iff' _ (Iff.of_eq (k0_chk101.eq_1 v903))
theorem k0_off202_inb : ∀ (v903 : BitVec 32) (k0_hw101 : k0_chk101 v903), ∀ a, (k0_off202 v903) a + S1x2048.size a ≤ S32000x2048.size a := fun v903 k0_hw101 => k0_hw101

def k0_off203 (i : grid0.Coords) : Fin 1 → Nat :=
  let arg0 : BitVec 32 := BitVec.ofNat 32 (i 0).val
  let c256_i32 : BitVec 32 := 256#32
  let v0 : BitVec 32 := Scalar.muli arg0 c256_i32
  let c101_i32 : BitVec 32 := 101#32
  let v910 : BitVec 32 := Scalar.addi v0 c101_i32
  let v911 : Index := Scalar.indexCast v910
  ![v911.toNat]
def k0_off204 (v912 : BitVec 32) : Fin 2 → Nat :=
  let c0_i32_407 : BitVec 32 := 0#32
  ![v912.toNat, 0]

def k0_chk102 (v912 : BitVec 32) : Prop :=
  (∀ a, (k0_off204 v912) a + S1x2048.size a ≤ S32000x2048.size a)
instance k0_chk102.dec : ∀ (v912 : BitVec 32), Decidable (k0_chk102 v912) := fun v912 => decidable_of_iff' _ (Iff.of_eq (k0_chk102.eq_1 v912))
theorem k0_off204_inb : ∀ (v912 : BitVec 32) (k0_hw102 : k0_chk102 v912), ∀ a, (k0_off204 v912) a + S1x2048.size a ≤ S32000x2048.size a := fun v912 k0_hw102 => k0_hw102

def k0_off205 (i : grid0.Coords) : Fin 1 → Nat :=
  let arg0 : BitVec 32 := BitVec.ofNat 32 (i 0).val
  let c256_i32 : BitVec 32 := 256#32
  let v0 : BitVec 32 := Scalar.muli arg0 c256_i32
  let c102_i32 : BitVec 32 := 102#32
  let v919 : BitVec 32 := Scalar.addi v0 c102_i32
  let v920 : Index := Scalar.indexCast v919
  ![v920.toNat]
def k0_off206 (v921 : BitVec 32) : Fin 2 → Nat :=
  let c0_i32_411 : BitVec 32 := 0#32
  ![v921.toNat, 0]

def k0_chk103 (v921 : BitVec 32) : Prop :=
  (∀ a, (k0_off206 v921) a + S1x2048.size a ≤ S32000x2048.size a)
instance k0_chk103.dec : ∀ (v921 : BitVec 32), Decidable (k0_chk103 v921) := fun v921 => decidable_of_iff' _ (Iff.of_eq (k0_chk103.eq_1 v921))
theorem k0_off206_inb : ∀ (v921 : BitVec 32) (k0_hw103 : k0_chk103 v921), ∀ a, (k0_off206 v921) a + S1x2048.size a ≤ S32000x2048.size a := fun v921 k0_hw103 => k0_hw103

def k0_off207 (i : grid0.Coords) : Fin 1 → Nat :=
  let arg0 : BitVec 32 := BitVec.ofNat 32 (i 0).val
  let c256_i32 : BitVec 32 := 256#32
  let v0 : BitVec 32 := Scalar.muli arg0 c256_i32
  let c103_i32 : BitVec 32 := 103#32
  let v928 : BitVec 32 := Scalar.addi v0 c103_i32
  let v929 : Index := Scalar.indexCast v928
  ![v929.toNat]
def k0_off208 (v930 : BitVec 32) : Fin 2 → Nat :=
  let c0_i32_415 : BitVec 32 := 0#32
  ![v930.toNat, 0]

def k0_chk104 (v930 : BitVec 32) : Prop :=
  (∀ a, (k0_off208 v930) a + S1x2048.size a ≤ S32000x2048.size a)
instance k0_chk104.dec : ∀ (v930 : BitVec 32), Decidable (k0_chk104 v930) := fun v930 => decidable_of_iff' _ (Iff.of_eq (k0_chk104.eq_1 v930))
theorem k0_off208_inb : ∀ (v930 : BitVec 32) (k0_hw104 : k0_chk104 v930), ∀ a, (k0_off208 v930) a + S1x2048.size a ≤ S32000x2048.size a := fun v930 k0_hw104 => k0_hw104

def k0_off209 (i : grid0.Coords) : Fin 1 → Nat :=
  let arg0 : BitVec 32 := BitVec.ofNat 32 (i 0).val
  let c256_i32 : BitVec 32 := 256#32
  let v0 : BitVec 32 := Scalar.muli arg0 c256_i32
  let c104_i32 : BitVec 32 := 104#32
  let v937 : BitVec 32 := Scalar.addi v0 c104_i32
  let v938 : Index := Scalar.indexCast v937
  ![v938.toNat]
def k0_off210 (v939 : BitVec 32) : Fin 2 → Nat :=
  let c0_i32_419 : BitVec 32 := 0#32
  ![v939.toNat, 0]

def k0_chk105 (v939 : BitVec 32) : Prop :=
  (∀ a, (k0_off210 v939) a + S1x2048.size a ≤ S32000x2048.size a)
instance k0_chk105.dec : ∀ (v939 : BitVec 32), Decidable (k0_chk105 v939) := fun v939 => decidable_of_iff' _ (Iff.of_eq (k0_chk105.eq_1 v939))
theorem k0_off210_inb : ∀ (v939 : BitVec 32) (k0_hw105 : k0_chk105 v939), ∀ a, (k0_off210 v939) a + S1x2048.size a ≤ S32000x2048.size a := fun v939 k0_hw105 => k0_hw105

def k0_off211 (i : grid0.Coords) : Fin 1 → Nat :=
  let arg0 : BitVec 32 := BitVec.ofNat 32 (i 0).val
  let c256_i32 : BitVec 32 := 256#32
  let v0 : BitVec 32 := Scalar.muli arg0 c256_i32
  let c105_i32 : BitVec 32 := 105#32
  let v946 : BitVec 32 := Scalar.addi v0 c105_i32
  let v947 : Index := Scalar.indexCast v946
  ![v947.toNat]
def k0_off212 (v948 : BitVec 32) : Fin 2 → Nat :=
  let c0_i32_423 : BitVec 32 := 0#32
  ![v948.toNat, 0]

def k0_chk106 (v948 : BitVec 32) : Prop :=
  (∀ a, (k0_off212 v948) a + S1x2048.size a ≤ S32000x2048.size a)
instance k0_chk106.dec : ∀ (v948 : BitVec 32), Decidable (k0_chk106 v948) := fun v948 => decidable_of_iff' _ (Iff.of_eq (k0_chk106.eq_1 v948))
theorem k0_off212_inb : ∀ (v948 : BitVec 32) (k0_hw106 : k0_chk106 v948), ∀ a, (k0_off212 v948) a + S1x2048.size a ≤ S32000x2048.size a := fun v948 k0_hw106 => k0_hw106

def k0_off213 (i : grid0.Coords) : Fin 1 → Nat :=
  let arg0 : BitVec 32 := BitVec.ofNat 32 (i 0).val
  let c256_i32 : BitVec 32 := 256#32
  let v0 : BitVec 32 := Scalar.muli arg0 c256_i32
  let c106_i32 : BitVec 32 := 106#32
  let v955 : BitVec 32 := Scalar.addi v0 c106_i32
  let v956 : Index := Scalar.indexCast v955
  ![v956.toNat]
def k0_off214 (v957 : BitVec 32) : Fin 2 → Nat :=
  let c0_i32_427 : BitVec 32 := 0#32
  ![v957.toNat, 0]

def k0_chk107 (v957 : BitVec 32) : Prop :=
  (∀ a, (k0_off214 v957) a + S1x2048.size a ≤ S32000x2048.size a)
instance k0_chk107.dec : ∀ (v957 : BitVec 32), Decidable (k0_chk107 v957) := fun v957 => decidable_of_iff' _ (Iff.of_eq (k0_chk107.eq_1 v957))
theorem k0_off214_inb : ∀ (v957 : BitVec 32) (k0_hw107 : k0_chk107 v957), ∀ a, (k0_off214 v957) a + S1x2048.size a ≤ S32000x2048.size a := fun v957 k0_hw107 => k0_hw107

def k0_off215 (i : grid0.Coords) : Fin 1 → Nat :=
  let arg0 : BitVec 32 := BitVec.ofNat 32 (i 0).val
  let c256_i32 : BitVec 32 := 256#32
  let v0 : BitVec 32 := Scalar.muli arg0 c256_i32
  let c107_i32 : BitVec 32 := 107#32
  let v964 : BitVec 32 := Scalar.addi v0 c107_i32
  let v965 : Index := Scalar.indexCast v964
  ![v965.toNat]
def k0_off216 (v966 : BitVec 32) : Fin 2 → Nat :=
  let c0_i32_431 : BitVec 32 := 0#32
  ![v966.toNat, 0]

def k0_chk108 (v966 : BitVec 32) : Prop :=
  (∀ a, (k0_off216 v966) a + S1x2048.size a ≤ S32000x2048.size a)
instance k0_chk108.dec : ∀ (v966 : BitVec 32), Decidable (k0_chk108 v966) := fun v966 => decidable_of_iff' _ (Iff.of_eq (k0_chk108.eq_1 v966))
theorem k0_off216_inb : ∀ (v966 : BitVec 32) (k0_hw108 : k0_chk108 v966), ∀ a, (k0_off216 v966) a + S1x2048.size a ≤ S32000x2048.size a := fun v966 k0_hw108 => k0_hw108

def k0_off217 (i : grid0.Coords) : Fin 1 → Nat :=
  let arg0 : BitVec 32 := BitVec.ofNat 32 (i 0).val
  let c256_i32 : BitVec 32 := 256#32
  let v0 : BitVec 32 := Scalar.muli arg0 c256_i32
  let c108_i32 : BitVec 32 := 108#32
  let v973 : BitVec 32 := Scalar.addi v0 c108_i32
  let v974 : Index := Scalar.indexCast v973
  ![v974.toNat]
def k0_off218 (v975 : BitVec 32) : Fin 2 → Nat :=
  let c0_i32_435 : BitVec 32 := 0#32
  ![v975.toNat, 0]

def k0_chk109 (v975 : BitVec 32) : Prop :=
  (∀ a, (k0_off218 v975) a + S1x2048.size a ≤ S32000x2048.size a)
instance k0_chk109.dec : ∀ (v975 : BitVec 32), Decidable (k0_chk109 v975) := fun v975 => decidable_of_iff' _ (Iff.of_eq (k0_chk109.eq_1 v975))
theorem k0_off218_inb : ∀ (v975 : BitVec 32) (k0_hw109 : k0_chk109 v975), ∀ a, (k0_off218 v975) a + S1x2048.size a ≤ S32000x2048.size a := fun v975 k0_hw109 => k0_hw109

def k0_off219 (i : grid0.Coords) : Fin 1 → Nat :=
  let arg0 : BitVec 32 := BitVec.ofNat 32 (i 0).val
  let c256_i32 : BitVec 32 := 256#32
  let v0 : BitVec 32 := Scalar.muli arg0 c256_i32
  let c109_i32 : BitVec 32 := 109#32
  let v982 : BitVec 32 := Scalar.addi v0 c109_i32
  let v983 : Index := Scalar.indexCast v982
  ![v983.toNat]
def k0_off220 (v984 : BitVec 32) : Fin 2 → Nat :=
  let c0_i32_439 : BitVec 32 := 0#32
  ![v984.toNat, 0]

def k0_chk110 (v984 : BitVec 32) : Prop :=
  (∀ a, (k0_off220 v984) a + S1x2048.size a ≤ S32000x2048.size a)
instance k0_chk110.dec : ∀ (v984 : BitVec 32), Decidable (k0_chk110 v984) := fun v984 => decidable_of_iff' _ (Iff.of_eq (k0_chk110.eq_1 v984))
theorem k0_off220_inb : ∀ (v984 : BitVec 32) (k0_hw110 : k0_chk110 v984), ∀ a, (k0_off220 v984) a + S1x2048.size a ≤ S32000x2048.size a := fun v984 k0_hw110 => k0_hw110

def k0_off221 (i : grid0.Coords) : Fin 1 → Nat :=
  let arg0 : BitVec 32 := BitVec.ofNat 32 (i 0).val
  let c256_i32 : BitVec 32 := 256#32
  let v0 : BitVec 32 := Scalar.muli arg0 c256_i32
  let c110_i32 : BitVec 32 := 110#32
  let v991 : BitVec 32 := Scalar.addi v0 c110_i32
  let v992 : Index := Scalar.indexCast v991
  ![v992.toNat]
def k0_off222 (v993 : BitVec 32) : Fin 2 → Nat :=
  let c0_i32_443 : BitVec 32 := 0#32
  ![v993.toNat, 0]

def k0_chk111 (v993 : BitVec 32) : Prop :=
  (∀ a, (k0_off222 v993) a + S1x2048.size a ≤ S32000x2048.size a)
instance k0_chk111.dec : ∀ (v993 : BitVec 32), Decidable (k0_chk111 v993) := fun v993 => decidable_of_iff' _ (Iff.of_eq (k0_chk111.eq_1 v993))
theorem k0_off222_inb : ∀ (v993 : BitVec 32) (k0_hw111 : k0_chk111 v993), ∀ a, (k0_off222 v993) a + S1x2048.size a ≤ S32000x2048.size a := fun v993 k0_hw111 => k0_hw111

def k0_off223 (i : grid0.Coords) : Fin 1 → Nat :=
  let arg0 : BitVec 32 := BitVec.ofNat 32 (i 0).val
  let c256_i32 : BitVec 32 := 256#32
  let v0 : BitVec 32 := Scalar.muli arg0 c256_i32
  let c111_i32 : BitVec 32 := 111#32
  let v1000 : BitVec 32 := Scalar.addi v0 c111_i32
  let v1001 : Index := Scalar.indexCast v1000
  ![v1001.toNat]
def k0_off224 (v1002 : BitVec 32) : Fin 2 → Nat :=
  let c0_i32_447 : BitVec 32 := 0#32
  ![v1002.toNat, 0]

def k0_chk112 (v1002 : BitVec 32) : Prop :=
  (∀ a, (k0_off224 v1002) a + S1x2048.size a ≤ S32000x2048.size a)
instance k0_chk112.dec : ∀ (v1002 : BitVec 32), Decidable (k0_chk112 v1002) := fun v1002 => decidable_of_iff' _ (Iff.of_eq (k0_chk112.eq_1 v1002))
theorem k0_off224_inb : ∀ (v1002 : BitVec 32) (k0_hw112 : k0_chk112 v1002), ∀ a, (k0_off224 v1002) a + S1x2048.size a ≤ S32000x2048.size a := fun v1002 k0_hw112 => k0_hw112

def k0_off225 (i : grid0.Coords) : Fin 1 → Nat :=
  let arg0 : BitVec 32 := BitVec.ofNat 32 (i 0).val
  let c256_i32 : BitVec 32 := 256#32
  let v0 : BitVec 32 := Scalar.muli arg0 c256_i32
  let c112_i32 : BitVec 32 := 112#32
  let v1009 : BitVec 32 := Scalar.addi v0 c112_i32
  let v1010 : Index := Scalar.indexCast v1009
  ![v1010.toNat]
def k0_off226 (v1011 : BitVec 32) : Fin 2 → Nat :=
  let c0_i32_451 : BitVec 32 := 0#32
  ![v1011.toNat, 0]

def k0_chk113 (v1011 : BitVec 32) : Prop :=
  (∀ a, (k0_off226 v1011) a + S1x2048.size a ≤ S32000x2048.size a)
instance k0_chk113.dec : ∀ (v1011 : BitVec 32), Decidable (k0_chk113 v1011) := fun v1011 => decidable_of_iff' _ (Iff.of_eq (k0_chk113.eq_1 v1011))
theorem k0_off226_inb : ∀ (v1011 : BitVec 32) (k0_hw113 : k0_chk113 v1011), ∀ a, (k0_off226 v1011) a + S1x2048.size a ≤ S32000x2048.size a := fun v1011 k0_hw113 => k0_hw113

def k0_off227 (i : grid0.Coords) : Fin 1 → Nat :=
  let arg0 : BitVec 32 := BitVec.ofNat 32 (i 0).val
  let c256_i32 : BitVec 32 := 256#32
  let v0 : BitVec 32 := Scalar.muli arg0 c256_i32
  let c113_i32 : BitVec 32 := 113#32
  let v1018 : BitVec 32 := Scalar.addi v0 c113_i32
  let v1019 : Index := Scalar.indexCast v1018
  ![v1019.toNat]
def k0_off228 (v1020 : BitVec 32) : Fin 2 → Nat :=
  let c0_i32_455 : BitVec 32 := 0#32
  ![v1020.toNat, 0]

def k0_chk114 (v1020 : BitVec 32) : Prop :=
  (∀ a, (k0_off228 v1020) a + S1x2048.size a ≤ S32000x2048.size a)
instance k0_chk114.dec : ∀ (v1020 : BitVec 32), Decidable (k0_chk114 v1020) := fun v1020 => decidable_of_iff' _ (Iff.of_eq (k0_chk114.eq_1 v1020))
theorem k0_off228_inb : ∀ (v1020 : BitVec 32) (k0_hw114 : k0_chk114 v1020), ∀ a, (k0_off228 v1020) a + S1x2048.size a ≤ S32000x2048.size a := fun v1020 k0_hw114 => k0_hw114

def k0_off229 (i : grid0.Coords) : Fin 1 → Nat :=
  let arg0 : BitVec 32 := BitVec.ofNat 32 (i 0).val
  let c256_i32 : BitVec 32 := 256#32
  let v0 : BitVec 32 := Scalar.muli arg0 c256_i32
  let c114_i32 : BitVec 32 := 114#32
  let v1027 : BitVec 32 := Scalar.addi v0 c114_i32
  let v1028 : Index := Scalar.indexCast v1027
  ![v1028.toNat]
def k0_off230 (v1029 : BitVec 32) : Fin 2 → Nat :=
  let c0_i32_459 : BitVec 32 := 0#32
  ![v1029.toNat, 0]

def k0_chk115 (v1029 : BitVec 32) : Prop :=
  (∀ a, (k0_off230 v1029) a + S1x2048.size a ≤ S32000x2048.size a)
instance k0_chk115.dec : ∀ (v1029 : BitVec 32), Decidable (k0_chk115 v1029) := fun v1029 => decidable_of_iff' _ (Iff.of_eq (k0_chk115.eq_1 v1029))
theorem k0_off230_inb : ∀ (v1029 : BitVec 32) (k0_hw115 : k0_chk115 v1029), ∀ a, (k0_off230 v1029) a + S1x2048.size a ≤ S32000x2048.size a := fun v1029 k0_hw115 => k0_hw115

def k0_off231 (i : grid0.Coords) : Fin 1 → Nat :=
  let arg0 : BitVec 32 := BitVec.ofNat 32 (i 0).val
  let c256_i32 : BitVec 32 := 256#32
  let v0 : BitVec 32 := Scalar.muli arg0 c256_i32
  let c115_i32 : BitVec 32 := 115#32
  let v1036 : BitVec 32 := Scalar.addi v0 c115_i32
  let v1037 : Index := Scalar.indexCast v1036
  ![v1037.toNat]
def k0_off232 (v1038 : BitVec 32) : Fin 2 → Nat :=
  let c0_i32_463 : BitVec 32 := 0#32
  ![v1038.toNat, 0]

def k0_chk116 (v1038 : BitVec 32) : Prop :=
  (∀ a, (k0_off232 v1038) a + S1x2048.size a ≤ S32000x2048.size a)
instance k0_chk116.dec : ∀ (v1038 : BitVec 32), Decidable (k0_chk116 v1038) := fun v1038 => decidable_of_iff' _ (Iff.of_eq (k0_chk116.eq_1 v1038))
theorem k0_off232_inb : ∀ (v1038 : BitVec 32) (k0_hw116 : k0_chk116 v1038), ∀ a, (k0_off232 v1038) a + S1x2048.size a ≤ S32000x2048.size a := fun v1038 k0_hw116 => k0_hw116

def k0_off233 (i : grid0.Coords) : Fin 1 → Nat :=
  let arg0 : BitVec 32 := BitVec.ofNat 32 (i 0).val
  let c256_i32 : BitVec 32 := 256#32
  let v0 : BitVec 32 := Scalar.muli arg0 c256_i32
  let c116_i32 : BitVec 32 := 116#32
  let v1045 : BitVec 32 := Scalar.addi v0 c116_i32
  let v1046 : Index := Scalar.indexCast v1045
  ![v1046.toNat]
def k0_off234 (v1047 : BitVec 32) : Fin 2 → Nat :=
  let c0_i32_467 : BitVec 32 := 0#32
  ![v1047.toNat, 0]

def k0_chk117 (v1047 : BitVec 32) : Prop :=
  (∀ a, (k0_off234 v1047) a + S1x2048.size a ≤ S32000x2048.size a)
instance k0_chk117.dec : ∀ (v1047 : BitVec 32), Decidable (k0_chk117 v1047) := fun v1047 => decidable_of_iff' _ (Iff.of_eq (k0_chk117.eq_1 v1047))
theorem k0_off234_inb : ∀ (v1047 : BitVec 32) (k0_hw117 : k0_chk117 v1047), ∀ a, (k0_off234 v1047) a + S1x2048.size a ≤ S32000x2048.size a := fun v1047 k0_hw117 => k0_hw117

def k0_off235 (i : grid0.Coords) : Fin 1 → Nat :=
  let arg0 : BitVec 32 := BitVec.ofNat 32 (i 0).val
  let c256_i32 : BitVec 32 := 256#32
  let v0 : BitVec 32 := Scalar.muli arg0 c256_i32
  let c117_i32 : BitVec 32 := 117#32
  let v1054 : BitVec 32 := Scalar.addi v0 c117_i32
  let v1055 : Index := Scalar.indexCast v1054
  ![v1055.toNat]
def k0_off236 (v1056 : BitVec 32) : Fin 2 → Nat :=
  let c0_i32_471 : BitVec 32 := 0#32
  ![v1056.toNat, 0]

def k0_chk118 (v1056 : BitVec 32) : Prop :=
  (∀ a, (k0_off236 v1056) a + S1x2048.size a ≤ S32000x2048.size a)
instance k0_chk118.dec : ∀ (v1056 : BitVec 32), Decidable (k0_chk118 v1056) := fun v1056 => decidable_of_iff' _ (Iff.of_eq (k0_chk118.eq_1 v1056))
theorem k0_off236_inb : ∀ (v1056 : BitVec 32) (k0_hw118 : k0_chk118 v1056), ∀ a, (k0_off236 v1056) a + S1x2048.size a ≤ S32000x2048.size a := fun v1056 k0_hw118 => k0_hw118

def k0_off237 (i : grid0.Coords) : Fin 1 → Nat :=
  let arg0 : BitVec 32 := BitVec.ofNat 32 (i 0).val
  let c256_i32 : BitVec 32 := 256#32
  let v0 : BitVec 32 := Scalar.muli arg0 c256_i32
  let c118_i32 : BitVec 32 := 118#32
  let v1063 : BitVec 32 := Scalar.addi v0 c118_i32
  let v1064 : Index := Scalar.indexCast v1063
  ![v1064.toNat]
def k0_off238 (v1065 : BitVec 32) : Fin 2 → Nat :=
  let c0_i32_475 : BitVec 32 := 0#32
  ![v1065.toNat, 0]

def k0_chk119 (v1065 : BitVec 32) : Prop :=
  (∀ a, (k0_off238 v1065) a + S1x2048.size a ≤ S32000x2048.size a)
instance k0_chk119.dec : ∀ (v1065 : BitVec 32), Decidable (k0_chk119 v1065) := fun v1065 => decidable_of_iff' _ (Iff.of_eq (k0_chk119.eq_1 v1065))
theorem k0_off238_inb : ∀ (v1065 : BitVec 32) (k0_hw119 : k0_chk119 v1065), ∀ a, (k0_off238 v1065) a + S1x2048.size a ≤ S32000x2048.size a := fun v1065 k0_hw119 => k0_hw119

def k0_off239 (i : grid0.Coords) : Fin 1 → Nat :=
  let arg0 : BitVec 32 := BitVec.ofNat 32 (i 0).val
  let c256_i32 : BitVec 32 := 256#32
  let v0 : BitVec 32 := Scalar.muli arg0 c256_i32
  let c119_i32 : BitVec 32 := 119#32
  let v1072 : BitVec 32 := Scalar.addi v0 c119_i32
  let v1073 : Index := Scalar.indexCast v1072
  ![v1073.toNat]
def k0_off240 (v1074 : BitVec 32) : Fin 2 → Nat :=
  let c0_i32_479 : BitVec 32 := 0#32
  ![v1074.toNat, 0]

def k0_chk120 (v1074 : BitVec 32) : Prop :=
  (∀ a, (k0_off240 v1074) a + S1x2048.size a ≤ S32000x2048.size a)
instance k0_chk120.dec : ∀ (v1074 : BitVec 32), Decidable (k0_chk120 v1074) := fun v1074 => decidable_of_iff' _ (Iff.of_eq (k0_chk120.eq_1 v1074))
theorem k0_off240_inb : ∀ (v1074 : BitVec 32) (k0_hw120 : k0_chk120 v1074), ∀ a, (k0_off240 v1074) a + S1x2048.size a ≤ S32000x2048.size a := fun v1074 k0_hw120 => k0_hw120

def k0_off241 (i : grid0.Coords) : Fin 1 → Nat :=
  let arg0 : BitVec 32 := BitVec.ofNat 32 (i 0).val
  let c256_i32 : BitVec 32 := 256#32
  let v0 : BitVec 32 := Scalar.muli arg0 c256_i32
  let c120_i32 : BitVec 32 := 120#32
  let v1081 : BitVec 32 := Scalar.addi v0 c120_i32
  let v1082 : Index := Scalar.indexCast v1081
  ![v1082.toNat]
def k0_off242 (v1083 : BitVec 32) : Fin 2 → Nat :=
  let c0_i32_483 : BitVec 32 := 0#32
  ![v1083.toNat, 0]

def k0_chk121 (v1083 : BitVec 32) : Prop :=
  (∀ a, (k0_off242 v1083) a + S1x2048.size a ≤ S32000x2048.size a)
instance k0_chk121.dec : ∀ (v1083 : BitVec 32), Decidable (k0_chk121 v1083) := fun v1083 => decidable_of_iff' _ (Iff.of_eq (k0_chk121.eq_1 v1083))
theorem k0_off242_inb : ∀ (v1083 : BitVec 32) (k0_hw121 : k0_chk121 v1083), ∀ a, (k0_off242 v1083) a + S1x2048.size a ≤ S32000x2048.size a := fun v1083 k0_hw121 => k0_hw121

def k0_off243 (i : grid0.Coords) : Fin 1 → Nat :=
  let arg0 : BitVec 32 := BitVec.ofNat 32 (i 0).val
  let c256_i32 : BitVec 32 := 256#32
  let v0 : BitVec 32 := Scalar.muli arg0 c256_i32
  let c121_i32 : BitVec 32 := 121#32
  let v1090 : BitVec 32 := Scalar.addi v0 c121_i32
  let v1091 : Index := Scalar.indexCast v1090
  ![v1091.toNat]
def k0_off244 (v1092 : BitVec 32) : Fin 2 → Nat :=
  let c0_i32_487 : BitVec 32 := 0#32
  ![v1092.toNat, 0]

def k0_chk122 (v1092 : BitVec 32) : Prop :=
  (∀ a, (k0_off244 v1092) a + S1x2048.size a ≤ S32000x2048.size a)
instance k0_chk122.dec : ∀ (v1092 : BitVec 32), Decidable (k0_chk122 v1092) := fun v1092 => decidable_of_iff' _ (Iff.of_eq (k0_chk122.eq_1 v1092))
theorem k0_off244_inb : ∀ (v1092 : BitVec 32) (k0_hw122 : k0_chk122 v1092), ∀ a, (k0_off244 v1092) a + S1x2048.size a ≤ S32000x2048.size a := fun v1092 k0_hw122 => k0_hw122

def k0_off245 (i : grid0.Coords) : Fin 1 → Nat :=
  let arg0 : BitVec 32 := BitVec.ofNat 32 (i 0).val
  let c256_i32 : BitVec 32 := 256#32
  let v0 : BitVec 32 := Scalar.muli arg0 c256_i32
  let c122_i32 : BitVec 32 := 122#32
  let v1099 : BitVec 32 := Scalar.addi v0 c122_i32
  let v1100 : Index := Scalar.indexCast v1099
  ![v1100.toNat]
def k0_off246 (v1101 : BitVec 32) : Fin 2 → Nat :=
  let c0_i32_491 : BitVec 32 := 0#32
  ![v1101.toNat, 0]

def k0_chk123 (v1101 : BitVec 32) : Prop :=
  (∀ a, (k0_off246 v1101) a + S1x2048.size a ≤ S32000x2048.size a)
instance k0_chk123.dec : ∀ (v1101 : BitVec 32), Decidable (k0_chk123 v1101) := fun v1101 => decidable_of_iff' _ (Iff.of_eq (k0_chk123.eq_1 v1101))
theorem k0_off246_inb : ∀ (v1101 : BitVec 32) (k0_hw123 : k0_chk123 v1101), ∀ a, (k0_off246 v1101) a + S1x2048.size a ≤ S32000x2048.size a := fun v1101 k0_hw123 => k0_hw123

def k0_off247 (i : grid0.Coords) : Fin 1 → Nat :=
  let arg0 : BitVec 32 := BitVec.ofNat 32 (i 0).val
  let c256_i32 : BitVec 32 := 256#32
  let v0 : BitVec 32 := Scalar.muli arg0 c256_i32
  let c123_i32 : BitVec 32 := 123#32
  let v1108 : BitVec 32 := Scalar.addi v0 c123_i32
  let v1109 : Index := Scalar.indexCast v1108
  ![v1109.toNat]
def k0_off248 (v1110 : BitVec 32) : Fin 2 → Nat :=
  let c0_i32_495 : BitVec 32 := 0#32
  ![v1110.toNat, 0]

def k0_chk124 (v1110 : BitVec 32) : Prop :=
  (∀ a, (k0_off248 v1110) a + S1x2048.size a ≤ S32000x2048.size a)
instance k0_chk124.dec : ∀ (v1110 : BitVec 32), Decidable (k0_chk124 v1110) := fun v1110 => decidable_of_iff' _ (Iff.of_eq (k0_chk124.eq_1 v1110))
theorem k0_off248_inb : ∀ (v1110 : BitVec 32) (k0_hw124 : k0_chk124 v1110), ∀ a, (k0_off248 v1110) a + S1x2048.size a ≤ S32000x2048.size a := fun v1110 k0_hw124 => k0_hw124

def k0_off249 (i : grid0.Coords) : Fin 1 → Nat :=
  let arg0 : BitVec 32 := BitVec.ofNat 32 (i 0).val
  let c256_i32 : BitVec 32 := 256#32
  let v0 : BitVec 32 := Scalar.muli arg0 c256_i32
  let c124_i32 : BitVec 32 := 124#32
  let v1117 : BitVec 32 := Scalar.addi v0 c124_i32
  let v1118 : Index := Scalar.indexCast v1117
  ![v1118.toNat]
def k0_off250 (v1119 : BitVec 32) : Fin 2 → Nat :=
  let c0_i32_499 : BitVec 32 := 0#32
  ![v1119.toNat, 0]

def k0_chk125 (v1119 : BitVec 32) : Prop :=
  (∀ a, (k0_off250 v1119) a + S1x2048.size a ≤ S32000x2048.size a)
instance k0_chk125.dec : ∀ (v1119 : BitVec 32), Decidable (k0_chk125 v1119) := fun v1119 => decidable_of_iff' _ (Iff.of_eq (k0_chk125.eq_1 v1119))
theorem k0_off250_inb : ∀ (v1119 : BitVec 32) (k0_hw125 : k0_chk125 v1119), ∀ a, (k0_off250 v1119) a + S1x2048.size a ≤ S32000x2048.size a := fun v1119 k0_hw125 => k0_hw125

def k0_off251 (i : grid0.Coords) : Fin 1 → Nat :=
  let arg0 : BitVec 32 := BitVec.ofNat 32 (i 0).val
  let c256_i32 : BitVec 32 := 256#32
  let v0 : BitVec 32 := Scalar.muli arg0 c256_i32
  let c125_i32 : BitVec 32 := 125#32
  let v1126 : BitVec 32 := Scalar.addi v0 c125_i32
  let v1127 : Index := Scalar.indexCast v1126
  ![v1127.toNat]
def k0_off252 (v1128 : BitVec 32) : Fin 2 → Nat :=
  let c0_i32_503 : BitVec 32 := 0#32
  ![v1128.toNat, 0]

def k0_chk126 (v1128 : BitVec 32) : Prop :=
  (∀ a, (k0_off252 v1128) a + S1x2048.size a ≤ S32000x2048.size a)
instance k0_chk126.dec : ∀ (v1128 : BitVec 32), Decidable (k0_chk126 v1128) := fun v1128 => decidable_of_iff' _ (Iff.of_eq (k0_chk126.eq_1 v1128))
theorem k0_off252_inb : ∀ (v1128 : BitVec 32) (k0_hw126 : k0_chk126 v1128), ∀ a, (k0_off252 v1128) a + S1x2048.size a ≤ S32000x2048.size a := fun v1128 k0_hw126 => k0_hw126

def k0_off253 (i : grid0.Coords) : Fin 1 → Nat :=
  let arg0 : BitVec 32 := BitVec.ofNat 32 (i 0).val
  let c256_i32 : BitVec 32 := 256#32
  let v0 : BitVec 32 := Scalar.muli arg0 c256_i32
  let c126_i32 : BitVec 32 := 126#32
  let v1135 : BitVec 32 := Scalar.addi v0 c126_i32
  let v1136 : Index := Scalar.indexCast v1135
  ![v1136.toNat]
def k0_off254 (v1137 : BitVec 32) : Fin 2 → Nat :=
  let c0_i32_507 : BitVec 32 := 0#32
  ![v1137.toNat, 0]

def k0_chk127 (v1137 : BitVec 32) : Prop :=
  (∀ a, (k0_off254 v1137) a + S1x2048.size a ≤ S32000x2048.size a)
instance k0_chk127.dec : ∀ (v1137 : BitVec 32), Decidable (k0_chk127 v1137) := fun v1137 => decidable_of_iff' _ (Iff.of_eq (k0_chk127.eq_1 v1137))
theorem k0_off254_inb : ∀ (v1137 : BitVec 32) (k0_hw127 : k0_chk127 v1137), ∀ a, (k0_off254 v1137) a + S1x2048.size a ≤ S32000x2048.size a := fun v1137 k0_hw127 => k0_hw127

def k0_off255 (i : grid0.Coords) : Fin 1 → Nat :=
  let arg0 : BitVec 32 := BitVec.ofNat 32 (i 0).val
  let c256_i32 : BitVec 32 := 256#32
  let v0 : BitVec 32 := Scalar.muli arg0 c256_i32
  let c127_i32 : BitVec 32 := 127#32
  let v1144 : BitVec 32 := Scalar.addi v0 c127_i32
  let v1145 : Index := Scalar.indexCast v1144
  ![v1145.toNat]
def k0_off256 (v1146 : BitVec 32) : Fin 2 → Nat :=
  let c0_i32_511 : BitVec 32 := 0#32
  ![v1146.toNat, 0]

def k0_chk128 (v1146 : BitVec 32) : Prop :=
  (∀ a, (k0_off256 v1146) a + S1x2048.size a ≤ S32000x2048.size a)
instance k0_chk128.dec : ∀ (v1146 : BitVec 32), Decidable (k0_chk128 v1146) := fun v1146 => decidable_of_iff' _ (Iff.of_eq (k0_chk128.eq_1 v1146))
theorem k0_off256_inb : ∀ (v1146 : BitVec 32) (k0_hw128 : k0_chk128 v1146), ∀ a, (k0_off256 v1146) a + S1x2048.size a ≤ S32000x2048.size a := fun v1146 k0_hw128 => k0_hw128

def k0_off257 (i : grid0.Coords) : Fin 1 → Nat :=
  let arg0 : BitVec 32 := BitVec.ofNat 32 (i 0).val
  let c256_i32 : BitVec 32 := 256#32
  let v0 : BitVec 32 := Scalar.muli arg0 c256_i32
  let c128_i32 : BitVec 32 := 128#32
  let v1153 : BitVec 32 := Scalar.addi v0 c128_i32
  let v1154 : Index := Scalar.indexCast v1153
  ![v1154.toNat]
def k0_off258 (v1155 : BitVec 32) : Fin 2 → Nat :=
  let c0_i32_515 : BitVec 32 := 0#32
  ![v1155.toNat, 0]

def k0_chk129 (v1155 : BitVec 32) : Prop :=
  (∀ a, (k0_off258 v1155) a + S1x2048.size a ≤ S32000x2048.size a)
instance k0_chk129.dec : ∀ (v1155 : BitVec 32), Decidable (k0_chk129 v1155) := fun v1155 => decidable_of_iff' _ (Iff.of_eq (k0_chk129.eq_1 v1155))
theorem k0_off258_inb : ∀ (v1155 : BitVec 32) (k0_hw129 : k0_chk129 v1155), ∀ a, (k0_off258 v1155) a + S1x2048.size a ≤ S32000x2048.size a := fun v1155 k0_hw129 => k0_hw129

def k0_off259 (i : grid0.Coords) : Fin 1 → Nat :=
  let arg0 : BitVec 32 := BitVec.ofNat 32 (i 0).val
  let c256_i32 : BitVec 32 := 256#32
  let v0 : BitVec 32 := Scalar.muli arg0 c256_i32
  let c129_i32 : BitVec 32 := 129#32
  let v1162 : BitVec 32 := Scalar.addi v0 c129_i32
  let v1163 : Index := Scalar.indexCast v1162
  ![v1163.toNat]
def k0_off260 (v1164 : BitVec 32) : Fin 2 → Nat :=
  let c0_i32_519 : BitVec 32 := 0#32
  ![v1164.toNat, 0]

def k0_chk130 (v1164 : BitVec 32) : Prop :=
  (∀ a, (k0_off260 v1164) a + S1x2048.size a ≤ S32000x2048.size a)
instance k0_chk130.dec : ∀ (v1164 : BitVec 32), Decidable (k0_chk130 v1164) := fun v1164 => decidable_of_iff' _ (Iff.of_eq (k0_chk130.eq_1 v1164))
theorem k0_off260_inb : ∀ (v1164 : BitVec 32) (k0_hw130 : k0_chk130 v1164), ∀ a, (k0_off260 v1164) a + S1x2048.size a ≤ S32000x2048.size a := fun v1164 k0_hw130 => k0_hw130

def k0_off261 (i : grid0.Coords) : Fin 1 → Nat :=
  let arg0 : BitVec 32 := BitVec.ofNat 32 (i 0).val
  let c256_i32 : BitVec 32 := 256#32
  let v0 : BitVec 32 := Scalar.muli arg0 c256_i32
  let c130_i32 : BitVec 32 := 130#32
  let v1171 : BitVec 32 := Scalar.addi v0 c130_i32
  let v1172 : Index := Scalar.indexCast v1171
  ![v1172.toNat]
def k0_off262 (v1173 : BitVec 32) : Fin 2 → Nat :=
  let c0_i32_523 : BitVec 32 := 0#32
  ![v1173.toNat, 0]

def k0_chk131 (v1173 : BitVec 32) : Prop :=
  (∀ a, (k0_off262 v1173) a + S1x2048.size a ≤ S32000x2048.size a)
instance k0_chk131.dec : ∀ (v1173 : BitVec 32), Decidable (k0_chk131 v1173) := fun v1173 => decidable_of_iff' _ (Iff.of_eq (k0_chk131.eq_1 v1173))
theorem k0_off262_inb : ∀ (v1173 : BitVec 32) (k0_hw131 : k0_chk131 v1173), ∀ a, (k0_off262 v1173) a + S1x2048.size a ≤ S32000x2048.size a := fun v1173 k0_hw131 => k0_hw131

def k0_off263 (i : grid0.Coords) : Fin 1 → Nat :=
  let arg0 : BitVec 32 := BitVec.ofNat 32 (i 0).val
  let c256_i32 : BitVec 32 := 256#32
  let v0 : BitVec 32 := Scalar.muli arg0 c256_i32
  let c131_i32 : BitVec 32 := 131#32
  let v1180 : BitVec 32 := Scalar.addi v0 c131_i32
  let v1181 : Index := Scalar.indexCast v1180
  ![v1181.toNat]
def k0_off264 (v1182 : BitVec 32) : Fin 2 → Nat :=
  let c0_i32_527 : BitVec 32 := 0#32
  ![v1182.toNat, 0]

def k0_chk132 (v1182 : BitVec 32) : Prop :=
  (∀ a, (k0_off264 v1182) a + S1x2048.size a ≤ S32000x2048.size a)
instance k0_chk132.dec : ∀ (v1182 : BitVec 32), Decidable (k0_chk132 v1182) := fun v1182 => decidable_of_iff' _ (Iff.of_eq (k0_chk132.eq_1 v1182))
theorem k0_off264_inb : ∀ (v1182 : BitVec 32) (k0_hw132 : k0_chk132 v1182), ∀ a, (k0_off264 v1182) a + S1x2048.size a ≤ S32000x2048.size a := fun v1182 k0_hw132 => k0_hw132

def k0_off265 (i : grid0.Coords) : Fin 1 → Nat :=
  let arg0 : BitVec 32 := BitVec.ofNat 32 (i 0).val
  let c256_i32 : BitVec 32 := 256#32
  let v0 : BitVec 32 := Scalar.muli arg0 c256_i32
  let c132_i32 : BitVec 32 := 132#32
  let v1189 : BitVec 32 := Scalar.addi v0 c132_i32
  let v1190 : Index := Scalar.indexCast v1189
  ![v1190.toNat]
def k0_off266 (v1191 : BitVec 32) : Fin 2 → Nat :=
  let c0_i32_531 : BitVec 32 := 0#32
  ![v1191.toNat, 0]

def k0_chk133 (v1191 : BitVec 32) : Prop :=
  (∀ a, (k0_off266 v1191) a + S1x2048.size a ≤ S32000x2048.size a)
instance k0_chk133.dec : ∀ (v1191 : BitVec 32), Decidable (k0_chk133 v1191) := fun v1191 => decidable_of_iff' _ (Iff.of_eq (k0_chk133.eq_1 v1191))
theorem k0_off266_inb : ∀ (v1191 : BitVec 32) (k0_hw133 : k0_chk133 v1191), ∀ a, (k0_off266 v1191) a + S1x2048.size a ≤ S32000x2048.size a := fun v1191 k0_hw133 => k0_hw133

def k0_off267 (i : grid0.Coords) : Fin 1 → Nat :=
  let arg0 : BitVec 32 := BitVec.ofNat 32 (i 0).val
  let c256_i32 : BitVec 32 := 256#32
  let v0 : BitVec 32 := Scalar.muli arg0 c256_i32
  let c133_i32 : BitVec 32 := 133#32
  let v1198 : BitVec 32 := Scalar.addi v0 c133_i32
  let v1199 : Index := Scalar.indexCast v1198
  ![v1199.toNat]
def k0_off268 (v1200 : BitVec 32) : Fin 2 → Nat :=
  let c0_i32_535 : BitVec 32 := 0#32
  ![v1200.toNat, 0]

def k0_chk134 (v1200 : BitVec 32) : Prop :=
  (∀ a, (k0_off268 v1200) a + S1x2048.size a ≤ S32000x2048.size a)
instance k0_chk134.dec : ∀ (v1200 : BitVec 32), Decidable (k0_chk134 v1200) := fun v1200 => decidable_of_iff' _ (Iff.of_eq (k0_chk134.eq_1 v1200))
theorem k0_off268_inb : ∀ (v1200 : BitVec 32) (k0_hw134 : k0_chk134 v1200), ∀ a, (k0_off268 v1200) a + S1x2048.size a ≤ S32000x2048.size a := fun v1200 k0_hw134 => k0_hw134

def k0_off269 (i : grid0.Coords) : Fin 1 → Nat :=
  let arg0 : BitVec 32 := BitVec.ofNat 32 (i 0).val
  let c256_i32 : BitVec 32 := 256#32
  let v0 : BitVec 32 := Scalar.muli arg0 c256_i32
  let c134_i32 : BitVec 32 := 134#32
  let v1207 : BitVec 32 := Scalar.addi v0 c134_i32
  let v1208 : Index := Scalar.indexCast v1207
  ![v1208.toNat]
def k0_off270 (v1209 : BitVec 32) : Fin 2 → Nat :=
  let c0_i32_539 : BitVec 32 := 0#32
  ![v1209.toNat, 0]

def k0_chk135 (v1209 : BitVec 32) : Prop :=
  (∀ a, (k0_off270 v1209) a + S1x2048.size a ≤ S32000x2048.size a)
instance k0_chk135.dec : ∀ (v1209 : BitVec 32), Decidable (k0_chk135 v1209) := fun v1209 => decidable_of_iff' _ (Iff.of_eq (k0_chk135.eq_1 v1209))
theorem k0_off270_inb : ∀ (v1209 : BitVec 32) (k0_hw135 : k0_chk135 v1209), ∀ a, (k0_off270 v1209) a + S1x2048.size a ≤ S32000x2048.size a := fun v1209 k0_hw135 => k0_hw135

def k0_off271 (i : grid0.Coords) : Fin 1 → Nat :=
  let arg0 : BitVec 32 := BitVec.ofNat 32 (i 0).val
  let c256_i32 : BitVec 32 := 256#32
  let v0 : BitVec 32 := Scalar.muli arg0 c256_i32
  let c135_i32 : BitVec 32 := 135#32
  let v1216 : BitVec 32 := Scalar.addi v0 c135_i32
  let v1217 : Index := Scalar.indexCast v1216
  ![v1217.toNat]
def k0_off272 (v1218 : BitVec 32) : Fin 2 → Nat :=
  let c0_i32_543 : BitVec 32 := 0#32
  ![v1218.toNat, 0]

def k0_chk136 (v1218 : BitVec 32) : Prop :=
  (∀ a, (k0_off272 v1218) a + S1x2048.size a ≤ S32000x2048.size a)
instance k0_chk136.dec : ∀ (v1218 : BitVec 32), Decidable (k0_chk136 v1218) := fun v1218 => decidable_of_iff' _ (Iff.of_eq (k0_chk136.eq_1 v1218))
theorem k0_off272_inb : ∀ (v1218 : BitVec 32) (k0_hw136 : k0_chk136 v1218), ∀ a, (k0_off272 v1218) a + S1x2048.size a ≤ S32000x2048.size a := fun v1218 k0_hw136 => k0_hw136

def k0_off273 (i : grid0.Coords) : Fin 1 → Nat :=
  let arg0 : BitVec 32 := BitVec.ofNat 32 (i 0).val
  let c256_i32 : BitVec 32 := 256#32
  let v0 : BitVec 32 := Scalar.muli arg0 c256_i32
  let c136_i32 : BitVec 32 := 136#32
  let v1225 : BitVec 32 := Scalar.addi v0 c136_i32
  let v1226 : Index := Scalar.indexCast v1225
  ![v1226.toNat]
def k0_off274 (v1227 : BitVec 32) : Fin 2 → Nat :=
  let c0_i32_547 : BitVec 32 := 0#32
  ![v1227.toNat, 0]

def k0_chk137 (v1227 : BitVec 32) : Prop :=
  (∀ a, (k0_off274 v1227) a + S1x2048.size a ≤ S32000x2048.size a)
instance k0_chk137.dec : ∀ (v1227 : BitVec 32), Decidable (k0_chk137 v1227) := fun v1227 => decidable_of_iff' _ (Iff.of_eq (k0_chk137.eq_1 v1227))
theorem k0_off274_inb : ∀ (v1227 : BitVec 32) (k0_hw137 : k0_chk137 v1227), ∀ a, (k0_off274 v1227) a + S1x2048.size a ≤ S32000x2048.size a := fun v1227 k0_hw137 => k0_hw137

def k0_off275 (i : grid0.Coords) : Fin 1 → Nat :=
  let arg0 : BitVec 32 := BitVec.ofNat 32 (i 0).val
  let c256_i32 : BitVec 32 := 256#32
  let v0 : BitVec 32 := Scalar.muli arg0 c256_i32
  let c137_i32 : BitVec 32 := 137#32
  let v1234 : BitVec 32 := Scalar.addi v0 c137_i32
  let v1235 : Index := Scalar.indexCast v1234
  ![v1235.toNat]
def k0_off276 (v1236 : BitVec 32) : Fin 2 → Nat :=
  let c0_i32_551 : BitVec 32 := 0#32
  ![v1236.toNat, 0]

def k0_chk138 (v1236 : BitVec 32) : Prop :=
  (∀ a, (k0_off276 v1236) a + S1x2048.size a ≤ S32000x2048.size a)
instance k0_chk138.dec : ∀ (v1236 : BitVec 32), Decidable (k0_chk138 v1236) := fun v1236 => decidable_of_iff' _ (Iff.of_eq (k0_chk138.eq_1 v1236))
theorem k0_off276_inb : ∀ (v1236 : BitVec 32) (k0_hw138 : k0_chk138 v1236), ∀ a, (k0_off276 v1236) a + S1x2048.size a ≤ S32000x2048.size a := fun v1236 k0_hw138 => k0_hw138

def k0_off277 (i : grid0.Coords) : Fin 1 → Nat :=
  let arg0 : BitVec 32 := BitVec.ofNat 32 (i 0).val
  let c256_i32 : BitVec 32 := 256#32
  let v0 : BitVec 32 := Scalar.muli arg0 c256_i32
  let c138_i32 : BitVec 32 := 138#32
  let v1243 : BitVec 32 := Scalar.addi v0 c138_i32
  let v1244 : Index := Scalar.indexCast v1243
  ![v1244.toNat]
def k0_off278 (v1245 : BitVec 32) : Fin 2 → Nat :=
  let c0_i32_555 : BitVec 32 := 0#32
  ![v1245.toNat, 0]

def k0_chk139 (v1245 : BitVec 32) : Prop :=
  (∀ a, (k0_off278 v1245) a + S1x2048.size a ≤ S32000x2048.size a)
instance k0_chk139.dec : ∀ (v1245 : BitVec 32), Decidable (k0_chk139 v1245) := fun v1245 => decidable_of_iff' _ (Iff.of_eq (k0_chk139.eq_1 v1245))
theorem k0_off278_inb : ∀ (v1245 : BitVec 32) (k0_hw139 : k0_chk139 v1245), ∀ a, (k0_off278 v1245) a + S1x2048.size a ≤ S32000x2048.size a := fun v1245 k0_hw139 => k0_hw139

def k0_off279 (i : grid0.Coords) : Fin 1 → Nat :=
  let arg0 : BitVec 32 := BitVec.ofNat 32 (i 0).val
  let c256_i32 : BitVec 32 := 256#32
  let v0 : BitVec 32 := Scalar.muli arg0 c256_i32
  let c139_i32 : BitVec 32 := 139#32
  let v1252 : BitVec 32 := Scalar.addi v0 c139_i32
  let v1253 : Index := Scalar.indexCast v1252
  ![v1253.toNat]
def k0_off280 (v1254 : BitVec 32) : Fin 2 → Nat :=
  let c0_i32_559 : BitVec 32 := 0#32
  ![v1254.toNat, 0]

def k0_chk140 (v1254 : BitVec 32) : Prop :=
  (∀ a, (k0_off280 v1254) a + S1x2048.size a ≤ S32000x2048.size a)
instance k0_chk140.dec : ∀ (v1254 : BitVec 32), Decidable (k0_chk140 v1254) := fun v1254 => decidable_of_iff' _ (Iff.of_eq (k0_chk140.eq_1 v1254))
theorem k0_off280_inb : ∀ (v1254 : BitVec 32) (k0_hw140 : k0_chk140 v1254), ∀ a, (k0_off280 v1254) a + S1x2048.size a ≤ S32000x2048.size a := fun v1254 k0_hw140 => k0_hw140

def k0_off281 (i : grid0.Coords) : Fin 1 → Nat :=
  let arg0 : BitVec 32 := BitVec.ofNat 32 (i 0).val
  let c256_i32 : BitVec 32 := 256#32
  let v0 : BitVec 32 := Scalar.muli arg0 c256_i32
  let c140_i32 : BitVec 32 := 140#32
  let v1261 : BitVec 32 := Scalar.addi v0 c140_i32
  let v1262 : Index := Scalar.indexCast v1261
  ![v1262.toNat]
def k0_off282 (v1263 : BitVec 32) : Fin 2 → Nat :=
  let c0_i32_563 : BitVec 32 := 0#32
  ![v1263.toNat, 0]

def k0_chk141 (v1263 : BitVec 32) : Prop :=
  (∀ a, (k0_off282 v1263) a + S1x2048.size a ≤ S32000x2048.size a)
instance k0_chk141.dec : ∀ (v1263 : BitVec 32), Decidable (k0_chk141 v1263) := fun v1263 => decidable_of_iff' _ (Iff.of_eq (k0_chk141.eq_1 v1263))
theorem k0_off282_inb : ∀ (v1263 : BitVec 32) (k0_hw141 : k0_chk141 v1263), ∀ a, (k0_off282 v1263) a + S1x2048.size a ≤ S32000x2048.size a := fun v1263 k0_hw141 => k0_hw141

def k0_off283 (i : grid0.Coords) : Fin 1 → Nat :=
  let arg0 : BitVec 32 := BitVec.ofNat 32 (i 0).val
  let c256_i32 : BitVec 32 := 256#32
  let v0 : BitVec 32 := Scalar.muli arg0 c256_i32
  let c141_i32 : BitVec 32 := 141#32
  let v1270 : BitVec 32 := Scalar.addi v0 c141_i32
  let v1271 : Index := Scalar.indexCast v1270
  ![v1271.toNat]
def k0_off284 (v1272 : BitVec 32) : Fin 2 → Nat :=
  let c0_i32_567 : BitVec 32 := 0#32
  ![v1272.toNat, 0]

def k0_chk142 (v1272 : BitVec 32) : Prop :=
  (∀ a, (k0_off284 v1272) a + S1x2048.size a ≤ S32000x2048.size a)
instance k0_chk142.dec : ∀ (v1272 : BitVec 32), Decidable (k0_chk142 v1272) := fun v1272 => decidable_of_iff' _ (Iff.of_eq (k0_chk142.eq_1 v1272))
theorem k0_off284_inb : ∀ (v1272 : BitVec 32) (k0_hw142 : k0_chk142 v1272), ∀ a, (k0_off284 v1272) a + S1x2048.size a ≤ S32000x2048.size a := fun v1272 k0_hw142 => k0_hw142

def k0_off285 (i : grid0.Coords) : Fin 1 → Nat :=
  let arg0 : BitVec 32 := BitVec.ofNat 32 (i 0).val
  let c256_i32 : BitVec 32 := 256#32
  let v0 : BitVec 32 := Scalar.muli arg0 c256_i32
  let c142_i32 : BitVec 32 := 142#32
  let v1279 : BitVec 32 := Scalar.addi v0 c142_i32
  let v1280 : Index := Scalar.indexCast v1279
  ![v1280.toNat]
def k0_off286 (v1281 : BitVec 32) : Fin 2 → Nat :=
  let c0_i32_571 : BitVec 32 := 0#32
  ![v1281.toNat, 0]

def k0_chk143 (v1281 : BitVec 32) : Prop :=
  (∀ a, (k0_off286 v1281) a + S1x2048.size a ≤ S32000x2048.size a)
instance k0_chk143.dec : ∀ (v1281 : BitVec 32), Decidable (k0_chk143 v1281) := fun v1281 => decidable_of_iff' _ (Iff.of_eq (k0_chk143.eq_1 v1281))
theorem k0_off286_inb : ∀ (v1281 : BitVec 32) (k0_hw143 : k0_chk143 v1281), ∀ a, (k0_off286 v1281) a + S1x2048.size a ≤ S32000x2048.size a := fun v1281 k0_hw143 => k0_hw143

def k0_off287 (i : grid0.Coords) : Fin 1 → Nat :=
  let arg0 : BitVec 32 := BitVec.ofNat 32 (i 0).val
  let c256_i32 : BitVec 32 := 256#32
  let v0 : BitVec 32 := Scalar.muli arg0 c256_i32
  let c143_i32 : BitVec 32 := 143#32
  let v1288 : BitVec 32 := Scalar.addi v0 c143_i32
  let v1289 : Index := Scalar.indexCast v1288
  ![v1289.toNat]
def k0_off288 (v1290 : BitVec 32) : Fin 2 → Nat :=
  let c0_i32_575 : BitVec 32 := 0#32
  ![v1290.toNat, 0]

def k0_chk144 (v1290 : BitVec 32) : Prop :=
  (∀ a, (k0_off288 v1290) a + S1x2048.size a ≤ S32000x2048.size a)
instance k0_chk144.dec : ∀ (v1290 : BitVec 32), Decidable (k0_chk144 v1290) := fun v1290 => decidable_of_iff' _ (Iff.of_eq (k0_chk144.eq_1 v1290))
theorem k0_off288_inb : ∀ (v1290 : BitVec 32) (k0_hw144 : k0_chk144 v1290), ∀ a, (k0_off288 v1290) a + S1x2048.size a ≤ S32000x2048.size a := fun v1290 k0_hw144 => k0_hw144

def k0_off289 (i : grid0.Coords) : Fin 1 → Nat :=
  let arg0 : BitVec 32 := BitVec.ofNat 32 (i 0).val
  let c256_i32 : BitVec 32 := 256#32
  let v0 : BitVec 32 := Scalar.muli arg0 c256_i32
  let c144_i32 : BitVec 32 := 144#32
  let v1297 : BitVec 32 := Scalar.addi v0 c144_i32
  let v1298 : Index := Scalar.indexCast v1297
  ![v1298.toNat]
def k0_off290 (v1299 : BitVec 32) : Fin 2 → Nat :=
  let c0_i32_579 : BitVec 32 := 0#32
  ![v1299.toNat, 0]

def k0_chk145 (v1299 : BitVec 32) : Prop :=
  (∀ a, (k0_off290 v1299) a + S1x2048.size a ≤ S32000x2048.size a)
instance k0_chk145.dec : ∀ (v1299 : BitVec 32), Decidable (k0_chk145 v1299) := fun v1299 => decidable_of_iff' _ (Iff.of_eq (k0_chk145.eq_1 v1299))
theorem k0_off290_inb : ∀ (v1299 : BitVec 32) (k0_hw145 : k0_chk145 v1299), ∀ a, (k0_off290 v1299) a + S1x2048.size a ≤ S32000x2048.size a := fun v1299 k0_hw145 => k0_hw145

def k0_off291 (i : grid0.Coords) : Fin 1 → Nat :=
  let arg0 : BitVec 32 := BitVec.ofNat 32 (i 0).val
  let c256_i32 : BitVec 32 := 256#32
  let v0 : BitVec 32 := Scalar.muli arg0 c256_i32
  let c145_i32 : BitVec 32 := 145#32
  let v1306 : BitVec 32 := Scalar.addi v0 c145_i32
  let v1307 : Index := Scalar.indexCast v1306
  ![v1307.toNat]
def k0_off292 (v1308 : BitVec 32) : Fin 2 → Nat :=
  let c0_i32_583 : BitVec 32 := 0#32
  ![v1308.toNat, 0]

def k0_chk146 (v1308 : BitVec 32) : Prop :=
  (∀ a, (k0_off292 v1308) a + S1x2048.size a ≤ S32000x2048.size a)
instance k0_chk146.dec : ∀ (v1308 : BitVec 32), Decidable (k0_chk146 v1308) := fun v1308 => decidable_of_iff' _ (Iff.of_eq (k0_chk146.eq_1 v1308))
theorem k0_off292_inb : ∀ (v1308 : BitVec 32) (k0_hw146 : k0_chk146 v1308), ∀ a, (k0_off292 v1308) a + S1x2048.size a ≤ S32000x2048.size a := fun v1308 k0_hw146 => k0_hw146

def k0_off293 (i : grid0.Coords) : Fin 1 → Nat :=
  let arg0 : BitVec 32 := BitVec.ofNat 32 (i 0).val
  let c256_i32 : BitVec 32 := 256#32
  let v0 : BitVec 32 := Scalar.muli arg0 c256_i32
  let c146_i32 : BitVec 32 := 146#32
  let v1315 : BitVec 32 := Scalar.addi v0 c146_i32
  let v1316 : Index := Scalar.indexCast v1315
  ![v1316.toNat]
def k0_off294 (v1317 : BitVec 32) : Fin 2 → Nat :=
  let c0_i32_587 : BitVec 32 := 0#32
  ![v1317.toNat, 0]

def k0_chk147 (v1317 : BitVec 32) : Prop :=
  (∀ a, (k0_off294 v1317) a + S1x2048.size a ≤ S32000x2048.size a)
instance k0_chk147.dec : ∀ (v1317 : BitVec 32), Decidable (k0_chk147 v1317) := fun v1317 => decidable_of_iff' _ (Iff.of_eq (k0_chk147.eq_1 v1317))
theorem k0_off294_inb : ∀ (v1317 : BitVec 32) (k0_hw147 : k0_chk147 v1317), ∀ a, (k0_off294 v1317) a + S1x2048.size a ≤ S32000x2048.size a := fun v1317 k0_hw147 => k0_hw147

def k0_off295 (i : grid0.Coords) : Fin 1 → Nat :=
  let arg0 : BitVec 32 := BitVec.ofNat 32 (i 0).val
  let c256_i32 : BitVec 32 := 256#32
  let v0 : BitVec 32 := Scalar.muli arg0 c256_i32
  let c147_i32 : BitVec 32 := 147#32
  let v1324 : BitVec 32 := Scalar.addi v0 c147_i32
  let v1325 : Index := Scalar.indexCast v1324
  ![v1325.toNat]
def k0_off296 (v1326 : BitVec 32) : Fin 2 → Nat :=
  let c0_i32_591 : BitVec 32 := 0#32
  ![v1326.toNat, 0]

def k0_chk148 (v1326 : BitVec 32) : Prop :=
  (∀ a, (k0_off296 v1326) a + S1x2048.size a ≤ S32000x2048.size a)
instance k0_chk148.dec : ∀ (v1326 : BitVec 32), Decidable (k0_chk148 v1326) := fun v1326 => decidable_of_iff' _ (Iff.of_eq (k0_chk148.eq_1 v1326))
theorem k0_off296_inb : ∀ (v1326 : BitVec 32) (k0_hw148 : k0_chk148 v1326), ∀ a, (k0_off296 v1326) a + S1x2048.size a ≤ S32000x2048.size a := fun v1326 k0_hw148 => k0_hw148

def k0_off297 (i : grid0.Coords) : Fin 1 → Nat :=
  let arg0 : BitVec 32 := BitVec.ofNat 32 (i 0).val
  let c256_i32 : BitVec 32 := 256#32
  let v0 : BitVec 32 := Scalar.muli arg0 c256_i32
  let c148_i32 : BitVec 32 := 148#32
  let v1333 : BitVec 32 := Scalar.addi v0 c148_i32
  let v1334 : Index := Scalar.indexCast v1333
  ![v1334.toNat]
def k0_off298 (v1335 : BitVec 32) : Fin 2 → Nat :=
  let c0_i32_595 : BitVec 32 := 0#32
  ![v1335.toNat, 0]

def k0_chk149 (v1335 : BitVec 32) : Prop :=
  (∀ a, (k0_off298 v1335) a + S1x2048.size a ≤ S32000x2048.size a)
instance k0_chk149.dec : ∀ (v1335 : BitVec 32), Decidable (k0_chk149 v1335) := fun v1335 => decidable_of_iff' _ (Iff.of_eq (k0_chk149.eq_1 v1335))
theorem k0_off298_inb : ∀ (v1335 : BitVec 32) (k0_hw149 : k0_chk149 v1335), ∀ a, (k0_off298 v1335) a + S1x2048.size a ≤ S32000x2048.size a := fun v1335 k0_hw149 => k0_hw149

def k0_off299 (i : grid0.Coords) : Fin 1 → Nat :=
  let arg0 : BitVec 32 := BitVec.ofNat 32 (i 0).val
  let c256_i32 : BitVec 32 := 256#32
  let v0 : BitVec 32 := Scalar.muli arg0 c256_i32
  let c149_i32 : BitVec 32 := 149#32
  let v1342 : BitVec 32 := Scalar.addi v0 c149_i32
  let v1343 : Index := Scalar.indexCast v1342
  ![v1343.toNat]
def k0_off300 (v1344 : BitVec 32) : Fin 2 → Nat :=
  let c0_i32_599 : BitVec 32 := 0#32
  ![v1344.toNat, 0]

def k0_chk150 (v1344 : BitVec 32) : Prop :=
  (∀ a, (k0_off300 v1344) a + S1x2048.size a ≤ S32000x2048.size a)
instance k0_chk150.dec : ∀ (v1344 : BitVec 32), Decidable (k0_chk150 v1344) := fun v1344 => decidable_of_iff' _ (Iff.of_eq (k0_chk150.eq_1 v1344))
theorem k0_off300_inb : ∀ (v1344 : BitVec 32) (k0_hw150 : k0_chk150 v1344), ∀ a, (k0_off300 v1344) a + S1x2048.size a ≤ S32000x2048.size a := fun v1344 k0_hw150 => k0_hw150

def k0_off301 (i : grid0.Coords) : Fin 1 → Nat :=
  let arg0 : BitVec 32 := BitVec.ofNat 32 (i 0).val
  let c256_i32 : BitVec 32 := 256#32
  let v0 : BitVec 32 := Scalar.muli arg0 c256_i32
  let c150_i32 : BitVec 32 := 150#32
  let v1351 : BitVec 32 := Scalar.addi v0 c150_i32
  let v1352 : Index := Scalar.indexCast v1351
  ![v1352.toNat]
def k0_off302 (v1353 : BitVec 32) : Fin 2 → Nat :=
  let c0_i32_603 : BitVec 32 := 0#32
  ![v1353.toNat, 0]

def k0_chk151 (v1353 : BitVec 32) : Prop :=
  (∀ a, (k0_off302 v1353) a + S1x2048.size a ≤ S32000x2048.size a)
instance k0_chk151.dec : ∀ (v1353 : BitVec 32), Decidable (k0_chk151 v1353) := fun v1353 => decidable_of_iff' _ (Iff.of_eq (k0_chk151.eq_1 v1353))
theorem k0_off302_inb : ∀ (v1353 : BitVec 32) (k0_hw151 : k0_chk151 v1353), ∀ a, (k0_off302 v1353) a + S1x2048.size a ≤ S32000x2048.size a := fun v1353 k0_hw151 => k0_hw151

def k0_off303 (i : grid0.Coords) : Fin 1 → Nat :=
  let arg0 : BitVec 32 := BitVec.ofNat 32 (i 0).val
  let c256_i32 : BitVec 32 := 256#32
  let v0 : BitVec 32 := Scalar.muli arg0 c256_i32
  let c151_i32 : BitVec 32 := 151#32
  let v1360 : BitVec 32 := Scalar.addi v0 c151_i32
  let v1361 : Index := Scalar.indexCast v1360
  ![v1361.toNat]
def k0_off304 (v1362 : BitVec 32) : Fin 2 → Nat :=
  let c0_i32_607 : BitVec 32 := 0#32
  ![v1362.toNat, 0]

def k0_chk152 (v1362 : BitVec 32) : Prop :=
  (∀ a, (k0_off304 v1362) a + S1x2048.size a ≤ S32000x2048.size a)
instance k0_chk152.dec : ∀ (v1362 : BitVec 32), Decidable (k0_chk152 v1362) := fun v1362 => decidable_of_iff' _ (Iff.of_eq (k0_chk152.eq_1 v1362))
theorem k0_off304_inb : ∀ (v1362 : BitVec 32) (k0_hw152 : k0_chk152 v1362), ∀ a, (k0_off304 v1362) a + S1x2048.size a ≤ S32000x2048.size a := fun v1362 k0_hw152 => k0_hw152

def k0_off305 (i : grid0.Coords) : Fin 1 → Nat :=
  let arg0 : BitVec 32 := BitVec.ofNat 32 (i 0).val
  let c256_i32 : BitVec 32 := 256#32
  let v0 : BitVec 32 := Scalar.muli arg0 c256_i32
  let c152_i32 : BitVec 32 := 152#32
  let v1369 : BitVec 32 := Scalar.addi v0 c152_i32
  let v1370 : Index := Scalar.indexCast v1369
  ![v1370.toNat]
def k0_off306 (v1371 : BitVec 32) : Fin 2 → Nat :=
  let c0_i32_611 : BitVec 32 := 0#32
  ![v1371.toNat, 0]

def k0_chk153 (v1371 : BitVec 32) : Prop :=
  (∀ a, (k0_off306 v1371) a + S1x2048.size a ≤ S32000x2048.size a)
instance k0_chk153.dec : ∀ (v1371 : BitVec 32), Decidable (k0_chk153 v1371) := fun v1371 => decidable_of_iff' _ (Iff.of_eq (k0_chk153.eq_1 v1371))
theorem k0_off306_inb : ∀ (v1371 : BitVec 32) (k0_hw153 : k0_chk153 v1371), ∀ a, (k0_off306 v1371) a + S1x2048.size a ≤ S32000x2048.size a := fun v1371 k0_hw153 => k0_hw153

def k0_off307 (i : grid0.Coords) : Fin 1 → Nat :=
  let arg0 : BitVec 32 := BitVec.ofNat 32 (i 0).val
  let c256_i32 : BitVec 32 := 256#32
  let v0 : BitVec 32 := Scalar.muli arg0 c256_i32
  let c153_i32 : BitVec 32 := 153#32
  let v1378 : BitVec 32 := Scalar.addi v0 c153_i32
  let v1379 : Index := Scalar.indexCast v1378
  ![v1379.toNat]
def k0_off308 (v1380 : BitVec 32) : Fin 2 → Nat :=
  let c0_i32_615 : BitVec 32 := 0#32
  ![v1380.toNat, 0]

def k0_chk154 (v1380 : BitVec 32) : Prop :=
  (∀ a, (k0_off308 v1380) a + S1x2048.size a ≤ S32000x2048.size a)
instance k0_chk154.dec : ∀ (v1380 : BitVec 32), Decidable (k0_chk154 v1380) := fun v1380 => decidable_of_iff' _ (Iff.of_eq (k0_chk154.eq_1 v1380))
theorem k0_off308_inb : ∀ (v1380 : BitVec 32) (k0_hw154 : k0_chk154 v1380), ∀ a, (k0_off308 v1380) a + S1x2048.size a ≤ S32000x2048.size a := fun v1380 k0_hw154 => k0_hw154

def k0_off309 (i : grid0.Coords) : Fin 1 → Nat :=
  let arg0 : BitVec 32 := BitVec.ofNat 32 (i 0).val
  let c256_i32 : BitVec 32 := 256#32
  let v0 : BitVec 32 := Scalar.muli arg0 c256_i32
  let c154_i32 : BitVec 32 := 154#32
  let v1387 : BitVec 32 := Scalar.addi v0 c154_i32
  let v1388 : Index := Scalar.indexCast v1387
  ![v1388.toNat]
def k0_off310 (v1389 : BitVec 32) : Fin 2 → Nat :=
  let c0_i32_619 : BitVec 32 := 0#32
  ![v1389.toNat, 0]

def k0_chk155 (v1389 : BitVec 32) : Prop :=
  (∀ a, (k0_off310 v1389) a + S1x2048.size a ≤ S32000x2048.size a)
instance k0_chk155.dec : ∀ (v1389 : BitVec 32), Decidable (k0_chk155 v1389) := fun v1389 => decidable_of_iff' _ (Iff.of_eq (k0_chk155.eq_1 v1389))
theorem k0_off310_inb : ∀ (v1389 : BitVec 32) (k0_hw155 : k0_chk155 v1389), ∀ a, (k0_off310 v1389) a + S1x2048.size a ≤ S32000x2048.size a := fun v1389 k0_hw155 => k0_hw155

def k0_off311 (i : grid0.Coords) : Fin 1 → Nat :=
  let arg0 : BitVec 32 := BitVec.ofNat 32 (i 0).val
  let c256_i32 : BitVec 32 := 256#32
  let v0 : BitVec 32 := Scalar.muli arg0 c256_i32
  let c155_i32 : BitVec 32 := 155#32
  let v1396 : BitVec 32 := Scalar.addi v0 c155_i32
  let v1397 : Index := Scalar.indexCast v1396
  ![v1397.toNat]
def k0_off312 (v1398 : BitVec 32) : Fin 2 → Nat :=
  let c0_i32_623 : BitVec 32 := 0#32
  ![v1398.toNat, 0]

def k0_chk156 (v1398 : BitVec 32) : Prop :=
  (∀ a, (k0_off312 v1398) a + S1x2048.size a ≤ S32000x2048.size a)
instance k0_chk156.dec : ∀ (v1398 : BitVec 32), Decidable (k0_chk156 v1398) := fun v1398 => decidable_of_iff' _ (Iff.of_eq (k0_chk156.eq_1 v1398))
theorem k0_off312_inb : ∀ (v1398 : BitVec 32) (k0_hw156 : k0_chk156 v1398), ∀ a, (k0_off312 v1398) a + S1x2048.size a ≤ S32000x2048.size a := fun v1398 k0_hw156 => k0_hw156

def k0_off313 (i : grid0.Coords) : Fin 1 → Nat :=
  let arg0 : BitVec 32 := BitVec.ofNat 32 (i 0).val
  let c256_i32 : BitVec 32 := 256#32
  let v0 : BitVec 32 := Scalar.muli arg0 c256_i32
  let c156_i32 : BitVec 32 := 156#32
  let v1405 : BitVec 32 := Scalar.addi v0 c156_i32
  let v1406 : Index := Scalar.indexCast v1405
  ![v1406.toNat]
def k0_off314 (v1407 : BitVec 32) : Fin 2 → Nat :=
  let c0_i32_627 : BitVec 32 := 0#32
  ![v1407.toNat, 0]

def k0_chk157 (v1407 : BitVec 32) : Prop :=
  (∀ a, (k0_off314 v1407) a + S1x2048.size a ≤ S32000x2048.size a)
instance k0_chk157.dec : ∀ (v1407 : BitVec 32), Decidable (k0_chk157 v1407) := fun v1407 => decidable_of_iff' _ (Iff.of_eq (k0_chk157.eq_1 v1407))
theorem k0_off314_inb : ∀ (v1407 : BitVec 32) (k0_hw157 : k0_chk157 v1407), ∀ a, (k0_off314 v1407) a + S1x2048.size a ≤ S32000x2048.size a := fun v1407 k0_hw157 => k0_hw157

def k0_off315 (i : grid0.Coords) : Fin 1 → Nat :=
  let arg0 : BitVec 32 := BitVec.ofNat 32 (i 0).val
  let c256_i32 : BitVec 32 := 256#32
  let v0 : BitVec 32 := Scalar.muli arg0 c256_i32
  let c157_i32 : BitVec 32 := 157#32
  let v1414 : BitVec 32 := Scalar.addi v0 c157_i32
  let v1415 : Index := Scalar.indexCast v1414
  ![v1415.toNat]
def k0_off316 (v1416 : BitVec 32) : Fin 2 → Nat :=
  let c0_i32_631 : BitVec 32 := 0#32
  ![v1416.toNat, 0]

def k0_chk158 (v1416 : BitVec 32) : Prop :=
  (∀ a, (k0_off316 v1416) a + S1x2048.size a ≤ S32000x2048.size a)
instance k0_chk158.dec : ∀ (v1416 : BitVec 32), Decidable (k0_chk158 v1416) := fun v1416 => decidable_of_iff' _ (Iff.of_eq (k0_chk158.eq_1 v1416))
theorem k0_off316_inb : ∀ (v1416 : BitVec 32) (k0_hw158 : k0_chk158 v1416), ∀ a, (k0_off316 v1416) a + S1x2048.size a ≤ S32000x2048.size a := fun v1416 k0_hw158 => k0_hw158

def k0_off317 (i : grid0.Coords) : Fin 1 → Nat :=
  let arg0 : BitVec 32 := BitVec.ofNat 32 (i 0).val
  let c256_i32 : BitVec 32 := 256#32
  let v0 : BitVec 32 := Scalar.muli arg0 c256_i32
  let c158_i32 : BitVec 32 := 158#32
  let v1423 : BitVec 32 := Scalar.addi v0 c158_i32
  let v1424 : Index := Scalar.indexCast v1423
  ![v1424.toNat]
def k0_off318 (v1425 : BitVec 32) : Fin 2 → Nat :=
  let c0_i32_635 : BitVec 32 := 0#32
  ![v1425.toNat, 0]

def k0_chk159 (v1425 : BitVec 32) : Prop :=
  (∀ a, (k0_off318 v1425) a + S1x2048.size a ≤ S32000x2048.size a)
instance k0_chk159.dec : ∀ (v1425 : BitVec 32), Decidable (k0_chk159 v1425) := fun v1425 => decidable_of_iff' _ (Iff.of_eq (k0_chk159.eq_1 v1425))
theorem k0_off318_inb : ∀ (v1425 : BitVec 32) (k0_hw159 : k0_chk159 v1425), ∀ a, (k0_off318 v1425) a + S1x2048.size a ≤ S32000x2048.size a := fun v1425 k0_hw159 => k0_hw159

def k0_off319 (i : grid0.Coords) : Fin 1 → Nat :=
  let arg0 : BitVec 32 := BitVec.ofNat 32 (i 0).val
  let c256_i32 : BitVec 32 := 256#32
  let v0 : BitVec 32 := Scalar.muli arg0 c256_i32
  let c159_i32 : BitVec 32 := 159#32
  let v1432 : BitVec 32 := Scalar.addi v0 c159_i32
  let v1433 : Index := Scalar.indexCast v1432
  ![v1433.toNat]
def k0_off320 (v1434 : BitVec 32) : Fin 2 → Nat :=
  let c0_i32_639 : BitVec 32 := 0#32
  ![v1434.toNat, 0]

def k0_chk160 (v1434 : BitVec 32) : Prop :=
  (∀ a, (k0_off320 v1434) a + S1x2048.size a ≤ S32000x2048.size a)
instance k0_chk160.dec : ∀ (v1434 : BitVec 32), Decidable (k0_chk160 v1434) := fun v1434 => decidable_of_iff' _ (Iff.of_eq (k0_chk160.eq_1 v1434))
theorem k0_off320_inb : ∀ (v1434 : BitVec 32) (k0_hw160 : k0_chk160 v1434), ∀ a, (k0_off320 v1434) a + S1x2048.size a ≤ S32000x2048.size a := fun v1434 k0_hw160 => k0_hw160

def k0_off321 (i : grid0.Coords) : Fin 1 → Nat :=
  let arg0 : BitVec 32 := BitVec.ofNat 32 (i 0).val
  let c256_i32 : BitVec 32 := 256#32
  let v0 : BitVec 32 := Scalar.muli arg0 c256_i32
  let c160_i32 : BitVec 32 := 160#32
  let v1441 : BitVec 32 := Scalar.addi v0 c160_i32
  let v1442 : Index := Scalar.indexCast v1441
  ![v1442.toNat]
def k0_off322 (v1443 : BitVec 32) : Fin 2 → Nat :=
  let c0_i32_643 : BitVec 32 := 0#32
  ![v1443.toNat, 0]

def k0_chk161 (v1443 : BitVec 32) : Prop :=
  (∀ a, (k0_off322 v1443) a + S1x2048.size a ≤ S32000x2048.size a)
instance k0_chk161.dec : ∀ (v1443 : BitVec 32), Decidable (k0_chk161 v1443) := fun v1443 => decidable_of_iff' _ (Iff.of_eq (k0_chk161.eq_1 v1443))
theorem k0_off322_inb : ∀ (v1443 : BitVec 32) (k0_hw161 : k0_chk161 v1443), ∀ a, (k0_off322 v1443) a + S1x2048.size a ≤ S32000x2048.size a := fun v1443 k0_hw161 => k0_hw161

def k0_off323 (i : grid0.Coords) : Fin 1 → Nat :=
  let arg0 : BitVec 32 := BitVec.ofNat 32 (i 0).val
  let c256_i32 : BitVec 32 := 256#32
  let v0 : BitVec 32 := Scalar.muli arg0 c256_i32
  let c161_i32 : BitVec 32 := 161#32
  let v1450 : BitVec 32 := Scalar.addi v0 c161_i32
  let v1451 : Index := Scalar.indexCast v1450
  ![v1451.toNat]
def k0_off324 (v1452 : BitVec 32) : Fin 2 → Nat :=
  let c0_i32_647 : BitVec 32 := 0#32
  ![v1452.toNat, 0]

def k0_chk162 (v1452 : BitVec 32) : Prop :=
  (∀ a, (k0_off324 v1452) a + S1x2048.size a ≤ S32000x2048.size a)
instance k0_chk162.dec : ∀ (v1452 : BitVec 32), Decidable (k0_chk162 v1452) := fun v1452 => decidable_of_iff' _ (Iff.of_eq (k0_chk162.eq_1 v1452))
theorem k0_off324_inb : ∀ (v1452 : BitVec 32) (k0_hw162 : k0_chk162 v1452), ∀ a, (k0_off324 v1452) a + S1x2048.size a ≤ S32000x2048.size a := fun v1452 k0_hw162 => k0_hw162

def k0_off325 (i : grid0.Coords) : Fin 1 → Nat :=
  let arg0 : BitVec 32 := BitVec.ofNat 32 (i 0).val
  let c256_i32 : BitVec 32 := 256#32
  let v0 : BitVec 32 := Scalar.muli arg0 c256_i32
  let c162_i32 : BitVec 32 := 162#32
  let v1459 : BitVec 32 := Scalar.addi v0 c162_i32
  let v1460 : Index := Scalar.indexCast v1459
  ![v1460.toNat]
def k0_off326 (v1461 : BitVec 32) : Fin 2 → Nat :=
  let c0_i32_651 : BitVec 32 := 0#32
  ![v1461.toNat, 0]

def k0_chk163 (v1461 : BitVec 32) : Prop :=
  (∀ a, (k0_off326 v1461) a + S1x2048.size a ≤ S32000x2048.size a)
instance k0_chk163.dec : ∀ (v1461 : BitVec 32), Decidable (k0_chk163 v1461) := fun v1461 => decidable_of_iff' _ (Iff.of_eq (k0_chk163.eq_1 v1461))
theorem k0_off326_inb : ∀ (v1461 : BitVec 32) (k0_hw163 : k0_chk163 v1461), ∀ a, (k0_off326 v1461) a + S1x2048.size a ≤ S32000x2048.size a := fun v1461 k0_hw163 => k0_hw163

def k0_off327 (i : grid0.Coords) : Fin 1 → Nat :=
  let arg0 : BitVec 32 := BitVec.ofNat 32 (i 0).val
  let c256_i32 : BitVec 32 := 256#32
  let v0 : BitVec 32 := Scalar.muli arg0 c256_i32
  let c163_i32 : BitVec 32 := 163#32
  let v1468 : BitVec 32 := Scalar.addi v0 c163_i32
  let v1469 : Index := Scalar.indexCast v1468
  ![v1469.toNat]
def k0_off328 (v1470 : BitVec 32) : Fin 2 → Nat :=
  let c0_i32_655 : BitVec 32 := 0#32
  ![v1470.toNat, 0]

def k0_chk164 (v1470 : BitVec 32) : Prop :=
  (∀ a, (k0_off328 v1470) a + S1x2048.size a ≤ S32000x2048.size a)
instance k0_chk164.dec : ∀ (v1470 : BitVec 32), Decidable (k0_chk164 v1470) := fun v1470 => decidable_of_iff' _ (Iff.of_eq (k0_chk164.eq_1 v1470))
theorem k0_off328_inb : ∀ (v1470 : BitVec 32) (k0_hw164 : k0_chk164 v1470), ∀ a, (k0_off328 v1470) a + S1x2048.size a ≤ S32000x2048.size a := fun v1470 k0_hw164 => k0_hw164

def k0_off329 (i : grid0.Coords) : Fin 1 → Nat :=
  let arg0 : BitVec 32 := BitVec.ofNat 32 (i 0).val
  let c256_i32 : BitVec 32 := 256#32
  let v0 : BitVec 32 := Scalar.muli arg0 c256_i32
  let c164_i32 : BitVec 32 := 164#32
  let v1477 : BitVec 32 := Scalar.addi v0 c164_i32
  let v1478 : Index := Scalar.indexCast v1477
  ![v1478.toNat]
def k0_off330 (v1479 : BitVec 32) : Fin 2 → Nat :=
  let c0_i32_659 : BitVec 32 := 0#32
  ![v1479.toNat, 0]

def k0_chk165 (v1479 : BitVec 32) : Prop :=
  (∀ a, (k0_off330 v1479) a + S1x2048.size a ≤ S32000x2048.size a)
instance k0_chk165.dec : ∀ (v1479 : BitVec 32), Decidable (k0_chk165 v1479) := fun v1479 => decidable_of_iff' _ (Iff.of_eq (k0_chk165.eq_1 v1479))
theorem k0_off330_inb : ∀ (v1479 : BitVec 32) (k0_hw165 : k0_chk165 v1479), ∀ a, (k0_off330 v1479) a + S1x2048.size a ≤ S32000x2048.size a := fun v1479 k0_hw165 => k0_hw165

def k0_off331 (i : grid0.Coords) : Fin 1 → Nat :=
  let arg0 : BitVec 32 := BitVec.ofNat 32 (i 0).val
  let c256_i32 : BitVec 32 := 256#32
  let v0 : BitVec 32 := Scalar.muli arg0 c256_i32
  let c165_i32 : BitVec 32 := 165#32
  let v1486 : BitVec 32 := Scalar.addi v0 c165_i32
  let v1487 : Index := Scalar.indexCast v1486
  ![v1487.toNat]
def k0_off332 (v1488 : BitVec 32) : Fin 2 → Nat :=
  let c0_i32_663 : BitVec 32 := 0#32
  ![v1488.toNat, 0]

def k0_chk166 (v1488 : BitVec 32) : Prop :=
  (∀ a, (k0_off332 v1488) a + S1x2048.size a ≤ S32000x2048.size a)
instance k0_chk166.dec : ∀ (v1488 : BitVec 32), Decidable (k0_chk166 v1488) := fun v1488 => decidable_of_iff' _ (Iff.of_eq (k0_chk166.eq_1 v1488))
theorem k0_off332_inb : ∀ (v1488 : BitVec 32) (k0_hw166 : k0_chk166 v1488), ∀ a, (k0_off332 v1488) a + S1x2048.size a ≤ S32000x2048.size a := fun v1488 k0_hw166 => k0_hw166

def k0_off333 (i : grid0.Coords) : Fin 1 → Nat :=
  let arg0 : BitVec 32 := BitVec.ofNat 32 (i 0).val
  let c256_i32 : BitVec 32 := 256#32
  let v0 : BitVec 32 := Scalar.muli arg0 c256_i32
  let c166_i32 : BitVec 32 := 166#32
  let v1495 : BitVec 32 := Scalar.addi v0 c166_i32
  let v1496 : Index := Scalar.indexCast v1495
  ![v1496.toNat]
def k0_off334 (v1497 : BitVec 32) : Fin 2 → Nat :=
  let c0_i32_667 : BitVec 32 := 0#32
  ![v1497.toNat, 0]

def k0_chk167 (v1497 : BitVec 32) : Prop :=
  (∀ a, (k0_off334 v1497) a + S1x2048.size a ≤ S32000x2048.size a)
instance k0_chk167.dec : ∀ (v1497 : BitVec 32), Decidable (k0_chk167 v1497) := fun v1497 => decidable_of_iff' _ (Iff.of_eq (k0_chk167.eq_1 v1497))
theorem k0_off334_inb : ∀ (v1497 : BitVec 32) (k0_hw167 : k0_chk167 v1497), ∀ a, (k0_off334 v1497) a + S1x2048.size a ≤ S32000x2048.size a := fun v1497 k0_hw167 => k0_hw167

def k0_off335 (i : grid0.Coords) : Fin 1 → Nat :=
  let arg0 : BitVec 32 := BitVec.ofNat 32 (i 0).val
  let c256_i32 : BitVec 32 := 256#32
  let v0 : BitVec 32 := Scalar.muli arg0 c256_i32
  let c167_i32 : BitVec 32 := 167#32
  let v1504 : BitVec 32 := Scalar.addi v0 c167_i32
  let v1505 : Index := Scalar.indexCast v1504
  ![v1505.toNat]
def k0_off336 (v1506 : BitVec 32) : Fin 2 → Nat :=
  let c0_i32_671 : BitVec 32 := 0#32
  ![v1506.toNat, 0]

def k0_chk168 (v1506 : BitVec 32) : Prop :=
  (∀ a, (k0_off336 v1506) a + S1x2048.size a ≤ S32000x2048.size a)
instance k0_chk168.dec : ∀ (v1506 : BitVec 32), Decidable (k0_chk168 v1506) := fun v1506 => decidable_of_iff' _ (Iff.of_eq (k0_chk168.eq_1 v1506))
theorem k0_off336_inb : ∀ (v1506 : BitVec 32) (k0_hw168 : k0_chk168 v1506), ∀ a, (k0_off336 v1506) a + S1x2048.size a ≤ S32000x2048.size a := fun v1506 k0_hw168 => k0_hw168

def k0_off337 (i : grid0.Coords) : Fin 1 → Nat :=
  let arg0 : BitVec 32 := BitVec.ofNat 32 (i 0).val
  let c256_i32 : BitVec 32 := 256#32
  let v0 : BitVec 32 := Scalar.muli arg0 c256_i32
  let c168_i32 : BitVec 32 := 168#32
  let v1513 : BitVec 32 := Scalar.addi v0 c168_i32
  let v1514 : Index := Scalar.indexCast v1513
  ![v1514.toNat]
def k0_off338 (v1515 : BitVec 32) : Fin 2 → Nat :=
  let c0_i32_675 : BitVec 32 := 0#32
  ![v1515.toNat, 0]

def k0_chk169 (v1515 : BitVec 32) : Prop :=
  (∀ a, (k0_off338 v1515) a + S1x2048.size a ≤ S32000x2048.size a)
instance k0_chk169.dec : ∀ (v1515 : BitVec 32), Decidable (k0_chk169 v1515) := fun v1515 => decidable_of_iff' _ (Iff.of_eq (k0_chk169.eq_1 v1515))
theorem k0_off338_inb : ∀ (v1515 : BitVec 32) (k0_hw169 : k0_chk169 v1515), ∀ a, (k0_off338 v1515) a + S1x2048.size a ≤ S32000x2048.size a := fun v1515 k0_hw169 => k0_hw169

def k0_off339 (i : grid0.Coords) : Fin 1 → Nat :=
  let arg0 : BitVec 32 := BitVec.ofNat 32 (i 0).val
  let c256_i32 : BitVec 32 := 256#32
  let v0 : BitVec 32 := Scalar.muli arg0 c256_i32
  let c169_i32 : BitVec 32 := 169#32
  let v1522 : BitVec 32 := Scalar.addi v0 c169_i32
  let v1523 : Index := Scalar.indexCast v1522
  ![v1523.toNat]
def k0_off340 (v1524 : BitVec 32) : Fin 2 → Nat :=
  let c0_i32_679 : BitVec 32 := 0#32
  ![v1524.toNat, 0]

def k0_chk170 (v1524 : BitVec 32) : Prop :=
  (∀ a, (k0_off340 v1524) a + S1x2048.size a ≤ S32000x2048.size a)
instance k0_chk170.dec : ∀ (v1524 : BitVec 32), Decidable (k0_chk170 v1524) := fun v1524 => decidable_of_iff' _ (Iff.of_eq (k0_chk170.eq_1 v1524))
theorem k0_off340_inb : ∀ (v1524 : BitVec 32) (k0_hw170 : k0_chk170 v1524), ∀ a, (k0_off340 v1524) a + S1x2048.size a ≤ S32000x2048.size a := fun v1524 k0_hw170 => k0_hw170

def k0_off341 (i : grid0.Coords) : Fin 1 → Nat :=
  let arg0 : BitVec 32 := BitVec.ofNat 32 (i 0).val
  let c256_i32 : BitVec 32 := 256#32
  let v0 : BitVec 32 := Scalar.muli arg0 c256_i32
  let c170_i32 : BitVec 32 := 170#32
  let v1531 : BitVec 32 := Scalar.addi v0 c170_i32
  let v1532 : Index := Scalar.indexCast v1531
  ![v1532.toNat]
def k0_off342 (v1533 : BitVec 32) : Fin 2 → Nat :=
  let c0_i32_683 : BitVec 32 := 0#32
  ![v1533.toNat, 0]

def k0_chk171 (v1533 : BitVec 32) : Prop :=
  (∀ a, (k0_off342 v1533) a + S1x2048.size a ≤ S32000x2048.size a)
instance k0_chk171.dec : ∀ (v1533 : BitVec 32), Decidable (k0_chk171 v1533) := fun v1533 => decidable_of_iff' _ (Iff.of_eq (k0_chk171.eq_1 v1533))
theorem k0_off342_inb : ∀ (v1533 : BitVec 32) (k0_hw171 : k0_chk171 v1533), ∀ a, (k0_off342 v1533) a + S1x2048.size a ≤ S32000x2048.size a := fun v1533 k0_hw171 => k0_hw171

def k0_off343 (i : grid0.Coords) : Fin 1 → Nat :=
  let arg0 : BitVec 32 := BitVec.ofNat 32 (i 0).val
  let c256_i32 : BitVec 32 := 256#32
  let v0 : BitVec 32 := Scalar.muli arg0 c256_i32
  let c171_i32 : BitVec 32 := 171#32
  let v1540 : BitVec 32 := Scalar.addi v0 c171_i32
  let v1541 : Index := Scalar.indexCast v1540
  ![v1541.toNat]
def k0_off344 (v1542 : BitVec 32) : Fin 2 → Nat :=
  let c0_i32_687 : BitVec 32 := 0#32
  ![v1542.toNat, 0]

def k0_chk172 (v1542 : BitVec 32) : Prop :=
  (∀ a, (k0_off344 v1542) a + S1x2048.size a ≤ S32000x2048.size a)
instance k0_chk172.dec : ∀ (v1542 : BitVec 32), Decidable (k0_chk172 v1542) := fun v1542 => decidable_of_iff' _ (Iff.of_eq (k0_chk172.eq_1 v1542))
theorem k0_off344_inb : ∀ (v1542 : BitVec 32) (k0_hw172 : k0_chk172 v1542), ∀ a, (k0_off344 v1542) a + S1x2048.size a ≤ S32000x2048.size a := fun v1542 k0_hw172 => k0_hw172

def k0_off345 (i : grid0.Coords) : Fin 1 → Nat :=
  let arg0 : BitVec 32 := BitVec.ofNat 32 (i 0).val
  let c256_i32 : BitVec 32 := 256#32
  let v0 : BitVec 32 := Scalar.muli arg0 c256_i32
  let c172_i32 : BitVec 32 := 172#32
  let v1549 : BitVec 32 := Scalar.addi v0 c172_i32
  let v1550 : Index := Scalar.indexCast v1549
  ![v1550.toNat]
def k0_off346 (v1551 : BitVec 32) : Fin 2 → Nat :=
  let c0_i32_691 : BitVec 32 := 0#32
  ![v1551.toNat, 0]

def k0_chk173 (v1551 : BitVec 32) : Prop :=
  (∀ a, (k0_off346 v1551) a + S1x2048.size a ≤ S32000x2048.size a)
instance k0_chk173.dec : ∀ (v1551 : BitVec 32), Decidable (k0_chk173 v1551) := fun v1551 => decidable_of_iff' _ (Iff.of_eq (k0_chk173.eq_1 v1551))
theorem k0_off346_inb : ∀ (v1551 : BitVec 32) (k0_hw173 : k0_chk173 v1551), ∀ a, (k0_off346 v1551) a + S1x2048.size a ≤ S32000x2048.size a := fun v1551 k0_hw173 => k0_hw173

def k0_off347 (i : grid0.Coords) : Fin 1 → Nat :=
  let arg0 : BitVec 32 := BitVec.ofNat 32 (i 0).val
  let c256_i32 : BitVec 32 := 256#32
  let v0 : BitVec 32 := Scalar.muli arg0 c256_i32
  let c173_i32 : BitVec 32 := 173#32
  let v1558 : BitVec 32 := Scalar.addi v0 c173_i32
  let v1559 : Index := Scalar.indexCast v1558
  ![v1559.toNat]
def k0_off348 (v1560 : BitVec 32) : Fin 2 → Nat :=
  let c0_i32_695 : BitVec 32 := 0#32
  ![v1560.toNat, 0]

def k0_chk174 (v1560 : BitVec 32) : Prop :=
  (∀ a, (k0_off348 v1560) a + S1x2048.size a ≤ S32000x2048.size a)
instance k0_chk174.dec : ∀ (v1560 : BitVec 32), Decidable (k0_chk174 v1560) := fun v1560 => decidable_of_iff' _ (Iff.of_eq (k0_chk174.eq_1 v1560))
theorem k0_off348_inb : ∀ (v1560 : BitVec 32) (k0_hw174 : k0_chk174 v1560), ∀ a, (k0_off348 v1560) a + S1x2048.size a ≤ S32000x2048.size a := fun v1560 k0_hw174 => k0_hw174

def k0_off349 (i : grid0.Coords) : Fin 1 → Nat :=
  let arg0 : BitVec 32 := BitVec.ofNat 32 (i 0).val
  let c256_i32 : BitVec 32 := 256#32
  let v0 : BitVec 32 := Scalar.muli arg0 c256_i32
  let c174_i32 : BitVec 32 := 174#32
  let v1567 : BitVec 32 := Scalar.addi v0 c174_i32
  let v1568 : Index := Scalar.indexCast v1567
  ![v1568.toNat]
def k0_off350 (v1569 : BitVec 32) : Fin 2 → Nat :=
  let c0_i32_699 : BitVec 32 := 0#32
  ![v1569.toNat, 0]

def k0_chk175 (v1569 : BitVec 32) : Prop :=
  (∀ a, (k0_off350 v1569) a + S1x2048.size a ≤ S32000x2048.size a)
instance k0_chk175.dec : ∀ (v1569 : BitVec 32), Decidable (k0_chk175 v1569) := fun v1569 => decidable_of_iff' _ (Iff.of_eq (k0_chk175.eq_1 v1569))
theorem k0_off350_inb : ∀ (v1569 : BitVec 32) (k0_hw175 : k0_chk175 v1569), ∀ a, (k0_off350 v1569) a + S1x2048.size a ≤ S32000x2048.size a := fun v1569 k0_hw175 => k0_hw175

def k0_off351 (i : grid0.Coords) : Fin 1 → Nat :=
  let arg0 : BitVec 32 := BitVec.ofNat 32 (i 0).val
  let c256_i32 : BitVec 32 := 256#32
  let v0 : BitVec 32 := Scalar.muli arg0 c256_i32
  let c175_i32 : BitVec 32 := 175#32
  let v1576 : BitVec 32 := Scalar.addi v0 c175_i32
  let v1577 : Index := Scalar.indexCast v1576
  ![v1577.toNat]
def k0_off352 (v1578 : BitVec 32) : Fin 2 → Nat :=
  let c0_i32_703 : BitVec 32 := 0#32
  ![v1578.toNat, 0]

def k0_chk176 (v1578 : BitVec 32) : Prop :=
  (∀ a, (k0_off352 v1578) a + S1x2048.size a ≤ S32000x2048.size a)
instance k0_chk176.dec : ∀ (v1578 : BitVec 32), Decidable (k0_chk176 v1578) := fun v1578 => decidable_of_iff' _ (Iff.of_eq (k0_chk176.eq_1 v1578))
theorem k0_off352_inb : ∀ (v1578 : BitVec 32) (k0_hw176 : k0_chk176 v1578), ∀ a, (k0_off352 v1578) a + S1x2048.size a ≤ S32000x2048.size a := fun v1578 k0_hw176 => k0_hw176

def k0_off353 (i : grid0.Coords) : Fin 1 → Nat :=
  let arg0 : BitVec 32 := BitVec.ofNat 32 (i 0).val
  let c256_i32 : BitVec 32 := 256#32
  let v0 : BitVec 32 := Scalar.muli arg0 c256_i32
  let c176_i32 : BitVec 32 := 176#32
  let v1585 : BitVec 32 := Scalar.addi v0 c176_i32
  let v1586 : Index := Scalar.indexCast v1585
  ![v1586.toNat]
def k0_off354 (v1587 : BitVec 32) : Fin 2 → Nat :=
  let c0_i32_707 : BitVec 32 := 0#32
  ![v1587.toNat, 0]

def k0_chk177 (v1587 : BitVec 32) : Prop :=
  (∀ a, (k0_off354 v1587) a + S1x2048.size a ≤ S32000x2048.size a)
instance k0_chk177.dec : ∀ (v1587 : BitVec 32), Decidable (k0_chk177 v1587) := fun v1587 => decidable_of_iff' _ (Iff.of_eq (k0_chk177.eq_1 v1587))
theorem k0_off354_inb : ∀ (v1587 : BitVec 32) (k0_hw177 : k0_chk177 v1587), ∀ a, (k0_off354 v1587) a + S1x2048.size a ≤ S32000x2048.size a := fun v1587 k0_hw177 => k0_hw177

def k0_off355 (i : grid0.Coords) : Fin 1 → Nat :=
  let arg0 : BitVec 32 := BitVec.ofNat 32 (i 0).val
  let c256_i32 : BitVec 32 := 256#32
  let v0 : BitVec 32 := Scalar.muli arg0 c256_i32
  let c177_i32 : BitVec 32 := 177#32
  let v1594 : BitVec 32 := Scalar.addi v0 c177_i32
  let v1595 : Index := Scalar.indexCast v1594
  ![v1595.toNat]
def k0_off356 (v1596 : BitVec 32) : Fin 2 → Nat :=
  let c0_i32_711 : BitVec 32 := 0#32
  ![v1596.toNat, 0]

def k0_chk178 (v1596 : BitVec 32) : Prop :=
  (∀ a, (k0_off356 v1596) a + S1x2048.size a ≤ S32000x2048.size a)
instance k0_chk178.dec : ∀ (v1596 : BitVec 32), Decidable (k0_chk178 v1596) := fun v1596 => decidable_of_iff' _ (Iff.of_eq (k0_chk178.eq_1 v1596))
theorem k0_off356_inb : ∀ (v1596 : BitVec 32) (k0_hw178 : k0_chk178 v1596), ∀ a, (k0_off356 v1596) a + S1x2048.size a ≤ S32000x2048.size a := fun v1596 k0_hw178 => k0_hw178

def k0_off357 (i : grid0.Coords) : Fin 1 → Nat :=
  let arg0 : BitVec 32 := BitVec.ofNat 32 (i 0).val
  let c256_i32 : BitVec 32 := 256#32
  let v0 : BitVec 32 := Scalar.muli arg0 c256_i32
  let c178_i32 : BitVec 32 := 178#32
  let v1603 : BitVec 32 := Scalar.addi v0 c178_i32
  let v1604 : Index := Scalar.indexCast v1603
  ![v1604.toNat]
def k0_off358 (v1605 : BitVec 32) : Fin 2 → Nat :=
  let c0_i32_715 : BitVec 32 := 0#32
  ![v1605.toNat, 0]

def k0_chk179 (v1605 : BitVec 32) : Prop :=
  (∀ a, (k0_off358 v1605) a + S1x2048.size a ≤ S32000x2048.size a)
instance k0_chk179.dec : ∀ (v1605 : BitVec 32), Decidable (k0_chk179 v1605) := fun v1605 => decidable_of_iff' _ (Iff.of_eq (k0_chk179.eq_1 v1605))
theorem k0_off358_inb : ∀ (v1605 : BitVec 32) (k0_hw179 : k0_chk179 v1605), ∀ a, (k0_off358 v1605) a + S1x2048.size a ≤ S32000x2048.size a := fun v1605 k0_hw179 => k0_hw179

def k0_off359 (i : grid0.Coords) : Fin 1 → Nat :=
  let arg0 : BitVec 32 := BitVec.ofNat 32 (i 0).val
  let c256_i32 : BitVec 32 := 256#32
  let v0 : BitVec 32 := Scalar.muli arg0 c256_i32
  let c179_i32 : BitVec 32 := 179#32
  let v1612 : BitVec 32 := Scalar.addi v0 c179_i32
  let v1613 : Index := Scalar.indexCast v1612
  ![v1613.toNat]
def k0_off360 (v1614 : BitVec 32) : Fin 2 → Nat :=
  let c0_i32_719 : BitVec 32 := 0#32
  ![v1614.toNat, 0]

def k0_chk180 (v1614 : BitVec 32) : Prop :=
  (∀ a, (k0_off360 v1614) a + S1x2048.size a ≤ S32000x2048.size a)
instance k0_chk180.dec : ∀ (v1614 : BitVec 32), Decidable (k0_chk180 v1614) := fun v1614 => decidable_of_iff' _ (Iff.of_eq (k0_chk180.eq_1 v1614))
theorem k0_off360_inb : ∀ (v1614 : BitVec 32) (k0_hw180 : k0_chk180 v1614), ∀ a, (k0_off360 v1614) a + S1x2048.size a ≤ S32000x2048.size a := fun v1614 k0_hw180 => k0_hw180

def k0_off361 (i : grid0.Coords) : Fin 1 → Nat :=
  let arg0 : BitVec 32 := BitVec.ofNat 32 (i 0).val
  let c256_i32 : BitVec 32 := 256#32
  let v0 : BitVec 32 := Scalar.muli arg0 c256_i32
  let c180_i32 : BitVec 32 := 180#32
  let v1621 : BitVec 32 := Scalar.addi v0 c180_i32
  let v1622 : Index := Scalar.indexCast v1621
  ![v1622.toNat]
def k0_off362 (v1623 : BitVec 32) : Fin 2 → Nat :=
  let c0_i32_723 : BitVec 32 := 0#32
  ![v1623.toNat, 0]

def k0_chk181 (v1623 : BitVec 32) : Prop :=
  (∀ a, (k0_off362 v1623) a + S1x2048.size a ≤ S32000x2048.size a)
instance k0_chk181.dec : ∀ (v1623 : BitVec 32), Decidable (k0_chk181 v1623) := fun v1623 => decidable_of_iff' _ (Iff.of_eq (k0_chk181.eq_1 v1623))
theorem k0_off362_inb : ∀ (v1623 : BitVec 32) (k0_hw181 : k0_chk181 v1623), ∀ a, (k0_off362 v1623) a + S1x2048.size a ≤ S32000x2048.size a := fun v1623 k0_hw181 => k0_hw181

def k0_off363 (i : grid0.Coords) : Fin 1 → Nat :=
  let arg0 : BitVec 32 := BitVec.ofNat 32 (i 0).val
  let c256_i32 : BitVec 32 := 256#32
  let v0 : BitVec 32 := Scalar.muli arg0 c256_i32
  let c181_i32 : BitVec 32 := 181#32
  let v1630 : BitVec 32 := Scalar.addi v0 c181_i32
  let v1631 : Index := Scalar.indexCast v1630
  ![v1631.toNat]
def k0_off364 (v1632 : BitVec 32) : Fin 2 → Nat :=
  let c0_i32_727 : BitVec 32 := 0#32
  ![v1632.toNat, 0]

def k0_chk182 (v1632 : BitVec 32) : Prop :=
  (∀ a, (k0_off364 v1632) a + S1x2048.size a ≤ S32000x2048.size a)
instance k0_chk182.dec : ∀ (v1632 : BitVec 32), Decidable (k0_chk182 v1632) := fun v1632 => decidable_of_iff' _ (Iff.of_eq (k0_chk182.eq_1 v1632))
theorem k0_off364_inb : ∀ (v1632 : BitVec 32) (k0_hw182 : k0_chk182 v1632), ∀ a, (k0_off364 v1632) a + S1x2048.size a ≤ S32000x2048.size a := fun v1632 k0_hw182 => k0_hw182

def k0_off365 (i : grid0.Coords) : Fin 1 → Nat :=
  let arg0 : BitVec 32 := BitVec.ofNat 32 (i 0).val
  let c256_i32 : BitVec 32 := 256#32
  let v0 : BitVec 32 := Scalar.muli arg0 c256_i32
  let c182_i32 : BitVec 32 := 182#32
  let v1639 : BitVec 32 := Scalar.addi v0 c182_i32
  let v1640 : Index := Scalar.indexCast v1639
  ![v1640.toNat]
def k0_off366 (v1641 : BitVec 32) : Fin 2 → Nat :=
  let c0_i32_731 : BitVec 32 := 0#32
  ![v1641.toNat, 0]

def k0_chk183 (v1641 : BitVec 32) : Prop :=
  (∀ a, (k0_off366 v1641) a + S1x2048.size a ≤ S32000x2048.size a)
instance k0_chk183.dec : ∀ (v1641 : BitVec 32), Decidable (k0_chk183 v1641) := fun v1641 => decidable_of_iff' _ (Iff.of_eq (k0_chk183.eq_1 v1641))
theorem k0_off366_inb : ∀ (v1641 : BitVec 32) (k0_hw183 : k0_chk183 v1641), ∀ a, (k0_off366 v1641) a + S1x2048.size a ≤ S32000x2048.size a := fun v1641 k0_hw183 => k0_hw183

def k0_off367 (i : grid0.Coords) : Fin 1 → Nat :=
  let arg0 : BitVec 32 := BitVec.ofNat 32 (i 0).val
  let c256_i32 : BitVec 32 := 256#32
  let v0 : BitVec 32 := Scalar.muli arg0 c256_i32
  let c183_i32 : BitVec 32 := 183#32
  let v1648 : BitVec 32 := Scalar.addi v0 c183_i32
  let v1649 : Index := Scalar.indexCast v1648
  ![v1649.toNat]
def k0_off368 (v1650 : BitVec 32) : Fin 2 → Nat :=
  let c0_i32_735 : BitVec 32 := 0#32
  ![v1650.toNat, 0]

def k0_chk184 (v1650 : BitVec 32) : Prop :=
  (∀ a, (k0_off368 v1650) a + S1x2048.size a ≤ S32000x2048.size a)
instance k0_chk184.dec : ∀ (v1650 : BitVec 32), Decidable (k0_chk184 v1650) := fun v1650 => decidable_of_iff' _ (Iff.of_eq (k0_chk184.eq_1 v1650))
theorem k0_off368_inb : ∀ (v1650 : BitVec 32) (k0_hw184 : k0_chk184 v1650), ∀ a, (k0_off368 v1650) a + S1x2048.size a ≤ S32000x2048.size a := fun v1650 k0_hw184 => k0_hw184

def k0_off369 (i : grid0.Coords) : Fin 1 → Nat :=
  let arg0 : BitVec 32 := BitVec.ofNat 32 (i 0).val
  let c256_i32 : BitVec 32 := 256#32
  let v0 : BitVec 32 := Scalar.muli arg0 c256_i32
  let c184_i32 : BitVec 32 := 184#32
  let v1657 : BitVec 32 := Scalar.addi v0 c184_i32
  let v1658 : Index := Scalar.indexCast v1657
  ![v1658.toNat]
def k0_off370 (v1659 : BitVec 32) : Fin 2 → Nat :=
  let c0_i32_739 : BitVec 32 := 0#32
  ![v1659.toNat, 0]

def k0_chk185 (v1659 : BitVec 32) : Prop :=
  (∀ a, (k0_off370 v1659) a + S1x2048.size a ≤ S32000x2048.size a)
instance k0_chk185.dec : ∀ (v1659 : BitVec 32), Decidable (k0_chk185 v1659) := fun v1659 => decidable_of_iff' _ (Iff.of_eq (k0_chk185.eq_1 v1659))
theorem k0_off370_inb : ∀ (v1659 : BitVec 32) (k0_hw185 : k0_chk185 v1659), ∀ a, (k0_off370 v1659) a + S1x2048.size a ≤ S32000x2048.size a := fun v1659 k0_hw185 => k0_hw185

def k0_off371 (i : grid0.Coords) : Fin 1 → Nat :=
  let arg0 : BitVec 32 := BitVec.ofNat 32 (i 0).val
  let c256_i32 : BitVec 32 := 256#32
  let v0 : BitVec 32 := Scalar.muli arg0 c256_i32
  let c185_i32 : BitVec 32 := 185#32
  let v1666 : BitVec 32 := Scalar.addi v0 c185_i32
  let v1667 : Index := Scalar.indexCast v1666
  ![v1667.toNat]
def k0_off372 (v1668 : BitVec 32) : Fin 2 → Nat :=
  let c0_i32_743 : BitVec 32 := 0#32
  ![v1668.toNat, 0]

def k0_chk186 (v1668 : BitVec 32) : Prop :=
  (∀ a, (k0_off372 v1668) a + S1x2048.size a ≤ S32000x2048.size a)
instance k0_chk186.dec : ∀ (v1668 : BitVec 32), Decidable (k0_chk186 v1668) := fun v1668 => decidable_of_iff' _ (Iff.of_eq (k0_chk186.eq_1 v1668))
theorem k0_off372_inb : ∀ (v1668 : BitVec 32) (k0_hw186 : k0_chk186 v1668), ∀ a, (k0_off372 v1668) a + S1x2048.size a ≤ S32000x2048.size a := fun v1668 k0_hw186 => k0_hw186

def k0_off373 (i : grid0.Coords) : Fin 1 → Nat :=
  let arg0 : BitVec 32 := BitVec.ofNat 32 (i 0).val
  let c256_i32 : BitVec 32 := 256#32
  let v0 : BitVec 32 := Scalar.muli arg0 c256_i32
  let c186_i32 : BitVec 32 := 186#32
  let v1675 : BitVec 32 := Scalar.addi v0 c186_i32
  let v1676 : Index := Scalar.indexCast v1675
  ![v1676.toNat]
def k0_off374 (v1677 : BitVec 32) : Fin 2 → Nat :=
  let c0_i32_747 : BitVec 32 := 0#32
  ![v1677.toNat, 0]

def k0_chk187 (v1677 : BitVec 32) : Prop :=
  (∀ a, (k0_off374 v1677) a + S1x2048.size a ≤ S32000x2048.size a)
instance k0_chk187.dec : ∀ (v1677 : BitVec 32), Decidable (k0_chk187 v1677) := fun v1677 => decidable_of_iff' _ (Iff.of_eq (k0_chk187.eq_1 v1677))
theorem k0_off374_inb : ∀ (v1677 : BitVec 32) (k0_hw187 : k0_chk187 v1677), ∀ a, (k0_off374 v1677) a + S1x2048.size a ≤ S32000x2048.size a := fun v1677 k0_hw187 => k0_hw187

def k0_off375 (i : grid0.Coords) : Fin 1 → Nat :=
  let arg0 : BitVec 32 := BitVec.ofNat 32 (i 0).val
  let c256_i32 : BitVec 32 := 256#32
  let v0 : BitVec 32 := Scalar.muli arg0 c256_i32
  let c187_i32 : BitVec 32 := 187#32
  let v1684 : BitVec 32 := Scalar.addi v0 c187_i32
  let v1685 : Index := Scalar.indexCast v1684
  ![v1685.toNat]
def k0_off376 (v1686 : BitVec 32) : Fin 2 → Nat :=
  let c0_i32_751 : BitVec 32 := 0#32
  ![v1686.toNat, 0]

def k0_chk188 (v1686 : BitVec 32) : Prop :=
  (∀ a, (k0_off376 v1686) a + S1x2048.size a ≤ S32000x2048.size a)
instance k0_chk188.dec : ∀ (v1686 : BitVec 32), Decidable (k0_chk188 v1686) := fun v1686 => decidable_of_iff' _ (Iff.of_eq (k0_chk188.eq_1 v1686))
theorem k0_off376_inb : ∀ (v1686 : BitVec 32) (k0_hw188 : k0_chk188 v1686), ∀ a, (k0_off376 v1686) a + S1x2048.size a ≤ S32000x2048.size a := fun v1686 k0_hw188 => k0_hw188

def k0_off377 (i : grid0.Coords) : Fin 1 → Nat :=
  let arg0 : BitVec 32 := BitVec.ofNat 32 (i 0).val
  let c256_i32 : BitVec 32 := 256#32
  let v0 : BitVec 32 := Scalar.muli arg0 c256_i32
  let c188_i32 : BitVec 32 := 188#32
  let v1693 : BitVec 32 := Scalar.addi v0 c188_i32
  let v1694 : Index := Scalar.indexCast v1693
  ![v1694.toNat]
def k0_off378 (v1695 : BitVec 32) : Fin 2 → Nat :=
  let c0_i32_755 : BitVec 32 := 0#32
  ![v1695.toNat, 0]

def k0_chk189 (v1695 : BitVec 32) : Prop :=
  (∀ a, (k0_off378 v1695) a + S1x2048.size a ≤ S32000x2048.size a)
instance k0_chk189.dec : ∀ (v1695 : BitVec 32), Decidable (k0_chk189 v1695) := fun v1695 => decidable_of_iff' _ (Iff.of_eq (k0_chk189.eq_1 v1695))
theorem k0_off378_inb : ∀ (v1695 : BitVec 32) (k0_hw189 : k0_chk189 v1695), ∀ a, (k0_off378 v1695) a + S1x2048.size a ≤ S32000x2048.size a := fun v1695 k0_hw189 => k0_hw189

def k0_off379 (i : grid0.Coords) : Fin 1 → Nat :=
  let arg0 : BitVec 32 := BitVec.ofNat 32 (i 0).val
  let c256_i32 : BitVec 32 := 256#32
  let v0 : BitVec 32 := Scalar.muli arg0 c256_i32
  let c189_i32 : BitVec 32 := 189#32
  let v1702 : BitVec 32 := Scalar.addi v0 c189_i32
  let v1703 : Index := Scalar.indexCast v1702
  ![v1703.toNat]
def k0_off380 (v1704 : BitVec 32) : Fin 2 → Nat :=
  let c0_i32_759 : BitVec 32 := 0#32
  ![v1704.toNat, 0]

def k0_chk190 (v1704 : BitVec 32) : Prop :=
  (∀ a, (k0_off380 v1704) a + S1x2048.size a ≤ S32000x2048.size a)
instance k0_chk190.dec : ∀ (v1704 : BitVec 32), Decidable (k0_chk190 v1704) := fun v1704 => decidable_of_iff' _ (Iff.of_eq (k0_chk190.eq_1 v1704))
theorem k0_off380_inb : ∀ (v1704 : BitVec 32) (k0_hw190 : k0_chk190 v1704), ∀ a, (k0_off380 v1704) a + S1x2048.size a ≤ S32000x2048.size a := fun v1704 k0_hw190 => k0_hw190

def k0_off381 (i : grid0.Coords) : Fin 1 → Nat :=
  let arg0 : BitVec 32 := BitVec.ofNat 32 (i 0).val
  let c256_i32 : BitVec 32 := 256#32
  let v0 : BitVec 32 := Scalar.muli arg0 c256_i32
  let c190_i32 : BitVec 32 := 190#32
  let v1711 : BitVec 32 := Scalar.addi v0 c190_i32
  let v1712 : Index := Scalar.indexCast v1711
  ![v1712.toNat]
def k0_off382 (v1713 : BitVec 32) : Fin 2 → Nat :=
  let c0_i32_763 : BitVec 32 := 0#32
  ![v1713.toNat, 0]

def k0_chk191 (v1713 : BitVec 32) : Prop :=
  (∀ a, (k0_off382 v1713) a + S1x2048.size a ≤ S32000x2048.size a)
instance k0_chk191.dec : ∀ (v1713 : BitVec 32), Decidable (k0_chk191 v1713) := fun v1713 => decidable_of_iff' _ (Iff.of_eq (k0_chk191.eq_1 v1713))
theorem k0_off382_inb : ∀ (v1713 : BitVec 32) (k0_hw191 : k0_chk191 v1713), ∀ a, (k0_off382 v1713) a + S1x2048.size a ≤ S32000x2048.size a := fun v1713 k0_hw191 => k0_hw191

def k0_off383 (i : grid0.Coords) : Fin 1 → Nat :=
  let arg0 : BitVec 32 := BitVec.ofNat 32 (i 0).val
  let c256_i32 : BitVec 32 := 256#32
  let v0 : BitVec 32 := Scalar.muli arg0 c256_i32
  let c191_i32 : BitVec 32 := 191#32
  let v1720 : BitVec 32 := Scalar.addi v0 c191_i32
  let v1721 : Index := Scalar.indexCast v1720
  ![v1721.toNat]
def k0_off384 (v1722 : BitVec 32) : Fin 2 → Nat :=
  let c0_i32_767 : BitVec 32 := 0#32
  ![v1722.toNat, 0]

def k0_chk192 (v1722 : BitVec 32) : Prop :=
  (∀ a, (k0_off384 v1722) a + S1x2048.size a ≤ S32000x2048.size a)
instance k0_chk192.dec : ∀ (v1722 : BitVec 32), Decidable (k0_chk192 v1722) := fun v1722 => decidable_of_iff' _ (Iff.of_eq (k0_chk192.eq_1 v1722))
theorem k0_off384_inb : ∀ (v1722 : BitVec 32) (k0_hw192 : k0_chk192 v1722), ∀ a, (k0_off384 v1722) a + S1x2048.size a ≤ S32000x2048.size a := fun v1722 k0_hw192 => k0_hw192

def k0_off385 (i : grid0.Coords) : Fin 1 → Nat :=
  let arg0 : BitVec 32 := BitVec.ofNat 32 (i 0).val
  let c256_i32 : BitVec 32 := 256#32
  let v0 : BitVec 32 := Scalar.muli arg0 c256_i32
  let c192_i32 : BitVec 32 := 192#32
  let v1729 : BitVec 32 := Scalar.addi v0 c192_i32
  let v1730 : Index := Scalar.indexCast v1729
  ![v1730.toNat]
def k0_off386 (v1731 : BitVec 32) : Fin 2 → Nat :=
  let c0_i32_771 : BitVec 32 := 0#32
  ![v1731.toNat, 0]

def k0_chk193 (v1731 : BitVec 32) : Prop :=
  (∀ a, (k0_off386 v1731) a + S1x2048.size a ≤ S32000x2048.size a)
instance k0_chk193.dec : ∀ (v1731 : BitVec 32), Decidable (k0_chk193 v1731) := fun v1731 => decidable_of_iff' _ (Iff.of_eq (k0_chk193.eq_1 v1731))
theorem k0_off386_inb : ∀ (v1731 : BitVec 32) (k0_hw193 : k0_chk193 v1731), ∀ a, (k0_off386 v1731) a + S1x2048.size a ≤ S32000x2048.size a := fun v1731 k0_hw193 => k0_hw193

def k0_off387 (i : grid0.Coords) : Fin 1 → Nat :=
  let arg0 : BitVec 32 := BitVec.ofNat 32 (i 0).val
  let c256_i32 : BitVec 32 := 256#32
  let v0 : BitVec 32 := Scalar.muli arg0 c256_i32
  let c193_i32 : BitVec 32 := 193#32
  let v1738 : BitVec 32 := Scalar.addi v0 c193_i32
  let v1739 : Index := Scalar.indexCast v1738
  ![v1739.toNat]
def k0_off388 (v1740 : BitVec 32) : Fin 2 → Nat :=
  let c0_i32_775 : BitVec 32 := 0#32
  ![v1740.toNat, 0]

def k0_chk194 (v1740 : BitVec 32) : Prop :=
  (∀ a, (k0_off388 v1740) a + S1x2048.size a ≤ S32000x2048.size a)
instance k0_chk194.dec : ∀ (v1740 : BitVec 32), Decidable (k0_chk194 v1740) := fun v1740 => decidable_of_iff' _ (Iff.of_eq (k0_chk194.eq_1 v1740))
theorem k0_off388_inb : ∀ (v1740 : BitVec 32) (k0_hw194 : k0_chk194 v1740), ∀ a, (k0_off388 v1740) a + S1x2048.size a ≤ S32000x2048.size a := fun v1740 k0_hw194 => k0_hw194

def k0_off389 (i : grid0.Coords) : Fin 1 → Nat :=
  let arg0 : BitVec 32 := BitVec.ofNat 32 (i 0).val
  let c256_i32 : BitVec 32 := 256#32
  let v0 : BitVec 32 := Scalar.muli arg0 c256_i32
  let c194_i32 : BitVec 32 := 194#32
  let v1747 : BitVec 32 := Scalar.addi v0 c194_i32
  let v1748 : Index := Scalar.indexCast v1747
  ![v1748.toNat]
def k0_off390 (v1749 : BitVec 32) : Fin 2 → Nat :=
  let c0_i32_779 : BitVec 32 := 0#32
  ![v1749.toNat, 0]

def k0_chk195 (v1749 : BitVec 32) : Prop :=
  (∀ a, (k0_off390 v1749) a + S1x2048.size a ≤ S32000x2048.size a)
instance k0_chk195.dec : ∀ (v1749 : BitVec 32), Decidable (k0_chk195 v1749) := fun v1749 => decidable_of_iff' _ (Iff.of_eq (k0_chk195.eq_1 v1749))
theorem k0_off390_inb : ∀ (v1749 : BitVec 32) (k0_hw195 : k0_chk195 v1749), ∀ a, (k0_off390 v1749) a + S1x2048.size a ≤ S32000x2048.size a := fun v1749 k0_hw195 => k0_hw195

def k0_off391 (i : grid0.Coords) : Fin 1 → Nat :=
  let arg0 : BitVec 32 := BitVec.ofNat 32 (i 0).val
  let c256_i32 : BitVec 32 := 256#32
  let v0 : BitVec 32 := Scalar.muli arg0 c256_i32
  let c195_i32 : BitVec 32 := 195#32
  let v1756 : BitVec 32 := Scalar.addi v0 c195_i32
  let v1757 : Index := Scalar.indexCast v1756
  ![v1757.toNat]
def k0_off392 (v1758 : BitVec 32) : Fin 2 → Nat :=
  let c0_i32_783 : BitVec 32 := 0#32
  ![v1758.toNat, 0]

def k0_chk196 (v1758 : BitVec 32) : Prop :=
  (∀ a, (k0_off392 v1758) a + S1x2048.size a ≤ S32000x2048.size a)
instance k0_chk196.dec : ∀ (v1758 : BitVec 32), Decidable (k0_chk196 v1758) := fun v1758 => decidable_of_iff' _ (Iff.of_eq (k0_chk196.eq_1 v1758))
theorem k0_off392_inb : ∀ (v1758 : BitVec 32) (k0_hw196 : k0_chk196 v1758), ∀ a, (k0_off392 v1758) a + S1x2048.size a ≤ S32000x2048.size a := fun v1758 k0_hw196 => k0_hw196

def k0_off393 (i : grid0.Coords) : Fin 1 → Nat :=
  let arg0 : BitVec 32 := BitVec.ofNat 32 (i 0).val
  let c256_i32 : BitVec 32 := 256#32
  let v0 : BitVec 32 := Scalar.muli arg0 c256_i32
  let c196_i32 : BitVec 32 := 196#32
  let v1765 : BitVec 32 := Scalar.addi v0 c196_i32
  let v1766 : Index := Scalar.indexCast v1765
  ![v1766.toNat]
def k0_off394 (v1767 : BitVec 32) : Fin 2 → Nat :=
  let c0_i32_787 : BitVec 32 := 0#32
  ![v1767.toNat, 0]

def k0_chk197 (v1767 : BitVec 32) : Prop :=
  (∀ a, (k0_off394 v1767) a + S1x2048.size a ≤ S32000x2048.size a)
instance k0_chk197.dec : ∀ (v1767 : BitVec 32), Decidable (k0_chk197 v1767) := fun v1767 => decidable_of_iff' _ (Iff.of_eq (k0_chk197.eq_1 v1767))
theorem k0_off394_inb : ∀ (v1767 : BitVec 32) (k0_hw197 : k0_chk197 v1767), ∀ a, (k0_off394 v1767) a + S1x2048.size a ≤ S32000x2048.size a := fun v1767 k0_hw197 => k0_hw197

def k0_off395 (i : grid0.Coords) : Fin 1 → Nat :=
  let arg0 : BitVec 32 := BitVec.ofNat 32 (i 0).val
  let c256_i32 : BitVec 32 := 256#32
  let v0 : BitVec 32 := Scalar.muli arg0 c256_i32
  let c197_i32 : BitVec 32 := 197#32
  let v1774 : BitVec 32 := Scalar.addi v0 c197_i32
  let v1775 : Index := Scalar.indexCast v1774
  ![v1775.toNat]
def k0_off396 (v1776 : BitVec 32) : Fin 2 → Nat :=
  let c0_i32_791 : BitVec 32 := 0#32
  ![v1776.toNat, 0]

def k0_chk198 (v1776 : BitVec 32) : Prop :=
  (∀ a, (k0_off396 v1776) a + S1x2048.size a ≤ S32000x2048.size a)
instance k0_chk198.dec : ∀ (v1776 : BitVec 32), Decidable (k0_chk198 v1776) := fun v1776 => decidable_of_iff' _ (Iff.of_eq (k0_chk198.eq_1 v1776))
theorem k0_off396_inb : ∀ (v1776 : BitVec 32) (k0_hw198 : k0_chk198 v1776), ∀ a, (k0_off396 v1776) a + S1x2048.size a ≤ S32000x2048.size a := fun v1776 k0_hw198 => k0_hw198

def k0_off397 (i : grid0.Coords) : Fin 1 → Nat :=
  let arg0 : BitVec 32 := BitVec.ofNat 32 (i 0).val
  let c256_i32 : BitVec 32 := 256#32
  let v0 : BitVec 32 := Scalar.muli arg0 c256_i32
  let c198_i32 : BitVec 32 := 198#32
  let v1783 : BitVec 32 := Scalar.addi v0 c198_i32
  let v1784 : Index := Scalar.indexCast v1783
  ![v1784.toNat]
def k0_off398 (v1785 : BitVec 32) : Fin 2 → Nat :=
  let c0_i32_795 : BitVec 32 := 0#32
  ![v1785.toNat, 0]

def k0_chk199 (v1785 : BitVec 32) : Prop :=
  (∀ a, (k0_off398 v1785) a + S1x2048.size a ≤ S32000x2048.size a)
instance k0_chk199.dec : ∀ (v1785 : BitVec 32), Decidable (k0_chk199 v1785) := fun v1785 => decidable_of_iff' _ (Iff.of_eq (k0_chk199.eq_1 v1785))
theorem k0_off398_inb : ∀ (v1785 : BitVec 32) (k0_hw199 : k0_chk199 v1785), ∀ a, (k0_off398 v1785) a + S1x2048.size a ≤ S32000x2048.size a := fun v1785 k0_hw199 => k0_hw199

def k0_off399 (i : grid0.Coords) : Fin 1 → Nat :=
  let arg0 : BitVec 32 := BitVec.ofNat 32 (i 0).val
  let c256_i32 : BitVec 32 := 256#32
  let v0 : BitVec 32 := Scalar.muli arg0 c256_i32
  let c199_i32 : BitVec 32 := 199#32
  let v1792 : BitVec 32 := Scalar.addi v0 c199_i32
  let v1793 : Index := Scalar.indexCast v1792
  ![v1793.toNat]
def k0_off400 (v1794 : BitVec 32) : Fin 2 → Nat :=
  let c0_i32_799 : BitVec 32 := 0#32
  ![v1794.toNat, 0]

def k0_chk200 (v1794 : BitVec 32) : Prop :=
  (∀ a, (k0_off400 v1794) a + S1x2048.size a ≤ S32000x2048.size a)
instance k0_chk200.dec : ∀ (v1794 : BitVec 32), Decidable (k0_chk200 v1794) := fun v1794 => decidable_of_iff' _ (Iff.of_eq (k0_chk200.eq_1 v1794))
theorem k0_off400_inb : ∀ (v1794 : BitVec 32) (k0_hw200 : k0_chk200 v1794), ∀ a, (k0_off400 v1794) a + S1x2048.size a ≤ S32000x2048.size a := fun v1794 k0_hw200 => k0_hw200

def k0_off401 (i : grid0.Coords) : Fin 1 → Nat :=
  let arg0 : BitVec 32 := BitVec.ofNat 32 (i 0).val
  let c256_i32 : BitVec 32 := 256#32
  let v0 : BitVec 32 := Scalar.muli arg0 c256_i32
  let c200_i32 : BitVec 32 := 200#32
  let v1801 : BitVec 32 := Scalar.addi v0 c200_i32
  let v1802 : Index := Scalar.indexCast v1801
  ![v1802.toNat]
def k0_off402 (v1803 : BitVec 32) : Fin 2 → Nat :=
  let c0_i32_803 : BitVec 32 := 0#32
  ![v1803.toNat, 0]

def k0_chk201 (v1803 : BitVec 32) : Prop :=
  (∀ a, (k0_off402 v1803) a + S1x2048.size a ≤ S32000x2048.size a)
instance k0_chk201.dec : ∀ (v1803 : BitVec 32), Decidable (k0_chk201 v1803) := fun v1803 => decidable_of_iff' _ (Iff.of_eq (k0_chk201.eq_1 v1803))
theorem k0_off402_inb : ∀ (v1803 : BitVec 32) (k0_hw201 : k0_chk201 v1803), ∀ a, (k0_off402 v1803) a + S1x2048.size a ≤ S32000x2048.size a := fun v1803 k0_hw201 => k0_hw201

def k0_off403 (i : grid0.Coords) : Fin 1 → Nat :=
  let arg0 : BitVec 32 := BitVec.ofNat 32 (i 0).val
  let c256_i32 : BitVec 32 := 256#32
  let v0 : BitVec 32 := Scalar.muli arg0 c256_i32
  let c201_i32 : BitVec 32 := 201#32
  let v1810 : BitVec 32 := Scalar.addi v0 c201_i32
  let v1811 : Index := Scalar.indexCast v1810
  ![v1811.toNat]
def k0_off404 (v1812 : BitVec 32) : Fin 2 → Nat :=
  let c0_i32_807 : BitVec 32 := 0#32
  ![v1812.toNat, 0]

def k0_chk202 (v1812 : BitVec 32) : Prop :=
  (∀ a, (k0_off404 v1812) a + S1x2048.size a ≤ S32000x2048.size a)
instance k0_chk202.dec : ∀ (v1812 : BitVec 32), Decidable (k0_chk202 v1812) := fun v1812 => decidable_of_iff' _ (Iff.of_eq (k0_chk202.eq_1 v1812))
theorem k0_off404_inb : ∀ (v1812 : BitVec 32) (k0_hw202 : k0_chk202 v1812), ∀ a, (k0_off404 v1812) a + S1x2048.size a ≤ S32000x2048.size a := fun v1812 k0_hw202 => k0_hw202

def k0_off405 (i : grid0.Coords) : Fin 1 → Nat :=
  let arg0 : BitVec 32 := BitVec.ofNat 32 (i 0).val
  let c256_i32 : BitVec 32 := 256#32
  let v0 : BitVec 32 := Scalar.muli arg0 c256_i32
  let c202_i32 : BitVec 32 := 202#32
  let v1819 : BitVec 32 := Scalar.addi v0 c202_i32
  let v1820 : Index := Scalar.indexCast v1819
  ![v1820.toNat]
def k0_off406 (v1821 : BitVec 32) : Fin 2 → Nat :=
  let c0_i32_811 : BitVec 32 := 0#32
  ![v1821.toNat, 0]

def k0_chk203 (v1821 : BitVec 32) : Prop :=
  (∀ a, (k0_off406 v1821) a + S1x2048.size a ≤ S32000x2048.size a)
instance k0_chk203.dec : ∀ (v1821 : BitVec 32), Decidable (k0_chk203 v1821) := fun v1821 => decidable_of_iff' _ (Iff.of_eq (k0_chk203.eq_1 v1821))
theorem k0_off406_inb : ∀ (v1821 : BitVec 32) (k0_hw203 : k0_chk203 v1821), ∀ a, (k0_off406 v1821) a + S1x2048.size a ≤ S32000x2048.size a := fun v1821 k0_hw203 => k0_hw203

def k0_off407 (i : grid0.Coords) : Fin 1 → Nat :=
  let arg0 : BitVec 32 := BitVec.ofNat 32 (i 0).val
  let c256_i32 : BitVec 32 := 256#32
  let v0 : BitVec 32 := Scalar.muli arg0 c256_i32
  let c203_i32 : BitVec 32 := 203#32
  let v1828 : BitVec 32 := Scalar.addi v0 c203_i32
  let v1829 : Index := Scalar.indexCast v1828
  ![v1829.toNat]
def k0_off408 (v1830 : BitVec 32) : Fin 2 → Nat :=
  let c0_i32_815 : BitVec 32 := 0#32
  ![v1830.toNat, 0]

def k0_chk204 (v1830 : BitVec 32) : Prop :=
  (∀ a, (k0_off408 v1830) a + S1x2048.size a ≤ S32000x2048.size a)
instance k0_chk204.dec : ∀ (v1830 : BitVec 32), Decidable (k0_chk204 v1830) := fun v1830 => decidable_of_iff' _ (Iff.of_eq (k0_chk204.eq_1 v1830))
theorem k0_off408_inb : ∀ (v1830 : BitVec 32) (k0_hw204 : k0_chk204 v1830), ∀ a, (k0_off408 v1830) a + S1x2048.size a ≤ S32000x2048.size a := fun v1830 k0_hw204 => k0_hw204

def k0_off409 (i : grid0.Coords) : Fin 1 → Nat :=
  let arg0 : BitVec 32 := BitVec.ofNat 32 (i 0).val
  let c256_i32 : BitVec 32 := 256#32
  let v0 : BitVec 32 := Scalar.muli arg0 c256_i32
  let c204_i32 : BitVec 32 := 204#32
  let v1837 : BitVec 32 := Scalar.addi v0 c204_i32
  let v1838 : Index := Scalar.indexCast v1837
  ![v1838.toNat]
def k0_off410 (v1839 : BitVec 32) : Fin 2 → Nat :=
  let c0_i32_819 : BitVec 32 := 0#32
  ![v1839.toNat, 0]

def k0_chk205 (v1839 : BitVec 32) : Prop :=
  (∀ a, (k0_off410 v1839) a + S1x2048.size a ≤ S32000x2048.size a)
instance k0_chk205.dec : ∀ (v1839 : BitVec 32), Decidable (k0_chk205 v1839) := fun v1839 => decidable_of_iff' _ (Iff.of_eq (k0_chk205.eq_1 v1839))
theorem k0_off410_inb : ∀ (v1839 : BitVec 32) (k0_hw205 : k0_chk205 v1839), ∀ a, (k0_off410 v1839) a + S1x2048.size a ≤ S32000x2048.size a := fun v1839 k0_hw205 => k0_hw205

def k0_off411 (i : grid0.Coords) : Fin 1 → Nat :=
  let arg0 : BitVec 32 := BitVec.ofNat 32 (i 0).val
  let c256_i32 : BitVec 32 := 256#32
  let v0 : BitVec 32 := Scalar.muli arg0 c256_i32
  let c205_i32 : BitVec 32 := 205#32
  let v1846 : BitVec 32 := Scalar.addi v0 c205_i32
  let v1847 : Index := Scalar.indexCast v1846
  ![v1847.toNat]
def k0_off412 (v1848 : BitVec 32) : Fin 2 → Nat :=
  let c0_i32_823 : BitVec 32 := 0#32
  ![v1848.toNat, 0]

def k0_chk206 (v1848 : BitVec 32) : Prop :=
  (∀ a, (k0_off412 v1848) a + S1x2048.size a ≤ S32000x2048.size a)
instance k0_chk206.dec : ∀ (v1848 : BitVec 32), Decidable (k0_chk206 v1848) := fun v1848 => decidable_of_iff' _ (Iff.of_eq (k0_chk206.eq_1 v1848))
theorem k0_off412_inb : ∀ (v1848 : BitVec 32) (k0_hw206 : k0_chk206 v1848), ∀ a, (k0_off412 v1848) a + S1x2048.size a ≤ S32000x2048.size a := fun v1848 k0_hw206 => k0_hw206

def k0_off413 (i : grid0.Coords) : Fin 1 → Nat :=
  let arg0 : BitVec 32 := BitVec.ofNat 32 (i 0).val
  let c256_i32 : BitVec 32 := 256#32
  let v0 : BitVec 32 := Scalar.muli arg0 c256_i32
  let c206_i32 : BitVec 32 := 206#32
  let v1855 : BitVec 32 := Scalar.addi v0 c206_i32
  let v1856 : Index := Scalar.indexCast v1855
  ![v1856.toNat]
def k0_off414 (v1857 : BitVec 32) : Fin 2 → Nat :=
  let c0_i32_827 : BitVec 32 := 0#32
  ![v1857.toNat, 0]

def k0_chk207 (v1857 : BitVec 32) : Prop :=
  (∀ a, (k0_off414 v1857) a + S1x2048.size a ≤ S32000x2048.size a)
instance k0_chk207.dec : ∀ (v1857 : BitVec 32), Decidable (k0_chk207 v1857) := fun v1857 => decidable_of_iff' _ (Iff.of_eq (k0_chk207.eq_1 v1857))
theorem k0_off414_inb : ∀ (v1857 : BitVec 32) (k0_hw207 : k0_chk207 v1857), ∀ a, (k0_off414 v1857) a + S1x2048.size a ≤ S32000x2048.size a := fun v1857 k0_hw207 => k0_hw207

def k0_off415 (i : grid0.Coords) : Fin 1 → Nat :=
  let arg0 : BitVec 32 := BitVec.ofNat 32 (i 0).val
  let c256_i32 : BitVec 32 := 256#32
  let v0 : BitVec 32 := Scalar.muli arg0 c256_i32
  let c207_i32 : BitVec 32 := 207#32
  let v1864 : BitVec 32 := Scalar.addi v0 c207_i32
  let v1865 : Index := Scalar.indexCast v1864
  ![v1865.toNat]
def k0_off416 (v1866 : BitVec 32) : Fin 2 → Nat :=
  let c0_i32_831 : BitVec 32 := 0#32
  ![v1866.toNat, 0]

def k0_chk208 (v1866 : BitVec 32) : Prop :=
  (∀ a, (k0_off416 v1866) a + S1x2048.size a ≤ S32000x2048.size a)
instance k0_chk208.dec : ∀ (v1866 : BitVec 32), Decidable (k0_chk208 v1866) := fun v1866 => decidable_of_iff' _ (Iff.of_eq (k0_chk208.eq_1 v1866))
theorem k0_off416_inb : ∀ (v1866 : BitVec 32) (k0_hw208 : k0_chk208 v1866), ∀ a, (k0_off416 v1866) a + S1x2048.size a ≤ S32000x2048.size a := fun v1866 k0_hw208 => k0_hw208

def k0_off417 (i : grid0.Coords) : Fin 1 → Nat :=
  let arg0 : BitVec 32 := BitVec.ofNat 32 (i 0).val
  let c256_i32 : BitVec 32 := 256#32
  let v0 : BitVec 32 := Scalar.muli arg0 c256_i32
  let c208_i32 : BitVec 32 := 208#32
  let v1873 : BitVec 32 := Scalar.addi v0 c208_i32
  let v1874 : Index := Scalar.indexCast v1873
  ![v1874.toNat]
def k0_off418 (v1875 : BitVec 32) : Fin 2 → Nat :=
  let c0_i32_835 : BitVec 32 := 0#32
  ![v1875.toNat, 0]

def k0_chk209 (v1875 : BitVec 32) : Prop :=
  (∀ a, (k0_off418 v1875) a + S1x2048.size a ≤ S32000x2048.size a)
instance k0_chk209.dec : ∀ (v1875 : BitVec 32), Decidable (k0_chk209 v1875) := fun v1875 => decidable_of_iff' _ (Iff.of_eq (k0_chk209.eq_1 v1875))
theorem k0_off418_inb : ∀ (v1875 : BitVec 32) (k0_hw209 : k0_chk209 v1875), ∀ a, (k0_off418 v1875) a + S1x2048.size a ≤ S32000x2048.size a := fun v1875 k0_hw209 => k0_hw209

def k0_off419 (i : grid0.Coords) : Fin 1 → Nat :=
  let arg0 : BitVec 32 := BitVec.ofNat 32 (i 0).val
  let c256_i32 : BitVec 32 := 256#32
  let v0 : BitVec 32 := Scalar.muli arg0 c256_i32
  let c209_i32 : BitVec 32 := 209#32
  let v1882 : BitVec 32 := Scalar.addi v0 c209_i32
  let v1883 : Index := Scalar.indexCast v1882
  ![v1883.toNat]
def k0_off420 (v1884 : BitVec 32) : Fin 2 → Nat :=
  let c0_i32_839 : BitVec 32 := 0#32
  ![v1884.toNat, 0]

def k0_chk210 (v1884 : BitVec 32) : Prop :=
  (∀ a, (k0_off420 v1884) a + S1x2048.size a ≤ S32000x2048.size a)
instance k0_chk210.dec : ∀ (v1884 : BitVec 32), Decidable (k0_chk210 v1884) := fun v1884 => decidable_of_iff' _ (Iff.of_eq (k0_chk210.eq_1 v1884))
theorem k0_off420_inb : ∀ (v1884 : BitVec 32) (k0_hw210 : k0_chk210 v1884), ∀ a, (k0_off420 v1884) a + S1x2048.size a ≤ S32000x2048.size a := fun v1884 k0_hw210 => k0_hw210

def k0_off421 (i : grid0.Coords) : Fin 1 → Nat :=
  let arg0 : BitVec 32 := BitVec.ofNat 32 (i 0).val
  let c256_i32 : BitVec 32 := 256#32
  let v0 : BitVec 32 := Scalar.muli arg0 c256_i32
  let c210_i32 : BitVec 32 := 210#32
  let v1891 : BitVec 32 := Scalar.addi v0 c210_i32
  let v1892 : Index := Scalar.indexCast v1891
  ![v1892.toNat]
def k0_off422 (v1893 : BitVec 32) : Fin 2 → Nat :=
  let c0_i32_843 : BitVec 32 := 0#32
  ![v1893.toNat, 0]

def k0_chk211 (v1893 : BitVec 32) : Prop :=
  (∀ a, (k0_off422 v1893) a + S1x2048.size a ≤ S32000x2048.size a)
instance k0_chk211.dec : ∀ (v1893 : BitVec 32), Decidable (k0_chk211 v1893) := fun v1893 => decidable_of_iff' _ (Iff.of_eq (k0_chk211.eq_1 v1893))
theorem k0_off422_inb : ∀ (v1893 : BitVec 32) (k0_hw211 : k0_chk211 v1893), ∀ a, (k0_off422 v1893) a + S1x2048.size a ≤ S32000x2048.size a := fun v1893 k0_hw211 => k0_hw211

def k0_off423 (i : grid0.Coords) : Fin 1 → Nat :=
  let arg0 : BitVec 32 := BitVec.ofNat 32 (i 0).val
  let c256_i32 : BitVec 32 := 256#32
  let v0 : BitVec 32 := Scalar.muli arg0 c256_i32
  let c211_i32 : BitVec 32 := 211#32
  let v1900 : BitVec 32 := Scalar.addi v0 c211_i32
  let v1901 : Index := Scalar.indexCast v1900
  ![v1901.toNat]
def k0_off424 (v1902 : BitVec 32) : Fin 2 → Nat :=
  let c0_i32_847 : BitVec 32 := 0#32
  ![v1902.toNat, 0]

def k0_chk212 (v1902 : BitVec 32) : Prop :=
  (∀ a, (k0_off424 v1902) a + S1x2048.size a ≤ S32000x2048.size a)
instance k0_chk212.dec : ∀ (v1902 : BitVec 32), Decidable (k0_chk212 v1902) := fun v1902 => decidable_of_iff' _ (Iff.of_eq (k0_chk212.eq_1 v1902))
theorem k0_off424_inb : ∀ (v1902 : BitVec 32) (k0_hw212 : k0_chk212 v1902), ∀ a, (k0_off424 v1902) a + S1x2048.size a ≤ S32000x2048.size a := fun v1902 k0_hw212 => k0_hw212

def k0_off425 (i : grid0.Coords) : Fin 1 → Nat :=
  let arg0 : BitVec 32 := BitVec.ofNat 32 (i 0).val
  let c256_i32 : BitVec 32 := 256#32
  let v0 : BitVec 32 := Scalar.muli arg0 c256_i32
  let c212_i32 : BitVec 32 := 212#32
  let v1909 : BitVec 32 := Scalar.addi v0 c212_i32
  let v1910 : Index := Scalar.indexCast v1909
  ![v1910.toNat]
def k0_off426 (v1911 : BitVec 32) : Fin 2 → Nat :=
  let c0_i32_851 : BitVec 32 := 0#32
  ![v1911.toNat, 0]

def k0_chk213 (v1911 : BitVec 32) : Prop :=
  (∀ a, (k0_off426 v1911) a + S1x2048.size a ≤ S32000x2048.size a)
instance k0_chk213.dec : ∀ (v1911 : BitVec 32), Decidable (k0_chk213 v1911) := fun v1911 => decidable_of_iff' _ (Iff.of_eq (k0_chk213.eq_1 v1911))
theorem k0_off426_inb : ∀ (v1911 : BitVec 32) (k0_hw213 : k0_chk213 v1911), ∀ a, (k0_off426 v1911) a + S1x2048.size a ≤ S32000x2048.size a := fun v1911 k0_hw213 => k0_hw213

def k0_off427 (i : grid0.Coords) : Fin 1 → Nat :=
  let arg0 : BitVec 32 := BitVec.ofNat 32 (i 0).val
  let c256_i32 : BitVec 32 := 256#32
  let v0 : BitVec 32 := Scalar.muli arg0 c256_i32
  let c213_i32 : BitVec 32 := 213#32
  let v1918 : BitVec 32 := Scalar.addi v0 c213_i32
  let v1919 : Index := Scalar.indexCast v1918
  ![v1919.toNat]
def k0_off428 (v1920 : BitVec 32) : Fin 2 → Nat :=
  let c0_i32_855 : BitVec 32 := 0#32
  ![v1920.toNat, 0]

def k0_chk214 (v1920 : BitVec 32) : Prop :=
  (∀ a, (k0_off428 v1920) a + S1x2048.size a ≤ S32000x2048.size a)
instance k0_chk214.dec : ∀ (v1920 : BitVec 32), Decidable (k0_chk214 v1920) := fun v1920 => decidable_of_iff' _ (Iff.of_eq (k0_chk214.eq_1 v1920))
theorem k0_off428_inb : ∀ (v1920 : BitVec 32) (k0_hw214 : k0_chk214 v1920), ∀ a, (k0_off428 v1920) a + S1x2048.size a ≤ S32000x2048.size a := fun v1920 k0_hw214 => k0_hw214

def k0_off429 (i : grid0.Coords) : Fin 1 → Nat :=
  let arg0 : BitVec 32 := BitVec.ofNat 32 (i 0).val
  let c256_i32 : BitVec 32 := 256#32
  let v0 : BitVec 32 := Scalar.muli arg0 c256_i32
  let c214_i32 : BitVec 32 := 214#32
  let v1927 : BitVec 32 := Scalar.addi v0 c214_i32
  let v1928 : Index := Scalar.indexCast v1927
  ![v1928.toNat]
def k0_off430 (v1929 : BitVec 32) : Fin 2 → Nat :=
  let c0_i32_859 : BitVec 32 := 0#32
  ![v1929.toNat, 0]

def k0_chk215 (v1929 : BitVec 32) : Prop :=
  (∀ a, (k0_off430 v1929) a + S1x2048.size a ≤ S32000x2048.size a)
instance k0_chk215.dec : ∀ (v1929 : BitVec 32), Decidable (k0_chk215 v1929) := fun v1929 => decidable_of_iff' _ (Iff.of_eq (k0_chk215.eq_1 v1929))
theorem k0_off430_inb : ∀ (v1929 : BitVec 32) (k0_hw215 : k0_chk215 v1929), ∀ a, (k0_off430 v1929) a + S1x2048.size a ≤ S32000x2048.size a := fun v1929 k0_hw215 => k0_hw215

def k0_off431 (i : grid0.Coords) : Fin 1 → Nat :=
  let arg0 : BitVec 32 := BitVec.ofNat 32 (i 0).val
  let c256_i32 : BitVec 32 := 256#32
  let v0 : BitVec 32 := Scalar.muli arg0 c256_i32
  let c215_i32 : BitVec 32 := 215#32
  let v1936 : BitVec 32 := Scalar.addi v0 c215_i32
  let v1937 : Index := Scalar.indexCast v1936
  ![v1937.toNat]
def k0_off432 (v1938 : BitVec 32) : Fin 2 → Nat :=
  let c0_i32_863 : BitVec 32 := 0#32
  ![v1938.toNat, 0]

def k0_chk216 (v1938 : BitVec 32) : Prop :=
  (∀ a, (k0_off432 v1938) a + S1x2048.size a ≤ S32000x2048.size a)
instance k0_chk216.dec : ∀ (v1938 : BitVec 32), Decidable (k0_chk216 v1938) := fun v1938 => decidable_of_iff' _ (Iff.of_eq (k0_chk216.eq_1 v1938))
theorem k0_off432_inb : ∀ (v1938 : BitVec 32) (k0_hw216 : k0_chk216 v1938), ∀ a, (k0_off432 v1938) a + S1x2048.size a ≤ S32000x2048.size a := fun v1938 k0_hw216 => k0_hw216

def k0_off433 (i : grid0.Coords) : Fin 1 → Nat :=
  let arg0 : BitVec 32 := BitVec.ofNat 32 (i 0).val
  let c256_i32 : BitVec 32 := 256#32
  let v0 : BitVec 32 := Scalar.muli arg0 c256_i32
  let c216_i32 : BitVec 32 := 216#32
  let v1945 : BitVec 32 := Scalar.addi v0 c216_i32
  let v1946 : Index := Scalar.indexCast v1945
  ![v1946.toNat]
def k0_off434 (v1947 : BitVec 32) : Fin 2 → Nat :=
  let c0_i32_867 : BitVec 32 := 0#32
  ![v1947.toNat, 0]

def k0_chk217 (v1947 : BitVec 32) : Prop :=
  (∀ a, (k0_off434 v1947) a + S1x2048.size a ≤ S32000x2048.size a)
instance k0_chk217.dec : ∀ (v1947 : BitVec 32), Decidable (k0_chk217 v1947) := fun v1947 => decidable_of_iff' _ (Iff.of_eq (k0_chk217.eq_1 v1947))
theorem k0_off434_inb : ∀ (v1947 : BitVec 32) (k0_hw217 : k0_chk217 v1947), ∀ a, (k0_off434 v1947) a + S1x2048.size a ≤ S32000x2048.size a := fun v1947 k0_hw217 => k0_hw217

def k0_off435 (i : grid0.Coords) : Fin 1 → Nat :=
  let arg0 : BitVec 32 := BitVec.ofNat 32 (i 0).val
  let c256_i32 : BitVec 32 := 256#32
  let v0 : BitVec 32 := Scalar.muli arg0 c256_i32
  let c217_i32 : BitVec 32 := 217#32
  let v1954 : BitVec 32 := Scalar.addi v0 c217_i32
  let v1955 : Index := Scalar.indexCast v1954
  ![v1955.toNat]
def k0_off436 (v1956 : BitVec 32) : Fin 2 → Nat :=
  let c0_i32_871 : BitVec 32 := 0#32
  ![v1956.toNat, 0]

def k0_chk218 (v1956 : BitVec 32) : Prop :=
  (∀ a, (k0_off436 v1956) a + S1x2048.size a ≤ S32000x2048.size a)
instance k0_chk218.dec : ∀ (v1956 : BitVec 32), Decidable (k0_chk218 v1956) := fun v1956 => decidable_of_iff' _ (Iff.of_eq (k0_chk218.eq_1 v1956))
theorem k0_off436_inb : ∀ (v1956 : BitVec 32) (k0_hw218 : k0_chk218 v1956), ∀ a, (k0_off436 v1956) a + S1x2048.size a ≤ S32000x2048.size a := fun v1956 k0_hw218 => k0_hw218

def k0_off437 (i : grid0.Coords) : Fin 1 → Nat :=
  let arg0 : BitVec 32 := BitVec.ofNat 32 (i 0).val
  let c256_i32 : BitVec 32 := 256#32
  let v0 : BitVec 32 := Scalar.muli arg0 c256_i32
  let c218_i32 : BitVec 32 := 218#32
  let v1963 : BitVec 32 := Scalar.addi v0 c218_i32
  let v1964 : Index := Scalar.indexCast v1963
  ![v1964.toNat]
def k0_off438 (v1965 : BitVec 32) : Fin 2 → Nat :=
  let c0_i32_875 : BitVec 32 := 0#32
  ![v1965.toNat, 0]

def k0_chk219 (v1965 : BitVec 32) : Prop :=
  (∀ a, (k0_off438 v1965) a + S1x2048.size a ≤ S32000x2048.size a)
instance k0_chk219.dec : ∀ (v1965 : BitVec 32), Decidable (k0_chk219 v1965) := fun v1965 => decidable_of_iff' _ (Iff.of_eq (k0_chk219.eq_1 v1965))
theorem k0_off438_inb : ∀ (v1965 : BitVec 32) (k0_hw219 : k0_chk219 v1965), ∀ a, (k0_off438 v1965) a + S1x2048.size a ≤ S32000x2048.size a := fun v1965 k0_hw219 => k0_hw219

def k0_off439 (i : grid0.Coords) : Fin 1 → Nat :=
  let arg0 : BitVec 32 := BitVec.ofNat 32 (i 0).val
  let c256_i32 : BitVec 32 := 256#32
  let v0 : BitVec 32 := Scalar.muli arg0 c256_i32
  let c219_i32 : BitVec 32 := 219#32
  let v1972 : BitVec 32 := Scalar.addi v0 c219_i32
  let v1973 : Index := Scalar.indexCast v1972
  ![v1973.toNat]
def k0_off440 (v1974 : BitVec 32) : Fin 2 → Nat :=
  let c0_i32_879 : BitVec 32 := 0#32
  ![v1974.toNat, 0]

def k0_chk220 (v1974 : BitVec 32) : Prop :=
  (∀ a, (k0_off440 v1974) a + S1x2048.size a ≤ S32000x2048.size a)
instance k0_chk220.dec : ∀ (v1974 : BitVec 32), Decidable (k0_chk220 v1974) := fun v1974 => decidable_of_iff' _ (Iff.of_eq (k0_chk220.eq_1 v1974))
theorem k0_off440_inb : ∀ (v1974 : BitVec 32) (k0_hw220 : k0_chk220 v1974), ∀ a, (k0_off440 v1974) a + S1x2048.size a ≤ S32000x2048.size a := fun v1974 k0_hw220 => k0_hw220

def k0_off441 (i : grid0.Coords) : Fin 1 → Nat :=
  let arg0 : BitVec 32 := BitVec.ofNat 32 (i 0).val
  let c256_i32 : BitVec 32 := 256#32
  let v0 : BitVec 32 := Scalar.muli arg0 c256_i32
  let c220_i32 : BitVec 32 := 220#32
  let v1981 : BitVec 32 := Scalar.addi v0 c220_i32
  let v1982 : Index := Scalar.indexCast v1981
  ![v1982.toNat]
def k0_off442 (v1983 : BitVec 32) : Fin 2 → Nat :=
  let c0_i32_883 : BitVec 32 := 0#32
  ![v1983.toNat, 0]

def k0_chk221 (v1983 : BitVec 32) : Prop :=
  (∀ a, (k0_off442 v1983) a + S1x2048.size a ≤ S32000x2048.size a)
instance k0_chk221.dec : ∀ (v1983 : BitVec 32), Decidable (k0_chk221 v1983) := fun v1983 => decidable_of_iff' _ (Iff.of_eq (k0_chk221.eq_1 v1983))
theorem k0_off442_inb : ∀ (v1983 : BitVec 32) (k0_hw221 : k0_chk221 v1983), ∀ a, (k0_off442 v1983) a + S1x2048.size a ≤ S32000x2048.size a := fun v1983 k0_hw221 => k0_hw221

def k0_off443 (i : grid0.Coords) : Fin 1 → Nat :=
  let arg0 : BitVec 32 := BitVec.ofNat 32 (i 0).val
  let c256_i32 : BitVec 32 := 256#32
  let v0 : BitVec 32 := Scalar.muli arg0 c256_i32
  let c221_i32 : BitVec 32 := 221#32
  let v1990 : BitVec 32 := Scalar.addi v0 c221_i32
  let v1991 : Index := Scalar.indexCast v1990
  ![v1991.toNat]
def k0_off444 (v1992 : BitVec 32) : Fin 2 → Nat :=
  let c0_i32_887 : BitVec 32 := 0#32
  ![v1992.toNat, 0]

def k0_chk222 (v1992 : BitVec 32) : Prop :=
  (∀ a, (k0_off444 v1992) a + S1x2048.size a ≤ S32000x2048.size a)
instance k0_chk222.dec : ∀ (v1992 : BitVec 32), Decidable (k0_chk222 v1992) := fun v1992 => decidable_of_iff' _ (Iff.of_eq (k0_chk222.eq_1 v1992))
theorem k0_off444_inb : ∀ (v1992 : BitVec 32) (k0_hw222 : k0_chk222 v1992), ∀ a, (k0_off444 v1992) a + S1x2048.size a ≤ S32000x2048.size a := fun v1992 k0_hw222 => k0_hw222

def k0_off445 (i : grid0.Coords) : Fin 1 → Nat :=
  let arg0 : BitVec 32 := BitVec.ofNat 32 (i 0).val
  let c256_i32 : BitVec 32 := 256#32
  let v0 : BitVec 32 := Scalar.muli arg0 c256_i32
  let c222_i32 : BitVec 32 := 222#32
  let v1999 : BitVec 32 := Scalar.addi v0 c222_i32
  let v2000 : Index := Scalar.indexCast v1999
  ![v2000.toNat]
def k0_off446 (v2001 : BitVec 32) : Fin 2 → Nat :=
  let c0_i32_891 : BitVec 32 := 0#32
  ![v2001.toNat, 0]

def k0_chk223 (v2001 : BitVec 32) : Prop :=
  (∀ a, (k0_off446 v2001) a + S1x2048.size a ≤ S32000x2048.size a)
instance k0_chk223.dec : ∀ (v2001 : BitVec 32), Decidable (k0_chk223 v2001) := fun v2001 => decidable_of_iff' _ (Iff.of_eq (k0_chk223.eq_1 v2001))
theorem k0_off446_inb : ∀ (v2001 : BitVec 32) (k0_hw223 : k0_chk223 v2001), ∀ a, (k0_off446 v2001) a + S1x2048.size a ≤ S32000x2048.size a := fun v2001 k0_hw223 => k0_hw223

def k0_off447 (i : grid0.Coords) : Fin 1 → Nat :=
  let arg0 : BitVec 32 := BitVec.ofNat 32 (i 0).val
  let c256_i32 : BitVec 32 := 256#32
  let v0 : BitVec 32 := Scalar.muli arg0 c256_i32
  let c223_i32 : BitVec 32 := 223#32
  let v2008 : BitVec 32 := Scalar.addi v0 c223_i32
  let v2009 : Index := Scalar.indexCast v2008
  ![v2009.toNat]
def k0_off448 (v2010 : BitVec 32) : Fin 2 → Nat :=
  let c0_i32_895 : BitVec 32 := 0#32
  ![v2010.toNat, 0]

def k0_chk224 (v2010 : BitVec 32) : Prop :=
  (∀ a, (k0_off448 v2010) a + S1x2048.size a ≤ S32000x2048.size a)
instance k0_chk224.dec : ∀ (v2010 : BitVec 32), Decidable (k0_chk224 v2010) := fun v2010 => decidable_of_iff' _ (Iff.of_eq (k0_chk224.eq_1 v2010))
theorem k0_off448_inb : ∀ (v2010 : BitVec 32) (k0_hw224 : k0_chk224 v2010), ∀ a, (k0_off448 v2010) a + S1x2048.size a ≤ S32000x2048.size a := fun v2010 k0_hw224 => k0_hw224

def k0_off449 (i : grid0.Coords) : Fin 1 → Nat :=
  let arg0 : BitVec 32 := BitVec.ofNat 32 (i 0).val
  let c256_i32 : BitVec 32 := 256#32
  let v0 : BitVec 32 := Scalar.muli arg0 c256_i32
  let c224_i32 : BitVec 32 := 224#32
  let v2017 : BitVec 32 := Scalar.addi v0 c224_i32
  let v2018 : Index := Scalar.indexCast v2017
  ![v2018.toNat]
def k0_off450 (v2019 : BitVec 32) : Fin 2 → Nat :=
  let c0_i32_899 : BitVec 32 := 0#32
  ![v2019.toNat, 0]

def k0_chk225 (v2019 : BitVec 32) : Prop :=
  (∀ a, (k0_off450 v2019) a + S1x2048.size a ≤ S32000x2048.size a)
instance k0_chk225.dec : ∀ (v2019 : BitVec 32), Decidable (k0_chk225 v2019) := fun v2019 => decidable_of_iff' _ (Iff.of_eq (k0_chk225.eq_1 v2019))
theorem k0_off450_inb : ∀ (v2019 : BitVec 32) (k0_hw225 : k0_chk225 v2019), ∀ a, (k0_off450 v2019) a + S1x2048.size a ≤ S32000x2048.size a := fun v2019 k0_hw225 => k0_hw225

def k0_off451 (i : grid0.Coords) : Fin 1 → Nat :=
  let arg0 : BitVec 32 := BitVec.ofNat 32 (i 0).val
  let c256_i32 : BitVec 32 := 256#32
  let v0 : BitVec 32 := Scalar.muli arg0 c256_i32
  let c225_i32 : BitVec 32 := 225#32
  let v2026 : BitVec 32 := Scalar.addi v0 c225_i32
  let v2027 : Index := Scalar.indexCast v2026
  ![v2027.toNat]
def k0_off452 (v2028 : BitVec 32) : Fin 2 → Nat :=
  let c0_i32_903 : BitVec 32 := 0#32
  ![v2028.toNat, 0]

def k0_chk226 (v2028 : BitVec 32) : Prop :=
  (∀ a, (k0_off452 v2028) a + S1x2048.size a ≤ S32000x2048.size a)
instance k0_chk226.dec : ∀ (v2028 : BitVec 32), Decidable (k0_chk226 v2028) := fun v2028 => decidable_of_iff' _ (Iff.of_eq (k0_chk226.eq_1 v2028))
theorem k0_off452_inb : ∀ (v2028 : BitVec 32) (k0_hw226 : k0_chk226 v2028), ∀ a, (k0_off452 v2028) a + S1x2048.size a ≤ S32000x2048.size a := fun v2028 k0_hw226 => k0_hw226

def k0_off453 (i : grid0.Coords) : Fin 1 → Nat :=
  let arg0 : BitVec 32 := BitVec.ofNat 32 (i 0).val
  let c256_i32 : BitVec 32 := 256#32
  let v0 : BitVec 32 := Scalar.muli arg0 c256_i32
  let c226_i32 : BitVec 32 := 226#32
  let v2035 : BitVec 32 := Scalar.addi v0 c226_i32
  let v2036 : Index := Scalar.indexCast v2035
  ![v2036.toNat]
def k0_off454 (v2037 : BitVec 32) : Fin 2 → Nat :=
  let c0_i32_907 : BitVec 32 := 0#32
  ![v2037.toNat, 0]

def k0_chk227 (v2037 : BitVec 32) : Prop :=
  (∀ a, (k0_off454 v2037) a + S1x2048.size a ≤ S32000x2048.size a)
instance k0_chk227.dec : ∀ (v2037 : BitVec 32), Decidable (k0_chk227 v2037) := fun v2037 => decidable_of_iff' _ (Iff.of_eq (k0_chk227.eq_1 v2037))
theorem k0_off454_inb : ∀ (v2037 : BitVec 32) (k0_hw227 : k0_chk227 v2037), ∀ a, (k0_off454 v2037) a + S1x2048.size a ≤ S32000x2048.size a := fun v2037 k0_hw227 => k0_hw227

def k0_off455 (i : grid0.Coords) : Fin 1 → Nat :=
  let arg0 : BitVec 32 := BitVec.ofNat 32 (i 0).val
  let c256_i32 : BitVec 32 := 256#32
  let v0 : BitVec 32 := Scalar.muli arg0 c256_i32
  let c227_i32 : BitVec 32 := 227#32
  let v2044 : BitVec 32 := Scalar.addi v0 c227_i32
  let v2045 : Index := Scalar.indexCast v2044
  ![v2045.toNat]
def k0_off456 (v2046 : BitVec 32) : Fin 2 → Nat :=
  let c0_i32_911 : BitVec 32 := 0#32
  ![v2046.toNat, 0]

def k0_chk228 (v2046 : BitVec 32) : Prop :=
  (∀ a, (k0_off456 v2046) a + S1x2048.size a ≤ S32000x2048.size a)
instance k0_chk228.dec : ∀ (v2046 : BitVec 32), Decidable (k0_chk228 v2046) := fun v2046 => decidable_of_iff' _ (Iff.of_eq (k0_chk228.eq_1 v2046))
theorem k0_off456_inb : ∀ (v2046 : BitVec 32) (k0_hw228 : k0_chk228 v2046), ∀ a, (k0_off456 v2046) a + S1x2048.size a ≤ S32000x2048.size a := fun v2046 k0_hw228 => k0_hw228

def k0_off457 (i : grid0.Coords) : Fin 1 → Nat :=
  let arg0 : BitVec 32 := BitVec.ofNat 32 (i 0).val
  let c256_i32 : BitVec 32 := 256#32
  let v0 : BitVec 32 := Scalar.muli arg0 c256_i32
  let c228_i32 : BitVec 32 := 228#32
  let v2053 : BitVec 32 := Scalar.addi v0 c228_i32
  let v2054 : Index := Scalar.indexCast v2053
  ![v2054.toNat]
def k0_off458 (v2055 : BitVec 32) : Fin 2 → Nat :=
  let c0_i32_915 : BitVec 32 := 0#32
  ![v2055.toNat, 0]

def k0_chk229 (v2055 : BitVec 32) : Prop :=
  (∀ a, (k0_off458 v2055) a + S1x2048.size a ≤ S32000x2048.size a)
instance k0_chk229.dec : ∀ (v2055 : BitVec 32), Decidable (k0_chk229 v2055) := fun v2055 => decidable_of_iff' _ (Iff.of_eq (k0_chk229.eq_1 v2055))
theorem k0_off458_inb : ∀ (v2055 : BitVec 32) (k0_hw229 : k0_chk229 v2055), ∀ a, (k0_off458 v2055) a + S1x2048.size a ≤ S32000x2048.size a := fun v2055 k0_hw229 => k0_hw229

def k0_off459 (i : grid0.Coords) : Fin 1 → Nat :=
  let arg0 : BitVec 32 := BitVec.ofNat 32 (i 0).val
  let c256_i32 : BitVec 32 := 256#32
  let v0 : BitVec 32 := Scalar.muli arg0 c256_i32
  let c229_i32 : BitVec 32 := 229#32
  let v2062 : BitVec 32 := Scalar.addi v0 c229_i32
  let v2063 : Index := Scalar.indexCast v2062
  ![v2063.toNat]
def k0_off460 (v2064 : BitVec 32) : Fin 2 → Nat :=
  let c0_i32_919 : BitVec 32 := 0#32
  ![v2064.toNat, 0]

def k0_chk230 (v2064 : BitVec 32) : Prop :=
  (∀ a, (k0_off460 v2064) a + S1x2048.size a ≤ S32000x2048.size a)
instance k0_chk230.dec : ∀ (v2064 : BitVec 32), Decidable (k0_chk230 v2064) := fun v2064 => decidable_of_iff' _ (Iff.of_eq (k0_chk230.eq_1 v2064))
theorem k0_off460_inb : ∀ (v2064 : BitVec 32) (k0_hw230 : k0_chk230 v2064), ∀ a, (k0_off460 v2064) a + S1x2048.size a ≤ S32000x2048.size a := fun v2064 k0_hw230 => k0_hw230

def k0_off461 (i : grid0.Coords) : Fin 1 → Nat :=
  let arg0 : BitVec 32 := BitVec.ofNat 32 (i 0).val
  let c256_i32 : BitVec 32 := 256#32
  let v0 : BitVec 32 := Scalar.muli arg0 c256_i32
  let c230_i32 : BitVec 32 := 230#32
  let v2071 : BitVec 32 := Scalar.addi v0 c230_i32
  let v2072 : Index := Scalar.indexCast v2071
  ![v2072.toNat]
def k0_off462 (v2073 : BitVec 32) : Fin 2 → Nat :=
  let c0_i32_923 : BitVec 32 := 0#32
  ![v2073.toNat, 0]

def k0_chk231 (v2073 : BitVec 32) : Prop :=
  (∀ a, (k0_off462 v2073) a + S1x2048.size a ≤ S32000x2048.size a)
instance k0_chk231.dec : ∀ (v2073 : BitVec 32), Decidable (k0_chk231 v2073) := fun v2073 => decidable_of_iff' _ (Iff.of_eq (k0_chk231.eq_1 v2073))
theorem k0_off462_inb : ∀ (v2073 : BitVec 32) (k0_hw231 : k0_chk231 v2073), ∀ a, (k0_off462 v2073) a + S1x2048.size a ≤ S32000x2048.size a := fun v2073 k0_hw231 => k0_hw231

def k0_off463 (i : grid0.Coords) : Fin 1 → Nat :=
  let arg0 : BitVec 32 := BitVec.ofNat 32 (i 0).val
  let c256_i32 : BitVec 32 := 256#32
  let v0 : BitVec 32 := Scalar.muli arg0 c256_i32
  let c231_i32 : BitVec 32 := 231#32
  let v2080 : BitVec 32 := Scalar.addi v0 c231_i32
  let v2081 : Index := Scalar.indexCast v2080
  ![v2081.toNat]
def k0_off464 (v2082 : BitVec 32) : Fin 2 → Nat :=
  let c0_i32_927 : BitVec 32 := 0#32
  ![v2082.toNat, 0]

def k0_chk232 (v2082 : BitVec 32) : Prop :=
  (∀ a, (k0_off464 v2082) a + S1x2048.size a ≤ S32000x2048.size a)
instance k0_chk232.dec : ∀ (v2082 : BitVec 32), Decidable (k0_chk232 v2082) := fun v2082 => decidable_of_iff' _ (Iff.of_eq (k0_chk232.eq_1 v2082))
theorem k0_off464_inb : ∀ (v2082 : BitVec 32) (k0_hw232 : k0_chk232 v2082), ∀ a, (k0_off464 v2082) a + S1x2048.size a ≤ S32000x2048.size a := fun v2082 k0_hw232 => k0_hw232

def k0_off465 (i : grid0.Coords) : Fin 1 → Nat :=
  let arg0 : BitVec 32 := BitVec.ofNat 32 (i 0).val
  let c256_i32 : BitVec 32 := 256#32
  let v0 : BitVec 32 := Scalar.muli arg0 c256_i32
  let c232_i32 : BitVec 32 := 232#32
  let v2089 : BitVec 32 := Scalar.addi v0 c232_i32
  let v2090 : Index := Scalar.indexCast v2089
  ![v2090.toNat]
def k0_off466 (v2091 : BitVec 32) : Fin 2 → Nat :=
  let c0_i32_931 : BitVec 32 := 0#32
  ![v2091.toNat, 0]

def k0_chk233 (v2091 : BitVec 32) : Prop :=
  (∀ a, (k0_off466 v2091) a + S1x2048.size a ≤ S32000x2048.size a)
instance k0_chk233.dec : ∀ (v2091 : BitVec 32), Decidable (k0_chk233 v2091) := fun v2091 => decidable_of_iff' _ (Iff.of_eq (k0_chk233.eq_1 v2091))
theorem k0_off466_inb : ∀ (v2091 : BitVec 32) (k0_hw233 : k0_chk233 v2091), ∀ a, (k0_off466 v2091) a + S1x2048.size a ≤ S32000x2048.size a := fun v2091 k0_hw233 => k0_hw233

def k0_off467 (i : grid0.Coords) : Fin 1 → Nat :=
  let arg0 : BitVec 32 := BitVec.ofNat 32 (i 0).val
  let c256_i32 : BitVec 32 := 256#32
  let v0 : BitVec 32 := Scalar.muli arg0 c256_i32
  let c233_i32 : BitVec 32 := 233#32
  let v2098 : BitVec 32 := Scalar.addi v0 c233_i32
  let v2099 : Index := Scalar.indexCast v2098
  ![v2099.toNat]
def k0_off468 (v2100 : BitVec 32) : Fin 2 → Nat :=
  let c0_i32_935 : BitVec 32 := 0#32
  ![v2100.toNat, 0]

def k0_chk234 (v2100 : BitVec 32) : Prop :=
  (∀ a, (k0_off468 v2100) a + S1x2048.size a ≤ S32000x2048.size a)
instance k0_chk234.dec : ∀ (v2100 : BitVec 32), Decidable (k0_chk234 v2100) := fun v2100 => decidable_of_iff' _ (Iff.of_eq (k0_chk234.eq_1 v2100))
theorem k0_off468_inb : ∀ (v2100 : BitVec 32) (k0_hw234 : k0_chk234 v2100), ∀ a, (k0_off468 v2100) a + S1x2048.size a ≤ S32000x2048.size a := fun v2100 k0_hw234 => k0_hw234

def k0_off469 (i : grid0.Coords) : Fin 1 → Nat :=
  let arg0 : BitVec 32 := BitVec.ofNat 32 (i 0).val
  let c256_i32 : BitVec 32 := 256#32
  let v0 : BitVec 32 := Scalar.muli arg0 c256_i32
  let c234_i32 : BitVec 32 := 234#32
  let v2107 : BitVec 32 := Scalar.addi v0 c234_i32
  let v2108 : Index := Scalar.indexCast v2107
  ![v2108.toNat]
def k0_off470 (v2109 : BitVec 32) : Fin 2 → Nat :=
  let c0_i32_939 : BitVec 32 := 0#32
  ![v2109.toNat, 0]

def k0_chk235 (v2109 : BitVec 32) : Prop :=
  (∀ a, (k0_off470 v2109) a + S1x2048.size a ≤ S32000x2048.size a)
instance k0_chk235.dec : ∀ (v2109 : BitVec 32), Decidable (k0_chk235 v2109) := fun v2109 => decidable_of_iff' _ (Iff.of_eq (k0_chk235.eq_1 v2109))
theorem k0_off470_inb : ∀ (v2109 : BitVec 32) (k0_hw235 : k0_chk235 v2109), ∀ a, (k0_off470 v2109) a + S1x2048.size a ≤ S32000x2048.size a := fun v2109 k0_hw235 => k0_hw235

def k0_off471 (i : grid0.Coords) : Fin 1 → Nat :=
  let arg0 : BitVec 32 := BitVec.ofNat 32 (i 0).val
  let c256_i32 : BitVec 32 := 256#32
  let v0 : BitVec 32 := Scalar.muli arg0 c256_i32
  let c235_i32 : BitVec 32 := 235#32
  let v2116 : BitVec 32 := Scalar.addi v0 c235_i32
  let v2117 : Index := Scalar.indexCast v2116
  ![v2117.toNat]
def k0_off472 (v2118 : BitVec 32) : Fin 2 → Nat :=
  let c0_i32_943 : BitVec 32 := 0#32
  ![v2118.toNat, 0]

def k0_chk236 (v2118 : BitVec 32) : Prop :=
  (∀ a, (k0_off472 v2118) a + S1x2048.size a ≤ S32000x2048.size a)
instance k0_chk236.dec : ∀ (v2118 : BitVec 32), Decidable (k0_chk236 v2118) := fun v2118 => decidable_of_iff' _ (Iff.of_eq (k0_chk236.eq_1 v2118))
theorem k0_off472_inb : ∀ (v2118 : BitVec 32) (k0_hw236 : k0_chk236 v2118), ∀ a, (k0_off472 v2118) a + S1x2048.size a ≤ S32000x2048.size a := fun v2118 k0_hw236 => k0_hw236

def k0_off473 (i : grid0.Coords) : Fin 1 → Nat :=
  let arg0 : BitVec 32 := BitVec.ofNat 32 (i 0).val
  let c256_i32 : BitVec 32 := 256#32
  let v0 : BitVec 32 := Scalar.muli arg0 c256_i32
  let c236_i32 : BitVec 32 := 236#32
  let v2125 : BitVec 32 := Scalar.addi v0 c236_i32
  let v2126 : Index := Scalar.indexCast v2125
  ![v2126.toNat]
def k0_off474 (v2127 : BitVec 32) : Fin 2 → Nat :=
  let c0_i32_947 : BitVec 32 := 0#32
  ![v2127.toNat, 0]

def k0_chk237 (v2127 : BitVec 32) : Prop :=
  (∀ a, (k0_off474 v2127) a + S1x2048.size a ≤ S32000x2048.size a)
instance k0_chk237.dec : ∀ (v2127 : BitVec 32), Decidable (k0_chk237 v2127) := fun v2127 => decidable_of_iff' _ (Iff.of_eq (k0_chk237.eq_1 v2127))
theorem k0_off474_inb : ∀ (v2127 : BitVec 32) (k0_hw237 : k0_chk237 v2127), ∀ a, (k0_off474 v2127) a + S1x2048.size a ≤ S32000x2048.size a := fun v2127 k0_hw237 => k0_hw237

def k0_off475 (i : grid0.Coords) : Fin 1 → Nat :=
  let arg0 : BitVec 32 := BitVec.ofNat 32 (i 0).val
  let c256_i32 : BitVec 32 := 256#32
  let v0 : BitVec 32 := Scalar.muli arg0 c256_i32
  let c237_i32 : BitVec 32 := 237#32
  let v2134 : BitVec 32 := Scalar.addi v0 c237_i32
  let v2135 : Index := Scalar.indexCast v2134
  ![v2135.toNat]
def k0_off476 (v2136 : BitVec 32) : Fin 2 → Nat :=
  let c0_i32_951 : BitVec 32 := 0#32
  ![v2136.toNat, 0]

def k0_chk238 (v2136 : BitVec 32) : Prop :=
  (∀ a, (k0_off476 v2136) a + S1x2048.size a ≤ S32000x2048.size a)
instance k0_chk238.dec : ∀ (v2136 : BitVec 32), Decidable (k0_chk238 v2136) := fun v2136 => decidable_of_iff' _ (Iff.of_eq (k0_chk238.eq_1 v2136))
theorem k0_off476_inb : ∀ (v2136 : BitVec 32) (k0_hw238 : k0_chk238 v2136), ∀ a, (k0_off476 v2136) a + S1x2048.size a ≤ S32000x2048.size a := fun v2136 k0_hw238 => k0_hw238

def k0_off477 (i : grid0.Coords) : Fin 1 → Nat :=
  let arg0 : BitVec 32 := BitVec.ofNat 32 (i 0).val
  let c256_i32 : BitVec 32 := 256#32
  let v0 : BitVec 32 := Scalar.muli arg0 c256_i32
  let c238_i32 : BitVec 32 := 238#32
  let v2143 : BitVec 32 := Scalar.addi v0 c238_i32
  let v2144 : Index := Scalar.indexCast v2143
  ![v2144.toNat]
def k0_off478 (v2145 : BitVec 32) : Fin 2 → Nat :=
  let c0_i32_955 : BitVec 32 := 0#32
  ![v2145.toNat, 0]

def k0_chk239 (v2145 : BitVec 32) : Prop :=
  (∀ a, (k0_off478 v2145) a + S1x2048.size a ≤ S32000x2048.size a)
instance k0_chk239.dec : ∀ (v2145 : BitVec 32), Decidable (k0_chk239 v2145) := fun v2145 => decidable_of_iff' _ (Iff.of_eq (k0_chk239.eq_1 v2145))
theorem k0_off478_inb : ∀ (v2145 : BitVec 32) (k0_hw239 : k0_chk239 v2145), ∀ a, (k0_off478 v2145) a + S1x2048.size a ≤ S32000x2048.size a := fun v2145 k0_hw239 => k0_hw239

def k0_off479 (i : grid0.Coords) : Fin 1 → Nat :=
  let arg0 : BitVec 32 := BitVec.ofNat 32 (i 0).val
  let c256_i32 : BitVec 32 := 256#32
  let v0 : BitVec 32 := Scalar.muli arg0 c256_i32
  let c239_i32 : BitVec 32 := 239#32
  let v2152 : BitVec 32 := Scalar.addi v0 c239_i32
  let v2153 : Index := Scalar.indexCast v2152
  ![v2153.toNat]
def k0_off480 (v2154 : BitVec 32) : Fin 2 → Nat :=
  let c0_i32_959 : BitVec 32 := 0#32
  ![v2154.toNat, 0]

def k0_chk240 (v2154 : BitVec 32) : Prop :=
  (∀ a, (k0_off480 v2154) a + S1x2048.size a ≤ S32000x2048.size a)
instance k0_chk240.dec : ∀ (v2154 : BitVec 32), Decidable (k0_chk240 v2154) := fun v2154 => decidable_of_iff' _ (Iff.of_eq (k0_chk240.eq_1 v2154))
theorem k0_off480_inb : ∀ (v2154 : BitVec 32) (k0_hw240 : k0_chk240 v2154), ∀ a, (k0_off480 v2154) a + S1x2048.size a ≤ S32000x2048.size a := fun v2154 k0_hw240 => k0_hw240

def k0_off481 (i : grid0.Coords) : Fin 1 → Nat :=
  let arg0 : BitVec 32 := BitVec.ofNat 32 (i 0).val
  let c256_i32 : BitVec 32 := 256#32
  let v0 : BitVec 32 := Scalar.muli arg0 c256_i32
  let c240_i32 : BitVec 32 := 240#32
  let v2161 : BitVec 32 := Scalar.addi v0 c240_i32
  let v2162 : Index := Scalar.indexCast v2161
  ![v2162.toNat]
def k0_off482 (v2163 : BitVec 32) : Fin 2 → Nat :=
  let c0_i32_963 : BitVec 32 := 0#32
  ![v2163.toNat, 0]

def k0_chk241 (v2163 : BitVec 32) : Prop :=
  (∀ a, (k0_off482 v2163) a + S1x2048.size a ≤ S32000x2048.size a)
instance k0_chk241.dec : ∀ (v2163 : BitVec 32), Decidable (k0_chk241 v2163) := fun v2163 => decidable_of_iff' _ (Iff.of_eq (k0_chk241.eq_1 v2163))
theorem k0_off482_inb : ∀ (v2163 : BitVec 32) (k0_hw241 : k0_chk241 v2163), ∀ a, (k0_off482 v2163) a + S1x2048.size a ≤ S32000x2048.size a := fun v2163 k0_hw241 => k0_hw241

def k0_off483 (i : grid0.Coords) : Fin 1 → Nat :=
  let arg0 : BitVec 32 := BitVec.ofNat 32 (i 0).val
  let c256_i32 : BitVec 32 := 256#32
  let v0 : BitVec 32 := Scalar.muli arg0 c256_i32
  let c241_i32 : BitVec 32 := 241#32
  let v2170 : BitVec 32 := Scalar.addi v0 c241_i32
  let v2171 : Index := Scalar.indexCast v2170
  ![v2171.toNat]
def k0_off484 (v2172 : BitVec 32) : Fin 2 → Nat :=
  let c0_i32_967 : BitVec 32 := 0#32
  ![v2172.toNat, 0]

def k0_chk242 (v2172 : BitVec 32) : Prop :=
  (∀ a, (k0_off484 v2172) a + S1x2048.size a ≤ S32000x2048.size a)
instance k0_chk242.dec : ∀ (v2172 : BitVec 32), Decidable (k0_chk242 v2172) := fun v2172 => decidable_of_iff' _ (Iff.of_eq (k0_chk242.eq_1 v2172))
theorem k0_off484_inb : ∀ (v2172 : BitVec 32) (k0_hw242 : k0_chk242 v2172), ∀ a, (k0_off484 v2172) a + S1x2048.size a ≤ S32000x2048.size a := fun v2172 k0_hw242 => k0_hw242

def k0_off485 (i : grid0.Coords) : Fin 1 → Nat :=
  let arg0 : BitVec 32 := BitVec.ofNat 32 (i 0).val
  let c256_i32 : BitVec 32 := 256#32
  let v0 : BitVec 32 := Scalar.muli arg0 c256_i32
  let c242_i32 : BitVec 32 := 242#32
  let v2179 : BitVec 32 := Scalar.addi v0 c242_i32
  let v2180 : Index := Scalar.indexCast v2179
  ![v2180.toNat]
def k0_off486 (v2181 : BitVec 32) : Fin 2 → Nat :=
  let c0_i32_971 : BitVec 32 := 0#32
  ![v2181.toNat, 0]

def k0_chk243 (v2181 : BitVec 32) : Prop :=
  (∀ a, (k0_off486 v2181) a + S1x2048.size a ≤ S32000x2048.size a)
instance k0_chk243.dec : ∀ (v2181 : BitVec 32), Decidable (k0_chk243 v2181) := fun v2181 => decidable_of_iff' _ (Iff.of_eq (k0_chk243.eq_1 v2181))
theorem k0_off486_inb : ∀ (v2181 : BitVec 32) (k0_hw243 : k0_chk243 v2181), ∀ a, (k0_off486 v2181) a + S1x2048.size a ≤ S32000x2048.size a := fun v2181 k0_hw243 => k0_hw243

def k0_off487 (i : grid0.Coords) : Fin 1 → Nat :=
  let arg0 : BitVec 32 := BitVec.ofNat 32 (i 0).val
  let c256_i32 : BitVec 32 := 256#32
  let v0 : BitVec 32 := Scalar.muli arg0 c256_i32
  let c243_i32 : BitVec 32 := 243#32
  let v2188 : BitVec 32 := Scalar.addi v0 c243_i32
  let v2189 : Index := Scalar.indexCast v2188
  ![v2189.toNat]
def k0_off488 (v2190 : BitVec 32) : Fin 2 → Nat :=
  let c0_i32_975 : BitVec 32 := 0#32
  ![v2190.toNat, 0]

def k0_chk244 (v2190 : BitVec 32) : Prop :=
  (∀ a, (k0_off488 v2190) a + S1x2048.size a ≤ S32000x2048.size a)
instance k0_chk244.dec : ∀ (v2190 : BitVec 32), Decidable (k0_chk244 v2190) := fun v2190 => decidable_of_iff' _ (Iff.of_eq (k0_chk244.eq_1 v2190))
theorem k0_off488_inb : ∀ (v2190 : BitVec 32) (k0_hw244 : k0_chk244 v2190), ∀ a, (k0_off488 v2190) a + S1x2048.size a ≤ S32000x2048.size a := fun v2190 k0_hw244 => k0_hw244

def k0_off489 (i : grid0.Coords) : Fin 1 → Nat :=
  let arg0 : BitVec 32 := BitVec.ofNat 32 (i 0).val
  let c256_i32 : BitVec 32 := 256#32
  let v0 : BitVec 32 := Scalar.muli arg0 c256_i32
  let c244_i32 : BitVec 32 := 244#32
  let v2197 : BitVec 32 := Scalar.addi v0 c244_i32
  let v2198 : Index := Scalar.indexCast v2197
  ![v2198.toNat]
def k0_off490 (v2199 : BitVec 32) : Fin 2 → Nat :=
  let c0_i32_979 : BitVec 32 := 0#32
  ![v2199.toNat, 0]

def k0_chk245 (v2199 : BitVec 32) : Prop :=
  (∀ a, (k0_off490 v2199) a + S1x2048.size a ≤ S32000x2048.size a)
instance k0_chk245.dec : ∀ (v2199 : BitVec 32), Decidable (k0_chk245 v2199) := fun v2199 => decidable_of_iff' _ (Iff.of_eq (k0_chk245.eq_1 v2199))
theorem k0_off490_inb : ∀ (v2199 : BitVec 32) (k0_hw245 : k0_chk245 v2199), ∀ a, (k0_off490 v2199) a + S1x2048.size a ≤ S32000x2048.size a := fun v2199 k0_hw245 => k0_hw245

def k0_off491 (i : grid0.Coords) : Fin 1 → Nat :=
  let arg0 : BitVec 32 := BitVec.ofNat 32 (i 0).val
  let c256_i32 : BitVec 32 := 256#32
  let v0 : BitVec 32 := Scalar.muli arg0 c256_i32
  let c245_i32 : BitVec 32 := 245#32
  let v2206 : BitVec 32 := Scalar.addi v0 c245_i32
  let v2207 : Index := Scalar.indexCast v2206
  ![v2207.toNat]
def k0_off492 (v2208 : BitVec 32) : Fin 2 → Nat :=
  let c0_i32_983 : BitVec 32 := 0#32
  ![v2208.toNat, 0]

def k0_chk246 (v2208 : BitVec 32) : Prop :=
  (∀ a, (k0_off492 v2208) a + S1x2048.size a ≤ S32000x2048.size a)
instance k0_chk246.dec : ∀ (v2208 : BitVec 32), Decidable (k0_chk246 v2208) := fun v2208 => decidable_of_iff' _ (Iff.of_eq (k0_chk246.eq_1 v2208))
theorem k0_off492_inb : ∀ (v2208 : BitVec 32) (k0_hw246 : k0_chk246 v2208), ∀ a, (k0_off492 v2208) a + S1x2048.size a ≤ S32000x2048.size a := fun v2208 k0_hw246 => k0_hw246

def k0_off493 (i : grid0.Coords) : Fin 1 → Nat :=
  let arg0 : BitVec 32 := BitVec.ofNat 32 (i 0).val
  let c256_i32 : BitVec 32 := 256#32
  let v0 : BitVec 32 := Scalar.muli arg0 c256_i32
  let c246_i32 : BitVec 32 := 246#32
  let v2215 : BitVec 32 := Scalar.addi v0 c246_i32
  let v2216 : Index := Scalar.indexCast v2215
  ![v2216.toNat]
def k0_off494 (v2217 : BitVec 32) : Fin 2 → Nat :=
  let c0_i32_987 : BitVec 32 := 0#32
  ![v2217.toNat, 0]

def k0_chk247 (v2217 : BitVec 32) : Prop :=
  (∀ a, (k0_off494 v2217) a + S1x2048.size a ≤ S32000x2048.size a)
instance k0_chk247.dec : ∀ (v2217 : BitVec 32), Decidable (k0_chk247 v2217) := fun v2217 => decidable_of_iff' _ (Iff.of_eq (k0_chk247.eq_1 v2217))
theorem k0_off494_inb : ∀ (v2217 : BitVec 32) (k0_hw247 : k0_chk247 v2217), ∀ a, (k0_off494 v2217) a + S1x2048.size a ≤ S32000x2048.size a := fun v2217 k0_hw247 => k0_hw247

def k0_off495 (i : grid0.Coords) : Fin 1 → Nat :=
  let arg0 : BitVec 32 := BitVec.ofNat 32 (i 0).val
  let c256_i32 : BitVec 32 := 256#32
  let v0 : BitVec 32 := Scalar.muli arg0 c256_i32
  let c247_i32 : BitVec 32 := 247#32
  let v2224 : BitVec 32 := Scalar.addi v0 c247_i32
  let v2225 : Index := Scalar.indexCast v2224
  ![v2225.toNat]
def k0_off496 (v2226 : BitVec 32) : Fin 2 → Nat :=
  let c0_i32_991 : BitVec 32 := 0#32
  ![v2226.toNat, 0]

def k0_chk248 (v2226 : BitVec 32) : Prop :=
  (∀ a, (k0_off496 v2226) a + S1x2048.size a ≤ S32000x2048.size a)
instance k0_chk248.dec : ∀ (v2226 : BitVec 32), Decidable (k0_chk248 v2226) := fun v2226 => decidable_of_iff' _ (Iff.of_eq (k0_chk248.eq_1 v2226))
theorem k0_off496_inb : ∀ (v2226 : BitVec 32) (k0_hw248 : k0_chk248 v2226), ∀ a, (k0_off496 v2226) a + S1x2048.size a ≤ S32000x2048.size a := fun v2226 k0_hw248 => k0_hw248

def k0_off497 (i : grid0.Coords) : Fin 1 → Nat :=
  let arg0 : BitVec 32 := BitVec.ofNat 32 (i 0).val
  let c256_i32 : BitVec 32 := 256#32
  let v0 : BitVec 32 := Scalar.muli arg0 c256_i32
  let c248_i32 : BitVec 32 := 248#32
  let v2233 : BitVec 32 := Scalar.addi v0 c248_i32
  let v2234 : Index := Scalar.indexCast v2233
  ![v2234.toNat]
def k0_off498 (v2235 : BitVec 32) : Fin 2 → Nat :=
  let c0_i32_995 : BitVec 32 := 0#32
  ![v2235.toNat, 0]

def k0_chk249 (v2235 : BitVec 32) : Prop :=
  (∀ a, (k0_off498 v2235) a + S1x2048.size a ≤ S32000x2048.size a)
instance k0_chk249.dec : ∀ (v2235 : BitVec 32), Decidable (k0_chk249 v2235) := fun v2235 => decidable_of_iff' _ (Iff.of_eq (k0_chk249.eq_1 v2235))
theorem k0_off498_inb : ∀ (v2235 : BitVec 32) (k0_hw249 : k0_chk249 v2235), ∀ a, (k0_off498 v2235) a + S1x2048.size a ≤ S32000x2048.size a := fun v2235 k0_hw249 => k0_hw249

def k0_off499 (i : grid0.Coords) : Fin 1 → Nat :=
  let arg0 : BitVec 32 := BitVec.ofNat 32 (i 0).val
  let c256_i32 : BitVec 32 := 256#32
  let v0 : BitVec 32 := Scalar.muli arg0 c256_i32
  let c249_i32 : BitVec 32 := 249#32
  let v2242 : BitVec 32 := Scalar.addi v0 c249_i32
  let v2243 : Index := Scalar.indexCast v2242
  ![v2243.toNat]
def k0_off500 (v2244 : BitVec 32) : Fin 2 → Nat :=
  let c0_i32_999 : BitVec 32 := 0#32
  ![v2244.toNat, 0]

def k0_chk250 (v2244 : BitVec 32) : Prop :=
  (∀ a, (k0_off500 v2244) a + S1x2048.size a ≤ S32000x2048.size a)
instance k0_chk250.dec : ∀ (v2244 : BitVec 32), Decidable (k0_chk250 v2244) := fun v2244 => decidable_of_iff' _ (Iff.of_eq (k0_chk250.eq_1 v2244))
theorem k0_off500_inb : ∀ (v2244 : BitVec 32) (k0_hw250 : k0_chk250 v2244), ∀ a, (k0_off500 v2244) a + S1x2048.size a ≤ S32000x2048.size a := fun v2244 k0_hw250 => k0_hw250

def k0_off501 (i : grid0.Coords) : Fin 1 → Nat :=
  let arg0 : BitVec 32 := BitVec.ofNat 32 (i 0).val
  let c256_i32 : BitVec 32 := 256#32
  let v0 : BitVec 32 := Scalar.muli arg0 c256_i32
  let c250_i32 : BitVec 32 := 250#32
  let v2251 : BitVec 32 := Scalar.addi v0 c250_i32
  let v2252 : Index := Scalar.indexCast v2251
  ![v2252.toNat]
def k0_off502 (v2253 : BitVec 32) : Fin 2 → Nat :=
  let c0_i32_1003 : BitVec 32 := 0#32
  ![v2253.toNat, 0]

def k0_chk251 (v2253 : BitVec 32) : Prop :=
  (∀ a, (k0_off502 v2253) a + S1x2048.size a ≤ S32000x2048.size a)
instance k0_chk251.dec : ∀ (v2253 : BitVec 32), Decidable (k0_chk251 v2253) := fun v2253 => decidable_of_iff' _ (Iff.of_eq (k0_chk251.eq_1 v2253))
theorem k0_off502_inb : ∀ (v2253 : BitVec 32) (k0_hw251 : k0_chk251 v2253), ∀ a, (k0_off502 v2253) a + S1x2048.size a ≤ S32000x2048.size a := fun v2253 k0_hw251 => k0_hw251

def k0_off503 (i : grid0.Coords) : Fin 1 → Nat :=
  let arg0 : BitVec 32 := BitVec.ofNat 32 (i 0).val
  let c256_i32 : BitVec 32 := 256#32
  let v0 : BitVec 32 := Scalar.muli arg0 c256_i32
  let c251_i32 : BitVec 32 := 251#32
  let v2260 : BitVec 32 := Scalar.addi v0 c251_i32
  let v2261 : Index := Scalar.indexCast v2260
  ![v2261.toNat]
def k0_off504 (v2262 : BitVec 32) : Fin 2 → Nat :=
  let c0_i32_1007 : BitVec 32 := 0#32
  ![v2262.toNat, 0]

def k0_chk252 (v2262 : BitVec 32) : Prop :=
  (∀ a, (k0_off504 v2262) a + S1x2048.size a ≤ S32000x2048.size a)
instance k0_chk252.dec : ∀ (v2262 : BitVec 32), Decidable (k0_chk252 v2262) := fun v2262 => decidable_of_iff' _ (Iff.of_eq (k0_chk252.eq_1 v2262))
theorem k0_off504_inb : ∀ (v2262 : BitVec 32) (k0_hw252 : k0_chk252 v2262), ∀ a, (k0_off504 v2262) a + S1x2048.size a ≤ S32000x2048.size a := fun v2262 k0_hw252 => k0_hw252

def k0_off505 (i : grid0.Coords) : Fin 1 → Nat :=
  let arg0 : BitVec 32 := BitVec.ofNat 32 (i 0).val
  let c256_i32 : BitVec 32 := 256#32
  let v0 : BitVec 32 := Scalar.muli arg0 c256_i32
  let c252_i32 : BitVec 32 := 252#32
  let v2269 : BitVec 32 := Scalar.addi v0 c252_i32
  let v2270 : Index := Scalar.indexCast v2269
  ![v2270.toNat]
def k0_off506 (v2271 : BitVec 32) : Fin 2 → Nat :=
  let c0_i32_1011 : BitVec 32 := 0#32
  ![v2271.toNat, 0]

def k0_chk253 (v2271 : BitVec 32) : Prop :=
  (∀ a, (k0_off506 v2271) a + S1x2048.size a ≤ S32000x2048.size a)
instance k0_chk253.dec : ∀ (v2271 : BitVec 32), Decidable (k0_chk253 v2271) := fun v2271 => decidable_of_iff' _ (Iff.of_eq (k0_chk253.eq_1 v2271))
theorem k0_off506_inb : ∀ (v2271 : BitVec 32) (k0_hw253 : k0_chk253 v2271), ∀ a, (k0_off506 v2271) a + S1x2048.size a ≤ S32000x2048.size a := fun v2271 k0_hw253 => k0_hw253

def k0_off507 (i : grid0.Coords) : Fin 1 → Nat :=
  let arg0 : BitVec 32 := BitVec.ofNat 32 (i 0).val
  let c256_i32 : BitVec 32 := 256#32
  let v0 : BitVec 32 := Scalar.muli arg0 c256_i32
  let c253_i32 : BitVec 32 := 253#32
  let v2278 : BitVec 32 := Scalar.addi v0 c253_i32
  let v2279 : Index := Scalar.indexCast v2278
  ![v2279.toNat]
def k0_off508 (v2280 : BitVec 32) : Fin 2 → Nat :=
  let c0_i32_1015 : BitVec 32 := 0#32
  ![v2280.toNat, 0]

def k0_chk254 (v2280 : BitVec 32) : Prop :=
  (∀ a, (k0_off508 v2280) a + S1x2048.size a ≤ S32000x2048.size a)
instance k0_chk254.dec : ∀ (v2280 : BitVec 32), Decidable (k0_chk254 v2280) := fun v2280 => decidable_of_iff' _ (Iff.of_eq (k0_chk254.eq_1 v2280))
theorem k0_off508_inb : ∀ (v2280 : BitVec 32) (k0_hw254 : k0_chk254 v2280), ∀ a, (k0_off508 v2280) a + S1x2048.size a ≤ S32000x2048.size a := fun v2280 k0_hw254 => k0_hw254

def k0_off509 (i : grid0.Coords) : Fin 1 → Nat :=
  let arg0 : BitVec 32 := BitVec.ofNat 32 (i 0).val
  let c256_i32 : BitVec 32 := 256#32
  let v0 : BitVec 32 := Scalar.muli arg0 c256_i32
  let c254_i32 : BitVec 32 := 254#32
  let v2287 : BitVec 32 := Scalar.addi v0 c254_i32
  let v2288 : Index := Scalar.indexCast v2287
  ![v2288.toNat]
def k0_off510 (v2289 : BitVec 32) : Fin 2 → Nat :=
  let c0_i32_1019 : BitVec 32 := 0#32
  ![v2289.toNat, 0]

def k0_chk255 (v2289 : BitVec 32) : Prop :=
  (∀ a, (k0_off510 v2289) a + S1x2048.size a ≤ S32000x2048.size a)
instance k0_chk255.dec : ∀ (v2289 : BitVec 32), Decidable (k0_chk255 v2289) := fun v2289 => decidable_of_iff' _ (Iff.of_eq (k0_chk255.eq_1 v2289))
theorem k0_off510_inb : ∀ (v2289 : BitVec 32) (k0_hw255 : k0_chk255 v2289), ∀ a, (k0_off510 v2289) a + S1x2048.size a ≤ S32000x2048.size a := fun v2289 k0_hw255 => k0_hw255

def k0_off511 (i : grid0.Coords) : Fin 1 → Nat :=
  let arg0 : BitVec 32 := BitVec.ofNat 32 (i 0).val
  let c256_i32 : BitVec 32 := 256#32
  let v0 : BitVec 32 := Scalar.muli arg0 c256_i32
  let c255_i32 : BitVec 32 := 255#32
  let v2296 : BitVec 32 := Scalar.addi v0 c255_i32
  let v2297 : Index := Scalar.indexCast v2296
  ![v2297.toNat]
def k0_off512 (v2298 : BitVec 32) : Fin 2 → Nat :=
  let c0_i32_1023 : BitVec 32 := 0#32
  ![v2298.toNat, 0]

def k0_chk256 (v2298 : BitVec 32) : Prop :=
  (∀ a, (k0_off512 v2298) a + S1x2048.size a ≤ S32000x2048.size a)
instance k0_chk256.dec : ∀ (v2298 : BitVec 32), Decidable (k0_chk256 v2298) := fun v2298 => decidable_of_iff' _ (Iff.of_eq (k0_chk256.eq_1 v2298))
theorem k0_off512_inb : ∀ (v2298 : BitVec 32) (k0_hw256 : k0_chk256 v2298), ∀ a, (k0_off512 v2298) a + S1x2048.size a ≤ S32000x2048.size a := fun v2298 k0_hw256 => k0_hw256

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096_S16384 : S4x4096.ShapeCasts S16384
  shapeCasts_S16384_S16384x1 : S16384.ShapeCasts S16384x1
  numel1_S1 : S1.numel = 1
  inb_S256_S1_0 : ∀ a, (![0] : Fin 1 → Nat) a + S1.size a ≤ S256.size a
  squeezes_S1_S_ : S1.Squeezes S_
  inb_S256x2048_S1x2048_0_0 : ∀ a, (![0, 0] : Fin 2 → Nat) a + S1x2048.size a ≤ S256x2048.size a
  squeezes_S1x2048_S2048 : S1x2048.Squeezes S2048
  inb_S256_S1_1 : ∀ a, (![1] : Fin 1 → Nat) a + S1.size a ≤ S256.size a
  inb_S256x2048_S1x2048_1_0 : ∀ a, (![1, 0] : Fin 2 → Nat) a + S1x2048.size a ≤ S256x2048.size a
  inb_S256_S1_2 : ∀ a, (![2] : Fin 1 → Nat) a + S1.size a ≤ S256.size a
  inb_S256x2048_S1x2048_2_0 : ∀ a, (![2, 0] : Fin 2 → Nat) a + S1x2048.size a ≤ S256x2048.size a
  inb_S256_S1_3 : ∀ a, (![3] : Fin 1 → Nat) a + S1.size a ≤ S256.size a
  inb_S256x2048_S1x2048_3_0 : ∀ a, (![3, 0] : Fin 2 → Nat) a + S1x2048.size a ≤ S256x2048.size a
  inb_S256_S1_4 : ∀ a, (![4] : Fin 1 → Nat) a + S1.size a ≤ S256.size a
  inb_S256x2048_S1x2048_4_0 : ∀ a, (![4, 0] : Fin 2 → Nat) a + S1x2048.size a ≤ S256x2048.size a
  inb_S256_S1_5 : ∀ a, (![5] : Fin 1 → Nat) a + S1.size a ≤ S256.size a
  inb_S256x2048_S1x2048_5_0 : ∀ a, (![5, 0] : Fin 2 → Nat) a + S1x2048.size a ≤ S256x2048.size a
  inb_S256_S1_6 : ∀ a, (![6] : Fin 1 → Nat) a + S1.size a ≤ S256.size a
  inb_S256x2048_S1x2048_6_0 : ∀ a, (![6, 0] : Fin 2 → Nat) a + S1x2048.size a ≤ S256x2048.size a
  inb_S256_S1_7 : ∀ a, (![7] : Fin 1 → Nat) a + S1.size a ≤ S256.size a
  inb_S256x2048_S1x2048_7_0 : ∀ a, (![7, 0] : Fin 2 → Nat) a + S1x2048.size a ≤ S256x2048.size a
  inb_S256_S1_8 : ∀ a, (![8] : Fin 1 → Nat) a + S1.size a ≤ S256.size a
  inb_S256x2048_S1x2048_8_0 : ∀ a, (![8, 0] : Fin 2 → Nat) a + S1x2048.size a ≤ S256x2048.size a
  inb_S256_S1_9 : ∀ a, (![9] : Fin 1 → Nat) a + S1.size a ≤ S256.size a
  inb_S256x2048_S1x2048_9_0 : ∀ a, (![9, 0] : Fin 2 → Nat) a + S1x2048.size a ≤ S256x2048.size a
  inb_S256_S1_10 : ∀ a, (![10] : Fin 1 → Nat) a + S1.size a ≤ S256.size a
  inb_S256x2048_S1x2048_10_0 : ∀ a, (![10, 0] : Fin 2 → Nat) a + S1x2048.size a ≤ S256x2048.size a
  inb_S256_S1_11 : ∀ a, (![11] : Fin 1 → Nat) a + S1.size a ≤ S256.size a
  inb_S256x2048_S1x2048_11_0 : ∀ a, (![11, 0] : Fin 2 → Nat) a + S1x2048.size a ≤ S256x2048.size a
  inb_S256_S1_12 : ∀ a, (![12] : Fin 1 → Nat) a + S1.size a ≤ S256.size a
  inb_S256x2048_S1x2048_12_0 : ∀ a, (![12, 0] : Fin 2 → Nat) a + S1x2048.size a ≤ S256x2048.size a
  inb_S256_S1_13 : ∀ a, (![13] : Fin 1 → Nat) a + S1.size a ≤ S256.size a
  inb_S256x2048_S1x2048_13_0 : ∀ a, (![13, 0] : Fin 2 → Nat) a + S1x2048.size a ≤ S256x2048.size a
  inb_S256_S1_14 : ∀ a, (![14] : Fin 1 → Nat) a + S1.size a ≤ S256.size a
  inb_S256x2048_S1x2048_14_0 : ∀ a, (![14, 0] : Fin 2 → Nat) a + S1x2048.size a ≤ S256x2048.size a
  inb_S256_S1_15 : ∀ a, (![15] : Fin 1 → Nat) a + S1.size a ≤ S256.size a
  inb_S256x2048_S1x2048_15_0 : ∀ a, (![15, 0] : Fin 2 → Nat) a + S1x2048.size a ≤ S256x2048.size a
  inb_S256_S1_16 : ∀ a, (![16] : Fin 1 → Nat) a + S1.size a ≤ S256.size a
  inb_S256x2048_S1x2048_16_0 : ∀ a, (![16, 0] : Fin 2 → Nat) a + S1x2048.size a ≤ S256x2048.size a
  inb_S256_S1_17 : ∀ a, (![17] : Fin 1 → Nat) a + S1.size a ≤ S256.size a
  inb_S256x2048_S1x2048_17_0 : ∀ a, (![17, 0] : Fin 2 → Nat) a + S1x2048.size a ≤ S256x2048.size a
  inb_S256_S1_18 : ∀ a, (![18] : Fin 1 → Nat) a + S1.size a ≤ S256.size a
  inb_S256x2048_S1x2048_18_0 : ∀ a, (![18, 0] : Fin 2 → Nat) a + S1x2048.size a ≤ S256x2048.size a
  inb_S256_S1_19 : ∀ a, (![19] : Fin 1 → Nat) a + S1.size a ≤ S256.size a
  inb_S256x2048_S1x2048_19_0 : ∀ a, (![19, 0] : Fin 2 → Nat) a + S1x2048.size a ≤ S256x2048.size a
  inb_S256_S1_20 : ∀ a, (![20] : Fin 1 → Nat) a + S1.size a ≤ S256.size a
  inb_S256x2048_S1x2048_20_0 : ∀ a, (![20, 0] : Fin 2 → Nat) a + S1x2048.size a ≤ S256x2048.size a
  inb_S256_S1_21 : ∀ a, (![21] : Fin 1 → Nat) a + S1.size a ≤ S256.size a
  inb_S256x2048_S1x2048_21_0 : ∀ a, (![21, 0] : Fin 2 → Nat) a + S1x2048.size a ≤ S256x2048.size a
  inb_S256_S1_22 : ∀ a, (![22] : Fin 1 → Nat) a + S1.size a ≤ S256.size a
  inb_S256x2048_S1x2048_22_0 : ∀ a, (![22, 0] : Fin 2 → Nat) a + S1x2048.size a ≤ S256x2048.size a
  inb_S256_S1_23 : ∀ a, (![23] : Fin 1 → Nat) a + S1.size a ≤ S256.size a
  inb_S256x2048_S1x2048_23_0 : ∀ a, (![23, 0] : Fin 2 → Nat) a + S1x2048.size a ≤ S256x2048.size a
  inb_S256_S1_24 : ∀ a, (![24] : Fin 1 → Nat) a + S1.size a ≤ S256.size a
  inb_S256x2048_S1x2048_24_0 : ∀ a, (![24, 0] : Fin 2 → Nat) a + S1x2048.size a ≤ S256x2048.size a
  inb_S256_S1_25 : ∀ a, (![25] : Fin 1 → Nat) a + S1.size a ≤ S256.size a
  inb_S256x2048_S1x2048_25_0 : ∀ a, (![25, 0] : Fin 2 → Nat) a + S1x2048.size a ≤ S256x2048.size a
  inb_S256_S1_26 : ∀ a, (![26] : Fin 1 → Nat) a + S1.size a ≤ S256.size a
  inb_S256x2048_S1x2048_26_0 : ∀ a, (![26, 0] : Fin 2 → Nat) a + S1x2048.size a ≤ S256x2048.size a
  inb_S256_S1_27 : ∀ a, (![27] : Fin 1 → Nat) a + S1.size a ≤ S256.size a
  inb_S256x2048_S1x2048_27_0 : ∀ a, (![27, 0] : Fin 2 → Nat) a + S1x2048.size a ≤ S256x2048.size a
  inb_S256_S1_28 : ∀ a, (![28] : Fin 1 → Nat) a + S1.size a ≤ S256.size a
  inb_S256x2048_S1x2048_28_0 : ∀ a, (![28, 0] : Fin 2 → Nat) a + S1x2048.size a ≤ S256x2048.size a
  inb_S256_S1_29 : ∀ a, (![29] : Fin 1 → Nat) a + S1.size a ≤ S256.size a
  inb_S256x2048_S1x2048_29_0 : ∀ a, (![29, 0] : Fin 2 → Nat) a + S1x2048.size a ≤ S256x2048.size a
  inb_S256_S1_30 : ∀ a, (![30] : Fin 1 → Nat) a + S1.size a ≤ S256.size a
  inb_S256x2048_S1x2048_30_0 : ∀ a, (![30, 0] : Fin 2 → Nat) a + S1x2048.size a ≤ S256x2048.size a
  inb_S256_S1_31 : ∀ a, (![31] : Fin 1 → Nat) a + S1.size a ≤ S256.size a
  inb_S256x2048_S1x2048_31_0 : ∀ a, (![31, 0] : Fin 2 → Nat) a + S1x2048.size a ≤ S256x2048.size a
  inb_S256_S1_32 : ∀ a, (![32] : Fin 1 → Nat) a + S1.size a ≤ S256.size a
  inb_S256x2048_S1x2048_32_0 : ∀ a, (![32, 0] : Fin 2 → Nat) a + S1x2048.size a ≤ S256x2048.size a
  inb_S256_S1_33 : ∀ a, (![33] : Fin 1 → Nat) a + S1.size a ≤ S256.size a
  inb_S256x2048_S1x2048_33_0 : ∀ a, (![33, 0] : Fin 2 → Nat) a + S1x2048.size a ≤ S256x2048.size a
  inb_S256_S1_34 : ∀ a, (![34] : Fin 1 → Nat) a + S1.size a ≤ S256.size a
  inb_S256x2048_S1x2048_34_0 : ∀ a, (![34, 0] : Fin 2 → Nat) a + S1x2048.size a ≤ S256x2048.size a
  inb_S256_S1_35 : ∀ a, (![35] : Fin 1 → Nat) a + S1.size a ≤ S256.size a
  inb_S256x2048_S1x2048_35_0 : ∀ a, (![35, 0] : Fin 2 → Nat) a + S1x2048.size a ≤ S256x2048.size a
  inb_S256_S1_36 : ∀ a, (![36] : Fin 1 → Nat) a + S1.size a ≤ S256.size a
  inb_S256x2048_S1x2048_36_0 : ∀ a, (![36, 0] : Fin 2 → Nat) a + S1x2048.size a ≤ S256x2048.size a
  inb_S256_S1_37 : ∀ a, (![37] : Fin 1 → Nat) a + S1.size a ≤ S256.size a
  inb_S256x2048_S1x2048_37_0 : ∀ a, (![37, 0] : Fin 2 → Nat) a + S1x2048.size a ≤ S256x2048.size a
  inb_S256_S1_38 : ∀ a, (![38] : Fin 1 → Nat) a + S1.size a ≤ S256.size a
  inb_S256x2048_S1x2048_38_0 : ∀ a, (![38, 0] : Fin 2 → Nat) a + S1x2048.size a ≤ S256x2048.size a
  inb_S256_S1_39 : ∀ a, (![39] : Fin 1 → Nat) a + S1.size a ≤ S256.size a
  inb_S256x2048_S1x2048_39_0 : ∀ a, (![39, 0] : Fin 2 → Nat) a + S1x2048.size a ≤ S256x2048.size a
  inb_S256_S1_40 : ∀ a, (![40] : Fin 1 → Nat) a + S1.size a ≤ S256.size a
  inb_S256x2048_S1x2048_40_0 : ∀ a, (![40, 0] : Fin 2 → Nat) a + S1x2048.size a ≤ S256x2048.size a
  inb_S256_S1_41 : ∀ a, (![41] : Fin 1 → Nat) a + S1.size a ≤ S256.size a
  inb_S256x2048_S1x2048_41_0 : ∀ a, (![41, 0] : Fin 2 → Nat) a + S1x2048.size a ≤ S256x2048.size a
  inb_S256_S1_42 : ∀ a, (![42] : Fin 1 → Nat) a + S1.size a ≤ S256.size a
  inb_S256x2048_S1x2048_42_0 : ∀ a, (![42, 0] : Fin 2 → Nat) a + S1x2048.size a ≤ S256x2048.size a
  inb_S256_S1_43 : ∀ a, (![43] : Fin 1 → Nat) a + S1.size a ≤ S256.size a
  inb_S256x2048_S1x2048_43_0 : ∀ a, (![43, 0] : Fin 2 → Nat) a + S1x2048.size a ≤ S256x2048.size a
  inb_S256_S1_44 : ∀ a, (![44] : Fin 1 → Nat) a + S1.size a ≤ S256.size a
  inb_S256x2048_S1x2048_44_0 : ∀ a, (![44, 0] : Fin 2 → Nat) a + S1x2048.size a ≤ S256x2048.size a
  inb_S256_S1_45 : ∀ a, (![45] : Fin 1 → Nat) a + S1.size a ≤ S256.size a
  inb_S256x2048_S1x2048_45_0 : ∀ a, (![45, 0] : Fin 2 → Nat) a + S1x2048.size a ≤ S256x2048.size a
  inb_S256_S1_46 : ∀ a, (![46] : Fin 1 → Nat) a + S1.size a ≤ S256.size a
  inb_S256x2048_S1x2048_46_0 : ∀ a, (![46, 0] : Fin 2 → Nat) a + S1x2048.size a ≤ S256x2048.size a
  inb_S256_S1_47 : ∀ a, (![47] : Fin 1 → Nat) a + S1.size a ≤ S256.size a
  inb_S256x2048_S1x2048_47_0 : ∀ a, (![47, 0] : Fin 2 → Nat) a + S1x2048.size a ≤ S256x2048.size a
  inb_S256_S1_48 : ∀ a, (![48] : Fin 1 → Nat) a + S1.size a ≤ S256.size a
  inb_S256x2048_S1x2048_48_0 : ∀ a, (![48, 0] : Fin 2 → Nat) a + S1x2048.size a ≤ S256x2048.size a
  inb_S256_S1_49 : ∀ a, (![49] : Fin 1 → Nat) a + S1.size a ≤ S256.size a
  inb_S256x2048_S1x2048_49_0 : ∀ a, (![49, 0] : Fin 2 → Nat) a + S1x2048.size a ≤ S256x2048.size a
  inb_S256_S1_50 : ∀ a, (![50] : Fin 1 → Nat) a + S1.size a ≤ S256.size a
  inb_S256x2048_S1x2048_50_0 : ∀ a, (![50, 0] : Fin 2 → Nat) a + S1x2048.size a ≤ S256x2048.size a
  inb_S256_S1_51 : ∀ a, (![51] : Fin 1 → Nat) a + S1.size a ≤ S256.size a
  inb_S256x2048_S1x2048_51_0 : ∀ a, (![51, 0] : Fin 2 → Nat) a + S1x2048.size a ≤ S256x2048.size a
  inb_S256_S1_52 : ∀ a, (![52] : Fin 1 → Nat) a + S1.size a ≤ S256.size a
  inb_S256x2048_S1x2048_52_0 : ∀ a, (![52, 0] : Fin 2 → Nat) a + S1x2048.size a ≤ S256x2048.size a
  inb_S256_S1_53 : ∀ a, (![53] : Fin 1 → Nat) a + S1.size a ≤ S256.size a
  inb_S256x2048_S1x2048_53_0 : ∀ a, (![53, 0] : Fin 2 → Nat) a + S1x2048.size a ≤ S256x2048.size a
  inb_S256_S1_54 : ∀ a, (![54] : Fin 1 → Nat) a + S1.size a ≤ S256.size a
  inb_S256x2048_S1x2048_54_0 : ∀ a, (![54, 0] : Fin 2 → Nat) a + S1x2048.size a ≤ S256x2048.size a
  inb_S256_S1_55 : ∀ a, (![55] : Fin 1 → Nat) a + S1.size a ≤ S256.size a
  inb_S256x2048_S1x2048_55_0 : ∀ a, (![55, 0] : Fin 2 → Nat) a + S1x2048.size a ≤ S256x2048.size a
  inb_S256_S1_56 : ∀ a, (![56] : Fin 1 → Nat) a + S1.size a ≤ S256.size a
  inb_S256x2048_S1x2048_56_0 : ∀ a, (![56, 0] : Fin 2 → Nat) a + S1x2048.size a ≤ S256x2048.size a
  inb_S256_S1_57 : ∀ a, (![57] : Fin 1 → Nat) a + S1.size a ≤ S256.size a
  inb_S256x2048_S1x2048_57_0 : ∀ a, (![57, 0] : Fin 2 → Nat) a + S1x2048.size a ≤ S256x2048.size a
  inb_S256_S1_58 : ∀ a, (![58] : Fin 1 → Nat) a + S1.size a ≤ S256.size a
  inb_S256x2048_S1x2048_58_0 : ∀ a, (![58, 0] : Fin 2 → Nat) a + S1x2048.size a ≤ S256x2048.size a
  inb_S256_S1_59 : ∀ a, (![59] : Fin 1 → Nat) a + S1.size a ≤ S256.size a
  inb_S256x2048_S1x2048_59_0 : ∀ a, (![59, 0] : Fin 2 → Nat) a + S1x2048.size a ≤ S256x2048.size a
  inb_S256_S1_60 : ∀ a, (![60] : Fin 1 → Nat) a + S1.size a ≤ S256.size a
  inb_S256x2048_S1x2048_60_0 : ∀ a, (![60, 0] : Fin 2 → Nat) a + S1x2048.size a ≤ S256x2048.size a
  inb_S256_S1_61 : ∀ a, (![61] : Fin 1 → Nat) a + S1.size a ≤ S256.size a
  inb_S256x2048_S1x2048_61_0 : ∀ a, (![61, 0] : Fin 2 → Nat) a + S1x2048.size a ≤ S256x2048.size a
  inb_S256_S1_62 : ∀ a, (![62] : Fin 1 → Nat) a + S1.size a ≤ S256.size a
  inb_S256x2048_S1x2048_62_0 : ∀ a, (![62, 0] : Fin 2 → Nat) a + S1x2048.size a ≤ S256x2048.size a
  inb_S256_S1_63 : ∀ a, (![63] : Fin 1 → Nat) a + S1.size a ≤ S256.size a
  inb_S256x2048_S1x2048_63_0 : ∀ a, (![63, 0] : Fin 2 → Nat) a + S1x2048.size a ≤ S256x2048.size a
  inb_S256_S1_64 : ∀ a, (![64] : Fin 1 → Nat) a + S1.size a ≤ S256.size a
  inb_S256x2048_S1x2048_64_0 : ∀ a, (![64, 0] : Fin 2 → Nat) a + S1x2048.size a ≤ S256x2048.size a
  inb_S256_S1_65 : ∀ a, (![65] : Fin 1 → Nat) a + S1.size a ≤ S256.size a
  inb_S256x2048_S1x2048_65_0 : ∀ a, (![65, 0] : Fin 2 → Nat) a + S1x2048.size a ≤ S256x2048.size a
  inb_S256_S1_66 : ∀ a, (![66] : Fin 1 → Nat) a + S1.size a ≤ S256.size a
  inb_S256x2048_S1x2048_66_0 : ∀ a, (![66, 0] : Fin 2 → Nat) a + S1x2048.size a ≤ S256x2048.size a
  inb_S256_S1_67 : ∀ a, (![67] : Fin 1 → Nat) a + S1.size a ≤ S256.size a
  inb_S256x2048_S1x2048_67_0 : ∀ a, (![67, 0] : Fin 2 → Nat) a + S1x2048.size a ≤ S256x2048.size a
  inb_S256_S1_68 : ∀ a, (![68] : Fin 1 → Nat) a + S1.size a ≤ S256.size a
  inb_S256x2048_S1x2048_68_0 : ∀ a, (![68, 0] : Fin 2 → Nat) a + S1x2048.size a ≤ S256x2048.size a
  inb_S256_S1_69 : ∀ a, (![69] : Fin 1 → Nat) a + S1.size a ≤ S256.size a
  inb_S256x2048_S1x2048_69_0 : ∀ a, (![69, 0] : Fin 2 → Nat) a + S1x2048.size a ≤ S256x2048.size a
  inb_S256_S1_70 : ∀ a, (![70] : Fin 1 → Nat) a + S1.size a ≤ S256.size a
  inb_S256x2048_S1x2048_70_0 : ∀ a, (![70, 0] : Fin 2 → Nat) a + S1x2048.size a ≤ S256x2048.size a
  inb_S256_S1_71 : ∀ a, (![71] : Fin 1 → Nat) a + S1.size a ≤ S256.size a
  inb_S256x2048_S1x2048_71_0 : ∀ a, (![71, 0] : Fin 2 → Nat) a + S1x2048.size a ≤ S256x2048.size a
  inb_S256_S1_72 : ∀ a, (![72] : Fin 1 → Nat) a + S1.size a ≤ S256.size a
  inb_S256x2048_S1x2048_72_0 : ∀ a, (![72, 0] : Fin 2 → Nat) a + S1x2048.size a ≤ S256x2048.size a
  inb_S256_S1_73 : ∀ a, (![73] : Fin 1 → Nat) a + S1.size a ≤ S256.size a
  inb_S256x2048_S1x2048_73_0 : ∀ a, (![73, 0] : Fin 2 → Nat) a + S1x2048.size a ≤ S256x2048.size a
  inb_S256_S1_74 : ∀ a, (![74] : Fin 1 → Nat) a + S1.size a ≤ S256.size a
  inb_S256x2048_S1x2048_74_0 : ∀ a, (![74, 0] : Fin 2 → Nat) a + S1x2048.size a ≤ S256x2048.size a
  inb_S256_S1_75 : ∀ a, (![75] : Fin 1 → Nat) a + S1.size a ≤ S256.size a
  inb_S256x2048_S1x2048_75_0 : ∀ a, (![75, 0] : Fin 2 → Nat) a + S1x2048.size a ≤ S256x2048.size a
  inb_S256_S1_76 : ∀ a, (![76] : Fin 1 → Nat) a + S1.size a ≤ S256.size a
  inb_S256x2048_S1x2048_76_0 : ∀ a, (![76, 0] : Fin 2 → Nat) a + S1x2048.size a ≤ S256x2048.size a
  inb_S256_S1_77 : ∀ a, (![77] : Fin 1 → Nat) a + S1.size a ≤ S256.size a
  inb_S256x2048_S1x2048_77_0 : ∀ a, (![77, 0] : Fin 2 → Nat) a + S1x2048.size a ≤ S256x2048.size a
  inb_S256_S1_78 : ∀ a, (![78] : Fin 1 → Nat) a + S1.size a ≤ S256.size a
  inb_S256x2048_S1x2048_78_0 : ∀ a, (![78, 0] : Fin 2 → Nat) a + S1x2048.size a ≤ S256x2048.size a
  inb_S256_S1_79 : ∀ a, (![79] : Fin 1 → Nat) a + S1.size a ≤ S256.size a
  inb_S256x2048_S1x2048_79_0 : ∀ a, (![79, 0] : Fin 2 → Nat) a + S1x2048.size a ≤ S256x2048.size a
  inb_S256_S1_80 : ∀ a, (![80] : Fin 1 → Nat) a + S1.size a ≤ S256.size a
  inb_S256x2048_S1x2048_80_0 : ∀ a, (![80, 0] : Fin 2 → Nat) a + S1x2048.size a ≤ S256x2048.size a
  inb_S256_S1_81 : ∀ a, (![81] : Fin 1 → Nat) a + S1.size a ≤ S256.size a
  inb_S256x2048_S1x2048_81_0 : ∀ a, (![81, 0] : Fin 2 → Nat) a + S1x2048.size a ≤ S256x2048.size a
  inb_S256_S1_82 : ∀ a, (![82] : Fin 1 → Nat) a + S1.size a ≤ S256.size a
  inb_S256x2048_S1x2048_82_0 : ∀ a, (![82, 0] : Fin 2 → Nat) a + S1x2048.size a ≤ S256x2048.size a
  inb_S256_S1_83 : ∀ a, (![83] : Fin 1 → Nat) a + S1.size a ≤ S256.size a
  inb_S256x2048_S1x2048_83_0 : ∀ a, (![83, 0] : Fin 2 → Nat) a + S1x2048.size a ≤ S256x2048.size a
  inb_S256_S1_84 : ∀ a, (![84] : Fin 1 → Nat) a + S1.size a ≤ S256.size a
  inb_S256x2048_S1x2048_84_0 : ∀ a, (![84, 0] : Fin 2 → Nat) a + S1x2048.size a ≤ S256x2048.size a
  inb_S256_S1_85 : ∀ a, (![85] : Fin 1 → Nat) a + S1.size a ≤ S256.size a
  inb_S256x2048_S1x2048_85_0 : ∀ a, (![85, 0] : Fin 2 → Nat) a + S1x2048.size a ≤ S256x2048.size a
  inb_S256_S1_86 : ∀ a, (![86] : Fin 1 → Nat) a + S1.size a ≤ S256.size a
  inb_S256x2048_S1x2048_86_0 : ∀ a, (![86, 0] : Fin 2 → Nat) a + S1x2048.size a ≤ S256x2048.size a
  inb_S256_S1_87 : ∀ a, (![87] : Fin 1 → Nat) a + S1.size a ≤ S256.size a
  inb_S256x2048_S1x2048_87_0 : ∀ a, (![87, 0] : Fin 2 → Nat) a + S1x2048.size a ≤ S256x2048.size a
  inb_S256_S1_88 : ∀ a, (![88] : Fin 1 → Nat) a + S1.size a ≤ S256.size a
  inb_S256x2048_S1x2048_88_0 : ∀ a, (![88, 0] : Fin 2 → Nat) a + S1x2048.size a ≤ S256x2048.size a
  inb_S256_S1_89 : ∀ a, (![89] : Fin 1 → Nat) a + S1.size a ≤ S256.size a
  inb_S256x2048_S1x2048_89_0 : ∀ a, (![89, 0] : Fin 2 → Nat) a + S1x2048.size a ≤ S256x2048.size a
  inb_S256_S1_90 : ∀ a, (![90] : Fin 1 → Nat) a + S1.size a ≤ S256.size a
  inb_S256x2048_S1x2048_90_0 : ∀ a, (![90, 0] : Fin 2 → Nat) a + S1x2048.size a ≤ S256x2048.size a
  inb_S256_S1_91 : ∀ a, (![91] : Fin 1 → Nat) a + S1.size a ≤ S256.size a
  inb_S256x2048_S1x2048_91_0 : ∀ a, (![91, 0] : Fin 2 → Nat) a + S1x2048.size a ≤ S256x2048.size a
  inb_S256_S1_92 : ∀ a, (![92] : Fin 1 → Nat) a + S1.size a ≤ S256.size a
  inb_S256x2048_S1x2048_92_0 : ∀ a, (![92, 0] : Fin 2 → Nat) a + S1x2048.size a ≤ S256x2048.size a
  inb_S256_S1_93 : ∀ a, (![93] : Fin 1 → Nat) a + S1.size a ≤ S256.size a
  inb_S256x2048_S1x2048_93_0 : ∀ a, (![93, 0] : Fin 2 → Nat) a + S1x2048.size a ≤ S256x2048.size a
  inb_S256_S1_94 : ∀ a, (![94] : Fin 1 → Nat) a + S1.size a ≤ S256.size a
  inb_S256x2048_S1x2048_94_0 : ∀ a, (![94, 0] : Fin 2 → Nat) a + S1x2048.size a ≤ S256x2048.size a
  inb_S256_S1_95 : ∀ a, (![95] : Fin 1 → Nat) a + S1.size a ≤ S256.size a
  inb_S256x2048_S1x2048_95_0 : ∀ a, (![95, 0] : Fin 2 → Nat) a + S1x2048.size a ≤ S256x2048.size a
  inb_S256_S1_96 : ∀ a, (![96] : Fin 1 → Nat) a + S1.size a ≤ S256.size a
  inb_S256x2048_S1x2048_96_0 : ∀ a, (![96, 0] : Fin 2 → Nat) a + S1x2048.size a ≤ S256x2048.size a
  inb_S256_S1_97 : ∀ a, (![97] : Fin 1 → Nat) a + S1.size a ≤ S256.size a
  inb_S256x2048_S1x2048_97_0 : ∀ a, (![97, 0] : Fin 2 → Nat) a + S1x2048.size a ≤ S256x2048.size a
  inb_S256_S1_98 : ∀ a, (![98] : Fin 1 → Nat) a + S1.size a ≤ S256.size a
  inb_S256x2048_S1x2048_98_0 : ∀ a, (![98, 0] : Fin 2 → Nat) a + S1x2048.size a ≤ S256x2048.size a
  inb_S256_S1_99 : ∀ a, (![99] : Fin 1 → Nat) a + S1.size a ≤ S256.size a
  inb_S256x2048_S1x2048_99_0 : ∀ a, (![99, 0] : Fin 2 → Nat) a + S1x2048.size a ≤ S256x2048.size a
  inb_S256_S1_100 : ∀ a, (![100] : Fin 1 → Nat) a + S1.size a ≤ S256.size a
  inb_S256x2048_S1x2048_100_0 : ∀ a, (![100, 0] : Fin 2 → Nat) a + S1x2048.size a ≤ S256x2048.size a
  inb_S256_S1_101 : ∀ a, (![101] : Fin 1 → Nat) a + S1.size a ≤ S256.size a
  inb_S256x2048_S1x2048_101_0 : ∀ a, (![101, 0] : Fin 2 → Nat) a + S1x2048.size a ≤ S256x2048.size a
  inb_S256_S1_102 : ∀ a, (![102] : Fin 1 → Nat) a + S1.size a ≤ S256.size a
  inb_S256x2048_S1x2048_102_0 : ∀ a, (![102, 0] : Fin 2 → Nat) a + S1x2048.size a ≤ S256x2048.size a
  inb_S256_S1_103 : ∀ a, (![103] : Fin 1 → Nat) a + S1.size a ≤ S256.size a
  inb_S256x2048_S1x2048_103_0 : ∀ a, (![103, 0] : Fin 2 → Nat) a + S1x2048.size a ≤ S256x2048.size a
  inb_S256_S1_104 : ∀ a, (![104] : Fin 1 → Nat) a + S1.size a ≤ S256.size a
  inb_S256x2048_S1x2048_104_0 : ∀ a, (![104, 0] : Fin 2 → Nat) a + S1x2048.size a ≤ S256x2048.size a
  inb_S256_S1_105 : ∀ a, (![105] : Fin 1 → Nat) a + S1.size a ≤ S256.size a
  inb_S256x2048_S1x2048_105_0 : ∀ a, (![105, 0] : Fin 2 → Nat) a + S1x2048.size a ≤ S256x2048.size a
  inb_S256_S1_106 : ∀ a, (![106] : Fin 1 → Nat) a + S1.size a ≤ S256.size a
  inb_S256x2048_S1x2048_106_0 : ∀ a, (![106, 0] : Fin 2 → Nat) a + S1x2048.size a ≤ S256x2048.size a
  inb_S256_S1_107 : ∀ a, (![107] : Fin 1 → Nat) a + S1.size a ≤ S256.size a
  inb_S256x2048_S1x2048_107_0 : ∀ a, (![107, 0] : Fin 2 → Nat) a + S1x2048.size a ≤ S256x2048.size a
  inb_S256_S1_108 : ∀ a, (![108] : Fin 1 → Nat) a + S1.size a ≤ S256.size a
  inb_S256x2048_S1x2048_108_0 : ∀ a, (![108, 0] : Fin 2 → Nat) a + S1x2048.size a ≤ S256x2048.size a
  inb_S256_S1_109 : ∀ a, (![109] : Fin 1 → Nat) a + S1.size a ≤ S256.size a
  inb_S256x2048_S1x2048_109_0 : ∀ a, (![109, 0] : Fin 2 → Nat) a + S1x2048.size a ≤ S256x2048.size a
  inb_S256_S1_110 : ∀ a, (![110] : Fin 1 → Nat) a + S1.size a ≤ S256.size a
  inb_S256x2048_S1x2048_110_0 : ∀ a, (![110, 0] : Fin 2 → Nat) a + S1x2048.size a ≤ S256x2048.size a
  inb_S256_S1_111 : ∀ a, (![111] : Fin 1 → Nat) a + S1.size a ≤ S256.size a
  inb_S256x2048_S1x2048_111_0 : ∀ a, (![111, 0] : Fin 2 → Nat) a + S1x2048.size a ≤ S256x2048.size a
  inb_S256_S1_112 : ∀ a, (![112] : Fin 1 → Nat) a + S1.size a ≤ S256.size a
  inb_S256x2048_S1x2048_112_0 : ∀ a, (![112, 0] : Fin 2 → Nat) a + S1x2048.size a ≤ S256x2048.size a
  inb_S256_S1_113 : ∀ a, (![113] : Fin 1 → Nat) a + S1.size a ≤ S256.size a
  inb_S256x2048_S1x2048_113_0 : ∀ a, (![113, 0] : Fin 2 → Nat) a + S1x2048.size a ≤ S256x2048.size a
  inb_S256_S1_114 : ∀ a, (![114] : Fin 1 → Nat) a + S1.size a ≤ S256.size a
  inb_S256x2048_S1x2048_114_0 : ∀ a, (![114, 0] : Fin 2 → Nat) a + S1x2048.size a ≤ S256x2048.size a
  inb_S256_S1_115 : ∀ a, (![115] : Fin 1 → Nat) a + S1.size a ≤ S256.size a
  inb_S256x2048_S1x2048_115_0 : ∀ a, (![115, 0] : Fin 2 → Nat) a + S1x2048.size a ≤ S256x2048.size a
  inb_S256_S1_116 : ∀ a, (![116] : Fin 1 → Nat) a + S1.size a ≤ S256.size a
  inb_S256x2048_S1x2048_116_0 : ∀ a, (![116, 0] : Fin 2 → Nat) a + S1x2048.size a ≤ S256x2048.size a
  inb_S256_S1_117 : ∀ a, (![117] : Fin 1 → Nat) a + S1.size a ≤ S256.size a
  inb_S256x2048_S1x2048_117_0 : ∀ a, (![117, 0] : Fin 2 → Nat) a + S1x2048.size a ≤ S256x2048.size a
  inb_S256_S1_118 : ∀ a, (![118] : Fin 1 → Nat) a + S1.size a ≤ S256.size a
  inb_S256x2048_S1x2048_118_0 : ∀ a, (![118, 0] : Fin 2 → Nat) a + S1x2048.size a ≤ S256x2048.size a
  inb_S256_S1_119 : ∀ a, (![119] : Fin 1 → Nat) a + S1.size a ≤ S256.size a
  inb_S256x2048_S1x2048_119_0 : ∀ a, (![119, 0] : Fin 2 → Nat) a + S1x2048.size a ≤ S256x2048.size a
  inb_S256_S1_120 : ∀ a, (![120] : Fin 1 → Nat) a + S1.size a ≤ S256.size a
  inb_S256x2048_S1x2048_120_0 : ∀ a, (![120, 0] : Fin 2 → Nat) a + S1x2048.size a ≤ S256x2048.size a
  inb_S256_S1_121 : ∀ a, (![121] : Fin 1 → Nat) a + S1.size a ≤ S256.size a
  inb_S256x2048_S1x2048_121_0 : ∀ a, (![121, 0] : Fin 2 → Nat) a + S1x2048.size a ≤ S256x2048.size a
  inb_S256_S1_122 : ∀ a, (![122] : Fin 1 → Nat) a + S1.size a ≤ S256.size a
  inb_S256x2048_S1x2048_122_0 : ∀ a, (![122, 0] : Fin 2 → Nat) a + S1x2048.size a ≤ S256x2048.size a
  inb_S256_S1_123 : ∀ a, (![123] : Fin 1 → Nat) a + S1.size a ≤ S256.size a
  inb_S256x2048_S1x2048_123_0 : ∀ a, (![123, 0] : Fin 2 → Nat) a + S1x2048.size a ≤ S256x2048.size a
  inb_S256_S1_124 : ∀ a, (![124] : Fin 1 → Nat) a + S1.size a ≤ S256.size a
  inb_S256x2048_S1x2048_124_0 : ∀ a, (![124, 0] : Fin 2 → Nat) a + S1x2048.size a ≤ S256x2048.size a
  inb_S256_S1_125 : ∀ a, (![125] : Fin 1 → Nat) a + S1.size a ≤ S256.size a
  inb_S256x2048_S1x2048_125_0 : ∀ a, (![125, 0] : Fin 2 → Nat) a + S1x2048.size a ≤ S256x2048.size a
  inb_S256_S1_126 : ∀ a, (![126] : Fin 1 → Nat) a + S1.size a ≤ S256.size a
  inb_S256x2048_S1x2048_126_0 : ∀ a, (![126, 0] : Fin 2 → Nat) a + S1x2048.size a ≤ S256x2048.size a
  inb_S256_S1_127 : ∀ a, (![127] : Fin 1 → Nat) a + S1.size a ≤ S256.size a
  inb_S256x2048_S1x2048_127_0 : ∀ a, (![127, 0] : Fin 2 → Nat) a + S1x2048.size a ≤ S256x2048.size a
  inb_S256_S1_128 : ∀ a, (![128] : Fin 1 → Nat) a + S1.size a ≤ S256.size a
  inb_S256x2048_S1x2048_128_0 : ∀ a, (![128, 0] : Fin 2 → Nat) a + S1x2048.size a ≤ S256x2048.size a
  inb_S256_S1_129 : ∀ a, (![129] : Fin 1 → Nat) a + S1.size a ≤ S256.size a
  inb_S256x2048_S1x2048_129_0 : ∀ a, (![129, 0] : Fin 2 → Nat) a + S1x2048.size a ≤ S256x2048.size a
  inb_S256_S1_130 : ∀ a, (![130] : Fin 1 → Nat) a + S1.size a ≤ S256.size a
  inb_S256x2048_S1x2048_130_0 : ∀ a, (![130, 0] : Fin 2 → Nat) a + S1x2048.size a ≤ S256x2048.size a
  inb_S256_S1_131 : ∀ a, (![131] : Fin 1 → Nat) a + S1.size a ≤ S256.size a
  inb_S256x2048_S1x2048_131_0 : ∀ a, (![131, 0] : Fin 2 → Nat) a + S1x2048.size a ≤ S256x2048.size a
  inb_S256_S1_132 : ∀ a, (![132] : Fin 1 → Nat) a + S1.size a ≤ S256.size a
  inb_S256x2048_S1x2048_132_0 : ∀ a, (![132, 0] : Fin 2 → Nat) a + S1x2048.size a ≤ S256x2048.size a
  inb_S256_S1_133 : ∀ a, (![133] : Fin 1 → Nat) a + S1.size a ≤ S256.size a
  inb_S256x2048_S1x2048_133_0 : ∀ a, (![133, 0] : Fin 2 → Nat) a + S1x2048.size a ≤ S256x2048.size a
  inb_S256_S1_134 : ∀ a, (![134] : Fin 1 → Nat) a + S1.size a ≤ S256.size a
  inb_S256x2048_S1x2048_134_0 : ∀ a, (![134, 0] : Fin 2 → Nat) a + S1x2048.size a ≤ S256x2048.size a
  inb_S256_S1_135 : ∀ a, (![135] : Fin 1 → Nat) a + S1.size a ≤ S256.size a
  inb_S256x2048_S1x2048_135_0 : ∀ a, (![135, 0] : Fin 2 → Nat) a + S1x2048.size a ≤ S256x2048.size a
  inb_S256_S1_136 : ∀ a, (![136] : Fin 1 → Nat) a + S1.size a ≤ S256.size a
  inb_S256x2048_S1x2048_136_0 : ∀ a, (![136, 0] : Fin 2 → Nat) a + S1x2048.size a ≤ S256x2048.size a
  inb_S256_S1_137 : ∀ a, (![137] : Fin 1 → Nat) a + S1.size a ≤ S256.size a
  inb_S256x2048_S1x2048_137_0 : ∀ a, (![137, 0] : Fin 2 → Nat) a + S1x2048.size a ≤ S256x2048.size a
  inb_S256_S1_138 : ∀ a, (![138] : Fin 1 → Nat) a + S1.size a ≤ S256.size a
  inb_S256x2048_S1x2048_138_0 : ∀ a, (![138, 0] : Fin 2 → Nat) a + S1x2048.size a ≤ S256x2048.size a
  inb_S256_S1_139 : ∀ a, (![139] : Fin 1 → Nat) a + S1.size a ≤ S256.size a
  inb_S256x2048_S1x2048_139_0 : ∀ a, (![139, 0] : Fin 2 → Nat) a + S1x2048.size a ≤ S256x2048.size a
  inb_S256_S1_140 : ∀ a, (![140] : Fin 1 → Nat) a + S1.size a ≤ S256.size a
  inb_S256x2048_S1x2048_140_0 : ∀ a, (![140, 0] : Fin 2 → Nat) a + S1x2048.size a ≤ S256x2048.size a
  inb_S256_S1_141 : ∀ a, (![141] : Fin 1 → Nat) a + S1.size a ≤ S256.size a
  inb_S256x2048_S1x2048_141_0 : ∀ a, (![141, 0] : Fin 2 → Nat) a + S1x2048.size a ≤ S256x2048.size a
  inb_S256_S1_142 : ∀ a, (![142] : Fin 1 → Nat) a + S1.size a ≤ S256.size a
  inb_S256x2048_S1x2048_142_0 : ∀ a, (![142, 0] : Fin 2 → Nat) a + S1x2048.size a ≤ S256x2048.size a
  inb_S256_S1_143 : ∀ a, (![143] : Fin 1 → Nat) a + S1.size a ≤ S256.size a
  inb_S256x2048_S1x2048_143_0 : ∀ a, (![143, 0] : Fin 2 → Nat) a + S1x2048.size a ≤ S256x2048.size a
  inb_S256_S1_144 : ∀ a, (![144] : Fin 1 → Nat) a + S1.size a ≤ S256.size a
  inb_S256x2048_S1x2048_144_0 : ∀ a, (![144, 0] : Fin 2 → Nat) a + S1x2048.size a ≤ S256x2048.size a
  inb_S256_S1_145 : ∀ a, (![145] : Fin 1 → Nat) a + S1.size a ≤ S256.size a
  inb_S256x2048_S1x2048_145_0 : ∀ a, (![145, 0] : Fin 2 → Nat) a + S1x2048.size a ≤ S256x2048.size a
  inb_S256_S1_146 : ∀ a, (![146] : Fin 1 → Nat) a + S1.size a ≤ S256.size a
  inb_S256x2048_S1x2048_146_0 : ∀ a, (![146, 0] : Fin 2 → Nat) a + S1x2048.size a ≤ S256x2048.size a
  inb_S256_S1_147 : ∀ a, (![147] : Fin 1 → Nat) a + S1.size a ≤ S256.size a
  inb_S256x2048_S1x2048_147_0 : ∀ a, (![147, 0] : Fin 2 → Nat) a + S1x2048.size a ≤ S256x2048.size a
  inb_S256_S1_148 : ∀ a, (![148] : Fin 1 → Nat) a + S1.size a ≤ S256.size a
  inb_S256x2048_S1x2048_148_0 : ∀ a, (![148, 0] : Fin 2 → Nat) a + S1x2048.size a ≤ S256x2048.size a
  inb_S256_S1_149 : ∀ a, (![149] : Fin 1 → Nat) a + S1.size a ≤ S256.size a
  inb_S256x2048_S1x2048_149_0 : ∀ a, (![149, 0] : Fin 2 → Nat) a + S1x2048.size a ≤ S256x2048.size a
  inb_S256_S1_150 : ∀ a, (![150] : Fin 1 → Nat) a + S1.size a ≤ S256.size a
  inb_S256x2048_S1x2048_150_0 : ∀ a, (![150, 0] : Fin 2 → Nat) a + S1x2048.size a ≤ S256x2048.size a
  inb_S256_S1_151 : ∀ a, (![151] : Fin 1 → Nat) a + S1.size a ≤ S256.size a
  inb_S256x2048_S1x2048_151_0 : ∀ a, (![151, 0] : Fin 2 → Nat) a + S1x2048.size a ≤ S256x2048.size a
  inb_S256_S1_152 : ∀ a, (![152] : Fin 1 → Nat) a + S1.size a ≤ S256.size a
  inb_S256x2048_S1x2048_152_0 : ∀ a, (![152, 0] : Fin 2 → Nat) a + S1x2048.size a ≤ S256x2048.size a
  inb_S256_S1_153 : ∀ a, (![153] : Fin 1 → Nat) a + S1.size a ≤ S256.size a
  inb_S256x2048_S1x2048_153_0 : ∀ a, (![153, 0] : Fin 2 → Nat) a + S1x2048.size a ≤ S256x2048.size a
  inb_S256_S1_154 : ∀ a, (![154] : Fin 1 → Nat) a + S1.size a ≤ S256.size a
  inb_S256x2048_S1x2048_154_0 : ∀ a, (![154, 0] : Fin 2 → Nat) a + S1x2048.size a ≤ S256x2048.size a
  inb_S256_S1_155 : ∀ a, (![155] : Fin 1 → Nat) a + S1.size a ≤ S256.size a
  inb_S256x2048_S1x2048_155_0 : ∀ a, (![155, 0] : Fin 2 → Nat) a + S1x2048.size a ≤ S256x2048.size a
  inb_S256_S1_156 : ∀ a, (![156] : Fin 1 → Nat) a + S1.size a ≤ S256.size a
  inb_S256x2048_S1x2048_156_0 : ∀ a, (![156, 0] : Fin 2 → Nat) a + S1x2048.size a ≤ S256x2048.size a
  inb_S256_S1_157 : ∀ a, (![157] : Fin 1 → Nat) a + S1.size a ≤ S256.size a
  inb_S256x2048_S1x2048_157_0 : ∀ a, (![157, 0] : Fin 2 → Nat) a + S1x2048.size a ≤ S256x2048.size a
  inb_S256_S1_158 : ∀ a, (![158] : Fin 1 → Nat) a + S1.size a ≤ S256.size a
  inb_S256x2048_S1x2048_158_0 : ∀ a, (![158, 0] : Fin 2 → Nat) a + S1x2048.size a ≤ S256x2048.size a
  inb_S256_S1_159 : ∀ a, (![159] : Fin 1 → Nat) a + S1.size a ≤ S256.size a
  inb_S256x2048_S1x2048_159_0 : ∀ a, (![159, 0] : Fin 2 → Nat) a + S1x2048.size a ≤ S256x2048.size a
  inb_S256_S1_160 : ∀ a, (![160] : Fin 1 → Nat) a + S1.size a ≤ S256.size a
  inb_S256x2048_S1x2048_160_0 : ∀ a, (![160, 0] : Fin 2 → Nat) a + S1x2048.size a ≤ S256x2048.size a
  inb_S256_S1_161 : ∀ a, (![161] : Fin 1 → Nat) a + S1.size a ≤ S256.size a
  inb_S256x2048_S1x2048_161_0 : ∀ a, (![161, 0] : Fin 2 → Nat) a + S1x2048.size a ≤ S256x2048.size a
  inb_S256_S1_162 : ∀ a, (![162] : Fin 1 → Nat) a + S1.size a ≤ S256.size a
  inb_S256x2048_S1x2048_162_0 : ∀ a, (![162, 0] : Fin 2 → Nat) a + S1x2048.size a ≤ S256x2048.size a
  inb_S256_S1_163 : ∀ a, (![163] : Fin 1 → Nat) a + S1.size a ≤ S256.size a
  inb_S256x2048_S1x2048_163_0 : ∀ a, (![163, 0] : Fin 2 → Nat) a + S1x2048.size a ≤ S256x2048.size a
  inb_S256_S1_164 : ∀ a, (![164] : Fin 1 → Nat) a + S1.size a ≤ S256.size a
  inb_S256x2048_S1x2048_164_0 : ∀ a, (![164, 0] : Fin 2 → Nat) a + S1x2048.size a ≤ S256x2048.size a
  inb_S256_S1_165 : ∀ a, (![165] : Fin 1 → Nat) a + S1.size a ≤ S256.size a
  inb_S256x2048_S1x2048_165_0 : ∀ a, (![165, 0] : Fin 2 → Nat) a + S1x2048.size a ≤ S256x2048.size a
  inb_S256_S1_166 : ∀ a, (![166] : Fin 1 → Nat) a + S1.size a ≤ S256.size a
  inb_S256x2048_S1x2048_166_0 : ∀ a, (![166, 0] : Fin 2 → Nat) a + S1x2048.size a ≤ S256x2048.size a
  inb_S256_S1_167 : ∀ a, (![167] : Fin 1 → Nat) a + S1.size a ≤ S256.size a
  inb_S256x2048_S1x2048_167_0 : ∀ a, (![167, 0] : Fin 2 → Nat) a + S1x2048.size a ≤ S256x2048.size a
  inb_S256_S1_168 : ∀ a, (![168] : Fin 1 → Nat) a + S1.size a ≤ S256.size a
  inb_S256x2048_S1x2048_168_0 : ∀ a, (![168, 0] : Fin 2 → Nat) a + S1x2048.size a ≤ S256x2048.size a
  inb_S256_S1_169 : ∀ a, (![169] : Fin 1 → Nat) a + S1.size a ≤ S256.size a
  inb_S256x2048_S1x2048_169_0 : ∀ a, (![169, 0] : Fin 2 → Nat) a + S1x2048.size a ≤ S256x2048.size a
  inb_S256_S1_170 : ∀ a, (![170] : Fin 1 → Nat) a + S1.size a ≤ S256.size a
  inb_S256x2048_S1x2048_170_0 : ∀ a, (![170, 0] : Fin 2 → Nat) a + S1x2048.size a ≤ S256x2048.size a
  inb_S256_S1_171 : ∀ a, (![171] : Fin 1 → Nat) a + S1.size a ≤ S256.size a
  inb_S256x2048_S1x2048_171_0 : ∀ a, (![171, 0] : Fin 2 → Nat) a + S1x2048.size a ≤ S256x2048.size a
  inb_S256_S1_172 : ∀ a, (![172] : Fin 1 → Nat) a + S1.size a ≤ S256.size a
  inb_S256x2048_S1x2048_172_0 : ∀ a, (![172, 0] : Fin 2 → Nat) a + S1x2048.size a ≤ S256x2048.size a
  inb_S256_S1_173 : ∀ a, (![173] : Fin 1 → Nat) a + S1.size a ≤ S256.size a
  inb_S256x2048_S1x2048_173_0 : ∀ a, (![173, 0] : Fin 2 → Nat) a + S1x2048.size a ≤ S256x2048.size a
  inb_S256_S1_174 : ∀ a, (![174] : Fin 1 → Nat) a + S1.size a ≤ S256.size a
  inb_S256x2048_S1x2048_174_0 : ∀ a, (![174, 0] : Fin 2 → Nat) a + S1x2048.size a ≤ S256x2048.size a
  inb_S256_S1_175 : ∀ a, (![175] : Fin 1 → Nat) a + S1.size a ≤ S256.size a
  inb_S256x2048_S1x2048_175_0 : ∀ a, (![175, 0] : Fin 2 → Nat) a + S1x2048.size a ≤ S256x2048.size a
  inb_S256_S1_176 : ∀ a, (![176] : Fin 1 → Nat) a + S1.size a ≤ S256.size a
  inb_S256x2048_S1x2048_176_0 : ∀ a, (![176, 0] : Fin 2 → Nat) a + S1x2048.size a ≤ S256x2048.size a
  inb_S256_S1_177 : ∀ a, (![177] : Fin 1 → Nat) a + S1.size a ≤ S256.size a
  inb_S256x2048_S1x2048_177_0 : ∀ a, (![177, 0] : Fin 2 → Nat) a + S1x2048.size a ≤ S256x2048.size a
  inb_S256_S1_178 : ∀ a, (![178] : Fin 1 → Nat) a + S1.size a ≤ S256.size a
  inb_S256x2048_S1x2048_178_0 : ∀ a, (![178, 0] : Fin 2 → Nat) a + S1x2048.size a ≤ S256x2048.size a
  inb_S256_S1_179 : ∀ a, (![179] : Fin 1 → Nat) a + S1.size a ≤ S256.size a
  inb_S256x2048_S1x2048_179_0 : ∀ a, (![179, 0] : Fin 2 → Nat) a + S1x2048.size a ≤ S256x2048.size a
  inb_S256_S1_180 : ∀ a, (![180] : Fin 1 → Nat) a + S1.size a ≤ S256.size a
  inb_S256x2048_S1x2048_180_0 : ∀ a, (![180, 0] : Fin 2 → Nat) a + S1x2048.size a ≤ S256x2048.size a
  inb_S256_S1_181 : ∀ a, (![181] : Fin 1 → Nat) a + S1.size a ≤ S256.size a
  inb_S256x2048_S1x2048_181_0 : ∀ a, (![181, 0] : Fin 2 → Nat) a + S1x2048.size a ≤ S256x2048.size a
  inb_S256_S1_182 : ∀ a, (![182] : Fin 1 → Nat) a + S1.size a ≤ S256.size a
  inb_S256x2048_S1x2048_182_0 : ∀ a, (![182, 0] : Fin 2 → Nat) a + S1x2048.size a ≤ S256x2048.size a
  inb_S256_S1_183 : ∀ a, (![183] : Fin 1 → Nat) a + S1.size a ≤ S256.size a
  inb_S256x2048_S1x2048_183_0 : ∀ a, (![183, 0] : Fin 2 → Nat) a + S1x2048.size a ≤ S256x2048.size a
  inb_S256_S1_184 : ∀ a, (![184] : Fin 1 → Nat) a + S1.size a ≤ S256.size a
  inb_S256x2048_S1x2048_184_0 : ∀ a, (![184, 0] : Fin 2 → Nat) a + S1x2048.size a ≤ S256x2048.size a
  inb_S256_S1_185 : ∀ a, (![185] : Fin 1 → Nat) a + S1.size a ≤ S256.size a
  inb_S256x2048_S1x2048_185_0 : ∀ a, (![185, 0] : Fin 2 → Nat) a + S1x2048.size a ≤ S256x2048.size a
  inb_S256_S1_186 : ∀ a, (![186] : Fin 1 → Nat) a + S1.size a ≤ S256.size a
  inb_S256x2048_S1x2048_186_0 : ∀ a, (![186, 0] : Fin 2 → Nat) a + S1x2048.size a ≤ S256x2048.size a
  inb_S256_S1_187 : ∀ a, (![187] : Fin 1 → Nat) a + S1.size a ≤ S256.size a
  inb_S256x2048_S1x2048_187_0 : ∀ a, (![187, 0] : Fin 2 → Nat) a + S1x2048.size a ≤ S256x2048.size a
  inb_S256_S1_188 : ∀ a, (![188] : Fin 1 → Nat) a + S1.size a ≤ S256.size a
  inb_S256x2048_S1x2048_188_0 : ∀ a, (![188, 0] : Fin 2 → Nat) a + S1x2048.size a ≤ S256x2048.size a
  inb_S256_S1_189 : ∀ a, (![189] : Fin 1 → Nat) a + S1.size a ≤ S256.size a
  inb_S256x2048_S1x2048_189_0 : ∀ a, (![189, 0] : Fin 2 → Nat) a + S1x2048.size a ≤ S256x2048.size a
  inb_S256_S1_190 : ∀ a, (![190] : Fin 1 → Nat) a + S1.size a ≤ S256.size a
  inb_S256x2048_S1x2048_190_0 : ∀ a, (![190, 0] : Fin 2 → Nat) a + S1x2048.size a ≤ S256x2048.size a
  inb_S256_S1_191 : ∀ a, (![191] : Fin 1 → Nat) a + S1.size a ≤ S256.size a
  inb_S256x2048_S1x2048_191_0 : ∀ a, (![191, 0] : Fin 2 → Nat) a + S1x2048.size a ≤ S256x2048.size a
  inb_S256_S1_192 : ∀ a, (![192] : Fin 1 → Nat) a + S1.size a ≤ S256.size a
  inb_S256x2048_S1x2048_192_0 : ∀ a, (![192, 0] : Fin 2 → Nat) a + S1x2048.size a ≤ S256x2048.size a
  inb_S256_S1_193 : ∀ a, (![193] : Fin 1 → Nat) a + S1.size a ≤ S256.size a
  inb_S256x2048_S1x2048_193_0 : ∀ a, (![193, 0] : Fin 2 → Nat) a + S1x2048.size a ≤ S256x2048.size a
  inb_S256_S1_194 : ∀ a, (![194] : Fin 1 → Nat) a + S1.size a ≤ S256.size a
  inb_S256x2048_S1x2048_194_0 : ∀ a, (![194, 0] : Fin 2 → Nat) a + S1x2048.size a ≤ S256x2048.size a
  inb_S256_S1_195 : ∀ a, (![195] : Fin 1 → Nat) a + S1.size a ≤ S256.size a
  inb_S256x2048_S1x2048_195_0 : ∀ a, (![195, 0] : Fin 2 → Nat) a + S1x2048.size a ≤ S256x2048.size a
  inb_S256_S1_196 : ∀ a, (![196] : Fin 1 → Nat) a + S1.size a ≤ S256.size a
  inb_S256x2048_S1x2048_196_0 : ∀ a, (![196, 0] : Fin 2 → Nat) a + S1x2048.size a ≤ S256x2048.size a
  inb_S256_S1_197 : ∀ a, (![197] : Fin 1 → Nat) a + S1.size a ≤ S256.size a
  inb_S256x2048_S1x2048_197_0 : ∀ a, (![197, 0] : Fin 2 → Nat) a + S1x2048.size a ≤ S256x2048.size a
  inb_S256_S1_198 : ∀ a, (![198] : Fin 1 → Nat) a + S1.size a ≤ S256.size a
  inb_S256x2048_S1x2048_198_0 : ∀ a, (![198, 0] : Fin 2 → Nat) a + S1x2048.size a ≤ S256x2048.size a
  inb_S256_S1_199 : ∀ a, (![199] : Fin 1 → Nat) a + S1.size a ≤ S256.size a
  inb_S256x2048_S1x2048_199_0 : ∀ a, (![199, 0] : Fin 2 → Nat) a + S1x2048.size a ≤ S256x2048.size a
  inb_S256_S1_200 : ∀ a, (![200] : Fin 1 → Nat) a + S1.size a ≤ S256.size a
  inb_S256x2048_S1x2048_200_0 : ∀ a, (![200, 0] : Fin 2 → Nat) a + S1x2048.size a ≤ S256x2048.size a
  inb_S256_S1_201 : ∀ a, (![201] : Fin 1 → Nat) a + S1.size a ≤ S256.size a
  inb_S256x2048_S1x2048_201_0 : ∀ a, (![201, 0] : Fin 2 → Nat) a + S1x2048.size a ≤ S256x2048.size a
  inb_S256_S1_202 : ∀ a, (![202] : Fin 1 → Nat) a + S1.size a ≤ S256.size a
  inb_S256x2048_S1x2048_202_0 : ∀ a, (![202, 0] : Fin 2 → Nat) a + S1x2048.size a ≤ S256x2048.size a
  inb_S256_S1_203 : ∀ a, (![203] : Fin 1 → Nat) a + S1.size a ≤ S256.size a
  inb_S256x2048_S1x2048_203_0 : ∀ a, (![203, 0] : Fin 2 → Nat) a + S1x2048.size a ≤ S256x2048.size a
  inb_S256_S1_204 : ∀ a, (![204] : Fin 1 → Nat) a + S1.size a ≤ S256.size a
  inb_S256x2048_S1x2048_204_0 : ∀ a, (![204, 0] : Fin 2 → Nat) a + S1x2048.size a ≤ S256x2048.size a
  inb_S256_S1_205 : ∀ a, (![205] : Fin 1 → Nat) a + S1.size a ≤ S256.size a
  inb_S256x2048_S1x2048_205_0 : ∀ a, (![205, 0] : Fin 2 → Nat) a + S1x2048.size a ≤ S256x2048.size a
  inb_S256_S1_206 : ∀ a, (![206] : Fin 1 → Nat) a + S1.size a ≤ S256.size a
  inb_S256x2048_S1x2048_206_0 : ∀ a, (![206, 0] : Fin 2 → Nat) a + S1x2048.size a ≤ S256x2048.size a
  inb_S256_S1_207 : ∀ a, (![207] : Fin 1 → Nat) a + S1.size a ≤ S256.size a
  inb_S256x2048_S1x2048_207_0 : ∀ a, (![207, 0] : Fin 2 → Nat) a + S1x2048.size a ≤ S256x2048.size a
  inb_S256_S1_208 : ∀ a, (![208] : Fin 1 → Nat) a + S1.size a ≤ S256.size a
  inb_S256x2048_S1x2048_208_0 : ∀ a, (![208, 0] : Fin 2 → Nat) a + S1x2048.size a ≤ S256x2048.size a
  inb_S256_S1_209 : ∀ a, (![209] : Fin 1 → Nat) a + S1.size a ≤ S256.size a
  inb_S256x2048_S1x2048_209_0 : ∀ a, (![209, 0] : Fin 2 → Nat) a + S1x2048.size a ≤ S256x2048.size a
  inb_S256_S1_210 : ∀ a, (![210] : Fin 1 → Nat) a + S1.size a ≤ S256.size a
  inb_S256x2048_S1x2048_210_0 : ∀ a, (![210, 0] : Fin 2 → Nat) a + S1x2048.size a ≤ S256x2048.size a
  inb_S256_S1_211 : ∀ a, (![211] : Fin 1 → Nat) a + S1.size a ≤ S256.size a
  inb_S256x2048_S1x2048_211_0 : ∀ a, (![211, 0] : Fin 2 → Nat) a + S1x2048.size a ≤ S256x2048.size a
  inb_S256_S1_212 : ∀ a, (![212] : Fin 1 → Nat) a + S1.size a ≤ S256.size a
  inb_S256x2048_S1x2048_212_0 : ∀ a, (![212, 0] : Fin 2 → Nat) a + S1x2048.size a ≤ S256x2048.size a
  inb_S256_S1_213 : ∀ a, (![213] : Fin 1 → Nat) a + S1.size a ≤ S256.size a
  inb_S256x2048_S1x2048_213_0 : ∀ a, (![213, 0] : Fin 2 → Nat) a + S1x2048.size a ≤ S256x2048.size a
  inb_S256_S1_214 : ∀ a, (![214] : Fin 1 → Nat) a + S1.size a ≤ S256.size a
  inb_S256x2048_S1x2048_214_0 : ∀ a, (![214, 0] : Fin 2 → Nat) a + S1x2048.size a ≤ S256x2048.size a
  inb_S256_S1_215 : ∀ a, (![215] : Fin 1 → Nat) a + S1.size a ≤ S256.size a
  inb_S256x2048_S1x2048_215_0 : ∀ a, (![215, 0] : Fin 2 → Nat) a + S1x2048.size a ≤ S256x2048.size a
  inb_S256_S1_216 : ∀ a, (![216] : Fin 1 → Nat) a + S1.size a ≤ S256.size a
  inb_S256x2048_S1x2048_216_0 : ∀ a, (![216, 0] : Fin 2 → Nat) a + S1x2048.size a ≤ S256x2048.size a
  inb_S256_S1_217 : ∀ a, (![217] : Fin 1 → Nat) a + S1.size a ≤ S256.size a
  inb_S256x2048_S1x2048_217_0 : ∀ a, (![217, 0] : Fin 2 → Nat) a + S1x2048.size a ≤ S256x2048.size a
  inb_S256_S1_218 : ∀ a, (![218] : Fin 1 → Nat) a + S1.size a ≤ S256.size a
  inb_S256x2048_S1x2048_218_0 : ∀ a, (![218, 0] : Fin 2 → Nat) a + S1x2048.size a ≤ S256x2048.size a
  inb_S256_S1_219 : ∀ a, (![219] : Fin 1 → Nat) a + S1.size a ≤ S256.size a
  inb_S256x2048_S1x2048_219_0 : ∀ a, (![219, 0] : Fin 2 → Nat) a + S1x2048.size a ≤ S256x2048.size a
  inb_S256_S1_220 : ∀ a, (![220] : Fin 1 → Nat) a + S1.size a ≤ S256.size a
  inb_S256x2048_S1x2048_220_0 : ∀ a, (![220, 0] : Fin 2 → Nat) a + S1x2048.size a ≤ S256x2048.size a
  inb_S256_S1_221 : ∀ a, (![221] : Fin 1 → Nat) a + S1.size a ≤ S256.size a
  inb_S256x2048_S1x2048_221_0 : ∀ a, (![221, 0] : Fin 2 → Nat) a + S1x2048.size a ≤ S256x2048.size a
  inb_S256_S1_222 : ∀ a, (![222] : Fin 1 → Nat) a + S1.size a ≤ S256.size a
  inb_S256x2048_S1x2048_222_0 : ∀ a, (![222, 0] : Fin 2 → Nat) a + S1x2048.size a ≤ S256x2048.size a
  inb_S256_S1_223 : ∀ a, (![223] : Fin 1 → Nat) a + S1.size a ≤ S256.size a
  inb_S256x2048_S1x2048_223_0 : ∀ a, (![223, 0] : Fin 2 → Nat) a + S1x2048.size a ≤ S256x2048.size a
  inb_S256_S1_224 : ∀ a, (![224] : Fin 1 → Nat) a + S1.size a ≤ S256.size a
  inb_S256x2048_S1x2048_224_0 : ∀ a, (![224, 0] : Fin 2 → Nat) a + S1x2048.size a ≤ S256x2048.size a
  inb_S256_S1_225 : ∀ a, (![225] : Fin 1 → Nat) a + S1.size a ≤ S256.size a
  inb_S256x2048_S1x2048_225_0 : ∀ a, (![225, 0] : Fin 2 → Nat) a + S1x2048.size a ≤ S256x2048.size a
  inb_S256_S1_226 : ∀ a, (![226] : Fin 1 → Nat) a + S1.size a ≤ S256.size a
  inb_S256x2048_S1x2048_226_0 : ∀ a, (![226, 0] : Fin 2 → Nat) a + S1x2048.size a ≤ S256x2048.size a
  inb_S256_S1_227 : ∀ a, (![227] : Fin 1 → Nat) a + S1.size a ≤ S256.size a
  inb_S256x2048_S1x2048_227_0 : ∀ a, (![227, 0] : Fin 2 → Nat) a + S1x2048.size a ≤ S256x2048.size a
  inb_S256_S1_228 : ∀ a, (![228] : Fin 1 → Nat) a + S1.size a ≤ S256.size a
  inb_S256x2048_S1x2048_228_0 : ∀ a, (![228, 0] : Fin 2 → Nat) a + S1x2048.size a ≤ S256x2048.size a
  inb_S256_S1_229 : ∀ a, (![229] : Fin 1 → Nat) a + S1.size a ≤ S256.size a
  inb_S256x2048_S1x2048_229_0 : ∀ a, (![229, 0] : Fin 2 → Nat) a + S1x2048.size a ≤ S256x2048.size a
  inb_S256_S1_230 : ∀ a, (![230] : Fin 1 → Nat) a + S1.size a ≤ S256.size a
  inb_S256x2048_S1x2048_230_0 : ∀ a, (![230, 0] : Fin 2 → Nat) a + S1x2048.size a ≤ S256x2048.size a
  inb_S256_S1_231 : ∀ a, (![231] : Fin 1 → Nat) a + S1.size a ≤ S256.size a
  inb_S256x2048_S1x2048_231_0 : ∀ a, (![231, 0] : Fin 2 → Nat) a + S1x2048.size a ≤ S256x2048.size a
  inb_S256_S1_232 : ∀ a, (![232] : Fin 1 → Nat) a + S1.size a ≤ S256.size a
  inb_S256x2048_S1x2048_232_0 : ∀ a, (![232, 0] : Fin 2 → Nat) a + S1x2048.size a ≤ S256x2048.size a
  inb_S256_S1_233 : ∀ a, (![233] : Fin 1 → Nat) a + S1.size a ≤ S256.size a
  inb_S256x2048_S1x2048_233_0 : ∀ a, (![233, 0] : Fin 2 → Nat) a + S1x2048.size a ≤ S256x2048.size a
  inb_S256_S1_234 : ∀ a, (![234] : Fin 1 → Nat) a + S1.size a ≤ S256.size a
  inb_S256x2048_S1x2048_234_0 : ∀ a, (![234, 0] : Fin 2 → Nat) a + S1x2048.size a ≤ S256x2048.size a
  inb_S256_S1_235 : ∀ a, (![235] : Fin 1 → Nat) a + S1.size a ≤ S256.size a
  inb_S256x2048_S1x2048_235_0 : ∀ a, (![235, 0] : Fin 2 → Nat) a + S1x2048.size a ≤ S256x2048.size a
  inb_S256_S1_236 : ∀ a, (![236] : Fin 1 → Nat) a + S1.size a ≤ S256.size a
  inb_S256x2048_S1x2048_236_0 : ∀ a, (![236, 0] : Fin 2 → Nat) a + S1x2048.size a ≤ S256x2048.size a
  inb_S256_S1_237 : ∀ a, (![237] : Fin 1 → Nat) a + S1.size a ≤ S256.size a
  inb_S256x2048_S1x2048_237_0 : ∀ a, (![237, 0] : Fin 2 → Nat) a + S1x2048.size a ≤ S256x2048.size a
  inb_S256_S1_238 : ∀ a, (![238] : Fin 1 → Nat) a + S1.size a ≤ S256.size a
  inb_S256x2048_S1x2048_238_0 : ∀ a, (![238, 0] : Fin 2 → Nat) a + S1x2048.size a ≤ S256x2048.size a
  inb_S256_S1_239 : ∀ a, (![239] : Fin 1 → Nat) a + S1.size a ≤ S256.size a
  inb_S256x2048_S1x2048_239_0 : ∀ a, (![239, 0] : Fin 2 → Nat) a + S1x2048.size a ≤ S256x2048.size a
  inb_S256_S1_240 : ∀ a, (![240] : Fin 1 → Nat) a + S1.size a ≤ S256.size a
  inb_S256x2048_S1x2048_240_0 : ∀ a, (![240, 0] : Fin 2 → Nat) a + S1x2048.size a ≤ S256x2048.size a
  inb_S256_S1_241 : ∀ a, (![241] : Fin 1 → Nat) a + S1.size a ≤ S256.size a
  inb_S256x2048_S1x2048_241_0 : ∀ a, (![241, 0] : Fin 2 → Nat) a + S1x2048.size a ≤ S256x2048.size a
  inb_S256_S1_242 : ∀ a, (![242] : Fin 1 → Nat) a + S1.size a ≤ S256.size a
  inb_S256x2048_S1x2048_242_0 : ∀ a, (![242, 0] : Fin 2 → Nat) a + S1x2048.size a ≤ S256x2048.size a
  inb_S256_S1_243 : ∀ a, (![243] : Fin 1 → Nat) a + S1.size a ≤ S256.size a
  inb_S256x2048_S1x2048_243_0 : ∀ a, (![243, 0] : Fin 2 → Nat) a + S1x2048.size a ≤ S256x2048.size a
  inb_S256_S1_244 : ∀ a, (![244] : Fin 1 → Nat) a + S1.size a ≤ S256.size a
  inb_S256x2048_S1x2048_244_0 : ∀ a, (![244, 0] : Fin 2 → Nat) a + S1x2048.size a ≤ S256x2048.size a
  inb_S256_S1_245 : ∀ a, (![245] : Fin 1 → Nat) a + S1.size a ≤ S256.size a
  inb_S256x2048_S1x2048_245_0 : ∀ a, (![245, 0] : Fin 2 → Nat) a + S1x2048.size a ≤ S256x2048.size a
  inb_S256_S1_246 : ∀ a, (![246] : Fin 1 → Nat) a + S1.size a ≤ S256.size a
  inb_S256x2048_S1x2048_246_0 : ∀ a, (![246, 0] : Fin 2 → Nat) a + S1x2048.size a ≤ S256x2048.size a
  inb_S256_S1_247 : ∀ a, (![247] : Fin 1 → Nat) a + S1.size a ≤ S256.size a
  inb_S256x2048_S1x2048_247_0 : ∀ a, (![247, 0] : Fin 2 → Nat) a + S1x2048.size a ≤ S256x2048.size a
  inb_S256_S1_248 : ∀ a, (![248] : Fin 1 → Nat) a + S1.size a ≤ S256.size a
  inb_S256x2048_S1x2048_248_0 : ∀ a, (![248, 0] : Fin 2 → Nat) a + S1x2048.size a ≤ S256x2048.size a
  inb_S256_S1_249 : ∀ a, (![249] : Fin 1 → Nat) a + S1.size a ≤ S256.size a
  inb_S256x2048_S1x2048_249_0 : ∀ a, (![249, 0] : Fin 2 → Nat) a + S1x2048.size a ≤ S256x2048.size a
  inb_S256_S1_250 : ∀ a, (![250] : Fin 1 → Nat) a + S1.size a ≤ S256.size a
  inb_S256x2048_S1x2048_250_0 : ∀ a, (![250, 0] : Fin 2 → Nat) a + S1x2048.size a ≤ S256x2048.size a
  inb_S256_S1_251 : ∀ a, (![251] : Fin 1 → Nat) a + S1.size a ≤ S256.size a
  inb_S256x2048_S1x2048_251_0 : ∀ a, (![251, 0] : Fin 2 → Nat) a + S1x2048.size a ≤ S256x2048.size a
  inb_S256_S1_252 : ∀ a, (![252] : Fin 1 → Nat) a + S1.size a ≤ S256.size a
  inb_S256x2048_S1x2048_252_0 : ∀ a, (![252, 0] : Fin 2 → Nat) a + S1x2048.size a ≤ S256x2048.size a
  inb_S256_S1_253 : ∀ a, (![253] : Fin 1 → Nat) a + S1.size a ≤ S256.size a
  inb_S256x2048_S1x2048_253_0 : ∀ a, (![253, 0] : Fin 2 → Nat) a + S1x2048.size a ≤ S256x2048.size a
  inb_S256_S1_254 : ∀ a, (![254] : Fin 1 → Nat) a + S1.size a ≤ S256.size a
  inb_S256x2048_S1x2048_254_0 : ∀ a, (![254, 0] : Fin 2 → Nat) a + S1x2048.size a ≤ S256x2048.size a
  inb_S256_S1_255 : ∀ a, (![255] : Fin 1 → Nat) a + S1.size a ≤ S256.size a
  inb_S256x2048_S1x2048_255_0 : ∀ a, (![255, 0] : Fin 2 → Nat) a + S1x2048.size a ≤ S256x2048.size a
  inb_S32000x2048_S1x2048_0_0 : ∀ a, (![0, 0] : Fin 2 → Nat) a + S1x2048.size a ≤ S32000x2048.size a
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  natLt_1_32 : 1 < 32
  broadcasts_S256x1_S256x1024 : S256x1.Broadcasts S256x1024
  inb_S256x1024_S256x1024_0_0 : ∀ a, (![0, 0] : Fin 2 → Nat) a + S256x1024.size a ≤ S256x1024.size a
  h_S256x1024 : 0 < S256x1024.numel
  shapeCasts_S16384x1024_S4x4096x1024 : S16384x1024.ShapeCasts S4x4096x1024
  dot_S256x2048_S2048x1024_S256x1024_1_0_0_1_n_n_wf : DotDims.WF S256x2048 S2048x1024 S256x1024 [1] [0] [0] [1] [] []
  hcc0_scratch1 : 5 + S256.numel ≤ 261
  hrank0 : 0 < grid0.rank
  k0_off1_inb : ∀ i : grid0.Coords, ∀ a, (k0_off1 i) a + S1.size a ≤ S16384.size a
  k0_off3_inb : ∀ i : grid0.Coords, ∀ a, (k0_off3 i) a + S1.size a ≤ S16384.size a
  k0_off5_inb : ∀ i : grid0.Coords, ∀ a, (k0_off5 i) a + S1.size a ≤ S16384.size a
  k0_off7_inb : ∀ i : grid0.Coords, ∀ a, (k0_off7 i) a + S1.size a ≤ S16384.size a
  k0_off9_inb : ∀ i : grid0.Coords, ∀ a, (k0_off9 i) a + S1.size a ≤ S16384.size a
  k0_off11_inb : ∀ i : grid0.Coords, ∀ a, (k0_off11 i) a + S1.size a ≤ S16384.size a
  k0_off13_inb : ∀ i : grid0.Coords, ∀ a, (k0_off13 i) a + S1.size a ≤ S16384.size a
  k0_off15_inb : ∀ i : grid0.Coords, ∀ a, (k0_off15 i) a + S1.size a ≤ S16384.size a
  k0_off17_inb : ∀ i : grid0.Coords, ∀ a, (k0_off17 i) a + S1.size a ≤ S16384.size a
  k0_off19_inb : ∀ i : grid0.Coords, ∀ a, (k0_off19 i) a + S1.size a ≤ S16384.size a
  k0_off21_inb : ∀ i : grid0.Coords, ∀ a, (k0_off21 i) a + S1.size a ≤ S16384.size a
  k0_off23_inb : ∀ i : grid0.Coords, ∀ a, (k0_off23 i) a + S1.size a ≤ S16384.size a
  k0_off25_inb : ∀ i : grid0.Coords, ∀ a, (k0_off25 i) a + S1.size a ≤ S16384.size a
  k0_off27_inb : ∀ i : grid0.Coords, ∀ a, (k0_off27 i) a + S1.size a ≤ S16384.size a
  k0_off29_inb : ∀ i : grid0.Coords, ∀ a, (k0_off29 i) a + S1.size a ≤ S16384.size a
  k0_off31_inb : ∀ i : grid0.Coords, ∀ a, (k0_off31 i) a + S1.size a ≤ S16384.size a
  k0_off33_inb : ∀ i : grid0.Coords, ∀ a, (k0_off33 i) a + S1.size a ≤ S16384.size a
  k0_off35_inb : ∀ i : grid0.Coords, ∀ a, (k0_off35 i) a + S1.size a ≤ S16384.size a
  k0_off37_inb : ∀ i : grid0.Coords, ∀ a, (k0_off37 i) a + S1.size a ≤ S16384.size a
  k0_off39_inb : ∀ i : grid0.Coords, ∀ a, (k0_off39 i) a + S1.size a ≤ S16384.size a
  k0_off41_inb : ∀ i : grid0.Coords, ∀ a, (k0_off41 i) a + S1.size a ≤ S16384.size a
  k0_off43_inb : ∀ i : grid0.Coords, ∀ a, (k0_off43 i) a + S1.size a ≤ S16384.size a
  k0_off45_inb : ∀ i : grid0.Coords, ∀ a, (k0_off45 i) a + S1.size a ≤ S16384.size a
  k0_off47_inb : ∀ i : grid0.Coords, ∀ a, (k0_off47 i) a + S1.size a ≤ S16384.size a
  k0_off49_inb : ∀ i : grid0.Coords, ∀ a, (k0_off49 i) a + S1.size a ≤ S16384.size a
  k0_off51_inb : ∀ i : grid0.Coords, ∀ a, (k0_off51 i) a + S1.size a ≤ S16384.size a
  k0_off53_inb : ∀ i : grid0.Coords, ∀ a, (k0_off53 i) a + S1.size a ≤ S16384.size a
  k0_off55_inb : ∀ i : grid0.Coords, ∀ a, (k0_off55 i) a + S1.size a ≤ S16384.size a
  k0_off57_inb : ∀ i : grid0.Coords, ∀ a, (k0_off57 i) a + S1.size a ≤ S16384.size a
  k0_off59_inb : ∀ i : grid0.Coords, ∀ a, (k0_off59 i) a + S1.size a ≤ S16384.size a
  k0_off61_inb : ∀ i : grid0.Coords, ∀ a, (k0_off61 i) a + S1.size a ≤ S16384.size a
  k0_off63_inb : ∀ i : grid0.Coords, ∀ a, (k0_off63 i) a + S1.size a ≤ S16384.size a
  k0_off65_inb : ∀ i : grid0.Coords, ∀ a, (k0_off65 i) a + S1.size a ≤ S16384.size a
  k0_off67_inb : ∀ i : grid0.Coords, ∀ a, (k0_off67 i) a + S1.size a ≤ S16384.size a
  k0_off69_inb : ∀ i : grid0.Coords, ∀ a, (k0_off69 i) a + S1.size a ≤ S16384.size a
  k0_off71_inb : ∀ i : grid0.Coords, ∀ a, (k0_off71 i) a + S1.size a ≤ S16384.size a
  k0_off73_inb : ∀ i : grid0.Coords, ∀ a, (k0_off73 i) a + S1.size a ≤ S16384.size a
  k0_off75_inb : ∀ i : grid0.Coords, ∀ a, (k0_off75 i) a + S1.size a ≤ S16384.size a
  k0_off77_inb : ∀ i : grid0.Coords, ∀ a, (k0_off77 i) a + S1.size a ≤ S16384.size a
  k0_off79_inb : ∀ i : grid0.Coords, ∀ a, (k0_off79 i) a + S1.size a ≤ S16384.size a
  k0_off81_inb : ∀ i : grid0.Coords, ∀ a, (k0_off81 i) a + S1.size a ≤ S16384.size a
  k0_off83_inb : ∀ i : grid0.Coords, ∀ a, (k0_off83 i) a + S1.size a ≤ S16384.size a
  k0_off85_inb : ∀ i : grid0.Coords, ∀ a, (k0_off85 i) a + S1.size a ≤ S16384.size a
  k0_off87_inb : ∀ i : grid0.Coords, ∀ a, (k0_off87 i) a + S1.size a ≤ S16384.size a
  k0_off89_inb : ∀ i : grid0.Coords, ∀ a, (k0_off89 i) a + S1.size a ≤ S16384.size a
  k0_off91_inb : ∀ i : grid0.Coords, ∀ a, (k0_off91 i) a + S1.size a ≤ S16384.size a
  k0_off93_inb : ∀ i : grid0.Coords, ∀ a, (k0_off93 i) a + S1.size a ≤ S16384.size a
  k0_off95_inb : ∀ i : grid0.Coords, ∀ a, (k0_off95 i) a + S1.size a ≤ S16384.size a
  k0_off97_inb : ∀ i : grid0.Coords, ∀ a, (k0_off97 i) a + S1.size a ≤ S16384.size a
  k0_off99_inb : ∀ i : grid0.Coords, ∀ a, (k0_off99 i) a + S1.size a ≤ S16384.size a
  k0_off101_inb : ∀ i : grid0.Coords, ∀ a, (k0_off101 i) a + S1.size a ≤ S16384.size a
  k0_off103_inb : ∀ i : grid0.Coords, ∀ a, (k0_off103 i) a + S1.size a ≤ S16384.size a
  k0_off105_inb : ∀ i : grid0.Coords, ∀ a, (k0_off105 i) a + S1.size a ≤ S16384.size a
  k0_off107_inb : ∀ i : grid0.Coords, ∀ a, (k0_off107 i) a + S1.size a ≤ S16384.size a
  k0_off109_inb : ∀ i : grid0.Coords, ∀ a, (k0_off109 i) a + S1.size a ≤ S16384.size a
  k0_off111_inb : ∀ i : grid0.Coords, ∀ a, (k0_off111 i) a + S1.size a ≤ S16384.size a
  k0_off113_inb : ∀ i : grid0.Coords, ∀ a, (k0_off113 i) a + S1.size a ≤ S16384.size a
  k0_off115_inb : ∀ i : grid0.Coords, ∀ a, (k0_off115 i) a + S1.size a ≤ S16384.size a
  k0_off117_inb : ∀ i : grid0.Coords, ∀ a, (k0_off117 i) a + S1.size a ≤ S16384.size a
  k0_off119_inb : ∀ i : grid0.Coords, ∀ a, (k0_off119 i) a + S1.size a ≤ S16384.size a
  k0_off121_inb : ∀ i : grid0.Coords, ∀ a, (k0_off121 i) a + S1.size a ≤ S16384.size a
  k0_off123_inb : ∀ i : grid0.Coords, ∀ a, (k0_off123 i) a + S1.size a ≤ S16384.size a
  k0_off125_inb : ∀ i : grid0.Coords, ∀ a, (k0_off125 i) a + S1.size a ≤ S16384.size a
  k0_off127_inb : ∀ i : grid0.Coords, ∀ a, (k0_off127 i) a + S1.size a ≤ S16384.size a
  k0_off129_inb : ∀ i : grid0.Coords, ∀ a, (k0_off129 i) a + S1.size a ≤ S16384.size a
  k0_off131_inb : ∀ i : grid0.Coords, ∀ a, (k0_off131 i) a + S1.size a ≤ S16384.size a
  k0_off133_inb : ∀ i : grid0.Coords, ∀ a, (k0_off133 i) a + S1.size a ≤ S16384.size a
  k0_off135_inb : ∀ i : grid0.Coords, ∀ a, (k0_off135 i) a + S1.size a ≤ S16384.size a
  k0_off137_inb : ∀ i : grid0.Coords, ∀ a, (k0_off137 i) a + S1.size a ≤ S16384.size a
  k0_off139_inb : ∀ i : grid0.Coords, ∀ a, (k0_off139 i) a + S1.size a ≤ S16384.size a
  k0_off141_inb : ∀ i : grid0.Coords, ∀ a, (k0_off141 i) a + S1.size a ≤ S16384.size a
  k0_off143_inb : ∀ i : grid0.Coords, ∀ a, (k0_off143 i) a + S1.size a ≤ S16384.size a
  k0_off145_inb : ∀ i : grid0.Coords, ∀ a, (k0_off145 i) a + S1.size a ≤ S16384.size a
  k0_off147_inb : ∀ i : grid0.Coords, ∀ a, (k0_off147 i) a + S1.size a ≤ S16384.size a
  k0_off149_inb : ∀ i : grid0.Coords, ∀ a, (k0_off149 i) a + S1.size a ≤ S16384.size a
  k0_off151_inb : ∀ i : grid0.Coords, ∀ a, (k0_off151 i) a + S1.size a ≤ S16384.size a
  k0_off153_inb : ∀ i : grid0.Coords, ∀ a, (k0_off153 i) a + S1.size a ≤ S16384.size a
  k0_off155_inb : ∀ i : grid0.Coords, ∀ a, (k0_off155 i) a + S1.size a ≤ S16384.size a
  k0_off157_inb : ∀ i : grid0.Coords, ∀ a, (k0_off157 i) a + S1.size a ≤ S16384.size a
  k0_off159_inb : ∀ i : grid0.Coords, ∀ a, (k0_off159 i) a + S1.size a ≤ S16384.size a
  k0_off161_inb : ∀ i : grid0.Coords, ∀ a, (k0_off161 i) a + S1.size a ≤ S16384.size a
  k0_off163_inb : ∀ i : grid0.Coords, ∀ a, (k0_off163 i) a + S1.size a ≤ S16384.size a
  k0_off165_inb : ∀ i : grid0.Coords, ∀ a, (k0_off165 i) a + S1.size a ≤ S16384.size a
  k0_off167_inb : ∀ i : grid0.Coords, ∀ a, (k0_off167 i) a + S1.size a ≤ S16384.size a
  k0_off169_inb : ∀ i : grid0.Coords, ∀ a, (k0_off169 i) a + S1.size a ≤ S16384.size a
  k0_off171_inb : ∀ i : grid0.Coords, ∀ a, (k0_off171 i) a + S1.size a ≤ S16384.size a
  k0_off173_inb : ∀ i : grid0.Coords, ∀ a, (k0_off173 i) a + S1.size a ≤ S16384.size a
  k0_off175_inb : ∀ i : grid0.Coords, ∀ a, (k0_off175 i) a + S1.size a ≤ S16384.size a
  k0_off177_inb : ∀ i : grid0.Coords, ∀ a, (k0_off177 i) a + S1.size a ≤ S16384.size a
  k0_off179_inb : ∀ i : grid0.Coords, ∀ a, (k0_off179 i) a + S1.size a ≤ S16384.size a
  k0_off181_inb : ∀ i : grid0.Coords, ∀ a, (k0_off181 i) a + S1.size a ≤ S16384.size a
  k0_off183_inb : ∀ i : grid0.Coords, ∀ a, (k0_off183 i) a + S1.size a ≤ S16384.size a
  k0_off185_inb : ∀ i : grid0.Coords, ∀ a, (k0_off185 i) a + S1.size a ≤ S16384.size a
  k0_off187_inb : ∀ i : grid0.Coords, ∀ a, (k0_off187 i) a + S1.size a ≤ S16384.size a
  k0_off189_inb : ∀ i : grid0.Coords, ∀ a, (k0_off189 i) a + S1.size a ≤ S16384.size a
  k0_off191_inb : ∀ i : grid0.Coords, ∀ a, (k0_off191 i) a + S1.size a ≤ S16384.size a
  k0_off193_inb : ∀ i : grid0.Coords, ∀ a, (k0_off193 i) a + S1.size a ≤ S16384.size a
  k0_off195_inb : ∀ i : grid0.Coords, ∀ a, (k0_off195 i) a + S1.size a ≤ S16384.size a
  k0_off197_inb : ∀ i : grid0.Coords, ∀ a, (k0_off197 i) a + S1.size a ≤ S16384.size a
  k0_off199_inb : ∀ i : grid0.Coords, ∀ a, (k0_off199 i) a + S1.size a ≤ S16384.size a
  k0_off201_inb : ∀ i : grid0.Coords, ∀ a, (k0_off201 i) a + S1.size a ≤ S16384.size a
  k0_off203_inb : ∀ i : grid0.Coords, ∀ a, (k0_off203 i) a + S1.size a ≤ S16384.size a
  k0_off205_inb : ∀ i : grid0.Coords, ∀ a, (k0_off205 i) a + S1.size a ≤ S16384.size a
  k0_off207_inb : ∀ i : grid0.Coords, ∀ a, (k0_off207 i) a + S1.size a ≤ S16384.size a
  k0_off209_inb : ∀ i : grid0.Coords, ∀ a, (k0_off209 i) a + S1.size a ≤ S16384.size a
  k0_off211_inb : ∀ i : grid0.Coords, ∀ a, (k0_off211 i) a + S1.size a ≤ S16384.size a
  k0_off213_inb : ∀ i : grid0.Coords, ∀ a, (k0_off213 i) a + S1.size a ≤ S16384.size a
  k0_off215_inb : ∀ i : grid0.Coords, ∀ a, (k0_off215 i) a + S1.size a ≤ S16384.size a
  k0_off217_inb : ∀ i : grid0.Coords, ∀ a, (k0_off217 i) a + S1.size a ≤ S16384.size a
  k0_off219_inb : ∀ i : grid0.Coords, ∀ a, (k0_off219 i) a + S1.size a ≤ S16384.size a
  k0_off221_inb : ∀ i : grid0.Coords, ∀ a, (k0_off221 i) a + S1.size a ≤ S16384.size a
  k0_off223_inb : ∀ i : grid0.Coords, ∀ a, (k0_off223 i) a + S1.size a ≤ S16384.size a
  k0_off225_inb : ∀ i : grid0.Coords, ∀ a, (k0_off225 i) a + S1.size a ≤ S16384.size a
  k0_off227_inb : ∀ i : grid0.Coords, ∀ a, (k0_off227 i) a + S1.size a ≤ S16384.size a
  k0_off229_inb : ∀ i : grid0.Coords, ∀ a, (k0_off229 i) a + S1.size a ≤ S16384.size a
  k0_off231_inb : ∀ i : grid0.Coords, ∀ a, (k0_off231 i) a + S1.size a ≤ S16384.size a
  k0_off233_inb : ∀ i : grid0.Coords, ∀ a, (k0_off233 i) a + S1.size a ≤ S16384.size a
  k0_off235_inb : ∀ i : grid0.Coords, ∀ a, (k0_off235 i) a + S1.size a ≤ S16384.size a
  k0_off237_inb : ∀ i : grid0.Coords, ∀ a, (k0_off237 i) a + S1.size a ≤ S16384.size a
  k0_off239_inb : ∀ i : grid0.Coords, ∀ a, (k0_off239 i) a + S1.size a ≤ S16384.size a
  k0_off241_inb : ∀ i : grid0.Coords, ∀ a, (k0_off241 i) a + S1.size a ≤ S16384.size a
  k0_off243_inb : ∀ i : grid0.Coords, ∀ a, (k0_off243 i) a + S1.size a ≤ S16384.size a
  k0_off245_inb : ∀ i : grid0.Coords, ∀ a, (k0_off245 i) a + S1.size a ≤ S16384.size a
  k0_off247_inb : ∀ i : grid0.Coords, ∀ a, (k0_off247 i) a + S1.size a ≤ S16384.size a
  k0_off249_inb : ∀ i : grid0.Coords, ∀ a, (k0_off249 i) a + S1.size a ≤ S16384.size a
  k0_off251_inb : ∀ i : grid0.Coords, ∀ a, (k0_off251 i) a + S1.size a ≤ S16384.size a
  k0_off253_inb : ∀ i : grid0.Coords, ∀ a, (k0_off253 i) a + S1.size a ≤ S16384.size a
  k0_off255_inb : ∀ i : grid0.Coords, ∀ a, (k0_off255 i) a + S1.size a ≤ S16384.size a
  k0_off257_inb : ∀ i : grid0.Coords, ∀ a, (k0_off257 i) a + S1.size a ≤ S16384.size a
  k0_off259_inb : ∀ i : grid0.Coords, ∀ a, (k0_off259 i) a + S1.size a ≤ S16384.size a
  k0_off261_inb : ∀ i : grid0.Coords, ∀ a, (k0_off261 i) a + S1.size a ≤ S16384.size a
  k0_off263_inb : ∀ i : grid0.Coords, ∀ a, (k0_off263 i) a + S1.size a ≤ S16384.size a
  k0_off265_inb : ∀ i : grid0.Coords, ∀ a, (k0_off265 i) a + S1.size a ≤ S16384.size a
  k0_off267_inb : ∀ i : grid0.Coords, ∀ a, (k0_off267 i) a + S1.size a ≤ S16384.size a
  k0_off269_inb : ∀ i : grid0.Coords, ∀ a, (k0_off269 i) a + S1.size a ≤ S16384.size a
  k0_off271_inb : ∀ i : grid0.Coords, ∀ a, (k0_off271 i) a + S1.size a ≤ S16384.size a
  k0_off273_inb : ∀ i : grid0.Coords, ∀ a, (k0_off273 i) a + S1.size a ≤ S16384.size a
  k0_off275_inb : ∀ i : grid0.Coords, ∀ a, (k0_off275 i) a + S1.size a ≤ S16384.size a
  k0_off277_inb : ∀ i : grid0.Coords, ∀ a, (k0_off277 i) a + S1.size a ≤ S16384.size a
  k0_off279_inb : ∀ i : grid0.Coords, ∀ a, (k0_off279 i) a + S1.size a ≤ S16384.size a
  k0_off281_inb : ∀ i : grid0.Coords, ∀ a, (k0_off281 i) a + S1.size a ≤ S16384.size a
  k0_off283_inb : ∀ i : grid0.Coords, ∀ a, (k0_off283 i) a + S1.size a ≤ S16384.size a
  k0_off285_inb : ∀ i : grid0.Coords, ∀ a, (k0_off285 i) a + S1.size a ≤ S16384.size a
  k0_off287_inb : ∀ i : grid0.Coords, ∀ a, (k0_off287 i) a + S1.size a ≤ S16384.size a
  k0_off289_inb : ∀ i : grid0.Coords, ∀ a, (k0_off289 i) a + S1.size a ≤ S16384.size a
  k0_off291_inb : ∀ i : grid0.Coords, ∀ a, (k0_off291 i) a + S1.size a ≤ S16384.size a
  k0_off293_inb : ∀ i : grid0.Coords, ∀ a, (k0_off293 i) a + S1.size a ≤ S16384.size a
  k0_off295_inb : ∀ i : grid0.Coords, ∀ a, (k0_off295 i) a + S1.size a ≤ S16384.size a
  k0_off297_inb : ∀ i : grid0.Coords, ∀ a, (k0_off297 i) a + S1.size a ≤ S16384.size a
  k0_off299_inb : ∀ i : grid0.Coords, ∀ a, (k0_off299 i) a + S1.size a ≤ S16384.size a
  k0_off301_inb : ∀ i : grid0.Coords, ∀ a, (k0_off301 i) a + S1.size a ≤ S16384.size a
  k0_off303_inb : ∀ i : grid0.Coords, ∀ a, (k0_off303 i) a + S1.size a ≤ S16384.size a
  k0_off305_inb : ∀ i : grid0.Coords, ∀ a, (k0_off305 i) a + S1.size a ≤ S16384.size a
  k0_off307_inb : ∀ i : grid0.Coords, ∀ a, (k0_off307 i) a + S1.size a ≤ S16384.size a
  k0_off309_inb : ∀ i : grid0.Coords, ∀ a, (k0_off309 i) a + S1.size a ≤ S16384.size a
  k0_off311_inb : ∀ i : grid0.Coords, ∀ a, (k0_off311 i) a + S1.size a ≤ S16384.size a
  k0_off313_inb : ∀ i : grid0.Coords, ∀ a, (k0_off313 i) a + S1.size a ≤ S16384.size a
  k0_off315_inb : ∀ i : grid0.Coords, ∀ a, (k0_off315 i) a + S1.size a ≤ S16384.size a
  k0_off317_inb : ∀ i : grid0.Coords, ∀ a, (k0_off317 i) a + S1.size a ≤ S16384.size a
  k0_off319_inb : ∀ i : grid0.Coords, ∀ a, (k0_off319 i) a + S1.size a ≤ S16384.size a
  k0_off321_inb : ∀ i : grid0.Coords, ∀ a, (k0_off321 i) a + S1.size a ≤ S16384.size a
  k0_off323_inb : ∀ i : grid0.Coords, ∀ a, (k0_off323 i) a + S1.size a ≤ S16384.size a
  k0_off325_inb : ∀ i : grid0.Coords, ∀ a, (k0_off325 i) a + S1.size a ≤ S16384.size a
  k0_off327_inb : ∀ i : grid0.Coords, ∀ a, (k0_off327 i) a + S1.size a ≤ S16384.size a
  k0_off329_inb : ∀ i : grid0.Coords, ∀ a, (k0_off329 i) a + S1.size a ≤ S16384.size a
  k0_off331_inb : ∀ i : grid0.Coords, ∀ a, (k0_off331 i) a + S1.size a ≤ S16384.size a
  k0_off333_inb : ∀ i : grid0.Coords, ∀ a, (k0_off333 i) a + S1.size a ≤ S16384.size a
  k0_off335_inb : ∀ i : grid0.Coords, ∀ a, (k0_off335 i) a + S1.size a ≤ S16384.size a
  k0_off337_inb : ∀ i : grid0.Coords, ∀ a, (k0_off337 i) a + S1.size a ≤ S16384.size a
  k0_off339_inb : ∀ i : grid0.Coords, ∀ a, (k0_off339 i) a + S1.size a ≤ S16384.size a
  k0_off341_inb : ∀ i : grid0.Coords, ∀ a, (k0_off341 i) a + S1.size a ≤ S16384.size a
  k0_off343_inb : ∀ i : grid0.Coords, ∀ a, (k0_off343 i) a + S1.size a ≤ S16384.size a
  k0_off345_inb : ∀ i : grid0.Coords, ∀ a, (k0_off345 i) a + S1.size a ≤ S16384.size a
  k0_off347_inb : ∀ i : grid0.Coords, ∀ a, (k0_off347 i) a + S1.size a ≤ S16384.size a
  k0_off349_inb : ∀ i : grid0.Coords, ∀ a, (k0_off349 i) a + S1.size a ≤ S16384.size a
  k0_off351_inb : ∀ i : grid0.Coords, ∀ a, (k0_off351 i) a + S1.size a ≤ S16384.size a
  k0_off353_inb : ∀ i : grid0.Coords, ∀ a, (k0_off353 i) a + S1.size a ≤ S16384.size a
  k0_off355_inb : ∀ i : grid0.Coords, ∀ a, (k0_off355 i) a + S1.size a ≤ S16384.size a
  k0_off357_inb : ∀ i : grid0.Coords, ∀ a, (k0_off357 i) a + S1.size a ≤ S16384.size a
  k0_off359_inb : ∀ i : grid0.Coords, ∀ a, (k0_off359 i) a + S1.size a ≤ S16384.size a
  k0_off361_inb : ∀ i : grid0.Coords, ∀ a, (k0_off361 i) a + S1.size a ≤ S16384.size a
  k0_off363_inb : ∀ i : grid0.Coords, ∀ a, (k0_off363 i) a + S1.size a ≤ S16384.size a
  k0_off365_inb : ∀ i : grid0.Coords, ∀ a, (k0_off365 i) a + S1.size a ≤ S16384.size a
  k0_off367_inb : ∀ i : grid0.Coords, ∀ a, (k0_off367 i) a + S1.size a ≤ S16384.size a
  k0_off369_inb : ∀ i : grid0.Coords, ∀ a, (k0_off369 i) a + S1.size a ≤ S16384.size a
  k0_off371_inb : ∀ i : grid0.Coords, ∀ a, (k0_off371 i) a + S1.size a ≤ S16384.size a
  k0_off373_inb : ∀ i : grid0.Coords, ∀ a, (k0_off373 i) a + S1.size a ≤ S16384.size a
  k0_off375_inb : ∀ i : grid0.Coords, ∀ a, (k0_off375 i) a + S1.size a ≤ S16384.size a
  k0_off377_inb : ∀ i : grid0.Coords, ∀ a, (k0_off377 i) a + S1.size a ≤ S16384.size a
  k0_off379_inb : ∀ i : grid0.Coords, ∀ a, (k0_off379 i) a + S1.size a ≤ S16384.size a
  k0_off381_inb : ∀ i : grid0.Coords, ∀ a, (k0_off381 i) a + S1.size a ≤ S16384.size a
  k0_off383_inb : ∀ i : grid0.Coords, ∀ a, (k0_off383 i) a + S1.size a ≤ S16384.size a
  k0_off385_inb : ∀ i : grid0.Coords, ∀ a, (k0_off385 i) a + S1.size a ≤ S16384.size a
  k0_off387_inb : ∀ i : grid0.Coords, ∀ a, (k0_off387 i) a + S1.size a ≤ S16384.size a
  k0_off389_inb : ∀ i : grid0.Coords, ∀ a, (k0_off389 i) a + S1.size a ≤ S16384.size a
  k0_off391_inb : ∀ i : grid0.Coords, ∀ a, (k0_off391 i) a + S1.size a ≤ S16384.size a
  k0_off393_inb : ∀ i : grid0.Coords, ∀ a, (k0_off393 i) a + S1.size a ≤ S16384.size a
  k0_off395_inb : ∀ i : grid0.Coords, ∀ a, (k0_off395 i) a + S1.size a ≤ S16384.size a
  k0_off397_inb : ∀ i : grid0.Coords, ∀ a, (k0_off397 i) a + S1.size a ≤ S16384.size a
  k0_off399_inb : ∀ i : grid0.Coords, ∀ a, (k0_off399 i) a + S1.size a ≤ S16384.size a
  k0_off401_inb : ∀ i : grid0.Coords, ∀ a, (k0_off401 i) a + S1.size a ≤ S16384.size a
  k0_off403_inb : ∀ i : grid0.Coords, ∀ a, (k0_off403 i) a + S1.size a ≤ S16384.size a
  k0_off405_inb : ∀ i : grid0.Coords, ∀ a, (k0_off405 i) a + S1.size a ≤ S16384.size a
  k0_off407_inb : ∀ i : grid0.Coords, ∀ a, (k0_off407 i) a + S1.size a ≤ S16384.size a
  k0_off409_inb : ∀ i : grid0.Coords, ∀ a, (k0_off409 i) a + S1.size a ≤ S16384.size a
  k0_off411_inb : ∀ i : grid0.Coords, ∀ a, (k0_off411 i) a + S1.size a ≤ S16384.size a
  k0_off413_inb : ∀ i : grid0.Coords, ∀ a, (k0_off413 i) a + S1.size a ≤ S16384.size a
  k0_off415_inb : ∀ i : grid0.Coords, ∀ a, (k0_off415 i) a + S1.size a ≤ S16384.size a
  k0_off417_inb : ∀ i : grid0.Coords, ∀ a, (k0_off417 i) a + S1.size a ≤ S16384.size a
  k0_off419_inb : ∀ i : grid0.Coords, ∀ a, (k0_off419 i) a + S1.size a ≤ S16384.size a
  k0_off421_inb : ∀ i : grid0.Coords, ∀ a, (k0_off421 i) a + S1.size a ≤ S16384.size a
  k0_off423_inb : ∀ i : grid0.Coords, ∀ a, (k0_off423 i) a + S1.size a ≤ S16384.size a
  k0_off425_inb : ∀ i : grid0.Coords, ∀ a, (k0_off425 i) a + S1.size a ≤ S16384.size a
  k0_off427_inb : ∀ i : grid0.Coords, ∀ a, (k0_off427 i) a + S1.size a ≤ S16384.size a
  k0_off429_inb : ∀ i : grid0.Coords, ∀ a, (k0_off429 i) a + S1.size a ≤ S16384.size a
  k0_off431_inb : ∀ i : grid0.Coords, ∀ a, (k0_off431 i) a + S1.size a ≤ S16384.size a
  k0_off433_inb : ∀ i : grid0.Coords, ∀ a, (k0_off433 i) a + S1.size a ≤ S16384.size a
  k0_off435_inb : ∀ i : grid0.Coords, ∀ a, (k0_off435 i) a + S1.size a ≤ S16384.size a
  k0_off437_inb : ∀ i : grid0.Coords, ∀ a, (k0_off437 i) a + S1.size a ≤ S16384.size a
  k0_off439_inb : ∀ i : grid0.Coords, ∀ a, (k0_off439 i) a + S1.size a ≤ S16384.size a
  k0_off441_inb : ∀ i : grid0.Coords, ∀ a, (k0_off441 i) a + S1.size a ≤ S16384.size a
  k0_off443_inb : ∀ i : grid0.Coords, ∀ a, (k0_off443 i) a + S1.size a ≤ S16384.size a
  k0_off445_inb : ∀ i : grid0.Coords, ∀ a, (k0_off445 i) a + S1.size a ≤ S16384.size a
  k0_off447_inb : ∀ i : grid0.Coords, ∀ a, (k0_off447 i) a + S1.size a ≤ S16384.size a
  k0_off449_inb : ∀ i : grid0.Coords, ∀ a, (k0_off449 i) a + S1.size a ≤ S16384.size a
  k0_off451_inb : ∀ i : grid0.Coords, ∀ a, (k0_off451 i) a + S1.size a ≤ S16384.size a
  k0_off453_inb : ∀ i : grid0.Coords, ∀ a, (k0_off453 i) a + S1.size a ≤ S16384.size a
  k0_off455_inb : ∀ i : grid0.Coords, ∀ a, (k0_off455 i) a + S1.size a ≤ S16384.size a
  k0_off457_inb : ∀ i : grid0.Coords, ∀ a, (k0_off457 i) a + S1.size a ≤ S16384.size a
  k0_off459_inb : ∀ i : grid0.Coords, ∀ a, (k0_off459 i) a + S1.size a ≤ S16384.size a
  k0_off461_inb : ∀ i : grid0.Coords, ∀ a, (k0_off461 i) a + S1.size a ≤ S16384.size a
  k0_off463_inb : ∀ i : grid0.Coords, ∀ a, (k0_off463 i) a + S1.size a ≤ S16384.size a
  k0_off465_inb : ∀ i : grid0.Coords, ∀ a, (k0_off465 i) a + S1.size a ≤ S16384.size a
  k0_off467_inb : ∀ i : grid0.Coords, ∀ a, (k0_off467 i) a + S1.size a ≤ S16384.size a
  k0_off469_inb : ∀ i : grid0.Coords, ∀ a, (k0_off469 i) a + S1.size a ≤ S16384.size a
  k0_off471_inb : ∀ i : grid0.Coords, ∀ a, (k0_off471 i) a + S1.size a ≤ S16384.size a
  k0_off473_inb : ∀ i : grid0.Coords, ∀ a, (k0_off473 i) a + S1.size a ≤ S16384.size a
  k0_off475_inb : ∀ i : grid0.Coords, ∀ a, (k0_off475 i) a + S1.size a ≤ S16384.size a
  k0_off477_inb : ∀ i : grid0.Coords, ∀ a, (k0_off477 i) a + S1.size a ≤ S16384.size a
  k0_off479_inb : ∀ i : grid0.Coords, ∀ a, (k0_off479 i) a + S1.size a ≤ S16384.size a
  k0_off481_inb : ∀ i : grid0.Coords, ∀ a, (k0_off481 i) a + S1.size a ≤ S16384.size a
  k0_off483_inb : ∀ i : grid0.Coords, ∀ a, (k0_off483 i) a + S1.size a ≤ S16384.size a
  k0_off485_inb : ∀ i : grid0.Coords, ∀ a, (k0_off485 i) a + S1.size a ≤ S16384.size a
  k0_off487_inb : ∀ i : grid0.Coords, ∀ a, (k0_off487 i) a + S1.size a ≤ S16384.size a
  k0_off489_inb : ∀ i : grid0.Coords, ∀ a, (k0_off489 i) a + S1.size a ≤ S16384.size a
  k0_off491_inb : ∀ i : grid0.Coords, ∀ a, (k0_off491 i) a + S1.size a ≤ S16384.size a
  k0_off493_inb : ∀ i : grid0.Coords, ∀ a, (k0_off493 i) a + S1.size a ≤ S16384.size a
  k0_off495_inb : ∀ i : grid0.Coords, ∀ a, (k0_off495 i) a + S1.size a ≤ S16384.size a
  k0_off497_inb : ∀ i : grid0.Coords, ∀ a, (k0_off497 i) a + S1.size a ≤ S16384.size a
  k0_off499_inb : ∀ i : grid0.Coords, ∀ a, (k0_off499 i) a + S1.size a ≤ S16384.size a
  k0_off501_inb : ∀ i : grid0.Coords, ∀ a, (k0_off501 i) a + S1.size a ≤ S16384.size a
  k0_off503_inb : ∀ i : grid0.Coords, ∀ a, (k0_off503 i) a + S1.size a ≤ S16384.size a
  k0_off505_inb : ∀ i : grid0.Coords, ∀ a, (k0_off505 i) a + S1.size a ≤ S16384.size a
  k0_off507_inb : ∀ i : grid0.Coords, ∀ a, (k0_off507 i) a + S1.size a ≤ S16384.size a
  k0_off509_inb : ∀ i : grid0.Coords, ∀ a, (k0_off509 i) a + S1.size a ≤ S16384.size a
  k0_off511_inb : ∀ i : grid0.Coords, ∀ a, (k0_off511 i) a + S1.size a ≤ S16384.size a
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S2048x1024.size a ≤ S2048x1024.size a
  hwx0_0 : ∀ i : grid0.Coords, EltTy.bits .f32 = 32 ∨ (Rect.block (s := S2048x1024) S2048x1024.size (cc0_transform_1 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S256x1.size a ≤ S16384x1.size a
  hwx0_1 : ∀ i : grid0.Coords, EltTy.bits .i32 = 32 ∨ (Rect.block (s := S16384x1) S256x1.size (cc0_transform_2 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S256x1024.size a ≤ S16384x1024.size a
  hwx0_2 : ∀ i : grid0.Coords, EltTy.bits .f32 = 32 ∨ (Rect.block (s := S16384x1024) S256x1024.size (cc0_transform_3 i) (hinb0_2 i)).WholeWords (EltTy.packing .f32)

variable [Facts₀]

abbrev cc0_scratch1 : DmaSems sig S256 := SemArray.consecutive 5 S256 hcc0_scratch1
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev spec0_0 : Pipeline.WinSpec sig grid0.rank :=
  Pipeline.WinSpec.ofSpec (Memref.whole main_arg2) S2048x1024.size reads0_0 false true 1 stage0_0 sem0_0 nbuf0_0 hstage0_0

abbrev spec0_1 : Pipeline.WinSpec sig grid0.rank :=
  Pipeline.WinSpec.ofSpec (Memref.whole main_v1) S256x1.size reads0_1 false false 2 stage0_1 sem0_1 nbuf0_1 hstage0_1

abbrev spec0_2 : Pipeline.WinSpec sig grid0.rank :=
  Pipeline.WinSpec.ofSpec (Memref.whole main_v2) S256x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_1 | 1 => cc0_transform_2 | 2 => cc0_transform_3 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | ⟨_ + 3, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4x4096 : Shape := ⟨2, ![4, 4096]⟩
abbrev S32000x2048 : Shape := ⟨2, ![32000, 2048]⟩
abbrev S2048x1024 : Shape := ⟨2, ![2048, 1024]⟩
abbrev S_ : Shape := ⟨0, ![]⟩
abbrev S4x4096x1 : Shape := ⟨3, ![4, 4096, 1]⟩
abbrev S4x4096x2048 : Shape := ⟨3, ![4, 4096, 2048]⟩
abbrev S4x4096x1024 : Shape := ⟨3, ![4, 4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S32000x2048, .f32⟩
  | .hbm, ⟨2, _⟩ => ⟨S2048x1024, .f32⟩
  | .hbm, ⟨3, _⟩ => ⟨S_, .i32⟩
  | .hbm, ⟨4, _⟩ => ⟨S4x4096, .i32⟩
  | .hbm, ⟨5, _⟩ => ⟨S4x4096, .i1⟩
  | .hbm, ⟨6, _⟩ => ⟨S_, .i32⟩
  | .hbm, ⟨7, _⟩ => ⟨S4x4096, .i32⟩
  | .hbm, ⟨8, _⟩ => ⟨S4x4096, .i32⟩
  | .hbm, ⟨9, _⟩ => ⟨S4x4096, .i32⟩
  | .hbm, ⟨10, _⟩ => ⟨S4x4096x1, .i32⟩
  | .hbm, ⟨11, _⟩ => ⟨S4x4096x2048, .f32⟩
  | .hbm, ⟨12, _⟩ => ⟨S4x4096x1024, .f32⟩
  | .hbm, ⟨13, _⟩ => ⟨S_, .i32⟩
  | .hbm, ⟨14, _⟩ => ⟨S4x4096, .i32⟩
  | .hbm, ⟨15, _⟩ => ⟨S4x4096, .i1⟩
  | .hbm, ⟨16, _⟩ => ⟨S4x4096, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S_, .f32⟩
  | .hbm, ⟨21, _⟩ => ⟨S4x4096x1024, .f32⟩
  | .hbm, ⟨22, _⟩ => ⟨S4x4096x1024, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  gather_S32000x2048_S4x4096x1_S4x4096x2048_2_0_n_n_0_2_12048_wf : GatherDims.WF S32000x2048 S4x4096x1 S4x4096x2048 [2] [0] [] [0] [] 2 ![1, 2048]
  dot_S4x4096x2048_S2048x1024_S4x4096x1024_2_0_01_1_n_n_wf : DotDims.WF S4x4096x2048 S2048x1024 S4x4096x1024 [2] [0] [0, 1] [1] [] []

variable [Facts₀]

def gather_S32000x2048_S4x4096x1_S4x4096x2048_2_0_n_n_0_2_12048 : GatherDims S32000x2048 S4x4096x1 S4x4096x2048 where
  offsetDims := [2]
  collapsedSliceDims := [0]
  operandBatchingDims := []
  startIndicesBatchingDims := []
  startIndexMap := [0]
  indexVectorDim := 2
  sliceSizes := ![1, 2048]
  wf := gather_S32000x2048_S4x4096x1_S4x4096x2048_2_0_n_n_0_2_12048_wf
def dot_S4x4096x2048_S2048x1024_S4x4096x1024_2_0_01_1_n_n : DotDims S4x4096x2048 S2048x1024 S4x4096x1024 where
  lhsContracting := [2]
  rhsContracting := [0]
  lhsNonContracting := [0, 1]
  rhsNonContracting := [1]
  lhsBatch := []
  rhsBatch := []
  wf := dot_S4x4096x2048_S2048x1024_S4x4096x1024_2_0_01_1_n_n_wf

class Facts : Prop extends Facts₀ where

variable [Facts]
-- ==== Proof.PreFacts.lean ====
/-
  The precondition read: besides the two finiteness conjuncts it says every token id is, read signed, at
  least 0 and below 32000 — so, read unsigned, it is below 32000 and names a row of the embedding table.
-/
import proofs.«427351_j74509092651513_1_alg».proof.Pre_finite_inputs
import Idealize.ShloMosaic.Lib.ReduceAll
import Idealize.ShloMosaic.Lib.StableHlo.Predicate
import Idealize.ShloMosaic.Lib.ValueIdx

noncomputable section

namespace Cert.PreFacts

open Idealize.ShloMosaic Idealize.ShloMosaic.ValueIdx

variable {F : FTy → Type} [FloatOps F] [Cert.Pre_finite_inputs.Facts]

/-- A 32-bit word that, read signed, is at least 0 and below 32000 is, read unsigned, below 32000: a nonnegative
    signed reading is the unsigned one. -/
theorem toNat_lt_of_signed {x : BitVec 32} (h0 : (0#32 : BitVec 32).toInt ≤ x.toInt)
    (h1 : x.toInt < (32000#32 : BitVec 32).toInt) : x.toNat < 32000 := by
  have e0 : (0#32 : BitVec 32).toInt = 0 := by decide
  have e1 : (32000#32 : BitVec 32).toInt = 32000 := by decide
  rw [e0] at h0
  rw [e1] at h1
  have hx := BitVec.toInt_eq_toNat_cond x
  have hlt := x.isLt
  split at hx <;> omega

/-- Under the precondition every token id, read unsigned, is below 32000. -/
theorem ids_lt (a0 : IVec Cert.Pre_finite_inputs.S4x4096 32) (a1 : FVec F Cert.Pre_finite_inputs.S32000x2048 .f32)
    (a2 : FVec F Cert.Pre_finite_inputs.S2048x1024 .f32)
    (h : Cert.Pre_finite_inputs.fn (F := F) a0 a1 a2 = fun _ => 1#1) : ∀ i, (a0 i).toNat < 32000 := by
  intro i
  -- the scalar shape has one index
  haveI : Subsingleton Cert.Pre_finite_inputs.S_.Idx := ⟨fun _ _ => funext fun d => d.elim0⟩
  -- the scalar result at its one index: the four conjuncts joined by `and`
  have h0 := congrFun h ValueIdx.ix0
  dsimp only [Cert.Pre_finite_inputs.fn, Cert.Pre_finite_inputs.fn_part1, andi] at h0
  obtain ⟨h12, hlt⟩ := IntOp.andi_eq_one.1 h0
  obtain ⟨_, hge⟩ := IntOp.andi_eq_one.1 h12
  -- each of the last two conjuncts is an all-reduction: it holds at every index, in particular at i
  have hge' := Host.reduce_andi_all _ _ _ _ _ hge i
  have hlt' := Host.reduce_andi_all _ _ _ _ _ hlt i
  -- at i the compares read the id against the broadcast constants 0 and 32000
  dsimp only [cmpi, broadcastInDim, constantI] at hge' hlt'
  exact toNat_lt_of_signed (IntOp.cmpi_sge.1 hge') (IntOp.cmpi_slt.1 hlt')

end Cert.PreFacts

end
-- ==== Proof.Spec.lean ====
/-
  What both programs compute, as one function of the three argument arrays, index by index over the
  extended reals: token (b, l) names a row of the embedding table W0 (its id read unsigned and clamped to
  the last row: in range it is the id itself); the row is projected by W1 — column h is the sum over k of
  W0[row, k] · W1[k, h] —, the padding token 0 is zeroed, and the result is scaled by 32.
-/
import Idealize.ShloMosaic.PureOps.Ideal
import Idealize.ShloMosaic.Lib.ValueIdx

noncomputable section

open scoped BigOperators

namespace Cert.Spec

open Idealize.ShloMosaic Idealize.ShloMosaic.ValueIdx

abbrev SIds : Shape := ⟨2, ![4, 4096]⟩
abbrev SW0 : Shape := ⟨2, ![32000, 2048]⟩
abbrev SW1 : Shape := ⟨2, ![2048, 1024]⟩
abbrev SOut : Shape := ⟨3, ![4, 4096, 1024]⟩

/-- The row of the embedding table a token id names: the id read unsigned, clamped to the last row. -/
def rowOf (w : BitVec 32) : Fin 32000 := ⟨min w.toNat 31999, by omega⟩

theorem rowOf_val_of_lt {w : BitVec 32} (h : w.toNat < 32000) : (rowOf w).val = w.toNat := by
  unfold rowOf; simp only; omega

/-- 0 for the padding token 0, 1 for every other token. -/
def keep (w : BitVec 32) : EReal := if w = 0#32 then 0 else 1

/-- One projected entry: row `r` of W0 against column `h` of W1. -/
def proj (w0 : FVec Ideal SW0 .f32) (w1 : FVec Ideal SW1 .f32) (r : Fin 32000) (h : Fin 1024) : EReal :=
  ∑ k : Fin 2048, w0 (ix2 r k) * w1 (ix2 k h)

/-- The embedding of token (b, l) at column h. -/
def emb (ids : IVec SIds 32) (w0 : FVec Ideal SW0 .f32) (w1 : FVec Ideal SW1 .f32) : FVec Ideal SOut .f32 := fun i =>
  (proj w0 w1 (rowOf (ids (ix2 (i 0) (i 1)))) (i 2) * keep (ids (ix2 (i 0) (i 1)))) * Ideal.ofBits .f32 0x42000000#32

theorem emb_apply (ids : IVec SIds 32) (w0 : FVec Ideal SW0 .f32) (w1 : FVec Ideal SW1 .f32) (b : Fin 4) (l : Fin 4096) (h : Fin 1024) :
    emb ids w0 w1 (ix3 b l h)
      = (proj w0 w1 (rowOf (ids (ix2 b l))) h * keep (ids (ix2 b l))) * Ideal.ofBits .f32 0x42000000#32 := rfl

end Cert.Spec

end
-- ==== Proof.RefValue.lean ====
/-
  The reference program's run, read back: its result array is `Cert.Spec.emb` of its three arguments when
  every token id names a row (read unsigned, below 32000: then the id is not negative, so the wrap-around
  select keeps it, and the gather's clamp is the identity).
-/
import proofs.«427351_j74509092651513_1_alg».proof.Proof.Gen.ReferenceIdeal.Run
import proofs.«427351_j74509092651513_1_alg».proof.Proof.Gen.ReferenceIdeal.Read
import proofs.«427351_j74509092651513_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.ReferenceIdeal.RefValue

open Cert.ReferenceIdeal Cert.ReferenceIdeal.Gen
open Idealize.ShloMosaic Idealize.ShloMosaic.TcCoe Idealize.ShloMosaic.ValueIdx Idealize.SL.Sem

/-- The gather of whole rows read at (b, l, k): the table at (r, k), where r is the start index at (b, l, 0) read
    signed and clamped into [0, 31999]. On the row axis the operand index is the clamped start alone (no batching
    axis, the axis collapsed); on the column axis it is the result's offset coordinate k alone. -/
theorem gather_row_apply [Cert.ReferenceIdeal.Facts] {α : Type} (x : S32000x2048.Idx → α) (idx : IVec S4x4096x1 32)
    (b : Fin 4) (l : Fin 4096) (k : Fin 2048) (r : Fin 32000)
    (hr : r.val = min (idx (ix3 b l (0 : Fin 1))).toInt.toNat 31999) :
    Host.gather gather_S32000x2048_S4x4096x1_S4x4096x2048_2_0_n_n_0_2_12048 x idx (ix3 b l k) = x (ix2 r k) := by
  unfold Host.gather
  congr 1
  funext a
  refine Fin.ext ?_
  match a with
  | ⟨0, _⟩ =>
    show gather_S32000x2048_S4x4096x1_S4x4096x2048_2_0_n_n_0_2_12048.start (ix3 b l k) idx 0
      + gather_S32000x2048_S4x4096x1_S4x4096x2048_2_0_n_n_0_2_12048.batchCoord (ix3 b l k) 0
      + gather_S32000x2048_S4x4096x1_S4x4096x2048_2_0_n_n_0_2_12048.offCoord (ix3 b l k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32000x2048_S4x4096x1_S4x4096x2048_2_0_n_n_0_2_12048.startIndexMap from List.mem_singleton.mpr rfl)]
    have hsi : gather_S32000x2048_S4x4096x1_S4x4096x2048_2_0_n_n_0_2_12048.siIdx (ix3 b l k)
        ⟨List.idxOf (0 : Fin 2) gather_S32000x2048_S4x4096x1_S4x4096x2048_2_0_n_n_0_2_12048.startIndexMap,
          List.idxOf_lt_length_iff.2 (List.mem_singleton.mpr rfl)⟩ = ix3 b l (0 : Fin 1) := by
      funext c; refine Fin.ext ?_
      match c with
      | ⟨0, _⟩ => rfl
      | ⟨1, _⟩ => rfl
      | ⟨2, _⟩ => rfl
    rw [hsi]
    exact hr.symm
  | ⟨1, _⟩ =>
    show gather_S32000x2048_S4x4096x1_S4x4096x2048_2_0_n_n_0_2_12048.start (ix3 b l k) idx 1
      + gather_S32000x2048_S4x4096x1_S4x4096x2048_2_0_n_n_0_2_12048.batchCoord (ix3 b l k) 1
      + gather_S32000x2048_S4x4096x1_S4x4096x2048_2_0_n_n_0_2_12048.offCoord (ix3 b l k) 1 = k.val
    rw [GatherDims.batchCoord_eq_zero _ _ _ List.not_mem_nil]
    unfold GatherDims.start
    rw [dif_neg (show ¬ (1 : Fin 2) ∈ gather_S32000x2048_S4x4096x1_S4x4096x2048_2_0_n_n_0_2_12048.startIndexMap by decide)]
    simp only [Nat.add_zero, Nat.zero_add]
    unfold GatherDims.offCoord
    rw [dif_pos (show (1 : Fin 2) ∈ gather_S32000x2048_S4x4096x1_S4x4096x2048_2_0_n_n_0_2_12048.sKept by decide)]
    rfl

/-- A word below 32000 read signed is the word read unsigned. -/
theorem toInt_of_lt {x : BitVec 32} (h : x.toNat < 32000) : x.toInt = (x.toNat : Int) :=
  BitVec.toInt_eq_toNat_of_lt (by omega)

/-- A word below 32000 is not negative, so the wrap-around select (x < 0 ? x + 32000 : x) keeps it. -/
theorem wrap_select_id {x : BitVec 32} (h : x.toNat < 32000) :
    Scalar.select (IntOp.cmpi .slt x 0#32) (IntOp.addi x 32000#32) x = x := by
  have h0 : IntOp.cmpi .slt x 0#32 = 0#1 := by
    unfold IntOp.cmpi
    have : x.slt 0#32 = false := by
      rw [BitVec.slt_eq_decide, toInt_of_lt h]
      simp
    simp only [this]
    rfl
  rw [h0, select_zero]

/-- A word below 32000, read signed and clamped into [0, 31999], is the word read unsigned. -/
theorem clamp_id {x : BitVec 32} (h : x.toNat < 32000) : min x.toInt.toNat 31999 = x.toNat := by
  rw [toInt_of_lt h, Int.toNat_natCast]; omega

/-- The bit (x ≠ 0) read as an unsigned integer, as an extended real: 0 at the word 0, 1 at every other word. -/
theorem keep_eq (x : BitVec 32) :
    FloatOps.uitofp (F := Ideal) .f32 (IntOp.cmpi .ne x 0#32) = Cert.Spec.keep x := by
  unfold Cert.Spec.keep
  by_cases hx : x = 0#32
  · subst hx
    rw [if_pos rfl]
    show (((IntOp.cmpi .ne 0#32 0#32).toNat : ℝ) : EReal) = 0
    have : IntOp.cmpi .ne 0#32 0#32 = 0#1 := by decide
    rw [this]; simp
  · rw [if_neg hx]
    show (((IntOp.cmpi .ne x 0#32).toNat : ℝ) : EReal) = 1
    have : IntOp.cmpi .ne x 0#32 = 1#1 := by
      unfold IntOp.cmpi
      have : (x != 0#32) = true := by simpa using hx
      simp only [this]; rfl
    rw [this]; simp

/-- Under the range hypothesis the gathered array at (b, l, k) is the table's row named by token (b, l), at column k. -/
theorem gathered_row [Cert.ReferenceIdeal.Facts] (ids : (⟨S4x4096, .i32⟩ : BufTy).Contents (Elt Ideal))
    (w0 : (⟨S32000x2048, .f32⟩ : BufTy).Contents (Elt Ideal)) (hlt : ∀ i, (ids i).toNat < 32000)
    (b : Fin 4) (l : Fin 4096) (k : Fin 2048) :
    Read.val_main_v6 (F := Ideal) ids w0 (ix3 b l k) = w0 (ix2 (Cert.Spec.rowOf (ids (ix2 b l))) k) := by
  unfold Read.val_main_v6
  refine gather_row_apply _ _ b l k _ ?_
  rw [Read.val_main_v5_apply]
  have e5 : Read.idx_main_v5 (ix3 b l (0 : Fin 1)) = ix2 b l := by
    funext a; match a with | ⟨0, _⟩ => rfl | ⟨1, _⟩ => rfl
  rw [e5, Read.val_main_v4_apply, Read.val_main_v1_apply, Read.val_main_v3_apply, Read.val_main_v0_apply,
    Read.val_main_v2_apply, Read.val_main_c_apply, Read.val_main_c_0_apply, wrap_select_id (hlt _),
    clamp_id (hlt _)]
  exact Cert.Spec.rowOf_val_of_lt (hlt _)

/-- The reference's composed term is `Cert.Spec.emb` of its arguments, index by index: the contraction over k of the
    gathered row against column h, times the padding mask, times the constant 32. -/
theorem result_eq [Cert.ReferenceIdeal.Facts] (ids : (⟨S4x4096, .i32⟩ : BufTy).Contents (Elt Ideal))
    (w0 : (⟨S32000x2048, .f32⟩ : BufTy).Contents (Elt Ideal)) (w1 : (⟨S2048x1024, .f32⟩ : BufTy).Contents (Elt Ideal))
    (hlt : ∀ i, (ids i).toNat < 32000) :
    Read.val_main_v15 (F := Ideal) ids w0 w1 = Cert.Spec.emb ids w0 w1 := by
  funext i
  obtain ⟨b, l, h, rfl⟩ : ∃ (b : Fin 4) (l : Fin 4096) (h : Fin 1024), i = ix3 b l h := ⟨i 0, i 1, i 2, eq_ix3 i⟩
  have e12 : Read.idx_main_v11 (Read.idx_main_v12 (ix3 b l h)) = ix2 b l := by
    funext a; match a with | ⟨0, _⟩ => rfl | ⟨1, _⟩ => rfl
  have el : ∀ k : Fin 2048, Read.lidx_main_v7 (ix3 b l h) k = ix3 b l k := fun k => by
    funext a; match a with | ⟨0, _⟩ => rfl | ⟨1, _⟩ => rfl | ⟨2, _⟩ => rfl
  have er : ∀ k : Fin 2048, Read.ridx_main_v7 (ix3 b l h) k = ix2 k h := fun k => by
    funext a; match a with | ⟨0, _⟩ => rfl | ⟨1, _⟩ => rfl
  rw [Cert.Spec.emb_apply, Read.val_main_v15_apply, Read.val_main_v13_apply, Read.val_main_v7_apply, Read.val_main_v12_apply,
    Read.val_main_v11_apply, Read.val_main_v10_apply, Read.val_main_v9_apply, Read.val_main_v8_apply, Read.val_main_c_1_apply,
    Read.val_main_v14_apply, Read.val_main_cst_apply, e12, keep_eq]
  simp only [el, er, gathered_row ids w0 hlt]
  rfl

/-- Every weakly fair execution of the reference ends with its result at `Cert.Spec.emb` of the arguments, the
    arguments unchanged. -/
theorem run_emb [Cert.ReferenceIdeal.Facts] (m' : (ℓ : Loc nD τ sig) → Buf (Elt Ideal) ℓ) (ρ' : Dev nD → PrngReg)
    (hlt : ∀ (c : Dev nD) i, (m' ((c.tc : Thread nD τ).loc main_arg0) i).toNat < 32000) :
    θ_run (defs (F := Ideal)) (onTc (τ := τ) (main (F := Ideal))) ⟨m', fun _ => 0, ρ'⟩ (fun r => ∀ c : Dev nD,
      r.2.mem ((c.tc : Thread nD τ).loc main_v15)
          = Cert.Spec.emb (m' ((c.tc : Thread nD τ).loc main_arg0)) (m' ((c.tc : Thread nD τ).loc main_arg1)) (m' ((c.tc : Thread nD τ).loc main_arg2))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)) := by
  refine (θ_run defs _ _).mono (fun _ h c => ⟨(h c).1.trans ?_, (h c).2⟩)
    (Cert.ReferenceIdeal.Value.run (F := Ideal) m' ρ')
  rw [Read.val_main_v15_eq]
  exact result_eq _ _ _ (hlt c)

end Cert.ReferenceIdeal.RefValue

end
-- ==== Proof.K.Setup.lean ====
/-
  The kernel program's (at any float instance) frame, first part: @main around its one region, the tables, and the
  kernel's own resources.

  @main is two reshapes (the token ids [4,4096] flattened to [16384], the prefetched table, and to the
  column [16384,1]), the region, and one reshape of its result [16384,1024] to [4,4096,1024]. The region's
  pipeline stages three windows (the projection matrix whole and fetched once, the ids column and the
  result by blocks of 256 rows) and hands the body, unstaged, the table (in scalar memory), the embedding
  table left in HBM, a scratch of 256 rows and 256 DMA semaphores. The body copies 256 rows of the
  embedding table into the scratch by transfers of its own, each on its own semaphore and each waited for
  before the point ends: between points nothing is in flight, so the region invariant is the scratch at
  some contents, the generator register, the 256 cells at zero and the embedding table whole at its
  contents, beside the table's half the region lends the body.
-/
import proofs.«427351_j74509092651513_1_alg».proof.Proof.Gen.Kernel.Launch
import proofs.«427351_j74509092651513_1_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the two reshapes have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, entered at the contents after the first two. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The prefetched table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table: every contents is admissible. -/
abbrev adm : (pcfg0 (F := F)).Adm := ⟨tbl m, trivial⟩
abbrev cfgM : Pipeline.Cfg sig Λ₀ := cfg0 (adm m)

/-- The table as the body is handed it: its whole buffer as a memref; held at half the full share. -/
abbrev tbM : Memref sig .tc .smem S16384 .i32 := Memref.whole main_v0
abbrev tbPt (c : Dev nD) (f : Buf (Elt F) ((tbM).view.loc (c : Thread nD τ))) : sProp 𝕄 :=
  (tbM).view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The kernel's own resources -/

/-- The scratch, and the embedding table left in HBM, whole. -/
abbrev scM : Memref sig .tc .vmem S256x2048 .f32 := Memref.whole cc0_scratch0
abbrev hbM : Memref sig .tc .hbm S32000x2048 .f32 := Memref.whole main_arg1
abbrev MBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : MBuf (F := F) c M) : sProp 𝕄 :=
  M.view.loc (c : Thread nD τ) ↦{fullShare} f

/-- The body's 256 DMA semaphores: cells 5 … 260 of the pool. -/
abbrev osem : Fin 256 → SemLoc sig := fun j => SemLoc.dma ⟨5 + j.val, by show 5 + j.val < 261; omega⟩
theorem ownSemFacts : Pipeline.OwnSemFacts spec0 osem := by decide

/-- The operand the body moves itself. -/
def H0 : Finset (Ref sig .tc) := {main_arg1}
theorem H0_sub : H0 ⊆ Pipeline.restRefsP sig pre0 spec0 := by decide
theorem hbmPts_eq (c : Dev nD) :
    (bigSep H0 (fun b => ((c : Thread nD τ).loc b) ↦{fullShare} V m c b) : sProp 𝕄) = hbPt c hbM (V m c main_arg1) := by
  rw [BI.bigSep_eq_bigSepL_of_eq [main_arg1] (by decide) (by decide)]; rfl

/-! ## The lines after the region -/

theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) ?_ ?_
  · intro k; fin_cases k
    simp only [StableHlo.reshape_bufs, Finset.mem_insert, Finset.mem_singleton, not_or]
    and_intros <;> exact StableHlo.devRef_ne_of_ne (by decide)
  · intro b hb; simp only [H0, Finset.mem_singleton] at hb
    rcases hb with rfl
    simp only [StableHlo.reshape_bufs, Finset.mem_insert, Finset.mem_singleton, not_or]
    and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The windows' blocks and staging memrefs -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin (cfgM m).N) : Memref sig .tc .vmem S2048x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S256x1 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S256x1024 .f32 := spec0_2.stage ((cfgM m).slots t 2)
abbrev hs2 (t : Fin (cfgM m).N) : (ms2 m t).IsWhole := hstage0_2 (((cfgM m).slots t 2).cast nbuf0_2)

/-- The kernel body at point `t`, on what the pipeline calls it with. -/
abbrev bodyAt (t : Fin (cfgM m).N) : Prog (TpuEff nD τ sig (Elt F) Λ₀ .tc) PUnit :=
  cc0__embed_kernel (grid0.coords t) (Memref.whole main_v0) (Memref.isWhole_whole _) (Memref.whole main_arg1) (Memref.isWhole_whole _)
    (ms0 m t) (hs0 m t) (ms1 m t) (hs1 m t) (ms2 m t) (hs2 m t) (Memref.whole cc0_scratch0) (Memref.isWhole_whole _) cc0_scratch1

/-- One staging buffer of the result window, through which its contents are stated. -/
abbrev VO : View sig .tc .vmem S256x1024 .f32 := (Memref.whole cc0_stg2_0 : Memref sig .tc .vmem S256x1024 .f32).view

end Cert.Kernel.Fr

end
-- ==== Proof.K.Rows.lean ====
/-
  The rows the body gathers at a grid point, as a function of the table and of the embedding table: row r
  of the 256 is the embedding table's row named by the table's word 256·i + r (read unsigned and clamped
  to the last row: in range, the word itself).
-/
import proofs.«427351_j74509092651513_1_alg».proof.Proof.K.Setup
import proofs.«427351_j74509092651513_1_alg».proof.Proof.Spec
import Idealize.ShloMosaic.Lib.ValueIdx

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table's word the body reads for row `r` at grid coordinate `i`: word 256·i + r of the 16384. -/
def wordIx (i : grid0.Coords) (r : Fin 256) : S16384.Idx := ix1 ⟨256 * (i 0).val + r.val, by have h : (i 0).val < 64 := (i 0).isLt; have := r.isLt; show _ < 16384; omega⟩

/-- The 256 gathered rows at coordinate `i`. -/
def rowsOf (i : grid0.Coords) (tb : Vec F S16384 .i32) (w0 : Vec F S32000x2048 .f32) : Vec F S256x2048 .f32 := fun j =>
  w0 (ix2 (Cert.Spec.rowOf (tb (wordIx i (j 0)))) (j 1))

/-- What the body stores into the result's block at coordinate `i`: the skeleton's payload of the gathered rows,
    the projection matrix's block and the ids' block. -/
def outOf (i : grid0.Coords) (tb : Vec F S16384 .i32) (w0 : Vec F S32000x2048 .f32) (x3 : Vec F S2048x1024 .f32) (x4 : Vec F S256x1 .i32) :
    Vec F S256x1024 .f32 :=
  k0_pay1 (rowsOf i tb w0) x3 x4

end Cert.Kernel.Fr

end
-- ==== Proof.Chains.lean ====
/-
  Notation for the body's 256 transfers: the right-nested `∗`-chain of a family over consecutive numerals, as a
  term; a hypothesis that is such a chain taken apart into numbered hypotheses; and a goal that is such a chain
  closed from them.
-/
import Idealize.ShloMosaic.Lib.Tactic
import Idealize.ShloMosaic.Lib.Pipeline.Kit

namespace Cert.Chains

open Lean Elab Tactic Idealize.SL Idealize.SL.BI Idealize.SL.ProofMode

/-- `sepChain% a b f`: `f a ∗ f (a+1) ∗ … ∗ f (b-1)` (right-nested), the numerals literal. -/
elab "sepChain% " a:num b:num f:term : term <= ty => do
  let lo := a.getNat; let hi := b.getNat
  if hi ≤ lo then throwError "sepChain%: empty range"
  let lit (j : Nat) : TSyntax `term := ⟨Syntax.mkNumLit (toString j)⟩
  let mut t : TSyntax `term ← `(($f) $(lit (hi - 1)))
  for k in [0:hi - 1 - lo] do
    let j := hi - 2 - k
    t ← `(Idealize.SL.BI.BIBase.sep (($f) $(lit j)) $t)
  let e ← Term.elabTermEnsuringType t (some ty)
  Term.synthesizeSyntheticMVarsNoPostponing
  Core.betaReduce (← instantiateMVars e)

/-- `natList% a b`: the literal list `[a, a+1, …, b-1]`. -/
macro "natList% " a:num b:num : term => do
  let xs := (List.range (b.getNat - a.getNat)).map fun j => (⟨Syntax.mkNumLit (toString (a.getNat + j))⟩ : TSyntax `term)
  `([$(xs.toArray),*])

/-- `ichain H pre a b`: the hypothesis `H`, a right-nested chain of `b - a` conjuncts, taken apart into `pre<a> … pre<b-1>`. -/
elab "ichain " h:ident pre:ident a:num b:num : tactic => do
  let lo := a.getNat; let hi := b.getNat
  let ids : Array Ident := (Array.range (hi - lo)).map fun j => mkIdent (Name.mkSimple s!"{pre.getId}{lo + j}")
  let alts : Array (TSyntax ``icasesPatAlts) ← ids.mapM fun i => `(icasesPatAlts| $i:ident)
  evalTactic (← `(tactic| icases $h:ident with ⟨$alts,*⟩))

/-- `iclose pre a b`: the goal, a right-nested chain of `b - a` conjuncts, closed conjunct by conjunct by `pre<a> … pre<b-1>`. -/
elab "iclose " pre:ident a:num b:num : tactic => do
  let lo := a.getNat; let hi := b.getNat
  for j in [lo:hi] do
    let i := mkIdent (Name.mkSimple s!"{pre.getId}{j}")
    if j + 1 < hi then
      evalTactic (← `(tactic| (isplitl [$i]; iexact $i)))
    else
      evalTactic (← `(tactic| iexact $i))

end Cert.Chains
-- ==== Proof.K.Tokens.lean ====
/-
  The embedding table, read by 256 transfers in flight at once, is held as one read share per cell — the
  shares numbered as the cells of the pool are, 5 … 260 — beside the remainder; and the 256 cells at zero, listed.
-/
import proofs.«427351_j74509092651513_1_alg».proof.Proof.K.Rows
import proofs.«427351_j74509092651513_1_alg».proof.Proof.Chains

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

/-- A memref's buffer held whole at share `q`. -/
abbrev hbTok (c : Dev nD) {sp : Space} {S : Shape} {e : EltTy} (M : Memref sig .tc sp S e) (q : PosShare TreeShare) (f : MBuf (F := F) c M) : sProp 𝕄 :=
  M.view.loc (c : Thread nD τ) ↦{q} f

/-- The shares below cell 5's, which no transfer uses. -/
def lowToks (c : Dev nD) (w0 : MBuf (F := F) c hbM) : sProp 𝕄 :=
  bigSep (Finset.range 5) fun i => hbTok c hbM (Transfers.shareTokN fullShare i) w0

/-- The 256 cells' shares, listed. -/
abbrev tokChain (c : Dev nD) (w0 : MBuf (F := F) c hbM) : sProp 𝕄 :=
  sepChain% 5 261 (fun i => hbTok c hbM (Transfers.shareTokN fullShare i) w0)

set_option maxRecDepth 200000 in
theorem toks_eq (c : Dev nD) (w0 : MBuf (F := F) c hbM) :
    (bigSep (Finset.range 261) (fun i => hbTok c hbM (Transfers.shareTokN fullShare i) w0) : sProp 𝕄)
      = iprop(lowToks c w0 ∗ tokChain c w0) := by
  rw [BI.bigSep_sdiff_split (show Finset.range 5 ⊆ Finset.range 261 from by decide),
    BI.bigSep_eq_bigSepL_of_eq (S := Finset.range 261 \ Finset.range 5) (natList% 5 261) (by decide) (by decide)]
  rfl

/-- The embedding table whole is the remainder, the unused shares and the 256 cells' shares. -/
theorem toks_split (c : Dev nD) (w0 : MBuf (F := F) c hbM) :
    (hbPt c hbM w0 : sProp 𝕄) ⊢ iprop(hbTok c hbM (Transfers.shareDrop fullShare 261) w0 ∗ lowToks c w0 ∗ tokChain c w0) :=
  ((Transfers.pointsTo_toks_range (Ix := Unit) (Name := ℕ) (U := Pipeline.UD sig nD τ) (Lvl := ℕ) fullShare 261).1).trans
    (sep_mono .rfl (Entails.of_eq (toks_eq c w0)))

theorem toks_join (c : Dev nD) (w0 : MBuf (F := F) c hbM) :
    iprop(hbTok c hbM (Transfers.shareDrop fullShare 261) w0 ∗ lowToks c w0 ∗ tokChain c w0) ⊢ (hbPt c hbM w0 : sProp 𝕄) :=
  (sep_mono .rfl (Entails.of_eq (toks_eq c w0).symm)).trans
    ((Transfers.pointsTo_toks_range (Ix := Unit) (Name := ℕ) (U := Pipeline.UD sig nD τ) (Lvl := ℕ) fullShare 261).2)

/-- The 256 cells at zero, listed by their numbers in the pool. -/
abbrev semChain (c : Dev nD) : sProp 𝕄 :=
  sepChain% 5 261 (fun i => semVal ((c : Thread nD τ), SemLoc.dma i) 0)

set_option maxRecDepth 200000 in
theorem sems_eq (c : Dev nD) :
    (Pipeline.ownSems0 (Ix := Unit) (Name := ℕ) (U := Pipeline.UD sig nD τ) (Lvl := ℕ) (Val := Elt F) (τ := τ) osem c : sProp 𝕄) = semChain c := by
  rw [Pipeline.ownSems0_eq_of_list c osem (natList% 0 256) (by decide) (by decide)]
  rfl

end Cert.Kernel.Fr

end
-- ==== Proof.K.Scratch.lean ====
/-
  The scratch, 256 rows of 2048 words, row by row: row k as the transfers name it (the unit slice at row k,
  squeezed), the rows' element sets pairwise disjoint and together the scratch's, so the scratch held whole is
  its rows held one by one, and rows held at contents of their own join to the scratch at contents that agree
  with each row's on the row.
-/
import proofs.«427351_j74509092651513_1_alg».proof.Proof.K.Tokens

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem rowInb (k : Fin 256) : ∀ a, (![k.val, 0] : Fin 2 → Nat) a + S1x2048.size a ≤ S256x2048.size a := by
  intro a; have := k.isLt; fin_cases a <;> simp [S1x2048, S256x2048] <;> omega

/-- Row `k` of the scratch. -/
abbrev rowRect (k : Fin 256) : Rect S256x2048 := Rect.unit (s := S256x2048) ![k.val, 0] S1x2048.size (rowInb k)
abbrev dstRow (k : Fin 256) : Memref sig .tc .vmem S2048 .f32 :=
  (scM.slice (rowRect k) (fun _ => rfl)).squeeze S2048 squeezes_S1x2048_S2048

theorem rowSet_eq (k : Fin 256) : (dstRow k).view.set = (rowRect k).set.map scM.view.emb := by
  simp only [Memref.view_squeeze, View.set_reshape, Memref.view_slice, View.set_slice]

theorem rowSet_disjoint {k k' : Fin 256} (h : k ≠ k') : Disjoint (dstRow k).view.set (dstRow k').view.set := by
  rw [rowSet_eq, rowSet_eq]
  refine (Finset.disjoint_map _).mpr (Rect.unit_disjoint (0 : Fin 2) ?_)
  have : k.val ≠ k'.val := fun e => h (Fin.ext e)
  show k.val + 1 ≤ k'.val ∨ k'.val + 1 ≤ k.val
  omega

theorem rowSet_cover : Finset.univ.biUnion (fun k : Fin 256 => (dstRow k).view.set) = scM.view.set := by
  ext i
  rw [Finset.mem_biUnion]
  constructor
  · rintro ⟨k, -, hk⟩
    rw [rowSet_eq] at hk
    obtain ⟨j, -, rfl⟩ := Finset.mem_map.mp hk
    exact Finset.mem_map_of_mem _ (Finset.mem_univ j)
  · intro hi
    obtain ⟨j, -, rfl⟩ := Finset.mem_map.mp (show i ∈ Finset.univ.map scM.view.emb from hi)
    refine ⟨(⟨(j 0).val, (j 0).isLt⟩ : Fin 256), Finset.mem_univ _, ?_⟩
    rw [rowSet_eq]
    refine Finset.mem_map_of_mem _ (Rect.mem_set_unit.mpr fun a => ?_)
    fin_cases a
    · exact ⟨le_refl _, Nat.lt_succ_self _⟩
    · exact ⟨Nat.zero_le _, by have h : (j 1).val < 2048 := (j 1).isLt; show (j 1).val < 0 + 2048; omega⟩

variable (c : Dev nD)

/-- The scratch held whole is its rows held one by one. -/
theorem rows_split (fs : MBuf (F := F) c scM) :
    (scM.view.loc (c : Thread nD τ) ↦[scM.view.set]{fullShare} fs : sProp 𝕄)
      = bigSep Finset.univ fun k : Fin 256 => scM.view.loc (c : Thread nD τ) ↦[(dstRow k).view.set]{fullShare} fs := by
  have h := pointsTo_biUnion (Ix := Unit) (Name := ℕ) (U := Pipeline.UD sig nD τ) (Lvl := ℕ) (ℓ := scM.view.loc (c : Thread nD τ)) (q := fullShare) (f := fs)
    Finset.univ (fun k : Fin 256 => (dstRow k).view.set) (fun k _ k' _ h => rowSet_disjoint h)
  rw [rowSet_cover] at h
  exact h

/-- Rows held at contents of their own join to the scratch at contents agreeing with each on its row. -/
theorem rows_join (fs : Fin 256 → MBuf (F := F) c scM) (f₀ : MBuf (F := F) c scM) :
    bigSep Finset.univ (fun k : Fin 256 => scM.view.loc (c : Thread nD τ) ↦[(dstRow k).view.set]{fullShare} fs k)
      ⊢ (iprop(∃ g, ⌜∀ k : Fin 256, ∀ i ∈ (dstRow k).view.set, g i = fs k i⌝ ∗ scM.view.loc (c : Thread nD τ) ↦[scM.view.set]{fullShare} g) : sProp 𝕄) := by
  have h := pointsTo_biUnion_join (Ix := Unit) (Name := ℕ) (U := Pipeline.UD sig nD τ) (Lvl := ℕ) (ℓ := scM.view.loc (c : Thread nD τ)) (q := fullShare)
    Finset.univ (fun k : Fin 256 => (dstRow k).view.set) fs f₀ (fun k _ k' _ h => rowSet_disjoint h)
  rw [rowSet_cover] at h
  refine h.trans ?_
  iintro ⟨%g, %hg, H⟩
  iexists g
  isplitr; · ipureintro; exact fun k => hg k (Finset.mem_univ k)
  iexact H

end Cert.Kernel.Fr

end
-- ==== Proof.K.Gather.lean ====
/-
  What the 256 transfers leave in the scratch, read back: transfer k reads the table's word 256·i + k, takes
  the embedding table's row that word names, and writes it over row k of the scratch; so the scratch read whole
  is, row by row, the rows the table names.
-/
import proofs.«427351_j74509092651513_1_alg».proof.Proof.K.Scratch

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The offset of the table's word transfer `k` reads, as the body computes it: 256·i + k in 32-bit words. -/
def offGen (i : grid0.Coords) (k : Nat) : Fin 1 → Nat :=
  ![(Scalar.indexCast (Scalar.addi (Scalar.muli (BitVec.ofNat 32 (i 0).val) 256#32) (BitVec.ofNat 32 k))).toNat]

/-- With a < 64 and k < 256 the 32-bit product and sum do not wrap: the word a·256 + k read unsigned is 256·a + k. -/
theorem offWord_toNat (a k : Nat) (ha : a < 64) (hk : k < 256) :
    (Scalar.indexCast (Scalar.addi (Scalar.muli (BitVec.ofNat 32 a) 256#32) (BitVec.ofNat 32 k))).toNat = 256 * a + k := by
  unfold Scalar.indexCast Scalar.addi Scalar.muli IntOp.addi IntOp.muli
  rw [BitVec.toNat_add, BitVec.toNat_mul, BitVec.toNat_ofNat, BitVec.toNat_ofNat, BitVec.toNat_ofNat]
  omega

theorem offGen_eq (i : grid0.Coords) (k : Nat) (hk : k < 256) : offGen i k = ![256 * (i 0).val + k] := by
  have hi : (i 0).val < 64 := (i 0).isLt
  unfold offGen
  rw [offWord_toNat _ _ hi hk]

theorem offGen_inb (i : grid0.Coords) (k : Nat) (hk : k < 256) : ∀ a, offGen i k a + S1.size a ≤ S16384.size a := by
  have hi : (i 0).val < 64 := (i 0).isLt
  rw [offGen_eq i k hk]
  refine Fin.forall_fin_one.mpr ?_
  show 256 * (i 0).val + k + 1 ≤ 16384
  omega

/-- The word transfer `k` reads off the table. -/
def wordGen (i : grid0.Coords) (tb : Vec F S16384 .i32) (k : Fin 256) : BitVec 32 :=
  tbM.view.readAt (Elt F) (Rect.unit (s := S16384) (offGen i k.val) S1.size (offGen_inb i k.val k.isLt)).toLoadRect tb (Shape.Idx.first (show 0 < S1.numel by decide))

theorem wordGen_eq (i : grid0.Coords) (tb : Vec F S16384 .i32) (k : Fin 256) : wordGen i tb k = tb (wordIx i k) := by
  have h0 : offGen i k.val 0 = 256 * (i 0).val + k.val := congrFun (offGen_eq i k.val k.isLt) 0
  unfold wordGen
  rw [View.readAt_apply, View.read_apply]
  -- the table is a whole buffer: the element-type cast is over `rfl` and the placement is the identity
  refine (cast_eq _ _).trans (congrArg tb ?_)
  funext a
  refine Fin.ext ?_
  match a with
  | ⟨0, _⟩ =>
    show offGen i k.val 0 + 1 * 0 = 256 * (i 0).val + k.val
    rw [h0, Nat.mul_zero, Nat.add_zero]

theorem srcInb (w : BitVec 32) (h : w.toNat < 32000) : ∀ a, (![w.toNat, 0] : Fin 2 → Nat) a + S1x2048.size a ≤ S32000x2048.size a := by
  intro a; fin_cases a <;> simp [S1x2048, S32000x2048] <;> omega

/-- The embedding table's row a word names, as the transfers name it. -/
abbrev srcRow (w : BitVec 32) (h : w.toNat < 32000) : Memref sig .tc .hbm S2048 .f32 :=
  (hbM.slice (Rect.unit (s := S32000x2048) ![w.toNat, 0] S1x2048.size (srcInb w h)) (fun _ => rfl)).squeeze S2048 squeezes_S1x2048_S2048

variable (c : Dev nD)

/-- What transfer `k` leaves: the scratch's contents with row `k` overwritten by the row the table's word names. -/
def rowAfter (i : grid0.Coords) (tb : Vec F S16384 .i32) (w0 : MBuf (F := F) c hbM) (hok : ∀ x : S16384.Idx, (tb x).toNat < 32000)
    (fs : MBuf (F := F) c scM) (k : Fin 256) : MBuf (F := F) c scM :=
  (dstRow k).view.write (Elt F) fs
    (ReadAs.same.apply ((srcRow (wordGen i tb k) (by rw [wordGen_eq]; exact hok _)).view.read (Elt F) w0)) Finset.univ

/-- A vector index `x` matched with the shape [1, a] is (0, x): the same row-major position. -/
theorem reshapeEquiv_ix1_1a {a : ℕ} (h : (⟨1, ![a]⟩ : Shape).numel = (⟨2, ![1, a]⟩ : Shape).numel)
    (x : Fin a) : Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- Element `x` of the scratch's row `r` sits at (r, x) of the scratch: the squeeze puts the unit axis back at 0
    and the unit slice adds its offsets (r, 0). -/
theorem dstRow_emb (r : Fin 256) (x : Fin 2048) : (dstRow r).view.emb (ix1 x) = scM.view.emb (ix2 r x) := by
  show scM.view.emb ((rowRect r).emb (Shape.reshapeEquiv squeezes_S1x2048_S2048.numel_eq (ix1 x))) = scM.view.emb (ix2 r x)
  refine congrArg scM.view.emb ?_
  refine (congrArg (rowRect r).emb (reshapeEquiv_ix1_1a squeezes_S1x2048_S2048.numel_eq x)).trans ?_
  funext a
  refine Fin.ext ?_
  match a with
  | ⟨0, _⟩ => show r.val + 1 * 0 = r.val; omega
  | ⟨1, _⟩ => show 0 + 1 * x.val = x.val; omega

/-- The same for the row of the embedding table a word names: element `x` sits at (w, x). -/
theorem srcRow_emb (w : BitVec 32) (h : w.toNat < 32000) (x : Fin 2048) :
    (srcRow w h).view.emb (ix1 x) = hbM.view.emb (ix2 (⟨w.toNat, h⟩ : Fin 32000) x) := by
  show hbM.view.emb ((Rect.unit (s := S32000x2048) ![w.toNat, 0] S1x2048.size (srcInb w h)).emb
      (Shape.reshapeEquiv squeezes_S1x2048_S2048.numel_eq (ix1 x))) = hbM.view.emb (ix2 (⟨w.toNat, h⟩ : Fin 32000) x)
  refine congrArg hbM.view.emb ?_
  refine (congrArg (Rect.unit (s := S32000x2048) ![w.toNat, 0] S1x2048.size (srcInb w h)).emb
    (reshapeEquiv_ix1_1a squeezes_S1x2048_S2048.numel_eq x)).trans ?_
  funext a
  refine Fin.ext ?_
  match a with
  | ⟨0, _⟩ => show w.toNat + 1 * 0 = w.toNat; omega
  | ⟨1, _⟩ => show 0 + 1 * x.val = x.val; omega

/-- The row a word names read off the embedding table's contents: element `x` is the table's at (w, x). -/
theorem srcRow_read (w : BitVec 32) (h : w.toNat < 32000) (w0 : MBuf (F := F) c hbM) (x : Fin 2048) :
    (srcRow w h).view.read (Elt F) w0 (ix1 x) = w0 (ix2 (⟨w.toNat, h⟩ : Fin 32000) x) := by
  rw [View.read_apply, srcRow_emb]
  exact cast_eq _ _

/-- Contents of the scratch that agree with each transfer's on its row read, whole, as the gathered rows. -/
theorem gathered_eq (i : grid0.Coords) (tb : Vec F S16384 .i32) (w0 : MBuf (F := F) c hbM) (hok : ∀ x : S16384.Idx, (tb x).toNat < 32000)
    (fs g : MBuf (F := F) c scM) (hg : ∀ k : Fin 256, ∀ idx ∈ (dstRow k).view.set, g idx = rowAfter c i tb w0 hok fs k idx) :
    scM.view.read (Elt F) g = rowsOf i tb w0 := by
  funext idx
  obtain ⟨r, x, rfl⟩ : ∃ (r : Fin 256) (x : Fin 2048), idx = ix2 r x := ⟨idx 0, idx 1, eq_ix2 idx⟩
  -- the scratch is a whole buffer: its read at (r, x) is the contents there, an element of row r
  have hmem : scM.view.emb (ix2 r x) ∈ (dstRow r).view.set := by
    rw [← dstRow_emb]; exact View.emb_mem_set _ _
  have hw : (wordGen i tb r).toNat < 32000 := by rw [wordGen_eq]; exact hok _
  rw [View.read_apply]
  refine (cast_eq _ _).trans ?_
  refine (hg r _ hmem).trans ?_
  -- row r after its transfer holds, at x, the payload: the named row of the embedding table at x
  unfold rowAfter
  rw [← dstRow_emb, View.write_emb_of_mem _ _ (Finset.mem_univ _)]
  refine (cast_eq _ _).trans ?_
  rw [ReadAs.apply_same, srcRow_read c (wordGen i tb r) hw w0 x]
  -- the word is the table's word 256·i + r, in range, so the row it names is the clamped one
  show w0 (ix2 (⟨(wordGen i tb r).toNat, hw⟩ : Fin 32000) x) = w0 (ix2 (Cert.Spec.rowOf (tb (wordIx i r))) x)
  refine congrArg w0 (congrArg (fun a : Fin 32000 => ix2 a x) (Fin.ext ?_))
  show (wordGen i tb r).toNat = (Cert.Spec.rowOf (tb (wordIx i r))).val
  rw [wordGen_eq, Cert.Spec.rowOf_val_of_lt (hok _)]

end Cert.Kernel.Fr

end
-- ==== Proof.ChainsMore.lean ====
/-
  More notation for the 256 transfers: a chain whose conjuncts also name a stated fact by its number, and a
  lemma applied to numbered hypotheses.
-/
import proofs.«427351_j74509092651513_1_alg».proof.Proof.Chains

namespace Cert.Chains

open Lean Elab Tactic Idealize.SL Idealize.SL.BI Idealize.SL.ProofMode

/-- `sepChainId% a b "p" "s" f`: `f a p<a>s ∗ … ∗ f (b-1) p<b-1>s`: beside the numeral, `f` is handed the identifier spelt `p`, the
    numeral, `s`. -/
elab "sepChainId% " a:num b:num p:str s:str f:term : term <= ty => do
  let lo := a.getNat; let hi := b.getNat
  if hi ≤ lo then throwError "sepChainId%: empty range"
  let lit (j : Nat) : TSyntax `term := ⟨Syntax.mkNumLit (toString j)⟩
  let idn (j : Nat) : Ident := mkIdent (Name.mkSimple s!"{p.getString}{j}{s.getString}")
  let mut t : TSyntax `term ← `(($f) $(lit (hi - 1)) $(idn (hi - 1)))
  for k in [0:hi - 1 - lo] do
    let j := hi - 2 - k
    t ← `(Idealize.SL.BI.BIBase.sep (($f) $(lit j) $(idn j)) $t)
  let e ← Term.elabTermEnsuringType t (some ty)
  Term.synthesizeSyntheticMVarsNoPostponing
  Core.betaReduce (← instantiateMVars e)

/-- `ihave_chain H := t from pre a b`: `ihave H := t $ [pre<a> … pre<b-1>]`, the premise left as a goal. -/
elab "ihave_chain " h:ident " := " t:term " from " pre:ident a:num b:num : tactic => do
  let lo := a.getNat; let hi := b.getNat
  let ids : Array Ident := (Array.range (hi - lo)).map fun j => mkIdent (Name.mkSimple s!"{pre.getId}{lo + j}")
  let fids : Array (TSyntax `frameIdent) ← ids.mapM fun i => `(frameIdent| $i:ident)
  evalTactic (← `(tactic| ihave $h:ident := $t:term $$ [$[$fids]*]))

/-- `isplitl_with [H…] pre a b`: `isplitl [H… pre<a> … pre<b-1>]`. -/
elab "isplitl_with " "[" extra:ident* "]" pre:ident a:num b:num : tactic => do
  let lo := a.getNat; let hi := b.getNat
  let ids : Array Ident := extra ++ (Array.range (hi - lo)).map fun j => mkIdent (Name.mkSimple s!"{pre.getId}{lo + j}")
  evalTactic (← `(tactic| isplitl [$[$ids]*]))

end Cert.Chains
-- ==== Proof.K.RowChain.lean ====
/-
  The scratch's 256 rows as the body's transfers name them, listed: the scratch held whole is the list of its
  rows held one by one, and after the 256 transfers the rows, each at what its transfer left, join to the
  scratch at contents that agree with each transfer's on its row.
-/
import proofs.«427351_j74509092651513_1_alg».proof.Proof.K.Gather
import proofs.«427351_j74509092651513_1_alg».proof.Proof.ChainsMore

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

/-- A memref held by exactly its own elements. -/
abbrev ownM (c : Dev nD) {sp : Space} {S : Shape} {e : EltTy} (M : Memref sig .tc sp S e) (f : MBuf (F := F) c M) : sProp 𝕄 :=
  M.view.loc (c : Thread nD τ) ↦[M.view.set]{fullShare} f

variable (c : Dev nD)

/-- The 256 rows at the scratch's contents, each spelt as the transfer into it spells it. -/
abbrev rowChain (fs : MBuf (F := F) c scM) : sProp 𝕄 :=
  sepChainId% 0 256 "inb_S256x2048_S1x2048_" "_0" (fun j h =>
    ownM c ((scM.slice (Rect.unit (s := S256x2048) ![j, 0] S1x2048.size h) (fun _ => rfl)).squeeze S2048 squeezes_S1x2048_S2048) fs)

set_option maxHeartbeats 4000000 in
set_option maxRecDepth 200000 in
theorem rows_chain_split (fs : MBuf (F := F) c scM) :
    (scM.view.loc (c : Thread nD τ) ↦[scM.view.set]{fullShare} fs : sProp 𝕄) ⊢ rowChain c fs := by
  rw [rows_split, BI.bigSep_univ_eq_bigSepL (natList% 0 256) (by decide) (by decide)]
  exact Entails.of_eq rfl

/-- What transfer `k` leaves, as one write of the whole row listed over the scratch's contents. -/
def rowRun (i : grid0.Coords) (tb : Vec F S16384 .i32) (w0 : MBuf (F := F) c hbM) (hok : ∀ x : S16384.Idx, (tb x).toNat < 32000)
    (fs : MBuf (F := F) c scM) (k : Fin 256) : MBuf (F := F) c scM :=
  (dstRow k).view.writes (Elt F) fs
    [⟨Rect.whole S2048, ReadAs.same.apply ((srcRow (wordGen i tb k) (by rw [wordGen_eq]; exact hok _)).view.read (Elt F) w0)⟩]

/-- On row `k` the listed write is the write: the whole row's rectangle places every index at itself. -/
theorem rowRun_agree (i : grid0.Coords) (tb : Vec F S16384 .i32) (w0 : MBuf (F := F) c hbM) (hok : ∀ x : S16384.Idx, (tb x).toNat < 32000)
    (fs : MBuf (F := F) c scM) (k : Fin 256) :
    ∀ idx ∈ (dstRow k).view.set, rowRun c i tb w0 hok fs k idx = rowAfter c i tb w0 hok fs k idx := by
  intro idx hidx
  obtain ⟨y, -, rfl⟩ := Finset.mem_map.mp (show idx ∈ Finset.univ.map (dstRow k).view.emb from hidx)
  unfold rowRun rowAfter
  rw [View.writes_singleton]
  have e : (dstRow k).view.emb y = ((dstRow k).view.slice (Rect.whole S2048)).emb ((show (Rect.whole S2048).shape.Idx from y)) := by
    rw [View.emb_slice]
    show _ = (dstRow k).view.emb ((Rect.whole S2048).emb y)
    rw [Rect.emb_whole_apply]
  conv_lhs => rw [e, View.write_emb_of_mem _ _ (Finset.mem_univ _)]
  rw [View.write_emb_of_mem _ _ (Finset.mem_univ _)]

/-- Row `k` at what its transfer left. -/
abbrev rowAfterPt (i : grid0.Coords) (tb : Vec F S16384 .i32) (w0 : MBuf (F := F) c hbM) (hok : ∀ x : S16384.Idx, (tb x).toNat < 32000)
    (fs : MBuf (F := F) c scM) (k : Fin 256) : sProp 𝕄 :=
  scM.view.loc (c : Thread nD τ) ↦[(dstRow k).view.set]{fullShare} rowRun c i tb w0 hok fs k

/-- The 256 rows, each at what its transfer left. -/
abbrev afterChain (i : grid0.Coords) (tb : Vec F S16384 .i32) (w0 : MBuf (F := F) c hbM) (hok : ∀ x : S16384.Idx, (tb x).toNat < 32000)
    (fs : MBuf (F := F) c scM) : sProp 𝕄 :=
  sepChain% 0 256 (rowAfterPt c i tb w0 hok fs)

set_option maxHeartbeats 4000000 in
set_option maxRecDepth 200000 in
theorem rows_chain_join (i : grid0.Coords) (tb : Vec F S16384 .i32) (w0 : MBuf (F := F) c hbM) (hok : ∀ x : S16384.Idx, (tb x).toNat < 32000)
    (fs : MBuf (F := F) c scM) :
    afterChain c i tb w0 hok fs
      ⊢ (iprop(∃ g, ⌜∀ k : Fin 256, ∀ idx ∈ (dstRow k).view.set, g idx = rowAfter c i tb w0 hok fs k idx⌝
          ∗ scM.view.loc (c : Thread nD τ) ↦[scM.view.set]{fullShare} g) : sProp 𝕄) := by
  have h := rows_join c (rowRun c i tb w0 hok fs) fs
  rw [BI.bigSep_univ_eq_bigSepL (natList% 0 256) (by decide) (by decide)] at h
  refine ((Entails.of_eq rfl).trans h).trans ?_
  iintro ⟨%g, %hg, H⟩
  iexists g
  isplitr; · ipureintro; exact fun k idx hidx => (hg k idx hidx).trans (rowRun_agree c i tb w0 hok fs k idx hidx)
  iexact H

end Cert.Kernel.Fr

end
-- ==== Proof.K.OutEq.lean ====
/-
  The result's block after the body, read back: the one store covers the block, so it reads as the stored
  payload; the payload's three operands are the scratch read whole — the gathered rows —, and the projection
  matrix's and the ids' blocks as they were handed in.
-/
import proofs.«427351_j74509092651513_1_alg».proof.Proof.K.RowChain
import Idealize.ShloMosaic.Lib.Pipeline.Value
import Idealize.ShloMosaic.Lib.Pipeline.FrameBody
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem out_eq (c : Dev nD) (i : grid0.Coords)
    (arg3 : Memref sig .tc .vmem S2048x1024 .f32) (harg3 : arg3.IsWhole) (arg4 : Memref sig .tc .vmem S256x1 .i32) (harg4 : arg4.IsWhole)
    (arg5 : Memref sig .tc .vmem S256x1024 .f32)
    (x3 : Vec F S2048x1024 .f32) (x4 : Vec F S256x1 .i32)
    (tb : MBuf (F := F) c tbM) (w0 : MBuf (F := F) c hbM) (hok : ∀ x : S16384.Idx, (tb x).toNat < 32000)
    (f5 : BufTy.Contents (Elt F) arg5.view.ty) (fs g : MBuf (F := F) c scM)
    (hg : ∀ k : Fin 256, ∀ idx ∈ (dstRow k).view.set, g idx = rowAfter c i tb w0 hok fs k idx) :
    View.read (Elt F) arg5.view
      (arg5.view.writes (Elt F) f5
        [⟨Rect.unit ![0, 0] S256x1024.size inb_S256x1024_S256x1024_0_0,
            k0_pay1
              (View.readAt (Elt F) scM.view (Rect.unit ![0, 0] S256x2048.size inb_S256x2048_S256x2048_0_0).toLoadRect g)
              (View.readAt (Elt F) arg3.view (Rect.unit ![0, 0] S2048x1024.size inb_S2048x1024_S2048x1024_0_0).toLoadRect (harg3.unread x3))
              (View.readAt (Elt F) arg4.view (Rect.unit ![0, 0] S256x1.size inb_S256x1_S256x1_0_0).toLoadRect (harg4.unread x4))⟩])
      = outOf i tb w0 x3 x4 := by
  have hz : (![0, 0] : Fin 2 → Nat) = fun _ => 0 := by funext a; fin_cases a <;> rfl
  unfold outOf
  rw [View.read_writes_eq_canon _ _ _ (View.cover_of_tiledL _ S256x1024.size (by sl_kernel_rfl)), View.canon_unit_zero hz]
  simp only [View.readAt_eq_ld, harg3.read_unread, harg4.read_unread, View.ld_unit_zero (S := S2048x1024) hz,
    View.ld_unit_zero (S := S256x1) hz, View.ld_unit_zero (S := S256x2048) hz]
  rw [gathered_eq c i tb w0 hok fs g hg]

end Cert.Kernel.Fr

end
-- ==== Proof.K.Run.lean ====
/-
  The kernel body's triple, on any whole staging memrefs: from the projection matrix's and the ids' blocks
  at their contents, the result's block and the scratch at anything, the table's half, the embedding table
  whole, the 256 cells at zero and the core's waits, the body runs to its return handing everything back as
  it was except the result's block, which holds the payload of the 256 gathered rows — provided every word
  of the table names a row of the embedding table (each transfer's source row is then inside it).

  The body issues its 256 transfers before it waits for any: the embedding table is lent one read share per
  cell, the scratch row by row, each row to the transfer that fills it; every wait hands its row back at what
  the transfer wrote and its share whole; the rows then join to the scratch, which the body reads whole.
-/
import proofs.«427351_j74509092651513_1_alg».proof.Proof.K.OutEq

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

set_option maxHeartbeats 0 in
set_option maxRecDepth 200000 in
theorem kernelRun (c : Dev nD) (i : grid0.Coords)
    (arg3 : Memref sig .tc .vmem S2048x1024 .f32) (harg3 : arg3.IsWhole) (arg4 : Memref sig .tc .vmem S256x1 .i32) (harg4 : arg4.IsWhole)
    (arg5 : Memref sig .tc .vmem S256x1024 .f32) (harg5 : arg5.IsWhole)
    (x3 : Vec F S2048x1024 .f32) (x4 : Vec F S256x1 .i32)
    (tb : MBuf (F := F) c tbM) (w0 : MBuf (F := F) c hbM)
    (hok : ∀ x : S16384.Idx, (tb x).toNat < 32000)
    (W : Waits sig Unit) (K : PUnit → sProp 𝕄) :
    iprop(owns (c : Thread nD τ) arg3 fullShare x3 ∗ owns (c : Thread nD τ) arg4 fullShare x4 ∗ (∃ d, owns (c : Thread nD τ) arg5 fullShare d)
        ∗ (∃ d, owns (c : Thread nD τ) scM fullShare d) ∗ tbPt c tb ∗ hbPt c hbM w0
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg3 fullShare x3 ∗ owns (c : Thread nD τ) arg4 fullShare x4
              ∗ owns (c : Thread nD τ) arg5 fullShare (outOf i tb w0 x3 x4)
              ∗ (∃ d, owns (c : Thread nD τ) scM fullShare d) ∗ tbPt c tb ∗ hbPt c hbM w0
              ∗ Pipeline.ownSems0 (Ix := Unit) (Name := ℕ) (U := Pipeline.UD sig nD τ) (Lvl := ℕ) (Val := Elt F) (τ := τ) osem c
              ∗ (∃ W', owes (c : Thread nD τ) 0 W')) -∗ K ⟨⟩))
      ⊢ wp frame (wpE (defs₀ (F := F)) Variants.none c none) Set.univ
          (cc0__embed_kernel i tbM (Memref.isWhole_whole _) hbM (Memref.isWhole_whole _) arg3 harg3 arg4 harg4 arg5 harg5 scM (Memref.isWhole_whole _) cc0_scratch1) K := by
  simp only [cc0__embed_kernel_eq_skeleton]; unfold cc0__embed_kernel_skel
  unfold owns
  rw [sems_eq c]
  iintro ⟨⟨%f3, %hf3, H3⟩, ⟨%f4, %hf4, H4⟩, ⟨%d5, %f5, -, H5⟩, ⟨%ds, %fs, -, HS⟩, HT, Hh, Hq, HW, HK⟩
  obtain rfl := harg3.eq_unread hf3
  obtain rfl := harg4.eq_unread hf4
  -- the embedding table as one read share per cell; the cells and the scratch's rows listed
  ihave Hh' := (toks_split c w0) $$ Hh
  icases Hh' with ⟨HR, HL, Hks⟩
  ichain Hks Hk 5 261
  ichain Hq Hd 5 261
  ihave HS' := (rows_chain_split c fs) $$ HS
  ichain HS' Hs 0 256
  have hokR : ∀ (r : LoadRect S16384) (j : r.shape.Idx), (tbM.view.readAt (Elt F) r tb j).toNat < 32000 := fun r j => hok _
  -- the 256 transfers and their waits, up to the load of the whole scratch
  sl_exec_parts (disch := exact srcInb _ (hokR _ _))
  -- the rows join
  ihave_chain HG := (rows_chain_join c i tb w0 hok fs) from Hs 0 256
  · iclose Hs 0 256
  icases HG with ⟨%g, %hg, HS⟩
  -- the product, the mask and the scale; the store
  sl_exec_parts
  sl_step
  iapply HK
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    exact out_eq c i arg3 harg3 arg4 harg4 arg5 x3 x4 tb w0 hok f5 fs g hg
  isplitl [HS]
  · iexists _, _; isplitr; swap; · iexact HS
    ipureintro; rfl
  isplitl [HT]; · iexact HT
  isplitl_with [HR HL] Hk 5 261
  · iapply (toks_join c w0)
    isplitl [HR]; · iexact HR
    isplitl [HL]; · iexact HL
    iclose Hk 5 261
  isplitr [HW]
  · iclose Hd 5 261
  iexists _; iexact HW

end Cert.Kernel.Fr

end
-- ==== Proof.K.Frame.lean ====
/-
  The kernel program's (at any float instance) frame and the contents of its result: the proof data of the one pipeline,
  the body obligation at every grid point, and the run — every weakly fair execution of @main terminates,
  nothing faulting, the pipeline's arrays at what the write-backs leave (the result array's block t at the
  payload of the rows gathered at point t), every other buffer at what the last reshape leaves.
-/
import proofs.«427351_j74509092651513_1_alg».proof.Proof.K.Run

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of the table names a row of the embedding table. -/
abbrev TblOk : Prop := ∀ x : S16384.Idx, (tbl m 0 x).toNat < 32000

/-- What the result's staging buffer holds after the body at point `t`. -/
def outsAt (c : Dev nD) (t : Fin (cfgM m).N) : Vec F S256x1024 .f32 :=
  outOf (grid0.coords t) (tbl m 0) (V m c main_arg1) (iblk m c 0 t) (iblk m c 1 t)

/-- The proof data on core `c`: the arrays as the region finds them; after the body each input's buffer at its block
    and the result's at `outsAt`; the invariant: the scratch at some contents, the generator register, the 256 cells at
    zero, the embedding table whole at its contents, and the table's half; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-- The invariant's first part, conjunct by conjunct. -/
theorem PhiD_eq (c : Dev nD) :
    (Pipeline.ΦD osem spec0 H0 (V m) c : sProp 𝕄)
      = iprop(iprop((∃ d, owns (c : Thread nD τ) scM fullShare d)) ∗ (∃ r, prngReg c r)
          ∗ Pipeline.ownSems0 (Ix := Unit) (Name := ℕ) (U := Pipeline.UD sig nD τ) (Lvl := ℕ) (Val := Elt F) (τ := τ) osem c
          ∗ hbPt c hbM (V m c main_arg1)) := by
  rw [Pipeline.ΦD_eq, scopedRest0_eq, hbmPts_eq]; simp only [scM, owns_whole]; try rfl

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

theorem sound_body (hok : TblOk m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl, after0, after1, after2]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold outsAt
  iintro ⟨⟨⟨HS, Hg, Hq, Hh⟩, HT⟩, ⟨%W, -, HW⟩, ⟨%d0, H0⟩, ⟨%d1, H1⟩, ⟨%d2, H2⟩⟩
  iapply (kernelRun c (grid0.coords t) _ _ _ _ _ _ (iblk m c 0 t) (iblk m c 1 t) (tbl m 0) (V m c main_arg1) hok W _)
  isplitl [H0]; · iexact H0
  isplitl [H1]; · iexact H1
  isplitl [H2]; · iexists _; iexact H2
  isplitl [HS]; · iexact HS
  isplitl [HT]; · iexact HT
  isplitl [Hh]; · iexact Hh
  isplitl [Hq]; · iexact Hq
  isplitl [HW]; · iexact HW
  iintro ⟨H0, H1, H2, HS, HT, Hh, Hq, ⟨%W', HW'⟩⟩
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  iexact H2

set_option maxRecDepth 131072 in
theorem body_obligation (hok : TblOk m) (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m hok c t

/-! ## The run -/

set_option maxRecDepth 131072 in
set_option backward.isDefEq.respectTransparency.types false in
theorem run_main (hok : TblOk m) : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem defs₀ Variants.none ownSemFacts H0 H0_sub m ρ main
    (hbody := fun c => (body_obligation m hok c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hpf := V_pre m)
    (hin := fun _ => .rfl) (hout := fun c => by change iprop(_ ∗ _) ⊢ _; iintro ⟨HD, -⟩; iexact HD)

end Cert.Kernel.Fr

end
-- ==== Proof.K.Claim.lean ====
/-
  The kernel program's (at any float instance) frame claim from its run: the table is the token ids flattened, so ids in
  range give a table whose every word names a row; and at the end of the run the three argument arrays hold
  what they held at launch — the ids because no host line writes them and the region does not stage them,
  the embedding table because the region's invariant returns it whole and no later line touches it, the
  projection matrix because it is an input window's array.
-/
import proofs.«427351_j74509092651513_1_alg».proof.Proof.K.Frame
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The table is the ids, flattened -/

/-- The table as the region finds it: the first reshape's result, the [4,4096] ids read in row-major order as one
    row of 16384 (the second reshape writes the ids column, another buffer). -/
theorem V_table (c : Dev nD) :
    (V m c main_v0 : S16384.Idx → Elt F .i32)
      = shapeCast S16384 (m ((c : Thread nD τ).loc main_arg0)) shapeCasts_S4x4096_S16384 := by
  dsimp only [V, V0]
  simp only [hostOps0, List.flatten_cons, List.flatten_nil, List.append_nil]
  after_results
  rfl

/-- Word `x` of a [4,4096] array flattened is its entry at row `x / 4096`, column `x % 4096`: the two indices have
    the same row-major position, 4096 · (x / 4096) + x % 4096 = x. -/
theorem flat_apply {α : Type} (a : S4x4096.Idx → α) (x : S16384.Idx) (h0 : (x 0).val / 4096 < 4) (h1 : (x 0).val % 4096 < 4096) :
    shapeCast S16384 a shapeCasts_S4x4096_S16384 x = a (ix2 ⟨(x 0).val / 4096, h0⟩ ⟨(x 0).val % 4096, h1⟩) := by
  refine shapeCast_apply a _ x _ ?_
  rw [Shape.rowMajor_val_two, Shape.rowMajor_val_one]
  show (x 0).val / 4096 * 4096 + (x 0).val % 4096 = (x 0).val
  omega

/-- The table's word `x` is the id at row `x / 4096`, column `x % 4096` of the [4,4096] ids. -/
theorem tbl_apply (x : S16384.Idx) :
    tbl m 0 x = m (((0 : Dev nD).tc : Thread nD τ).loc main_arg0) (ix2 ⟨(x 0).val / 4096, by have h : (x 0).val < 16384 := (x 0).isLt; show _ < 4; omega⟩ ⟨(x 0).val % 4096, Nat.mod_lt _ (by decide)⟩) := by
  show V m (0 : Dev nD) main_v0 x = _
  rw [V_table]
  exact flat_apply _ x _ _

/-- Ids in range give a table whose every word names a row. -/
theorem tblOk_of_lt (hlt : ∀ (c : Dev nD) i, (m ((c.tc : Thread nD τ).loc main_arg0) i).toNat < 32000) : TblOk m := by
  intro x
  rw [tbl_apply]
  exact hlt 0 _

/-! ## What the lines around the region leave alone -/

/-- The two reshapes before the region write the table and the ids column and nothing else: any other buffer is
    found by the region as launched. -/
theorem V_of_ne (c : Dev nD) (b : Ref sig .tc) (h0 : b ≠ main_v0) (h1 : b ≠ main_v1) :
    V m c b = m ((c : Thread nD τ).loc b) := by
  refine StableHlo.after_of_forall_not_mem (b := Proc.devRef .tc b) _ _ fun op hop hw => ?_
  simp only [hostOps0, List.flatten_cons, List.flatten_nil, List.append_nil, List.mem_cons, List.not_mem_nil, or_false] at hop
  rcases hop with rfl | rfl
  · rw [StableHlo.reshape_writes, Finset.mem_singleton] at hw
    exact h0 (Proc.devRef_injective _ hw)
  · rw [StableHlo.reshape_writes, Finset.mem_singleton] at hw
    exact h1 (Proc.devRef_injective _ hw)

/-- The one reshape after the region writes the program's result and nothing else: a buffer that is neither that
    result nor a window's array ends at what it held when the region was entered. -/
theorem tail_of_ne (c : Dev nD) (b : Ref sig .tc) (h3 : b ≠ main_v3) (harr : ∀ w, Pipeline.arrRef spec0 w ≠ b) :
    Pipeline.afterTail pcfgs (fun _ => adm m) (dats m) 0 (V0 m) [hostOps1] c b = V m c b := by
  unfold Pipeline.afterTail
  rw [StableHlo.after_of_forall_not_mem _ _ fun op hop hw => ?_, Pipeline.withArrays_of_ne _ c (V0 m c) _ b harr]
  simp only [hostOps1, List.flatten_cons, List.flatten_nil, List.append_nil, List.mem_cons, List.not_mem_nil, or_false] at hop
  rcases hop with rfl
  rw [StableHlo.reshape_writes, Finset.mem_singleton] at hw
  exact h3 (Proc.devRef_injective _ hw)

/-- The ids and the embedding table bypass the region: each is unscoped and no window's array. -/
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

/-- THE FRAME, at any float instance: every weakly fair execution of @main terminates, nothing faulting, the argument
    arrays unchanged. -/
theorem frame (hlt : ∀ (c : Dev nD) i, (m ((c.tc : Thread nD τ).loc main_arg0) i).toNat < 32000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c =>
    ⟨(((h c).2 main_arg0 arg0_rest).trans
        (tail_of_ne m c main_arg0 (by decide) (by decide))).trans (V_of_ne m c main_arg0 (by decide) (by decide)),
     (((h c).2 main_arg1 arg1_rest).trans
        (tail_of_ne m c main_arg1 (by decide) (by decide))).trans (V_of_ne m c main_arg1 (by decide) (by decide)),
     ((h c).1 0).trans (((dats m 0 c).arrAt_in 0 rfl _).trans ((A_eq m c 0).trans (V_of_ne m c main_arg2 (by decide) (by decide))))⟩)
    (run_main m ρ (tblOk_of_lt m hlt))

end Cert.Kernel.Fr

end
-- ==== Proof.KI.Setup.lean ====
/-
  The kernel program's (at any float instance) frame, first part: @main around its one region, the tables, and the
  kernel's own resources.

  @main is two reshapes (the token ids [4,4096] flattened to [16384], the prefetched table, and to the
  column [16384,1]), the region, and one reshape of its result [16384,1024] to [4,4096,1024]. The region's
  pipeline stages three windows (the projection matrix whole and fetched once, the ids column and the
  result by blocks of 256 rows) and hands the body, unstaged, the table (in scalar memory), the embedding
  table left in HBM, a scratch of 256 rows and 256 DMA semaphores. The body copies 256 rows of the
  embedding table into the scratch by transfers of its own, each on its own semaphore and each waited for
  before the point ends: between points nothing is in flight, so the region invariant is the scratch at
  some contents, the generator register, the 256 cells at zero and the embedding table whole at its
  contents, beside the table's half the region lends the body.
-/
import proofs.«427351_j74509092651513_1_alg».proof.Proof.Gen.KernelIdeal.Launch
import proofs.«427351_j74509092651513_1_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s buffer contents when the region is entered: the two reshapes have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the last reshape, entered at the contents after the first two. -/
theorem hmain (𝒱₀ : Variants) : Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The prefetched table -/

/-- The table's contents when the region is entered (one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- No window's index map reads the table: every contents is admissible. -/
abbrev adm : (pcfg0 (F := F)).Adm := ⟨tbl m, trivial⟩
abbrev cfgM : Pipeline.Cfg sig Λ₀ := cfg0 (adm m)

/-- The table as the body is handed it: its whole buffer as a memref; held at half the full share. -/
abbrev tbM : Memref sig .tc .smem S16384 .i32 := Memref.whole main_v0
abbrev tbPt (c : Dev nD) (f : Buf (Elt F) ((tbM).view.loc (c : Thread nD τ))) : sProp 𝕄 :=
  (tbM).view.loc (c : Thread nD τ) ↦{fullShare.right} f

theorem PhiT_eq (c : Dev nD) : (Pipeline.ΦT pre0 (tbl m) c : sProp 𝕄) = tbPt c (tbl m 0) := by
  unfold Pipeline.ΦT Pipeline.prefHeld
  rw [show (Finset.univ : Finset (Fin 1)) = {(0 : Fin 1)} from by decide, bigSep_singleton]
  rfl

/-! ## The kernel's own resources -/

/-- The scratch, and the embedding table left in HBM, whole. -/
abbrev scM : Memref sig .tc .vmem S256x2048 .f32 := Memref.whole cc0_scratch0
abbrev hbM : Memref sig .tc .hbm S32000x2048 .f32 := Memref.whole main_arg1
abbrev MBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : MBuf (F := F) c M) : sProp 𝕄 :=
  M.view.loc (c : Thread nD τ) ↦{fullShare} f

/-- The body's 256 DMA semaphores: cells 5 … 260 of the pool. -/
abbrev osem : Fin 256 → SemLoc sig := fun j => SemLoc.dma ⟨5 + j.val, by show 5 + j.val < 261; omega⟩
theorem ownSemFacts : Pipeline.OwnSemFacts spec0 osem := by decide

/-- The operand the body moves itself. -/
def H0 : Finset (Ref sig .tc) := {main_arg1}
theorem H0_sub : H0 ⊆ Pipeline.restRefsP sig pre0 spec0 := by decide
theorem hbmPts_eq (c : Dev nD) :
    (bigSep H0 (fun b => ((c : Thread nD τ).loc b) ↦{fullShare} V m c b) : sProp 𝕄) = hbPt c hbM (V m c main_arg1) := by
  rw [BI.bigSep_eq_bigSepL_of_eq [main_arg1] (by decide) (by decide)]; rfl

/-! ## The lines after the region -/

theorem sfx_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  rcases hops with rfl
  simp only [hostOps1, List.mem_cons, List.mem_nil_iff, or_false] at hop
  rcases hop with rfl
  refine Pipeline.sub_tailRefsBut pre0 spec0 H0 _ (StableHlo.reshape_bufs_sub ..) ?_ ?_
  · intro k; fin_cases k
    simp only [StableHlo.reshape_bufs, Finset.mem_insert, Finset.mem_singleton, not_or]
    and_intros <;> exact StableHlo.devRef_ne_of_ne (by decide)
  · intro b hb; simp only [H0, Finset.mem_singleton] at hb
    rcases hb with rfl
    simp only [StableHlo.reshape_bufs, Finset.mem_insert, Finset.mem_singleton, not_or]
    and_intros <;> exact StableHlo.devRef_ne_of_ne (by decide)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-! ## The windows' blocks and staging memrefs -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body. -/
abbrev ms0 (t : Fin (cfgM m).N) : Memref sig .tc .vmem S2048x1024 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S256x1 .i32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S256x1024 .f32 := spec0_2.stage ((cfgM m).slots t 2)
abbrev hs2 (t : Fin (cfgM m).N) : (ms2 m t).IsWhole := hstage0_2 (((cfgM m).slots t 2).cast nbuf0_2)

/-- The kernel body at point `t`, on what the pipeline calls it with. -/
abbrev bodyAt (t : Fin (cfgM m).N) : Prog (TpuEff nD τ sig (Elt F) Λ₀ .tc) PUnit :=
  cc0__embed_kernel (grid0.coords t) (Memref.whole main_v0) (Memref.isWhole_whole _) (Memref.whole main_arg1) (Memref.isWhole_whole _)
    (ms0 m t) (hs0 m t) (ms1 m t) (hs1 m t) (ms2 m t) (hs2 m t) (Memref.whole cc0_scratch0) (Memref.isWhole_whole _) cc0_scratch1

/-- One staging buffer of the result window, through which its contents are stated. -/
abbrev VO : View sig .tc .vmem S256x1024 .f32 := (Memref.whole cc0_stg2_0 : Memref sig .tc .vmem S256x1024 .f32).view

end Cert.KernelIdeal.Fr

end
-- ==== Proof.KI.Rows.lean ====
/-
  The rows the body gathers at a grid point, as a function of the table and of the embedding table: row r
  of the 256 is the embedding table's row named by the table's word 256·i + r (read unsigned and clamped
  to the last row: in range, the word itself).
-/
import proofs.«427351_j74509092651513_1_alg».proof.Proof.KI.Setup
import proofs.«427351_j74509092651513_1_alg».proof.Proof.Spec
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The table's word the body reads for row `r` at grid coordinate `i`: word 256·i + r of the 16384. -/
def wordIx (i : grid0.Coords) (r : Fin 256) : S16384.Idx := ix1 ⟨256 * (i 0).val + r.val, by have h : (i 0).val < 64 := (i 0).isLt; have := r.isLt; show _ < 16384; omega⟩

/-- The 256 gathered rows at coordinate `i`. -/
def rowsOf (i : grid0.Coords) (tb : Vec F S16384 .i32) (w0 : Vec F S32000x2048 .f32) : Vec F S256x2048 .f32 := fun j =>
  w0 (ix2 (Cert.Spec.rowOf (tb (wordIx i (j 0)))) (j 1))

/-- What the body stores into the result's block at coordinate `i`: the skeleton's payload of the gathered rows,
    the projection matrix's block and the ids' block. -/
def outOf (i : grid0.Coords) (tb : Vec F S16384 .i32) (w0 : Vec F S32000x2048 .f32) (x3 : Vec F S2048x1024 .f32) (x4 : Vec F S256x1 .i32) :
    Vec F S256x1024 .f32 :=
  k0_pay1 (rowsOf i tb w0) x3 x4

end Cert.KernelIdeal.Fr

end
-- ==== Proof.KI.Tokens.lean ====
/-
  The embedding table, read by 256 transfers in flight at once, is held as one read share per cell — the
  shares numbered as the cells of the pool are, 5 … 260 — beside the remainder; and the 256 cells at zero, listed.
-/
import proofs.«427351_j74509092651513_1_alg».proof.Proof.KI.Rows
import proofs.«427351_j74509092651513_1_alg».proof.Proof.Chains

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

/-- A memref's buffer held whole at share `q`. -/
abbrev hbTok (c : Dev nD) {sp : Space} {S : Shape} {e : EltTy} (M : Memref sig .tc sp S e) (q : PosShare TreeShare) (f : MBuf (F := F) c M) : sProp 𝕄 :=
  M.view.loc (c : Thread nD τ) ↦{q} f

/-- The shares below cell 5's, which no transfer uses. -/
def lowToks (c : Dev nD) (w0 : MBuf (F := F) c hbM) : sProp 𝕄 :=
  bigSep (Finset.range 5) fun i => hbTok c hbM (Transfers.shareTokN fullShare i) w0

/-- The 256 cells' shares, listed. -/
abbrev tokChain (c : Dev nD) (w0 : MBuf (F := F) c hbM) : sProp 𝕄 :=
  sepChain% 5 261 (fun i => hbTok c hbM (Transfers.shareTokN fullShare i) w0)

set_option maxRecDepth 200000 in
theorem toks_eq (c : Dev nD) (w0 : MBuf (F := F) c hbM) :
    (bigSep (Finset.range 261) (fun i => hbTok c hbM (Transfers.shareTokN fullShare i) w0) : sProp 𝕄)
      = iprop(lowToks c w0 ∗ tokChain c w0) := by
  rw [BI.bigSep_sdiff_split (show Finset.range 5 ⊆ Finset.range 261 from by decide),
    BI.bigSep_eq_bigSepL_of_eq (S := Finset.range 261 \ Finset.range 5) (natList% 5 261) (by decide) (by decide)]
  rfl

/-- The embedding table whole is the remainder, the unused shares and the 256 cells' shares. -/
theorem toks_split (c : Dev nD) (w0 : MBuf (F := F) c hbM) :
    (hbPt c hbM w0 : sProp 𝕄) ⊢ iprop(hbTok c hbM (Transfers.shareDrop fullShare 261) w0 ∗ lowToks c w0 ∗ tokChain c w0) :=
  ((Transfers.pointsTo_toks_range (Ix := Unit) (Name := ℕ) (U := Pipeline.UD sig nD τ) (Lvl := ℕ) fullShare 261).1).trans
    (sep_mono .rfl (Entails.of_eq (toks_eq c w0)))

theorem toks_join (c : Dev nD) (w0 : MBuf (F := F) c hbM) :
    iprop(hbTok c hbM (Transfers.shareDrop fullShare 261) w0 ∗ lowToks c w0 ∗ tokChain c w0) ⊢ (hbPt c hbM w0 : sProp 𝕄) :=
  (sep_mono .rfl (Entails.of_eq (toks_eq c w0).symm)).trans
    ((Transfers.pointsTo_toks_range (Ix := Unit) (Name := ℕ) (U := Pipeline.UD sig nD τ) (Lvl := ℕ) fullShare 261).2)

/-- The 256 cells at zero, listed by their numbers in the pool. -/
abbrev semChain (c : Dev nD) : sProp 𝕄 :=
  sepChain% 5 261 (fun i => semVal ((c : Thread nD τ), SemLoc.dma i) 0)

set_option maxRecDepth 200000 in
theorem sems_eq (c : Dev nD) :
    (Pipeline.ownSems0 (Ix := Unit) (Name := ℕ) (U := Pipeline.UD sig nD τ) (Lvl := ℕ) (Val := Elt F) (τ := τ) osem c : sProp 𝕄) = semChain c := by
  rw [Pipeline.ownSems0_eq_of_list c osem (natList% 0 256) (by decide) (by decide)]
  rfl

end Cert.KernelIdeal.Fr

end
-- ==== Proof.KI.Scratch.lean ====
/-
  The scratch, 256 rows of 2048 words, row by row: row k as the transfers name it (the unit slice at row k,
  squeezed), the rows' element sets pairwise disjoint and together the scratch's, so the scratch held whole is
  its rows held one by one, and rows held at contents of their own join to the scratch at contents that agree
  with each row's on the row.
-/
import proofs.«427351_j74509092651513_1_alg».proof.Proof.KI.Tokens

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem rowInb (k : Fin 256) : ∀ a, (![k.val, 0] : Fin 2 → Nat) a + S1x2048.size a ≤ S256x2048.size a := by
  intro a; have := k.isLt; fin_cases a <;> simp [S1x2048, S256x2048] <;> omega

/-- Row `k` of the scratch. -/
abbrev rowRect (k : Fin 256) : Rect S256x2048 := Rect.unit (s := S256x2048) ![k.val, 0] S1x2048.size (rowInb k)
abbrev dstRow (k : Fin 256) : Memref sig .tc .vmem S2048 .f32 :=
  (scM.slice (rowRect k) (fun _ => rfl)).squeeze S2048 squeezes_S1x2048_S2048

theorem rowSet_eq (k : Fin 256) : (dstRow k).view.set = (rowRect k).set.map scM.view.emb := by
  simp only [Memref.view_squeeze, View.set_reshape, Memref.view_slice, View.set_slice]

theorem rowSet_disjoint {k k' : Fin 256} (h : k ≠ k') : Disjoint (dstRow k).view.set (dstRow k').view.set := by
  rw [rowSet_eq, rowSet_eq]
  refine (Finset.disjoint_map _).mpr (Rect.unit_disjoint (0 : Fin 2) ?_)
  have : k.val ≠ k'.val := fun e => h (Fin.ext e)
  show k.val + 1 ≤ k'.val ∨ k'.val + 1 ≤ k.val
  omega

theorem rowSet_cover : Finset.univ.biUnion (fun k : Fin 256 => (dstRow k).view.set) = scM.view.set := by
  ext i
  rw [Finset.mem_biUnion]
  constructor
  · rintro ⟨k, -, hk⟩
    rw [rowSet_eq] at hk
    obtain ⟨j, -, rfl⟩ := Finset.mem_map.mp hk
    exact Finset.mem_map_of_mem _ (Finset.mem_univ j)
  · intro hi
    obtain ⟨j, -, rfl⟩ := Finset.mem_map.mp (show i ∈ Finset.univ.map scM.view.emb from hi)
    refine ⟨(⟨(j 0).val, (j 0).isLt⟩ : Fin 256), Finset.mem_univ _, ?_⟩
    rw [rowSet_eq]
    refine Finset.mem_map_of_mem _ (Rect.mem_set_unit.mpr fun a => ?_)
    fin_cases a
    · exact ⟨le_refl _, Nat.lt_succ_self _⟩
    · exact ⟨Nat.zero_le _, by have h : (j 1).val < 2048 := (j 1).isLt; show (j 1).val < 0 + 2048; omega⟩

variable (c : Dev nD)

/-- The scratch held whole is its rows held one by one. -/
theorem rows_split (fs : MBuf (F := F) c scM) :
    (scM.view.loc (c : Thread nD τ) ↦[scM.view.set]{fullShare} fs : sProp 𝕄)
      = bigSep Finset.univ fun k : Fin 256 => scM.view.loc (c : Thread nD τ) ↦[(dstRow k).view.set]{fullShare} fs := by
  have h := pointsTo_biUnion (Ix := Unit) (Name := ℕ) (U := Pipeline.UD sig nD τ) (Lvl := ℕ) (ℓ := scM.view.loc (c : Thread nD τ)) (q := fullShare) (f := fs)
    Finset.univ (fun k : Fin 256 => (dstRow k).view.set) (fun k _ k' _ h => rowSet_disjoint h)
  rw [rowSet_cover] at h
  exact h

/-- Rows held at contents of their own join to the scratch at contents agreeing with each on its row. -/
theorem rows_join (fs : Fin 256 → MBuf (F := F) c scM) (f₀ : MBuf (F := F) c scM) :
    bigSep Finset.univ (fun k : Fin 256 => scM.view.loc (c : Thread nD τ) ↦[(dstRow k).view.set]{fullShare} fs k)
      ⊢ (iprop(∃ g, ⌜∀ k : Fin 256, ∀ i ∈ (dstRow k).view.set, g i = fs k i⌝ ∗ scM.view.loc (c : Thread nD τ) ↦[scM.view.set]{fullShare} g) : sProp 𝕄) := by
  have h := pointsTo_biUnion_join (Ix := Unit) (Name := ℕ) (U := Pipeline.UD sig nD τ) (Lvl := ℕ) (ℓ := scM.view.loc (c : Thread nD τ)) (q := fullShare)
    Finset.univ (fun k : Fin 256 => (dstRow k).view.set) fs f₀ (fun k _ k' _ h => rowSet_disjoint h)
  rw [rowSet_cover] at h
  refine h.trans ?_
  iintro ⟨%g, %hg, H⟩
  iexists g
  isplitr; · ipureintro; exact fun k => hg k (Finset.mem_univ k)
  iexact H

end Cert.KernelIdeal.Fr

end
-- ==== Proof.KI.Gather.lean ====
/-
  What the 256 transfers leave in the scratch, read back: transfer k reads the table's word 256·i + k, takes
  the embedding table's row that word names, and writes it over row k of the scratch; so the scratch read whole
  is, row by row, the rows the table names.
-/
import proofs.«427351_j74509092651513_1_alg».proof.Proof.KI.Scratch

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The offset of the table's word transfer `k` reads, as the body computes it: 256·i + k in 32-bit words. -/
def offGen (i : grid0.Coords) (k : Nat) : Fin 1 → Nat :=
  ![(Scalar.indexCast (Scalar.addi (Scalar.muli (BitVec.ofNat 32 (i 0).val) 256#32) (BitVec.ofNat 32 k))).toNat]

/-- With a < 64 and k < 256 the 32-bit product and sum do not wrap: the word a·256 + k read unsigned is 256·a + k. -/
theorem offWord_toNat (a k : Nat) (ha : a < 64) (hk : k < 256) :
    (Scalar.indexCast (Scalar.addi (Scalar.muli (BitVec.ofNat 32 a) 256#32) (BitVec.ofNat 32 k))).toNat = 256 * a + k := by
  unfold Scalar.indexCast Scalar.addi Scalar.muli IntOp.addi IntOp.muli
  rw [BitVec.toNat_add, BitVec.toNat_mul, BitVec.toNat_ofNat, BitVec.toNat_ofNat, BitVec.toNat_ofNat]
  omega

theorem offGen_eq (i : grid0.Coords) (k : Nat) (hk : k < 256) : offGen i k = ![256 * (i 0).val + k] := by
  have hi : (i 0).val < 64 := (i 0).isLt
  unfold offGen
  rw [offWord_toNat _ _ hi hk]

theorem offGen_inb (i : grid0.Coords) (k : Nat) (hk : k < 256) : ∀ a, offGen i k a + S1.size a ≤ S16384.size a := by
  have hi : (i 0).val < 64 := (i 0).isLt
  rw [offGen_eq i k hk]
  refine Fin.forall_fin_one.mpr ?_
  show 256 * (i 0).val + k + 1 ≤ 16384
  omega

/-- The word transfer `k` reads off the table. -/
def wordGen (i : grid0.Coords) (tb : Vec F S16384 .i32) (k : Fin 256) : BitVec 32 :=
  tbM.view.readAt (Elt F) (Rect.unit (s := S16384) (offGen i k.val) S1.size (offGen_inb i k.val k.isLt)).toLoadRect tb (Shape.Idx.first (show 0 < S1.numel by decide))

theorem wordGen_eq (i : grid0.Coords) (tb : Vec F S16384 .i32) (k : Fin 256) : wordGen i tb k = tb (wordIx i k) := by
  have h0 : offGen i k.val 0 = 256 * (i 0).val + k.val := congrFun (offGen_eq i k.val k.isLt) 0
  unfold wordGen
  rw [View.readAt_apply, View.read_apply]
  -- the table is a whole buffer: the element-type cast is over `rfl` and the placement is the identity
  refine (cast_eq _ _).trans (congrArg tb ?_)
  funext a
  refine Fin.ext ?_
  match a with
  | ⟨0, _⟩ =>
    show offGen i k.val 0 + 1 * 0 = 256 * (i 0).val + k.val
    rw [h0, Nat.mul_zero, Nat.add_zero]

theorem srcInb (w : BitVec 32) (h : w.toNat < 32000) : ∀ a, (![w.toNat, 0] : Fin 2 → Nat) a + S1x2048.size a ≤ S32000x2048.size a := by
  intro a; fin_cases a <;> simp [S1x2048, S32000x2048] <;> omega

/-- The embedding table's row a word names, as the transfers name it. -/
abbrev srcRow (w : BitVec 32) (h : w.toNat < 32000) : Memref sig .tc .hbm S2048 .f32 :=
  (hbM.slice (Rect.unit (s := S32000x2048) ![w.toNat, 0] S1x2048.size (srcInb w h)) (fun _ => rfl)).squeeze S2048 squeezes_S1x2048_S2048

variable (c : Dev nD)

/-- What transfer `k` leaves: the scratch's contents with row `k` overwritten by the row the table's word names. -/
def rowAfter (i : grid0.Coords) (tb : Vec F S16384 .i32) (w0 : MBuf (F := F) c hbM) (hok : ∀ x : S16384.Idx, (tb x).toNat < 32000)
    (fs : MBuf (F := F) c scM) (k : Fin 256) : MBuf (F := F) c scM :=
  (dstRow k).view.write (Elt F) fs
    (ReadAs.same.apply ((srcRow (wordGen i tb k) (by rw [wordGen_eq]; exact hok _)).view.read (Elt F) w0)) Finset.univ

/-- A vector index `x` matched with the shape [1, a] is (0, x): the same row-major position. -/
theorem reshapeEquiv_ix1_1a {a : ℕ} (h : (⟨1, ![a]⟩ : Shape).numel = (⟨2, ![1, a]⟩ : Shape).numel)
    (x : Fin a) : Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    rw [Nat.zero_mul, Nat.zero_add])

/-- Element `x` of the scratch's row `r` sits at (r, x) of the scratch: the squeeze puts the unit axis back at 0
    and the unit slice adds its offsets (r, 0). -/
theorem dstRow_emb (r : Fin 256) (x : Fin 2048) : (dstRow r).view.emb (ix1 x) = scM.view.emb (ix2 r x) := by
  show scM.view.emb ((rowRect r).emb (Shape.reshapeEquiv squeezes_S1x2048_S2048.numel_eq (ix1 x))) = scM.view.emb (ix2 r x)
  refine congrArg scM.view.emb ?_
  refine (congrArg (rowRect r).emb (reshapeEquiv_ix1_1a squeezes_S1x2048_S2048.numel_eq x)).trans ?_
  funext a
  refine Fin.ext ?_
  match a with
  | ⟨0, _⟩ => show r.val + 1 * 0 = r.val; omega
  | ⟨1, _⟩ => show 0 + 1 * x.val = x.val; omega

/-- The same for the row of the embedding table a word names: element `x` sits at (w, x). -/
theorem srcRow_emb (w : BitVec 32) (h : w.toNat < 32000) (x : Fin 2048) :
    (srcRow w h).view.emb (ix1 x) = hbM.view.emb (ix2 (⟨w.toNat, h⟩ : Fin 32000) x) := by
  show hbM.view.emb ((Rect.unit (s := S32000x2048) ![w.toNat, 0] S1x2048.size (srcInb w h)).emb
      (Shape.reshapeEquiv squeezes_S1x2048_S2048.numel_eq (ix1 x))) = hbM.view.emb (ix2 (⟨w.toNat, h⟩ : Fin 32000) x)
  refine congrArg hbM.view.emb ?_
  refine (congrArg (Rect.unit (s := S32000x2048) ![w.toNat, 0] S1x2048.size (srcInb w h)).emb
    (reshapeEquiv_ix1_1a squeezes_S1x2048_S2048.numel_eq x)).trans ?_
  funext a
  refine Fin.ext ?_
  match a with
  | ⟨0, _⟩ => show w.toNat + 1 * 0 = w.toNat; omega
  | ⟨1, _⟩ => show 0 + 1 * x.val = x.val; omega

/-- The row a word names read off the embedding table's contents: element `x` is the table's at (w, x). -/
theorem srcRow_read (w : BitVec 32) (h : w.toNat < 32000) (w0 : MBuf (F := F) c hbM) (x : Fin 2048) :
    (srcRow w h).view.read (Elt F) w0 (ix1 x) = w0 (ix2 (⟨w.toNat, h⟩ : Fin 32000) x) := by
  rw [View.read_apply, srcRow_emb]
  exact cast_eq _ _

/-- Contents of the scratch that agree with each transfer's on its row read, whole, as the gathered rows. -/
theorem gathered_eq (i : grid0.Coords) (tb : Vec F S16384 .i32) (w0 : MBuf (F := F) c hbM) (hok : ∀ x : S16384.Idx, (tb x).toNat < 32000)
    (fs g : MBuf (F := F) c scM) (hg : ∀ k : Fin 256, ∀ idx ∈ (dstRow k).view.set, g idx = rowAfter c i tb w0 hok fs k idx) :
    scM.view.read (Elt F) g = rowsOf i tb w0 := by
  funext idx
  obtain ⟨r, x, rfl⟩ : ∃ (r : Fin 256) (x : Fin 2048), idx = ix2 r x := ⟨idx 0, idx 1, eq_ix2 idx⟩
  -- the scratch is a whole buffer: its read at (r, x) is the contents there, an element of row r
  have hmem : scM.view.emb (ix2 r x) ∈ (dstRow r).view.set := by
    rw [← dstRow_emb]; exact View.emb_mem_set _ _
  have hw : (wordGen i tb r).toNat < 32000 := by rw [wordGen_eq]; exact hok _
  rw [View.read_apply]
  refine (cast_eq _ _).trans ?_
  refine (hg r _ hmem).trans ?_
  -- row r after its transfer holds, at x, the payload: the named row of the embedding table at x
  unfold rowAfter
  rw [← dstRow_emb, View.write_emb_of_mem _ _ (Finset.mem_univ _)]
  refine (cast_eq _ _).trans ?_
  rw [ReadAs.apply_same, srcRow_read c (wordGen i tb r) hw w0 x]
  -- the word is the table's word 256·i + r, in range, so the row it names is the clamped one
  show w0 (ix2 (⟨(wordGen i tb r).toNat, hw⟩ : Fin 32000) x) = w0 (ix2 (Cert.Spec.rowOf (tb (wordIx i r))) x)
  refine congrArg w0 (congrArg (fun a : Fin 32000 => ix2 a x) (Fin.ext ?_))
  show (wordGen i tb r).toNat = (Cert.Spec.rowOf (tb (wordIx i r))).val
  rw [wordGen_eq, Cert.Spec.rowOf_val_of_lt (hok _)]

end Cert.KernelIdeal.Fr

end
-- ==== Proof.KI.RowChain.lean ====
/-
  The scratch's 256 rows as the body's transfers name them, listed: the scratch held whole is the list of its
  rows held one by one, and after the 256 transfers the rows, each at what its transfer left, join to the
  scratch at contents that agree with each transfer's on its row.
-/
import proofs.«427351_j74509092651513_1_alg».proof.Proof.KI.Gather
import proofs.«427351_j74509092651513_1_alg».proof.Proof.ChainsMore

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

/-- A memref held by exactly its own elements. -/
abbrev ownM (c : Dev nD) {sp : Space} {S : Shape} {e : EltTy} (M : Memref sig .tc sp S e) (f : MBuf (F := F) c M) : sProp 𝕄 :=
  M.view.loc (c : Thread nD τ) ↦[M.view.set]{fullShare} f

variable (c : Dev nD)

/-- The 256 rows at the scratch's contents, each spelt as the transfer into it spells it. -/
abbrev rowChain (fs : MBuf (F := F) c scM) : sProp 𝕄 :=
  sepChainId% 0 256 "inb_S256x2048_S1x2048_" "_0" (fun j h =>
    ownM c ((scM.slice (Rect.unit (s := S256x2048) ![j, 0] S1x2048.size h) (fun _ => rfl)).squeeze S2048 squeezes_S1x2048_S2048) fs)

set_option maxHeartbeats 4000000 in
set_option maxRecDepth 200000 in
theorem rows_chain_split (fs : MBuf (F := F) c scM) :
    (scM.view.loc (c : Thread nD τ) ↦[scM.view.set]{fullShare} fs : sProp 𝕄) ⊢ rowChain c fs := by
  rw [rows_split, BI.bigSep_univ_eq_bigSepL (natList% 0 256) (by decide) (by decide)]
  exact Entails.of_eq rfl

/-- What transfer `k` leaves, as one write of the whole row listed over the scratch's contents. -/
def rowRun (i : grid0.Coords) (tb : Vec F S16384 .i32) (w0 : MBuf (F := F) c hbM) (hok : ∀ x : S16384.Idx, (tb x).toNat < 32000)
    (fs : MBuf (F := F) c scM) (k : Fin 256) : MBuf (F := F) c scM :=
  (dstRow k).view.writes (Elt F) fs
    [⟨Rect.whole S2048, ReadAs.same.apply ((srcRow (wordGen i tb k) (by rw [wordGen_eq]; exact hok _)).view.read (Elt F) w0)⟩]

/-- On row `k` the listed write is the write: the whole row's rectangle places every index at itself. -/
theorem rowRun_agree (i : grid0.Coords) (tb : Vec F S16384 .i32) (w0 : MBuf (F := F) c hbM) (hok : ∀ x : S16384.Idx, (tb x).toNat < 32000)
    (fs : MBuf (F := F) c scM) (k : Fin 256) :
    ∀ idx ∈ (dstRow k).view.set, rowRun c i tb w0 hok fs k idx = rowAfter c i tb w0 hok fs k idx := by
  intro idx hidx
  obtain ⟨y, -, rfl⟩ := Finset.mem_map.mp (show idx ∈ Finset.univ.map (dstRow k).view.emb from hidx)
  unfold rowRun rowAfter
  rw [View.writes_singleton]
  have e : (dstRow k).view.emb y = ((dstRow k).view.slice (Rect.whole S2048)).emb ((show (Rect.whole S2048).shape.Idx from y)) := by
    rw [View.emb_slice]
    show _ = (dstRow k).view.emb ((Rect.whole S2048).emb y)
    rw [Rect.emb_whole_apply]
  conv_lhs => rw [e, View.write_emb_of_mem _ _ (Finset.mem_univ _)]
  rw [View.write_emb_of_mem _ _ (Finset.mem_univ _)]

/-- Row `k` at what its transfer left. -/
abbrev rowAfterPt (i : grid0.Coords) (tb : Vec F S16384 .i32) (w0 : MBuf (F := F) c hbM) (hok : ∀ x : S16384.Idx, (tb x).toNat < 32000)
    (fs : MBuf (F := F) c scM) (k : Fin 256) : sProp 𝕄 :=
  scM.view.loc (c : Thread nD τ) ↦[(dstRow k).view.set]{fullShare} rowRun c i tb w0 hok fs k

/-- The 256 rows, each at what its transfer left. -/
abbrev afterChain (i : grid0.Coords) (tb : Vec F S16384 .i32) (w0 : MBuf (F := F) c hbM) (hok : ∀ x : S16384.Idx, (tb x).toNat < 32000)
    (fs : MBuf (F := F) c scM) : sProp 𝕄 :=
  sepChain% 0 256 (rowAfterPt c i tb w0 hok fs)

set_option maxHeartbeats 4000000 in
set_option maxRecDepth 200000 in
theorem rows_chain_join (i : grid0.Coords) (tb : Vec F S16384 .i32) (w0 : MBuf (F := F) c hbM) (hok : ∀ x : S16384.Idx, (tb x).toNat < 32000)
    (fs : MBuf (F := F) c scM) :
    afterChain c i tb w0 hok fs
      ⊢ (iprop(∃ g, ⌜∀ k : Fin 256, ∀ idx ∈ (dstRow k).view.set, g idx = rowAfter c i tb w0 hok fs k idx⌝
          ∗ scM.view.loc (c : Thread nD τ) ↦[scM.view.set]{fullShare} g) : sProp 𝕄) := by
  have h := rows_join c (rowRun c i tb w0 hok fs) fs
  rw [BI.bigSep_univ_eq_bigSepL (natList% 0 256) (by decide) (by decide)] at h
  refine ((Entails.of_eq rfl).trans h).trans ?_
  iintro ⟨%g, %hg, H⟩
  iexists g
  isplitr; · ipureintro; exact fun k idx hidx => (hg k idx hidx).trans (rowRun_agree c i tb w0 hok fs k idx hidx)
  iexact H

end Cert.KernelIdeal.Fr

end
-- ==== Proof.KI.OutEq.lean ====
/-
  The result's block after the body, read back: the one store covers the block, so it reads as the stored
  payload; the payload's three operands are the scratch read whole — the gathered rows —, and the projection
  matrix's and the ids' blocks as they were handed in.
-/
import proofs.«427351_j74509092651513_1_alg».proof.Proof.KI.RowChain
import Idealize.ShloMosaic.Lib.Pipeline.Value
import Idealize.ShloMosaic.Lib.Pipeline.FrameBody
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem out_eq (c : Dev nD) (i : grid0.Coords)
    (arg3 : Memref sig .tc .vmem S2048x1024 .f32) (harg3 : arg3.IsWhole) (arg4 : Memref sig .tc .vmem S256x1 .i32) (harg4 : arg4.IsWhole)
    (arg5 : Memref sig .tc .vmem S256x1024 .f32)
    (x3 : Vec F S2048x1024 .f32) (x4 : Vec F S256x1 .i32)
    (tb : MBuf (F := F) c tbM) (w0 : MBuf (F := F) c hbM) (hok : ∀ x : S16384.Idx, (tb x).toNat < 32000)
    (f5 : BufTy.Contents (Elt F) arg5.view.ty) (fs g : MBuf (F := F) c scM)
    (hg : ∀ k : Fin 256, ∀ idx ∈ (dstRow k).view.set, g idx = rowAfter c i tb w0 hok fs k idx) :
    View.read (Elt F) arg5.view
      (arg5.view.writes (Elt F) f5
        [⟨Rect.unit ![0, 0] S256x1024.size inb_S256x1024_S256x1024_0_0,
            k0_pay1
              (View.readAt (Elt F) scM.view (Rect.unit ![0, 0] S256x2048.size inb_S256x2048_S256x2048_0_0).toLoadRect g)
              (View.readAt (Elt F) arg3.view (Rect.unit ![0, 0] S2048x1024.size inb_S2048x1024_S2048x1024_0_0).toLoadRect (harg3.unread x3))
              (View.readAt (Elt F) arg4.view (Rect.unit ![0, 0] S256x1.size inb_S256x1_S256x1_0_0).toLoadRect (harg4.unread x4))⟩])
      = outOf i tb w0 x3 x4 := by
  have hz : (![0, 0] : Fin 2 → Nat) = fun _ => 0 := by funext a; fin_cases a <;> rfl
  unfold outOf
  rw [View.read_writes_eq_canon _ _ _ (View.cover_of_tiledL _ S256x1024.size (by sl_kernel_rfl)), View.canon_unit_zero hz]
  simp only [View.readAt_eq_ld, harg3.read_unread, harg4.read_unread, View.ld_unit_zero (S := S2048x1024) hz,
    View.ld_unit_zero (S := S256x1) hz, View.ld_unit_zero (S := S256x2048) hz]
  rw [gathered_eq c i tb w0 hok fs g hg]

end Cert.KernelIdeal.Fr

end
-- ==== Proof.KI.Run.lean ====
/-
  The kernel body's triple, on any whole staging memrefs: from the projection matrix's and the ids' blocks
  at their contents, the result's block and the scratch at anything, the table's half, the embedding table
  whole, the 256 cells at zero and the core's waits, the body runs to its return handing everything back as
  it was except the result's block, which holds the payload of the 256 gathered rows — provided every word
  of the table names a row of the embedding table (each transfer's source row is then inside it).

  The body issues its 256 transfers before it waits for any: the embedding table is lent one read share per
  cell, the scratch row by row, each row to the transfer that fills it; every wait hands its row back at what
  the transfer wrote and its share whole; the rows then join to the scratch, which the body reads whole.
-/
import proofs.«427351_j74509092651513_1_alg».proof.Proof.KI.OutEq

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Cert.Chains

set_option maxHeartbeats 0 in
set_option maxRecDepth 200000 in
theorem kernelRun (c : Dev nD) (i : grid0.Coords)
    (arg3 : Memref sig .tc .vmem S2048x1024 .f32) (harg3 : arg3.IsWhole) (arg4 : Memref sig .tc .vmem S256x1 .i32) (harg4 : arg4.IsWhole)
    (arg5 : Memref sig .tc .vmem S256x1024 .f32) (harg5 : arg5.IsWhole)
    (x3 : Vec F S2048x1024 .f32) (x4 : Vec F S256x1 .i32)
    (tb : MBuf (F := F) c tbM) (w0 : MBuf (F := F) c hbM)
    (hok : ∀ x : S16384.Idx, (tb x).toNat < 32000)
    (W : Waits sig Unit) (K : PUnit → sProp 𝕄) :
    iprop(owns (c : Thread nD τ) arg3 fullShare x3 ∗ owns (c : Thread nD τ) arg4 fullShare x4 ∗ (∃ d, owns (c : Thread nD τ) arg5 fullShare d)
        ∗ (∃ d, owns (c : Thread nD τ) scM fullShare d) ∗ tbPt c tb ∗ hbPt c hbM w0
        ∗ Pipeline.ownSems0 (Ix := Unit) (Name := ℕ) (U := Pipeline.UD sig nD τ) (Lvl := ℕ) (Val := Elt F) (τ := τ) osem c
        ∗ owes (c : Thread nD τ) 0 W
        ∗ (iprop(owns (c : Thread nD τ) arg3 fullShare x3 ∗ owns (c : Thread nD τ) arg4 fullShare x4
              ∗ owns (c : Thread nD τ) arg5 fullShare (outOf i tb w0 x3 x4)
              ∗ (∃ d, owns (c : Thread nD τ) scM fullShare d) ∗ tbPt c tb ∗ hbPt c hbM w0
              ∗ Pipeline.ownSems0 (Ix := Unit) (Name := ℕ) (U := Pipeline.UD sig nD τ) (Lvl := ℕ) (Val := Elt F) (τ := τ) osem c
              ∗ (∃ W', owes (c : Thread nD τ) 0 W')) -∗ K ⟨⟩))
      ⊢ wp frame (wpE (defs₀ (F := F)) Variants.none c none) Set.univ
          (cc0__embed_kernel i tbM (Memref.isWhole_whole _) hbM (Memref.isWhole_whole _) arg3 harg3 arg4 harg4 arg5 harg5 scM (Memref.isWhole_whole _) cc0_scratch1) K := by
  simp only [cc0__embed_kernel_eq_skeleton]; unfold cc0__embed_kernel_skel
  unfold owns
  rw [sems_eq c]
  iintro ⟨⟨%f3, %hf3, H3⟩, ⟨%f4, %hf4, H4⟩, ⟨%d5, %f5, -, H5⟩, ⟨%ds, %fs, -, HS⟩, HT, Hh, Hq, HW, HK⟩
  obtain rfl := harg3.eq_unread hf3
  obtain rfl := harg4.eq_unread hf4
  -- the embedding table as one read share per cell; the cells and the scratch's rows listed
  ihave Hh' := (toks_split c w0) $$ Hh
  icases Hh' with ⟨HR, HL, Hks⟩
  ichain Hks Hk 5 261
  ichain Hq Hd 5 261
  ihave HS' := (rows_chain_split c fs) $$ HS
  ichain HS' Hs 0 256
  have hokR : ∀ (r : LoadRect S16384) (j : r.shape.Idx), (tbM.view.readAt (Elt F) r tb j).toNat < 32000 := fun r j => hok _
  -- the 256 transfers and their waits, up to the load of the whole scratch
  sl_exec_parts (disch := exact srcInb _ (hokR _ _))
  -- the rows join
  ihave_chain HG := (rows_chain_join c i tb w0 hok fs) from Hs 0 256
  · iclose Hs 0 256
  icases HG with ⟨%g, %hg, HS⟩
  -- the product, the mask and the scale; the store
  sl_exec_parts
  sl_step
  iapply HK
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    exact out_eq c i arg3 harg3 arg4 harg4 arg5 x3 x4 tb w0 hok f5 fs g hg
  isplitl [HS]
  · iexists _, _; isplitr; swap; · iexact HS
    ipureintro; rfl
  isplitl [HT]; · iexact HT
  isplitl_with [HR HL] Hk 5 261
  · iapply (toks_join c w0)
    isplitl [HR]; · iexact HR
    isplitl [HL]; · iexact HL
    iclose Hk 5 261
  isplitr [HW]
  · iclose Hd 5 261
  iexists _; iexact HW

end Cert.KernelIdeal.Fr

end
-- ==== Proof.KI.Frame.lean ====
/-
  The kernel program's (at any float instance) frame and the contents of its result: the proof data of the one pipeline,
  the body obligation at every grid point, and the run — every weakly fair execution of @main terminates,
  nothing faulting, the pipeline's arrays at what the write-backs leave (the result array's block t at the
  payload of the rows gathered at point t), every other buffer at what the last reshape leaves.
-/
import proofs.«427351_j74509092651513_1_alg».proof.Proof.KI.Run

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Every word of the table names a row of the embedding table. -/
abbrev TblOk : Prop := ∀ x : S16384.Idx, (tbl m 0 x).toNat < 32000

/-- What the result's staging buffer holds after the body at point `t`. -/
def outsAt (c : Dev nD) (t : Fin (cfgM m).N) : Vec F S256x1024 .f32 :=
  outOf (grid0.coords t) (tbl m 0) (V m c main_arg1) (iblk m c 0 t) (iblk m c 1 t)

/-- The proof data on core `c`: the arrays as the region finds them; after the body each input's buffer at its block
    and the result's at `outsAt`; the invariant: the scratch at some contents, the generator register, the 256 cells at
    zero, the embedding table whole at its contents, and the table's half; nothing owed; full shares. -/
def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => outsAt m c t
  Φ _ := iprop(Pipeline.ΦD osem spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = outsAt m c t := by dsimp only [dats]; try rfl

theorem before0 (c : Dev nD) (t : Fin (cfgM m).N) (d) : (dats m 0 c).before 0 t d = iblk m c 0 t :=
  before0_of m (dats m 0 c) (A_eq m c 0) (after0 m c) t d
theorem before1 (c : Dev nD) (t : Fin (cfgM m).N) (d) : (dats m 0 c).before 1 t d = iblk m c 1 t :=
  before1_of m (dats m 0 c) (A_eq m c 1) (after1 m c) t d

/-- The invariant's first part, conjunct by conjunct. -/
theorem PhiD_eq (c : Dev nD) :
    (Pipeline.ΦD osem spec0 H0 (V m) c : sProp 𝕄)
      = iprop(iprop((∃ d, owns (c : Thread nD τ) scM fullShare d)) ∗ (∃ r, prngReg c r)
          ∗ Pipeline.ownSems0 (Ix := Unit) (Name := ℕ) (U := Pipeline.UD sig nD τ) (Lvl := ℕ) (Val := Elt F) (τ := τ) osem c
          ∗ hbPt c hbM (V m c main_arg1)) := by
  rw [Pipeline.ΦD_eq, scopedRest0_eq, hbmPts_eq]; simp only [scM, owns_whole]; try rfl

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

theorem sound_body (hok : TblOk m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1]
  rw [show (dats m 0 c).Φ t.succ = (dats m 0 c).Φ t.castSucc from rfl, after0, after1, after2]
  rw [show (dats m 0 c).Φ t.castSucc = iprop(Pipeline.ΦD osem spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  unfold outsAt
  iintro ⟨⟨⟨HS, Hg, Hq, Hh⟩, HT⟩, ⟨%W, -, HW⟩, ⟨%d0, H0⟩, ⟨%d1, H1⟩, ⟨%d2, H2⟩⟩
  iapply (kernelRun c (grid0.coords t) _ _ _ _ _ _ (iblk m c 0 t) (iblk m c 1 t) (tbl m 0) (V m c main_arg1) hok W _)
  isplitl [H0]; · iexact H0
  isplitl [H1]; · iexact H1
  isplitl [H2]; · iexists _; iexact H2
  isplitl [HS]; · iexact HS
  isplitl [HT]; · iexact HT
  isplitl [Hh]; · iexact Hh
  isplitl [Hq]; · iexact Hq
  isplitl [HW]; · iexact HW
  iintro ⟨H0, H1, H2, HS, HT, Hh, Hq, ⟨%W', HW'⟩⟩
  isplitl [HS Hg Hq Hh HT]
  · isplitl [HS Hg Hq Hh]
    · isplitl [HS]; · iexact HS
      isplitl [Hg]; · iexact Hg
      isplitl [Hq]; · iexact Hq
      iexact Hh
    iexact HT
  isplitl [HW']
  · iexists W'; isplitr; · ipureintro; exact fun _ _ => Or.inl trivial
    iexact HW'
  isplitl [H0]; · iexact H0
  isplitl [H1]; · iexact H1
  iexact H2

set_option maxRecDepth 131072 in
theorem body_obligation (hok : TblOk m) (c : Dev nD) : BodyObligation (dats (F := F) m 0 c) (defs₀ (F := F)) Variants.none () Set.univ := fun t => by
  rw [bigSep_W0, bigSep_W0]
  show bodyPre m c t ⊢ wp frame (wpE (defs₀ (F := F)) Variants.none c none) Set.univ (bodyAt m t) (fun _ => bodyPost m c t)
  exact sound_body m hok c t

/-! ## The run -/

set_option maxRecDepth 131072 in
set_option backward.isDefEq.respectTransparency.types false in
theorem run_main (hok : TblOk m) : θ_run defs (onTc (τ := τ) (main (F := F))) (s₀ m ρ)
    (Pipeline.FramePost (Pipeline.pin pcfgs fun _ => adm m) (dats m) 0 (Pipeline.afterTail pcfgs (fun _ => adm m) (dats m) 0 (V0 m) [hostOps1])) :=
  Pipeline.θ_run_frameP_dma_around pcfgs (fun _ => adm m) (dats m) (0 : Fin 1) launch0 osem defs₀ Variants.none ownSemFacts H0 H0_sub m ρ main
    (hbody := fun c => (body_obligation m hok c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hpf := V_pre m)
    (hin := fun _ => .rfl) (hout := fun c => by change iprop(_ ∗ _) ⊢ _; iintro ⟨HD, -⟩; iexact HD)

end Cert.KernelIdeal.Fr

end
-- ==== Proof.KI.Claim.lean ====
/-
  The kernel program's (at any float instance) frame claim from its run: the table is the token ids flattened, so ids in
  range give a table whose every word names a row; and at the end of the run the three argument arrays hold
  what they held at launch — the ids because no host line writes them and the region does not stage them,
  the embedding table because the region's invariant returns it whole and no later line touches it, the
  projection matrix because it is an input window's array.
-/
import proofs.«427351_j74509092651513_1_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The table is the ids, flattened -/

/-- The table as the region finds it: the first reshape's result, the [4,4096] ids read in row-major order as one
    row of 16384 (the second reshape writes the ids column, another buffer). -/
theorem V_table (c : Dev nD) :
    (V m c main_v0 : S16384.Idx → Elt F .i32)
      = shapeCast S16384 (m ((c : Thread nD τ).loc main_arg0)) shapeCasts_S4x4096_S16384 := by
  dsimp only [V, V0]
  simp only [hostOps0, List.flatten_cons, List.flatten_nil, List.append_nil]
  after_results
  rfl

/-- Word `x` of a [4,4096] array flattened is its entry at row `x / 4096`, column `x % 4096`: the two indices have
    the same row-major position, 4096 · (x / 4096) + x % 4096 = x. -/
theorem flat_apply {α : Type} (a : S4x4096.Idx → α) (x : S16384.Idx) (h0 : (x 0).val / 4096 < 4) (h1 : (x 0).val % 4096 < 4096) :
    shapeCast S16384 a shapeCasts_S4x4096_S16384 x = a (ix2 ⟨(x 0).val / 4096, h0⟩ ⟨(x 0).val % 4096, h1⟩) := by
  refine shapeCast_apply a _ x _ ?_
  rw [Shape.rowMajor_val_two, Shape.rowMajor_val_one]
  show (x 0).val / 4096 * 4096 + (x 0).val % 4096 = (x 0).val
  omega

/-- The table's word `x` is the id at row `x / 4096`, column `x % 4096` of the [4,4096] ids. -/
theorem tbl_apply (x : S16384.Idx) :
    tbl m 0 x = m (((0 : Dev nD).tc : Thread nD τ).loc main_arg0) (ix2 ⟨(x 0).val / 4096, by have h : (x 0).val < 16384 := (x 0).isLt; show _ < 4; omega⟩ ⟨(x 0).val % 4096, Nat.mod_lt _ (by decide)⟩) := by
  show V m (0 : Dev nD) main_v0 x = _
  rw [V_table]
  exact flat_apply _ x _ _

/-- Ids in range give a table whose every word names a row. -/
theorem tblOk_of_lt (hlt : ∀ (c : Dev nD) i, (m ((c.tc : Thread nD τ).loc main_arg0) i).toNat < 32000) : TblOk m := by
  intro x
  rw [tbl_apply]
  exact hlt 0 _

/-! ## What the lines around the region leave alone -/

/-- The two reshapes before the region write the table and the ids column and nothing else: any other buffer is
    found by the region as launched. -/
theorem V_of_ne (c : Dev nD) (b : Ref sig .tc) (h0 : b ≠ main_v0) (h1 : b ≠ main_v1) :
    V m c b = m ((c : Thread nD τ).loc b) := by
  refine StableHlo.after_of_forall_not_mem (b := Proc.devRef .tc b) _ _ fun op hop hw => ?_
  simp only [hostOps0, List.flatten_cons, List.flatten_nil, List.append_nil, List.mem_cons, List.not_mem_nil, or_false] at hop
  rcases hop with rfl | rfl
  · rw [StableHlo.reshape_writes, Finset.mem_singleton] at hw
    exact h0 (Proc.devRef_injective _ hw)
  · rw [StableHlo.reshape_writes, Finset.mem_singleton] at hw
    exact h1 (Proc.devRef_injective _ hw)

/-- The one reshape after the region writes the program's result and nothing else: a buffer that is neither that
    result nor a window's array ends at what it held when the region was entered. -/
theorem tail_of_ne (c : Dev nD) (b : Ref sig .tc) (h3 : b ≠ main_v3) (harr : ∀ w, Pipeline.arrRef spec0 w ≠ b) :
    Pipeline.afterTail pcfgs (fun _ => adm m) (dats m) 0 (V0 m) [hostOps1] c b = V m c b := by
  unfold Pipeline.afterTail
  rw [StableHlo.after_of_forall_not_mem _ _ fun op hop hw => ?_, Pipeline.withArrays_of_ne _ c (V0 m c) _ b harr]
  simp only [hostOps1, List.flatten_cons, List.flatten_nil, List.append_nil, List.mem_cons, List.not_mem_nil, or_false] at hop
  rcases hop with rfl
  rw [StableHlo.reshape_writes, Finset.mem_singleton] at hw
  exact h3 (Proc.devRef_injective _ hw)

/-- The ids and the embedding table bypass the region: each is unscoped and no window's array. -/
theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

/-- THE FRAME, at any float instance: every weakly fair execution of @main terminates, nothing faulting, the argument
    arrays unchanged. -/
theorem frame (hlt : ∀ (c : Dev nD) i, (m ((c.tc : Thread nD τ).loc main_arg0) i).toNat < 32000) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c =>
    ⟨(((h c).2 main_arg0 arg0_rest).trans
        (tail_of_ne m c main_arg0 (by decide) (by decide))).trans (V_of_ne m c main_arg0 (by decide) (by decide)),
     (((h c).2 main_arg1 arg1_rest).trans
        (tail_of_ne m c main_arg1 (by decide) (by decide))).trans (V_of_ne m c main_arg1 (by decide) (by decide)),
     ((h c).1 0).trans (((dats m 0 c).arrAt_in 0 rfl _).trans ((A_eq m c 0).trans (V_of_ne m c main_arg2 (by decide) (by decide))))⟩)
    (run_main m ρ (tblOk_of_lt m hlt))

end Cert.KernelIdeal.Fr

end
-- ==== Proof.PayValue.lean ====
/-
  The value the kernel body stores, read at one entry of the 256×1024 block, over the extended reals:
  from the 256 gathered rows `xs`, the projection matrix `w` and the block's 256 token ids `idv`, entry
  (r, h) is the sum over k of xs[r, k] · w[k, h] (the matrix unit's product into a zero accumulator; the
  changes of format are the identity), times 0 or 1 as the row's token is the padding token or not, times 32.
-/
import proofs.«427351_j74509092651513_1_alg».proof.Proof.Gen.KernelIdeal.Skeleton
import proofs.«427351_j74509092651513_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Cert.KernelIdeal Cert.KernelIdeal.Gen
open Idealize.ShloMosaic Idealize.ShloMosaic.ValueIdx

/-! ## The matrix unit's product at an entry

The product contracts the left operand's axis 1 with the right operand's axis 0: at output entry `i` and contraction
position `q` the left operand is read at (i 0, q) and the right one at (q, i 1). One statement per operand axis. -/

/-- The left operand's row is the output's row. -/
theorem lhs_axis0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide),
    dif_pos (show (0 : Fin S256x2048.rank) ∈ dot_S256x2048_S2048x1024_S256x1024_1_0_0_1_n_n.lhsNonContracting by decide)]
  rfl
/-- The left operand's column is the contraction position. -/
theorem lhs_axis1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
/-- The right operand's row is the contraction position. -/
theorem rhs_axis0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
/-- The right operand's column is the output's column. -/
theorem rhs_axis1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide),
    dif_pos (show (1 : Fin S2048x1024.rank) ∈ dot_S256x2048_S2048x1024_S256x1024_1_0_0_1_n_n.rhsNonContracting by decide)]
  rfl

/-- Into a zero accumulator the product at entry (r, h) is the sum over k of a[r, k] · b[k, h]. -/
theorem matmul_zero_apply (a : FVec Ideal S256x2048 .bf16) (b : FVec Ideal S2048x1024 .bf16) (r : Fin 256) (h : Fin 1024) :
    matmul dot_S256x2048_S2048x1024_S256x1024_1_0_0_1_n_n none a b (constant (F := Ideal) S256x1024 .f32 0x00000000#32) (ix2 r h)
      = ∑ k : Fin 2048, a (ix2 r k) * b (ix2 k h) := by
  simp only [matmul]
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 r h) ((contrEquiv1 dot_S256x2048_S2048x1024_S256x1024_1_0_0_1_n_n 2048 rfl rfl).symm k) = ix2 r k :=
    funext fun ax => Fin.ext (by
      match ax with
      | ⟨0, _⟩ => exact lhs_axis0 _ _
      | ⟨1, _⟩ => exact (lhs_axis1 _ _).trans hk)
  have er : dot_S256x2048_S2048x1024_S256x1024_1_0_0_1_n_n.rhsIdx (ix2 r h) ((contrEquiv1 dot_S256x2048_S2048x1024_S256x1024_1_0_0_1_n_n 2048 rfl rfl).symm k) = ix2 k h :=
    funext fun ax => Fin.ext (by
      match ax with
      | ⟨0, _⟩ => exact (rhs_axis0 _ _).trans hk
      | ⟨1, _⟩ => exact rhs_axis1 _ _)
  rw [el, er]

/-! ## The padding mask at an entry -/

/-- A column [a, 1] broadcast to [a, b] reads, at (p, c), the column at row p. -/
theorem broadcastTo_a1_ab_apply {α : Type} {a b : ℕ} (v : (⟨2, ![a, 1]⟩ : Shape).Idx → α)
    (hb : (⟨2, ![a, 1]⟩ : Shape).Broadcasts ⟨2, ![a, b]⟩) (p : Fin a) (c : Fin b) :
    broadcastTo ⟨2, ![a, b]⟩ v hb (ix2 p c) = v (ix2 p (0 : Fin 1)) := by
  refine broadcastTo_apply v hb (ix2 p c) (ix2 p (0 : Fin 1)) fun ax => ?_
  match ax with
  | ⟨0, _⟩ =>
    show p.val = if a = 1 then 0 else p.val
    split
    · have := p.isLt; omega
    · rfl
  | ⟨1, _⟩ => rfl

/-- The comparison "not the padding token", widened to a word and read as a signed integer, is 0 for the token 0 and 1 otherwise. -/
theorem keep_word (t : BitVec 32) :
    (((((IntOp.cmpi .ne t 0#32).setWidth 32).toInt : ℤ) : ℝ) : EReal) = Cert.Spec.keep t := by
  unfold Cert.Spec.keep
  by_cases ht : t = 0#32
  · subst ht
    rw [if_pos rfl]
    simp [IntOp.cmpi]
  · rw [if_neg ht]
    have hb : (t != 0#32) = true := bne_iff_ne.mpr ht
    have e : IntOp.cmpi .ne t 0#32 = 1#1 := by simp [IntOp.cmpi, hb]
    rw [e]
    simp

/-- The mask at entry (r, h): 0 where row r's token is the padding token, 1 elsewhere. -/
theorem mask_apply (idv : Vec Ideal S256x1 .i32) (r : Fin 256) (h : Fin 1024) :
    broadcastTo S256x1024
        (sitofp (F := Ideal) .f32
          (extui 32 (cmpi .ne (shapeCast S256x1 idv shapeCasts_S256x1_S256x1) (broadcast S256x1 0#32)) natLt_1_32))
        broadcasts_S256x1_S256x1024 (ix2 r h)
      = Cert.Spec.keep (idv (ix2 r (0 : Fin 1))) := by
  refine (broadcastTo_a1_ab_apply _ broadcasts_S256x1_S256x1024 r h).trans ?_
  show (((((IntOp.cmpi .ne (shapeCast S256x1 idv shapeCasts_S256x1_S256x1 (ix2 r (0 : Fin 1))) 0#32).setWidth 32).toInt : ℤ) : ℝ) : EReal) = _
  rw [shapeCast_self]
  exact keep_word _

/-- The stored block at entry (r, h). -/
theorem pay_apply (xs : Vec Ideal S256x2048 .f32) (w : Vec Ideal S2048x1024 .f32) (idv : Vec Ideal S256x1 .i32) (r : Fin 256) (h : Fin 1024) :
    k0_pay1 (F := Ideal) xs w idv (ix2 r h)
      = ((∑ k : Fin 2048, xs (ix2 r k) * w (ix2 k h)) * Cert.Spec.keep (idv (ix2 r (0 : Fin 1)))) * Ideal.ofBits .f32 0x42000000#32 := by
  unfold k0_pay1
  exact congrArg₂ (· * ·)
    (congrArg₂ (· * ·)
      (matmul_zero_apply (truncf .bf16 xs bitsLt_bf16_f32) (truncf .bf16 w bitsLt_bf16_f32) r h)
      (mask_apply idv r h))
    rfl

end Cert.KernelIdeal.PayValue

end
-- ==== Proof.KI.Value.lean ====
/-
  The idealized kernel program's result over the extended reals: after the run the result array [4,4096,1024]
  is `Cert.Spec.emb` of the three arguments. The region's result array [16384,1024] holds, in block t (rows
  256·t … 256·t + 255), what the body stored at point t: row r is the projection of the embedding table's row
  named by word 256·t + r of the table — the flattened ids —, zeroed for the padding token, scaled by 32; the
  blocks tile the array; the last reshape reads row 4096·b + l as token (b, l).
-/
import proofs.«427351_j74509092651513_1_alg».proof.Proof.KI.Claim
import proofs.«427351_j74509092651513_1_alg».proof.Proof.PayValue
import proofs.«427351_j74509092651513_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat Cfg Window)

section

variable (m : (ℓ : Loc nD τ sig) → Buf (Elt Ideal) ℓ) (ρ : Dev nD → PrngReg)

/-- The id at flat position n of the [4,4096] ids: row n / 4096, column n % 4096. -/
def flatId (ids : IVec Cert.Spec.SIds 32) (n : Fin 16384) : BitVec 32 :=
  ids (ix2 (⟨n.val / 4096, by have := n.isLt; omega⟩ : Fin 4) (⟨n.val % 4096, Nat.mod_lt _ (by decide)⟩ : Fin 4096))

/-- The region's result array [16384,1024] as one function of the three arguments. -/
def projRows (ids : IVec Cert.Spec.SIds 32) (w0 : FVec Ideal Cert.Spec.SW0 .f32) (w1 : FVec Ideal Cert.Spec.SW1 .f32) :
    (⟨2, ![16384, 1024]⟩ : Shape).Idx → EReal := fun i =>
  (Cert.Spec.proj w0 w1 (Cert.Spec.rowOf (flatId ids (i 0))) (i 1) * Cert.Spec.keep (flatId ids (i 0))) * Ideal.ofBits .f32 0x42000000#32

/-- At row n, column h. -/
theorem projRows_apply (ids : IVec Cert.Spec.SIds 32) (w0 : FVec Ideal Cert.Spec.SW0 .f32) (w1 : FVec Ideal Cert.Spec.SW1 .f32) (n : Fin 16384) (h : Fin 1024) :
    projRows ids w0 w1 (ix2 n h)
      = (Cert.Spec.proj w0 w1 (Cert.Spec.rowOf (flatId ids n)) h * Cert.Spec.keep (flatId ids n)) * Ideal.ofBits .f32 0x42000000#32 := rfl

/-- The table's word at flat position n is the id there. -/
theorem tbl_word (n : Fin 16384) : tbl m 0 (ix1 n) = flatId (m (((0 : Dev nD).tc : Thread nD τ).loc main_arg0)) n :=
  tbl_apply m (ix1 n)

/-- The arrays the region finds: the embedding table and the projection matrix are the arguments. -/
theorem V_arg1 (c : Dev nD) : V m c main_arg1 = m ((c.tc : Thread nD τ).loc main_arg1) := by
  show StableHlo.after hostOps0 (fun b => m (c, b)) (Proc.devRef .tc main_arg1) = _
  after_results
/-- The same for the projection matrix. -/
theorem V_arg2 (c : Dev nD) : V m c main_arg2 = m ((c.tc : Thread nD τ).loc main_arg2) := by
  show StableHlo.after hostOps0 (fun b => m (c, b)) (Proc.devRef .tc main_arg2) = _
  after_results

/-- The ids column [16384,1] the region finds: row n is the id at flat position n. -/
theorem V_v1 (c : Dev nD) (n : Fin 16384) (z : Fin 1) :
    (V m c main_v1 : (⟨2, ![16384, 1]⟩ : Shape).Idx → BitVec 32) (ix2 n z) = flatId (m ((c.tc : Thread nD τ).loc main_arg0)) n := by
  have e : (V m c main_v1 : (⟨2, ![16384, 1]⟩ : Shape).Idx → BitVec 32)
      = shapeCast S16384x1 (shapeCast S16384 (m ((c.tc : Thread nD τ).loc main_arg0) : S4x4096.Idx → BitVec 32) shapeCasts_S4x4096_S16384) shapeCasts_S16384_S16384x1 := by
    show StableHlo.after hostOps0 (fun b => m (c, b)) (Proc.devRef .tc main_v1) = _
    after_results
    rfl
  rw [e]
  refine (shapeCast_apply _ shapeCasts_S16384_S16384x1 (ix2 n z) (ix1 n) ?_).trans ?_
  · rw [Shape.rowMajor_val_two, Shape.rowMajor_val_one]
    show n.val = n.val * 1 + z.val
    omega
  · refine shapeCast_apply _ shapeCasts_S4x4096_S16384 (ix1 n) _ ?_
    rw [Shape.rowMajor_val_two, Shape.rowMajor_val_one]
    show n.val / 4096 * 4096 + n.val % 4096 = n.val
    omega

/-! ## The index maps -/

/-- The matrix window's block index is (0, 0) at every point. -/
theorem ixW (i : grid0.Coords) : cc0_transform_1 i 0 = 0 ∧ cc0_transform_1 i 1 = 0 := ⟨rfl, rfl⟩
/-- The ids column's and the result's block index at coordinate i is (i, 0). -/
theorem ixRow (i : grid0.Coords) : cc0_transform_2 i 0 = (i 0).val ∧ cc0_transform_2 i 1 = 0
    ∧ cc0_transform_3 i 0 = (i 0).val ∧ cc0_transform_3 i 1 = 0 := by
  have hi : (i 0).val < 64 := (i 0).isLt
  have e : (BitVec.ofNat 32 (i 0).val).toNat = (i 0).val := by
    rw [BitVec.toNat_ofNat]; exact Nat.mod_eq_of_lt (by omega)
  exact ⟨e, rfl, e, rfl⟩
/-- Point t's coordinate is t. -/
theorem coord_val : ∀ t : Fin grid0.N, (grid0.coords t 0).val = t.val := by decide +kernel
/-- Every point writes its result block back. -/
theorem flushAll : ∀ t : Fin grid0.N, Pipeline.Window.flushOf grid0 true cc0_transform_3 t = true := by decide +kernel

/-! ## One entry of the stored block -/

/-- Entry j of the block stored at coordinate i is entry k of projRows, when k is row 256·i + j₀, column j₁, the table
    holds the flattened ids, the matrix block is the projection matrix and the ids block's row j₀ is the id at k's row. -/
theorem stored_entry (ids : IVec Cert.Spec.SIds 32) (w0 : FVec Ideal Cert.Spec.SW0 .f32) (w1 : FVec Ideal Cert.Spec.SW1 .f32)
    (i : grid0.Coords) (tb : Vec Ideal S16384 .i32) (x3 : Vec Ideal S2048x1024 .f32) (x4 : Vec Ideal S256x1 .i32)
    (j : S256x1024.Idx) (k : S16384x1024.Idx)
    (hk0 : (k 0).val = 256 * (i 0).val + (j 0).val) (hk1 : (k 1).val = (j 1).val)
    (htb : ∀ n : Fin 16384, tb (ix1 n) = flatId ids n)
    (hx3 : ∀ (a : Fin 2048) (b : Fin 1024), x3 (ix2 a b) = w1 (ix2 a b))
    (hx4 : ∀ r : Fin 256, r.val = (j 0).val → x4 (ix2 r (0 : Fin 1)) = flatId ids (k 0)) :
    outOf i tb w0 x3 x4 j = projRows ids w0 w1 k := by
  obtain ⟨r, h, rfl⟩ : ∃ (r : Fin 256) (h : Fin 1024), j = ix2 r h := ⟨j 0, j 1, eq_ix2 j⟩
  obtain ⟨n, h', rfl⟩ : ∃ (n : Fin 16384) (h' : Fin 1024), k = ix2 n h' := ⟨k 0, k 1, eq_ix2 k⟩
  obtain rfl : h = h' := Fin.ext hk1.symm
  have hn : wordIx i r = ix1 n := by
    unfold wordIx
    exact congrArg ix1 (Fin.ext hk0.symm)
  unfold outOf
  refine (PayValue.pay_apply (rowsOf i tb w0) x3 x4 r h).trans ?_
  rw [projRows_apply, hx4 r rfl]
  unfold Cert.Spec.proj
  refine congrArg₂ (· * ·) (congrArg₂ (· * ·) (Finset.sum_congr rfl fun q _ => ?_) rfl) rfl
  rw [hx3]
  show w0 (ix2 (Cert.Spec.rowOf (tb (wordIx i r))) q) * _ = _
  rw [hn, htb]

/-! ## The input blocks at an entry -/

/-- The matrix window's block at any point is the projection matrix. -/
theorem iblk0_apply (c : Dev nD) (t : Fin (cfgM m).N) (a : Fin 2048) (b : Fin 1024) :
    (iblk m c 0 t : Vec Ideal S2048x1024 .f32) (ix2 a b) = m ((c.tc : Thread nD τ).loc main_arg2) (ix2 a b) := by
  obtain ⟨e0, e1⟩ := ixW (grid0.coords t)
  show V m c main_arg2 ((((cfgM m).win 0).blk t).view.emb (ix2 a b)) = _
  rw [V_arg2]
  congr 1
  funext ax
  apply Fin.ext
  match ax with
  | ⟨0, _⟩ => show cc0_transform_1 (grid0.coords t) 0 * 2048 + 1 * a.val = a.val; rw [e0]; omega
  | ⟨1, _⟩ => show cc0_transform_1 (grid0.coords t) 1 * 1024 + 1 * b.val = b.val; rw [e1]; omega

/-- The ids window's block at point t, row r, is the id at flat position 256·t + r. -/
theorem iblk1_apply (c : Dev nD) (t : Fin (cfgM m).N) (r : Fin 256) (n : Fin 16384) (hn : n.val = 256 * (grid0.coords t 0).val + r.val) :
    (iblk m c 1 t : Vec Ideal S256x1 .i32) (ix2 r (0 : Fin 1)) = flatId (m ((c.tc : Thread nD τ).loc main_arg0)) n := by
  obtain ⟨e0, e1, -, -⟩ := ixRow (grid0.coords t)
  show V m c main_v1 ((((cfgM m).win 1).blk t).view.emb (ix2 r (0 : Fin 1))) = _
  refine Eq.trans (congrArg _ ?_) (V_v1 m c n (0 : Fin 1))
  funext ax
  apply Fin.ext
  match ax with
  | ⟨0, _⟩ => show cc0_transform_2 (grid0.coords t) 0 * 256 + 1 * r.val = n.val; rw [e0, hn]; omega
  | ⟨1, _⟩ => show cc0_transform_2 (grid0.coords t) 1 * 1 + 1 * 0 = 0; rw [e1]

/-! ## From blocks to the array -/

/-- The array of projected rows, of core c's three arguments. -/
abbrev projRowsOf (c : Dev nD) : (⟨2, ![16384, 1024]⟩ : Shape).Idx → EReal :=
  projRows (m ((c.tc : Thread nD τ).loc main_arg0)) (m ((c.tc : Thread nD τ).loc main_arg1)) (m ((c.tc : Thread nD τ).loc main_arg2))

/-- What point t writes back is block t of projRows. -/
theorem writeback_eq (c : Dev nD) (t : Fin (cfgM m).N) :
    (dats m 0 c).flushed 2 t = (((cfgM m).win 2).blk t).view.read (Elt Ideal) (projRowsOf m c) := by
  show ((cfgM m).win 2).cut (grid0.coords t) ((dats m 0 c).after 2 t) = _
  rw [after2]
  obtain ⟨-, -, e0, e1⟩ := ixRow (grid0.coords t)
  refine funext fun (j : S256x1024.Idx) => ?_
  have hj0 : (j 0).val < 256 := (j 0).isLt
  have hj1 : (j 1).val < 1024 := (j 1).isLt
  show outsAt m c t _ = projRowsOf m c ((((cfgM m).win 2).blk t).view.emb j)
  unfold outsAt
  rw [V_arg1]
  have hc : c = 0 := Subsingleton.elim _ _
  refine stored_entry _ _ _ (grid0.coords t) (tbl m 0) (iblk m c 0 t) (iblk m c 1 t) _ _ ?_ ?_ (fun n => ?_) (fun a b => iblk0_apply m c t a b) (fun r hr => iblk1_apply m c t r _ ?_)
  · show cc0_transform_3 (grid0.coords t) 0 * 256 + 1 * (j 0).val = 256 * (grid0.coords t 0).val + (j 0).val
    rw [e0]; omega
  · show cc0_transform_3 (grid0.coords t) 1 * 1024 + 1 * (j 1).val = (j 1).val
    rw [e1]; omega
  · rw [hc]; exact tbl_word m n
  · show cc0_transform_3 (grid0.coords t) 0 * 256 + 1 * (j 0).val = 256 * (grid0.coords t 0).val + r.val
    have hr' : r.val = (j 0).val := hr
    rw [e0, hr']; omega

set_option backward.isDefEq.respectTransparency.types false in
/-- An index of the array is in point t's block iff each coordinate is in the block's range on its axis. -/
theorem mem_rowBlock (t : Fin (cfgM m).N) (i : S16384x1024.Idx) :
    i ∈ (((cfgM m).win 2).blk t).view.set ↔ ∀ a : Fin 2, cc0_transform_3 (grid0.coords t) a * S256x1024.size a ≤ (i a).val
      ∧ (i a).val < cc0_transform_3 (grid0.coords t) a * S256x1024.size a + S256x1024.size a := by
  show i ∈ ((View.whole main_v2).slice (((cfgM m).win 2).rect t)).set ↔ _
  rw [View.set_slice_whole]
  exact Rect.mem_set_unit

/-- The blocks tile the array: row n lies in point n / 256's block. -/
theorem rows_covered (i : S16384x1024.Idx) :
    ∃ t : Fin (cfgM m).N, ((cfgM m).win 2).flush t = true ∧ i ∈ (((cfgM m).win 2).blk t).view.set := by
  have hi0 : (i 0).val < 16384 := (i 0).isLt
  have hi1 : (i 1).val < 1024 := (i 1).isLt
  have hN : grid0.N = 64 := N_0
  have hlt : (i 0).val / 256 < grid0.N := by rw [hN]; omega
  obtain ⟨-, -, e0, e1⟩ := ixRow (grid0.coords ⟨(i 0).val / 256, hlt⟩)
  have ht : (grid0.coords ⟨(i 0).val / 256, hlt⟩ 0).val = (i 0).val / 256 := coord_val ⟨(i 0).val / 256, hlt⟩
  refine ⟨⟨(i 0).val / 256, hlt⟩, flushAll ⟨(i 0).val / 256, hlt⟩, ?_⟩
  rw [mem_rowBlock]
  intro a
  match a with
  | ⟨0, _⟩ =>
    show cc0_transform_3 (grid0.coords ⟨(i 0).val / 256, hlt⟩) 0 * 256 ≤ (i 0).val ∧ (i 0).val < cc0_transform_3 (grid0.coords ⟨(i 0).val / 256, hlt⟩) 0 * 256 + 256
    rw [e0, ht]; omega
  | ⟨1, _⟩ =>
    show cc0_transform_3 (grid0.coords ⟨(i 0).val / 256, hlt⟩) 1 * 1024 ≤ (i 1).val ∧ (i 1).val < cc0_transform_3 (grid0.coords ⟨(i 0).val / 256, hlt⟩) 1 * 1024 + 1024
    rw [e1]; omega

/-- The region's result array after the run is projRows of the three arguments. -/
theorem resultArray_eq (c : Dev nD) : (dats m 0 c).arrAt 2 (cfgM m).N = projRowsOf m c :=
  (dats m 0 c).arrAt_eq_of_cover 2 (projRowsOf m c) (fun t _ => writeback_eq m c t) (rows_covered m)

/-! ## The arguments after the run -/

/-- What the run ends in: the region's arrays at what the write-backs leave, every other buffer at what the last
    reshape leaves. -/
abbrev Post (r : PUnit × MemSt nD τ sig (Elt Ideal)) : Prop :=
  Pipeline.FramePost (Pipeline.pin pcfgs fun _ => adm m) (dats m) 0 (Pipeline.afterTail pcfgs (fun _ => adm m) (dats m) 0 (V0 m) [hostOps1]) r

/-- The projection matrix is an input window's array: never written. -/
theorem kept_arg2 (r : PUnit × MemSt nD τ sig (Elt Ideal)) (h : Post m r) (c : Dev nD) :
    r.2.mem ((c.tc : Thread nD τ).loc main_arg2) = m ((c.tc : Thread nD τ).loc main_arg2) := by
  refine ((h c).1 0).trans (((dats m 0 c).arrAt_in 0 rfl _).trans ((A_eq m c 0).trans ?_))
  show StableHlo.after hostOps0 (fun b => m (c, b)) (Proc.devRef .tc main_arg2) = _
  after_results

/-- The ids are neither staged by the region nor written by any reshape. -/
theorem kept_arg0 (r : PUnit × MemSt nD τ sig (Elt Ideal)) (h : Post m r) (c : Dev nD) :
    r.2.mem ((c.tc : Thread nD τ).loc main_arg0) = m ((c.tc : Thread nD τ).loc main_arg0) := by
  refine ((h c).2 main_arg0 (Pipeline.mem_restRefs_of main_arg0 rfl (show ∀ w : Fin 3, (spec0 w).arr.view.ref ≠ main_arg0 from by decide))).trans ?_
  unfold Pipeline.afterTail
  show StableHlo.after hostOps1 _ (Proc.devRef .tc main_arg0) = _
  after_results
  rw [Pipeline.withArrays_of_ne _ c _ _ main_arg0 (show ∀ w : Fin 3, Pipeline.arrRef spec0 w ≠ main_arg0 from by decide)]
  show StableHlo.after hostOps0 (fun b => m (c, b)) (Proc.devRef .tc main_arg0) = _
  after_results

/-- The embedding table is handed back whole by the region, and the last reshape does not touch it. -/
theorem kept_arg1 (r : PUnit × MemSt nD τ sig (Elt Ideal)) (h : Post m r) (c : Dev nD) :
    r.2.mem ((c.tc : Thread nD τ).loc main_arg1) = m ((c.tc : Thread nD τ).loc main_arg1) := by
  refine ((h c).2 main_arg1 (Pipeline.mem_restRefs_of main_arg1 rfl (show ∀ w : Fin 3, (spec0 w).arr.view.ref ≠ main_arg1 from by decide))).trans ?_
  rw [Pipeline.afterTail_of_mem pcfgs (fun _ => adm m) (dats m) 0 (V0 m) [hostOps1] H0 H0_sub sfx_but c main_arg1 (by decide)]
  show StableHlo.after hostOps0 (fun b => m (c, b)) (Proc.devRef .tc main_arg1) = _
  after_results

/-! ## The last reshape -/

/-- projRows at row 4096·b + l is the embedding of token (b, l). -/
theorem projRows_token (ids : IVec Cert.Spec.SIds 32) (w0 : FVec Ideal Cert.Spec.SW0 .f32) (w1 : FVec Ideal Cert.Spec.SW1 .f32)
    (b : Fin 4) (l : Fin 4096) (h : Fin 1024) (n : Fin 16384) (hn : n.val = 4096 * b.val + l.val) :
    projRows ids w0 w1 (ix2 n h) = Cert.Spec.emb ids w0 w1 (ix3 b l h) := by
  have e : flatId ids n = ids (ix2 b l) := by
    unfold flatId
    have hl : l.val < 4096 := l.isLt
    refine congrArg ids (congrArg₂ ix2 (Fin.ext ?_) (Fin.ext ?_))
    · show n.val / 4096 = b.val; omega
    · show n.val % 4096 = l.val; omega
  rw [projRows_apply, Cert.Spec.emb_apply, e]

/-- The result: the last reshape reads row 4096·b + l of the region's array as token (b, l). -/
theorem result_eq (r : PUnit × MemSt nD τ sig (Elt Ideal)) (h : Post m r) (c : Dev nD) :
    r.2.mem ((c.tc : Thread nD τ).loc main_v3)
      = Cert.Spec.emb (m ((c.tc : Thread nD τ).loc main_arg0)) (m ((c.tc : Thread nD τ).loc main_arg1)) (m ((c.tc : Thread nD τ).loc main_arg2)) := by
  refine ((h c).2 main_v3 (Pipeline.mem_restRefs_of main_v3 rfl (show ∀ w : Fin 3, (spec0 w).arr.view.ref ≠ main_v3 from by decide))).trans ?_
  unfold Pipeline.afterTail
  show StableHlo.after hostOps1 _ (Proc.devRef .tc main_v3) = _
  after_results
  have e : Pipeline.withArrays (Pipeline.pin pcfgs (fun _ => adm m) 0).spec c (V0 m c)
      (fun w => (dats m 0 c).arrAt w (Pipeline.pin pcfgs (fun _ => adm m) 0).N) (Proc.devRef .tc main_v2) = projRowsOf m c :=
    (Pipeline.withArrays_arr spec0 (launch0 (F := Ideal)).win.arr_inj c _ _ 2).trans (resultArray_eq m c)
  rw [e]
  funext i
  obtain ⟨b, l, k, rfl⟩ : ∃ (b : Fin 4) (l : Fin 4096) (k : Fin 1024), i = ix3 b l k := ⟨i 0, i 1, i 2, eq_ix3 i⟩
  show shapeCast S4x4096x1024 (projRowsOf m c) shapeCasts_S16384x1024_S4x4096x1024 (ix3 b l k) = _
  have hb : b.val < 4 := b.isLt
  have hl : l.val < 4096 := l.isLt
  refine (shapeCast_apply _ shapeCasts_S16384x1024_S4x4096x1024 (ix3 b l k)
    (ix2 (⟨4096 * b.val + l.val, by omega⟩ : Fin 16384) k) ?_).trans (projRows_token _ _ _ b l k _ rfl)
  rw [Shape.rowMajor_val_three, Shape.rowMajor_val_two]
  show (4096 * b.val + l.val) * 1024 + k.val = (b.val * 4096 + l.val) * 1024 + k.val
  omega

end

/-- Every weakly fair execution of the idealized kernel program ends with its result at `Cert.Spec.emb` of the
    arguments, the arguments unchanged. -/
theorem run_emb (m : (ℓ : Loc nD τ sig) → Buf (Elt Ideal) ℓ) (ρ : Dev nD → PrngReg)
    (hlt : ∀ (c : Dev nD) i, (m ((c.tc : Thread nD τ).loc main_arg0) i).toNat < 32000) :
    θ_run (defs (F := Ideal)) (onTc (τ := τ) (main (F := Ideal))) ⟨m, fun _ => 0, ρ⟩ (fun r => ∀ c : Dev nD,
      r.2.mem ((c.tc : Thread nD τ).loc main_v3)
          = Cert.Spec.emb (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨result_eq m r h c, kept_arg0 m r h c, kept_arg1 m r h c, kept_arg2 m r h c⟩)
    (run_main m ρ (tblOk_of_lt m hlt))

end Cert.KernelIdeal.Val

end
-- ==== Proof.lean ====
/-
  The certificate's five claims, under the precondition that every float input is finite and every token id
  is in [0, 32000).

  Both programs compute, over the extended reals, the embedding `Cert.Spec.emb`: token (b, l) names a row of the
  embedding table, the row is projected by the second matrix, the padding token 0 is zeroed, the result is
  scaled by 32. The kernel gathers 256 rows per grid point by transfers of its own (the precondition keeps
  each source row inside the table), multiplies them on the matrix unit into a zero accumulator — the same sum
  over k as the reference's contraction —, and applies the mask and the scale in the reference's order, so no
  law of the extended reals beyond reading both sums at an index joins the two sides. The word-level program
  and its idealization are one text (the ideal pass rewrote nothing): one frame proof, generic in the float
  instance, serves both.
-/
import proofs.«427351_j74509092651513_1_alg».proof.Defs
import proofs.«427351_j74509092651513_1_alg».proof.Proof.Gen.Kernel
import proofs.«427351_j74509092651513_1_alg».proof.Proof.Gen.Kernel.Skeleton
import proofs.«427351_j74509092651513_1_alg».proof.Proof.Gen.Kernel.Launch
import proofs.«427351_j74509092651513_1_alg».proof.Proof.Gen.Kernel.Flash
import proofs.«427351_j74509092651513_1_alg».proof.Proof.Gen.KernelIdeal
import proofs.«427351_j74509092651513_1_alg».proof.Proof.Gen.KernelIdeal.Skeleton
import proofs.«427351_j74509092651513_1_alg».proof.Proof.Gen.KernelIdeal.Launch
import proofs.«427351_j74509092651513_1_alg».proof.Proof.Gen.KernelIdeal.Flash
import proofs.«427351_j74509092651513_1_alg».proof.Proof.Gen.ReferenceIdeal
import proofs.«427351_j74509092651513_1_alg».proof.Proof.Gen.Pre_finite_inputs
import proofs.«427351_j74509092651513_1_alg».proof.Proof.PreFacts
import proofs.«427351_j74509092651513_1_alg».proof.Proof.RefValue
import proofs.«427351_j74509092651513_1_alg».proof.Proof.K.Claim
import proofs.«427351_j74509092651513_1_alg».proof.Proof.KI.Claim
import proofs.«427351_j74509092651513_1_alg».proof.Proof.KI.Value
import Idealize.ShloMosaic.Adequacy
import Idealize.ShloMosaic.Init

noncomputable section

namespace Cert.Proof

open Idealize.ShloMosaic Idealize.ShloMosaic.TcCoe Idealize.SL.Sem

/-- The word-level program runs and keeps its arguments: the ids are in range, so every transfer's source row is
    inside the embedding table. -/
theorem frame_k : Cert.frame_Kernel := fun m ρ h =>
  Cert.Kernel.Fr.frame m ρ fun c i => Cert.PreFacts.ids_lt _ _ _ (h c) i

theorem frame_ki : Cert.frame_KernelIdeal := fun m ρ h =>
  Cert.KernelIdeal.Fr.frame m ρ fun c i => Cert.PreFacts.ids_lt _ _ _ (h c) i

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at `Cert.Spec.emb` of arguments that agree. -/
theorem algebraic : Cert.algebraic_KernelIdeal_ReferenceIdeal := by
  intro m ρ m' ρ' hpre hagree
  have hlt : ∀ (c : Dev Cert.KernelIdeal.nD) i, (m ((c.tc : Thread Cert.KernelIdeal.nD Cert.KernelIdeal.τ).loc Cert.KernelIdeal.main_arg0) i).toNat < 32000 :=
    fun c i => Cert.PreFacts.ids_lt _ _ _ (hpre c) i
  have hlt' : ∀ (c : Dev Cert.ReferenceIdeal.nD) i, (m' ((c.tc : Thread Cert.ReferenceIdeal.nD Cert.ReferenceIdeal.τ).loc Cert.ReferenceIdeal.main_arg0) i).toNat < 32000 :=
    fun c i => by rw [(hagree c).1]; exact hlt c i
  refine ⟨_, Cert.KernelIdeal.Val.run_emb m ρ hlt, ?_⟩
  refine (θ_run Cert.ReferenceIdeal.defs _ _).mono (fun _ h c => ⟨(h c).1.trans ?_, (h c).2⟩) (Cert.ReferenceIdeal.RefValue.run_emb m' ρ' hlt')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
